-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x133 : Shape := ⟨2, ![100000, 133]⟩
abbrev S200000x147 : Shape := ⟨2, ![200000, 147]⟩
abbrev S133x256 : Shape := ⟨2, ![133, 256]⟩
abbrev S147x256 : Shape := ⟨2, ![147, 256]⟩
abbrev S3x256x256 : Shape := ⟨3, ![3, 256, 256]⟩
abbrev S256x256 : Shape := ⟨2, ![256, 256]⟩
abbrev S256 : Shape := ⟨1, ![256]⟩
abbrev S768x256 : Shape := ⟨2, ![768, 256]⟩
abbrev S100000x6 : Shape := ⟨2, ![100000, 6]⟩
abbrev S200000 : Shape := ⟨1, ![200000]⟩
abbrev S5000 : Shape := ⟨1, ![5000]⟩
abbrev S_ : Shape := ⟨0, ![]⟩

class Facts : Prop where
  bcast_S_S100000x133 : S_.BroadcastsInDim S100000x133 (![] : Fin 0 → Fin S100000x133.rank)
  reducesTo_S100000x133_S_d0_1 : S100000x133.ReducesTo [0, 1] S_
  h_S_ : 0 < S_.numel
  bcast_S_S200000x147 : S_.BroadcastsInDim S200000x147 (![] : Fin 0 → Fin S200000x147.rank)
  reducesTo_S200000x147_S_d0_1 : S200000x147.ReducesTo [0, 1] S_
  bcast_S_S133x256 : S_.BroadcastsInDim S133x256 (![] : Fin 0 → Fin S133x256.rank)
  reducesTo_S133x256_S_d0_1 : S133x256.ReducesTo [0, 1] S_
  bcast_S_S147x256 : S_.BroadcastsInDim S147x256 (![] : Fin 0 → Fin S147x256.rank)
  reducesTo_S147x256_S_d0_1 : S147x256.ReducesTo [0, 1] S_
  bcast_S_S3x256x256 : S_.BroadcastsInDim S3x256x256 (![] : Fin 0 → Fin S3x256x256.rank)
  reducesTo_S3x256x256_S_d0_1_2 : S3x256x256.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S768x256 : S_.BroadcastsInDim S768x256 (![] : Fin 0 → Fin S768x256.rank)
  reducesTo_S768x256_S_d0_1 : S768x256.ReducesTo [0, 1] S_
  bcast_S_S100000x6 : S_.BroadcastsInDim S100000x6 (![] : Fin 0 → Fin S100000x6.rank)
  reducesTo_S100000x6_S_d0_1 : S100000x6.ReducesTo [0, 1] S_
  bcast_S_S200000 : S_.BroadcastsInDim S200000 (![] : Fin 0 → Fin S200000.rank)
  reducesTo_S200000_S_d0 : S200000.ReducesTo [0] S_

variable [Facts]

def fn_part3 {F : FTy → Type} [FloatOps F] (main_arg10 : IVec S200000 32) (main_v45 : IVec S_ 1) (main_v50 : IVec S200000 1) : IVec S_ 1 :=
  let main_c_19 : IVec S_ 1 := constantI S_ 1 1#1
  let main_v51 : IVec S_ 1 := (fun x v => Host.reduce IntOp.andi x v reducesTo_S200000_S_d0 h_S_) main_v50 main_c_19
  let main_v52 : IVec S_ 1 := andi main_v45 main_v51
  let main_c_20 : IVec S_ 32 := constantI S_ 32 0#32
  let main_v53 : IVec S200000 32 := broadcastInDim S200000 ![] bcast_S_S200000 main_c_20
  let main_v54 : IVec S200000 1 := cmpi .sge main_arg10 main_v53
  let main_c_21 : IVec S_ 32 := constantI S_ 32 200000#32
  let main_v55 : IVec S200000 32 := broadcastInDim S200000 ![] bcast_S_S200000 main_c_21
  let main_v56 : IVec S200000 1 := cmpi .slt main_arg10 main_v55
  let main_v57 : IVec S200000 1 := andi main_v54 main_v56
  let main_c_22 : IVec S_ 1 := constantI S_ 1 1#1
  let main_v58 : IVec S_ 1 := (fun x v => Host.reduce IntOp.andi x v reducesTo_S200000_S_d0 h_S_) main_v57 main_c_22
  let main_v59 : IVec S_ 1 := andi main_v52 main_v58
  main_v59

def fn_part2 {F : FTy → Type} [FloatOps F] (main_arg7 : FVec F S768x256 .f32) (main_arg8 : IVec S100000x6 32) (main_arg9 : IVec S200000 32) (main_arg10 : IVec S200000 32) (main_v33 : IVec S_ 1) : IVec S_ 1 :=
  let main_v34 : FVec F S768x256 .f32 := Host.absf main_arg7
  let main_cst_12 : FVec F S_ .f32 := constant S_ .f32 0x7F800000#32
  let main_v35 : FVec F S768x256 .f32 := broadcastInDim S768x256 ![] bcast_S_S768x256 main_cst_12
  let main_v36 : IVec S768x256 1 := cmpf .olt main_v34 main_v35
  let main_c_13 : IVec S_ 1 := constantI S_ 1 1#1
  let main_v37 : IVec S_ 1 := (fun x v => Host.reduce IntOp.andi x v reducesTo_S768x256_S_d0_1 h_S_) main_v36 main_c_13
  let main_v38 : IVec S_ 1 := andi main_v33 main_v37
  let main_c_14 : IVec S_ 32 := constantI S_ 32 0#32
  let main_v39 : IVec S100000x6 32 := broadcastInDim S100000x6 ![] bcast_S_S100000x6 main_c_14
  let main_v40 : IVec S100000x6 1 := cmpi .sge main_arg8 main_v39
  let main_c_15 : IVec S_ 32 := constantI S_ 32 200000#32
  let main_v41 : IVec S100000x6 32 := broadcastInDim S100000x6 ![] bcast_S_S100000x6 main_c_15
  let main_v42 : IVec S100000x6 1 := cmpi .slt main_arg8 main_v41
  let main_v43 : IVec S100000x6 1 := andi main_v40 main_v42
  let main_c_16 : IVec S_ 1 := constantI S_ 1 1#1
  let main_v44 : IVec S_ 1 := (fun x v => Host.reduce IntOp.andi x v reducesTo_S100000x6_S_d0_1 h_S_) main_v43 main_c_16
  let main_v45 : IVec S_ 1 := andi main_v38 main_v44
  let main_c_17 : IVec S_ 32 := constantI S_ 32 0#32
  let main_v46 : IVec S200000 32 := broadcastInDim S200000 ![] bcast_S_S200000 main_c_17
  let main_v47 : IVec S200000 1 := cmpi .sge main_arg9 main_v46
  let main_c_18 : IVec S_ 32 := constantI S_ 32 100000#32
  let main_v48 : IVec S200000 32 := broadcastInDim S200000 ![] bcast_S_S200000 main_c_18
  let main_v49 : IVec S200000 1 := cmpi .slt main_arg9 main_v48
  let main_v50 : IVec S200000 1 := andi main_v47 main_v49
  fn_part3 (F := F) main_arg10 main_v45 main_v50

def fn_part1 {F : FTy → Type} [FloatOps F] (main_arg4 : FVec F S3x256x256 .f32) (main_arg5 : FVec F S256x256 .f32) (main_arg6 : FVec F S256 .f32) (main_arg7 : FVec F S768x256 .f32) (main_arg8 : IVec S100000x6 32) (main_arg9 : IVec S200000 32) (main_arg10 : IVec S200000 32) (main_v13 : IVec S_ 1) (main_v16 : IVec S147x256 1) : IVec S_ 1 :=
  let main_c_5 : IVec S_ 1 := constantI S_ 1 1#1
  let main_v17 : IVec S_ 1 := (fun x v => Host.reduce IntOp.andi x v reducesTo_S147x256_S_d0_1 h_S_) main_v16 main_c_5
  let main_v18 : IVec S_ 1 := andi main_v13 main_v17
  let main_v19 : FVec F S3x256x256 .f32 := Host.absf main_arg4
  let main_cst_6 : FVec F S_ .f32 := constant S_ .f32 0x7F800000#32
  let main_v20 : FVec F S3x256x256 .f32 := broadcastInDim S3x256x256 ![] bcast_S_S3x256x256 main_cst_6
  let main_v21 : IVec S3x256x256 1 := cmpf .olt main_v19 main_v20
  let main_c_7 : IVec S_ 1 := constantI S_ 1 1#1
  let main_v22 : IVec S_ 1 := (fun x v => Host.reduce IntOp.andi x v reducesTo_S3x256x256_S_d0_1_2 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S100000x133 .f32) (main_arg1 : FVec F S200000x147 .f32) (main_arg2 : FVec F S133x256 .f32) (main_arg3 : FVec F S147x256 .f32) (main_arg4 : FVec F S3x256x256 .f32) (main_arg5 : FVec F S256x256 .f32) (main_arg6 : FVec F S256 .f32) (main_arg7 : FVec F S768x256 .f32) (main_arg8 : IVec S100000x6 32) (main_arg9 : IVec S200000 32) (main_arg10 : IVec S200000 32) (main_arg11 : IVec S5000 32) : IVec S_ 1 :=
  let main_v0 : FVec F S100000x133 .f32 := Host.absf main_arg0
  let main_cst : FVec F S_ .f32 := constant S_ .f32 0x7F800000#32
  let main_v1 : FVec F S100000x133 .f32 := broadcastInDim S100000x133 ![] bcast_S_S100000x133 main_cst
  let main_v2 : IVec S100000x133 1 := cmpf .olt main_v0 main_v1
  let main_c : IVec S_ 1 := constantI S_ 1 1#1
  let main_v3 : IVec S_ 1 := (fun x v => Host.reduce IntOp.andi x v reducesTo_S100000x133_S_d0_1 h_S_) main_v2 main_c
  let main_v4 : FVec F S200000x147 .f32 := Host.absf main_arg1
  let main_cst_0 : FVec F S_ .f32 := constant S_ .f32 0x7F800000#32
  let main_v5 : FVec F S200000x147 .f32 := broadcastInDim S200000x147 ![] bcast_S_S200000x147 main_cst_0
  let main_v6 : IVec S200000x147 1 := cmpf .olt main_v4 main_v5
  let main_c_1 : IVec S_ 1 := constantI S_ 1 1#1
  let main_v7 : IVec S_ 1 := (fun x v => Host.reduce IntOp.andi x v reducesTo_S200000x147_S_d0_1 h_S_) main_v6 main_c_1
  let main_v8 : IVec S_ 1 := andi main_v3 main_v7
  let main_v9 : FVec F S133x256 .f32 := Host.absf main_arg2
  let main_cst_2 : FVec F S_ .f32 := constant S_ .f32 0x7F800000#32
  let main_v10 : FVec F S133x256 .f32 := broadcastInDim S133x256 ![] bcast_S_S133x256 main_cst_2
  let main_v11 : IVec S133x256 1 := cmpf .olt main_v9 main_v10
  let main_c_3 : IVec S_ 1 := constantI S_ 1 1#1
  let main_v12 : IVec S_ 1 := (fun x v => Host.reduce IntOp.andi x v reducesTo_S133x256_S_d0_1 h_S_) main_v11 main_c_3
  let main_v13 : IVec S_ 1 := andi main_v8 main_v12
  let main_v14 : FVec F S147x256 .f32 := Host.absf main_arg3
  let main_cst_4 : FVec F S_ .f32 := constant S_ .f32 0x7F800000#32
  let main_v15 : FVec F S147x256 .f32 := broadcastInDim S147x256 ![] bcast_S_S147x256 main_cst_4
  let main_v16 : IVec S147x256 1 := cmpf .olt main_v14 main_v15
  fn_part1 (F := F) main_arg4 main_arg5 main_arg6 main_arg7 main_arg8 main_arg9 main_arg10 main_v13 main_v16
-- ==== Kernel.lean ====
abbrev S100000x133 : Shape := ⟨2, ![100000, 133]⟩
abbrev S200000x147 : Shape := ⟨2, ![200000, 147]⟩
abbrev S133x256 : Shape := ⟨2, ![133, 256]⟩
abbrev S147x256 : Shape := ⟨2, ![147, 256]⟩
abbrev S3x256x256 : Shape := ⟨3, ![3, 256, 256]⟩
abbrev S256x256 : Shape := ⟨2, ![256, 256]⟩
abbrev S256 : Shape := ⟨1, ![256]⟩
abbrev S768x256 : Shape := ⟨2, ![768, 256]⟩
abbrev S100000x6 : Shape := ⟨2, ![100000, 6]⟩
abbrev S200000 : Shape := ⟨1, ![200000]⟩
abbrev S5000 : Shape := ⟨1, ![5000]⟩
abbrev S100000x256 : Shape := ⟨2, ![100000, 256]⟩
abbrev S5000x133 : Shape := ⟨2, ![5000, 133]⟩
abbrev S5000x256 : Shape := ⟨2, ![5000, 256]⟩
abbrev S200000x256 : Shape := ⟨2, ![200000, 256]⟩
abbrev S5000x147 : Shape := ⟨2, ![5000, 147]⟩
abbrev S_ : Shape := ⟨0, ![]⟩
abbrev S100000x6x1 : Shape := ⟨3, ![100000, 6, 1]⟩
abbrev S1 : Shape := ⟨1, ![1]⟩
abbrev S1x1x1 : Shape := ⟨3, ![1, 1, 1]⟩
abbrev S100000x6x256 : Shape := ⟨3, ![100000, 6, 256]⟩
abbrev S2000x6x256 : Shape := ⟨3, ![2000, 6, 256]⟩
abbrev S2000x256 : Shape := ⟨2, ![2000, 256]⟩
abbrev S200000x1 : Shape := ⟨2, ![200000, 1]⟩
abbrev S1x1 : Shape := ⟨2, ![1, 1]⟩
abbrev S1x256x256 : Shape := ⟨3, ![1, 256, 256]⟩
abbrev S1x256 : Shape := ⟨2, ![1, 256]⟩
abbrev S4999 : Shape := ⟨1, ![4999]⟩
abbrev S100000 : Shape := ⟨1, ![100000]⟩
abbrev S5000x1 : Shape := ⟨2, ![5000, 1]⟩
abbrev S100000x1 : Shape := ⟨2, ![100000, 1]⟩

abbrev nBuf : Space → Nat
  | .hbm => 322
  | .vmem => 72
  | .smem => 0
  | _ => 0

abbrev hbmTy0_0 (i : Nat) : BufTy := match i % 128 with
  | 0 => ⟨S100000x133, .f32⟩
  | 1 => ⟨S200000x147, .f32⟩
  | 2 => ⟨S133x256, .f32⟩
  | 3 => ⟨S147x256, .f32⟩
  | 4 => ⟨S3x256x256, .f32⟩
  | 5 => ⟨S256x256, .f32⟩
  | 6 => ⟨S256, .f32⟩
  | 7 => ⟨S768x256, .f32⟩
  | 8 => ⟨S100000x6, .i32⟩
  | 9 => ⟨S200000, .i32⟩
  | 10 => ⟨S200000, .i32⟩
  | 11 => ⟨S5000, .i32⟩
  | 12 => ⟨S100000x256, .f32⟩
  | 13 => ⟨S200000x256, .f32⟩
  | 14 => ⟨S256x256, .f32⟩
  | 15 => ⟨S256x256, .f32⟩
  | 16 => ⟨S256x256, .f32⟩
  | 17 => ⟨S_, .i32⟩
  | 18 => ⟨S100000x6, .i32⟩
  | 19 => ⟨S100000x6, .i1⟩
  | 20 => ⟨S_, .i32⟩
  | 21 => ⟨S100000x6, .i32⟩
  | 22 => ⟨S100000x6, .i32⟩
  | 23 => ⟨S100000x6, .i32⟩
  | 24 => ⟨S100000x6x1, .i32⟩
  | 25 => ⟨S1, .i32⟩
  | 26 => ⟨S_, .i32⟩
  | 27 => ⟨S100000x6x1, .i32⟩
  | 28 => ⟨S100000x6x1, .i1⟩
  | 29 => ⟨S1x1x1, .i32⟩
  | 30 => ⟨S100000x6x1, .i32⟩
  | 31 => ⟨S100000x6x1, .i1⟩
  | 32 => ⟨S100000x6x1, .i1⟩
  | 33 => ⟨S_, .i1⟩
  | 34 => ⟨S100000x6, .i1⟩
  | 35 => ⟨S100000x6x256, .f32⟩
  | 36 => ⟨S100000x6x256, .i1⟩
  | 37 => ⟨S_, .f32⟩
  | 38 => ⟨S100000x6x256, .f32⟩
  | 39 => ⟨S100000x6x256, .f32⟩
  | 40 => ⟨S100000x256, .f32⟩
  | 41 => ⟨S_, .i32⟩
  | 42 => ⟨S200000, .i32⟩
  | 43 => ⟨S200000, .i1⟩
  | 44 => ⟨S_, .i32⟩
  | 45 => ⟨S200000, .i32⟩
  | 46 => ⟨S200000, .i32⟩
  | 47 => ⟨S200000, .i32⟩
  | 48 => ⟨S200000x1, .i32⟩
  | 49 => ⟨S1, .i32⟩
  | 50 => ⟨S_, .i32⟩
  | 51 => ⟨S200000x1, .i32⟩
  | 52 => ⟨S200000x1, .i1⟩
  | 53 => ⟨S1x1, .i32⟩
  | 54 => ⟨S200000x1, .i32⟩
  | 55 => ⟨S200000x1, .i1⟩
  | 56 => ⟨S200000x1, .i1⟩
  | 57 => ⟨S_, .i1⟩
  | 58 => ⟨S200000, .i1⟩
  | 59 => ⟨S200000x256, .f32⟩
  | 60 => ⟨S200000x256, .i1⟩
  | 61 => ⟨S_, .f32⟩
  | 62 => ⟨S200000x256, .f32⟩
  | 63 => ⟨S200000x256, .f32⟩
  | 64 => ⟨S_, .i32⟩
  | 65 => ⟨S200000, .i32⟩
  | 66 => ⟨S200000, .i1⟩
  | 67 => ⟨S_, .i32⟩
  | 68 => ⟨S200000, .i32⟩
  | 69 => ⟨S200000, .i32⟩
  | 70 => ⟨S200000, .i32⟩
  | 71 => ⟨S200000x1, .i32⟩
  | 72 => ⟨S1, .i32⟩
  | 73 => ⟨S_, .i32⟩
  | 74 => ⟨S200000x1, .i32⟩
  | 75 => ⟨S200000x1, .i1⟩
  | 76 => ⟨S1x1, .i32⟩
  | 77 => ⟨S200000x1, .i32⟩
  | 78 => ⟨S200000x1, .i1⟩
  | 79 => ⟨S200000x1, .i1⟩
  | 80 => ⟨S_, .i1⟩
  | 81 => ⟨S200000, .i1⟩
  | 82 => ⟨S200000x256, .f32⟩
  | 83 => ⟨S200000x256, .i1⟩
  | 84 => ⟨S_, .f32⟩
  | 85 => ⟨S200000x256, .f32⟩
  | 86 => ⟨S200000x256, .f32⟩
  | 87 => ⟨S1x256x256, .f32⟩
  | 88 => ⟨S256x256, .f32⟩
  | 89 => ⟨S200000x256, .f32⟩
  | 90 => ⟨S_, .i32⟩
  | 91 => ⟨S100000x6, .i32⟩
  | 92 => ⟨S100000x6, .i1⟩
  | 93 => ⟨S_, .i32⟩
  | 94 => ⟨S100000x6, .i32⟩
  | 95 => ⟨S100000x6, .i32⟩
  | 96 => ⟨S100000x6, .i32⟩
  | 97 => ⟨S100000x6x1, .i32⟩
  | 98 => ⟨S1, .i32⟩
  | 99 => ⟨S_, .i32⟩
  | 100 => ⟨S100000x6x1, .i32⟩
  | 101 => ⟨S100000x6x1, .i1⟩
  | 102 => ⟨S1x1x1, .i32⟩
  | 103 => ⟨S100000x6x1, .i32⟩
  | 104 => ⟨S100000x6x1, .i1⟩
  | 105 => ⟨S100000x6x1, .i1⟩
  | 106 => ⟨S_, .i1⟩
  | 107 => ⟨S100000x6, .i1⟩
  | 108 => ⟨S100000x6x256, .f32⟩
  | 109 => ⟨S100000x6x256, .i1⟩
  | 110 => ⟨S_, .f32⟩
  | 111 => ⟨S100000x6x256, .f32⟩
  | 112 => ⟨S100000x6x256, .f32⟩
  | 113 => ⟨S100000x256, .f32⟩
  | 114 => ⟨S_, .i32⟩
  | 115 => ⟨S200000, .i32⟩
  | 116 => ⟨S200000, .i1⟩
  | 117 => ⟨S_, .i32⟩
  | 118 => ⟨S200000, .i32⟩
  | 119 => ⟨S200000, .i32⟩
  | 120 => ⟨S200000, .i32⟩
  | 121 => ⟨S200000x1, .i32⟩
  | 122 => ⟨S1, .i32⟩
  | 123 => ⟨S_, .i32⟩
  | 124 => ⟨S200000x1, .i32⟩
  | 125 => ⟨S200000x1, .i1⟩
  | 126 => ⟨S1x1, .i32⟩
  | 127 => ⟨S200000x1, .i32⟩
  | _ => ⟨S100000x133, .f32⟩

abbrev hbmTy0_1 (i : Nat) : BufTy := match i % 128 with
  | 0 => ⟨S200000x1, .i1⟩
  | 1 => ⟨S200000x1, .i1⟩
  | 2 => ⟨S_, .i1⟩
  | 3 => ⟨S200000, .i1⟩
  | 4 => ⟨S200000x256, .f32⟩
  | 5 => ⟨S200000x256, .i1⟩
  | 6 => ⟨S_, .f32⟩
  | 7 => ⟨S200000x256, .f32⟩
  | 8 => ⟨S200000x256, .f32⟩
  | 9 => ⟨S_, .i32⟩
  | 10 => ⟨S200000, .i32⟩
  | 11 => ⟨S200000, .i1⟩
  | 12 => ⟨S_, .i32⟩
  | 13 => ⟨S200000, .i32⟩
  | 14 => ⟨S200000, .i32⟩
  | 15 => ⟨S200000, .i32⟩
  | 16 => ⟨S200000x1, .i32⟩
  | 17 => ⟨S1, .i32⟩
  | 18 => ⟨S_, .i32⟩
  | 19 => ⟨S200000x1, .i32⟩
  | 20 => ⟨S200000x1, .i1⟩
  | 21 => ⟨S1x1, .i32⟩
  | 22 => ⟨S200000x1, .i32⟩
  | 23 => ⟨S200000x1, .i1⟩
  | 24 => ⟨S200000x1, .i1⟩
  | 25 => ⟨S_, .i1⟩
  | 26 => ⟨S200000, .i1⟩
  | 27 => ⟨S200000x256, .f32⟩
  | 28 => ⟨S200000x256, .i1⟩
  | 29 => ⟨S_, .f32⟩
  | 30 => ⟨S200000x256, .f32⟩
  | 31 => ⟨S200000x256, .f32⟩
  | 32 => ⟨S1x256x256, .f32⟩
  | 33 => ⟨S256x256, .f32⟩
  | 34 => ⟨S200000x256, .f32⟩
  | 35 => ⟨S_, .i32⟩
  | 36 => ⟨S100000x6, .i32⟩
  | 37 => ⟨S100000x6, .i1⟩
  | 38 => ⟨S_, .i32⟩
  | 39 => ⟨S100000x6, .i32⟩
  | 40 => ⟨S100000x6, .i32⟩
  | 41 => ⟨S100000x6, .i32⟩
  | 42 => ⟨S100000x6x1, .i32⟩
  | 43 => ⟨S1, .i32⟩
  | 44 => ⟨S_, .i32⟩
  | 45 => ⟨S100000x6x1, .i32⟩
  | 46 => ⟨S100000x6x1, .i1⟩
  | 47 => ⟨S1x1x1, .i32⟩
  | 48 => ⟨S100000x6x1, .i32⟩
  | 49 => ⟨S100000x6x1, .i1⟩
  | 50 => ⟨S100000x6x1, .i1⟩
  | 51 => ⟨S_, .i1⟩
  | 52 => ⟨S100000x6, .i1⟩
  | 53 => ⟨S100000x6x256, .f32⟩
  | 54 => ⟨S100000x6x256, .i1⟩
  | 55 => ⟨S_, .f32⟩
  | 56 => ⟨S100000x6x256, .f32⟩
  | 57 => ⟨S100000x6x256, .f32⟩
  | 58 => ⟨S100000x256, .f32⟩
  | 59 => ⟨S_, .i32⟩
  | 60 => ⟨S200000, .i32⟩
  | 61 => ⟨S200000, .i1⟩
  | 62 => ⟨S_, .i32⟩
  | 63 => ⟨S200000, .i32⟩
  | 64 => ⟨S200000, .i32⟩
  | 65 => ⟨S200000, .i32⟩
  | 66 => ⟨S200000x1, .i32⟩
  | 67 => ⟨S1, .i32⟩
  | 68 => ⟨S_, .i32⟩
  | 69 => ⟨S200000x1, .i32⟩
  | 70 => ⟨S200000x1, .i1⟩
  | 71 => ⟨S1x1, .i32⟩
  | 72 => ⟨S200000x1, .i32⟩
  | 73 => ⟨S200000x1, .i1⟩
  | 74 => ⟨S200000x1, .i1⟩
  | 75 => ⟨S_, .i1⟩
  | 76 => ⟨S200000, .i1⟩
  | 77 => ⟨S200000x256, .f32⟩
  | 78 => ⟨S200000x256, .i1⟩
  | 79 => ⟨S_, .f32⟩
  | 80 => ⟨S200000x256, .f32⟩
  | 81 => ⟨S200000x256, .f32⟩
  | 82 => ⟨S_, .i32⟩
  | 83 => ⟨S200000, .i32⟩
  | 84 => ⟨S200000, .i1⟩
  | 85 => ⟨S_, .i32⟩
  | 86 => ⟨S200000, .i32⟩
  | 87 => ⟨S200000, .i32⟩
  | 88 => ⟨S200000, .i32⟩
  | 89 => ⟨S200000x1, .i32⟩
  | 90 => ⟨S1, .i32⟩
  | 91 => ⟨S_, .i32⟩
  | 92 => ⟨S200000x1, .i32⟩
  | 93 => ⟨S200000x1, .i1⟩
  | 94 => ⟨S1x1, .i32⟩
  | 95 => ⟨S200000x1, .i32⟩
  | 96 => ⟨S200000x1, .i1⟩
  | 97 => ⟨S200000x1, .i1⟩
  | 98 => ⟨S_, .i1⟩
  | 99 => ⟨S200000, .i1⟩
  | 100 => ⟨S200000x256, .f32⟩
  | 101 => ⟨S200000x256, .i1⟩
  | 102 => ⟨S_, .f32⟩
  | 103 => ⟨S200000x256, .f32⟩
  | 104 => ⟨S200000x256, .f32⟩
  | 105 => ⟨S1x256x256, .f32⟩
  | 106 => ⟨S256x256, .f32⟩
  | 107 => ⟨S200000x256, .f32⟩
  | 108 => ⟨S_, .i32⟩
  | 109 => ⟨S100000x6, .i32⟩
  | 110 => ⟨S100000x6, .i1⟩
  | 111 => ⟨S_, .i32⟩
  | 112 => ⟨S100000x6, .i32⟩
  | 113 => ⟨S100000x6, .i32⟩
  | 114 => ⟨S100000x6, .i32⟩
  | 115 => ⟨S100000x6x1, .i32⟩
  | 116 => ⟨S1, .i32⟩
  | 117 => ⟨S_, .i32⟩
  | 118 => ⟨S100000x6x1, .i32⟩
  | 119 => ⟨S100000x6x1, .i1⟩
  | 120 => ⟨S1x1x1, .i32⟩
  | 121 => ⟨S100000x6x1, .i32⟩
  | 122 => ⟨S100000x6x1, .i1⟩
  | 123 => ⟨S100000x6x1, .i1⟩
  | 124 => ⟨S_, .i1⟩
  | 125 => ⟨S100000x6, .i1⟩
  | 126 => ⟨S100000x6x256, .f32⟩
  | 127 => ⟨S100000x6x256, .i1⟩
  | _ => ⟨S100000x133, .f32⟩

abbrev hbmTy0_2 (i : Nat) : BufTy := match i % 128 with
  | 0 => ⟨S_, .f32⟩
  | 1 => ⟨S100000x6x256, .f32⟩
  | 2 => ⟨S100000x6x256, .f32⟩
  | 3 => ⟨S100000x256, .f32⟩
  | 4 => ⟨S1x256, .f32⟩
  | 5 => ⟨S100000x256, .f32⟩
  | 6 => ⟨S5000, .i32⟩
  | 7 => ⟨S1, .i32⟩
  | 8 => ⟨S4999, .i32⟩
  | 9 => ⟨S5000, .i32⟩
  | 10 => ⟨S_, .i32⟩
  | 11 => ⟨S1, .i32⟩
  | 12 => ⟨S_, .i32⟩
  | 13 => ⟨S5000, .i32⟩
  | 14 => ⟨S_, .i32⟩
  | 15 => ⟨S_, .i32⟩
  | 16 => ⟨S5000, .i32⟩
  | 17 => ⟨S_, .i32⟩
  | 18 => ⟨S100000, .i32⟩
  | 19 => ⟨S_, .i32⟩
  | 20 => ⟨S5000, .i32⟩
  | 21 => ⟨S5000, .i1⟩
  | 22 => ⟨S_, .i32⟩
  | 23 => ⟨S5000, .i32⟩
  | 24 => ⟨S5000, .i32⟩
  | 25 => ⟨S5000, .i32⟩
  | 26 => ⟨S5000x1, .i32⟩
  | 27 => ⟨S_, .i32⟩
  | 28 => ⟨S5000, .i32⟩
  | 29 => ⟨S100000, .i32⟩
  | 30 => ⟨S_, .i32⟩
  | 31 => ⟨S_, .i32⟩
  | 32 => ⟨S100000, .i32⟩
  | 33 => ⟨S_, .i32⟩
  | 34 => ⟨S100000, .i32⟩
  | 35 => ⟨S100000, .i32⟩
  | 36 => ⟨S_, .i32⟩
  | 37 => ⟨S100000, .i32⟩
  | 38 => ⟨S100000, .i1⟩
  | 39 => ⟨S_, .i32⟩
  | 40 => ⟨S100000, .i32⟩
  | 41 => ⟨S100000, .i32⟩
  | 42 => ⟨S100000, .i32⟩
  | 43 => ⟨S100000x1, .i32⟩
  | 44 => ⟨S1, .i32⟩
  | 45 => ⟨S_, .i32⟩
  | 46 => ⟨S100000x1, .i32⟩
  | 47 => ⟨S100000x1, .i1⟩
  | 48 => ⟨S1x1, .i32⟩
  | 49 => ⟨S100000x1, .i32⟩
  | 50 => ⟨S100000x1, .i1⟩
  | 51 => ⟨S100000x1, .i1⟩
  | 52 => ⟨S_, .i1⟩
  | 53 => ⟨S100000, .i1⟩
  | 54 => ⟨S100000, .i32⟩
  | 55 => ⟨S_, .i32⟩
  | 56 => ⟨S100000, .i32⟩
  | 57 => ⟨S100000, .i32⟩
  | 58 => ⟨S_, .f32⟩
  | 59 => ⟨S5000x256, .f32⟩
  | 60 => ⟨S100000x1, .i32⟩
  | 61 => ⟨S5000x256, .f32⟩
  | 62 => ⟨S5000x1, .i32⟩
  | 63 => ⟨S5000x1, .f32⟩
  | 64 => ⟨S5000x256, .f32⟩
  | 65 => ⟨S5000x256, .f32⟩
  | _ => ⟨S100000x133, .f32⟩

abbrev hbmTy (i : Nat) : BufTy := match i / 128 with
  | 0 => hbmTy0_0 i
  | 1 => hbmTy0_1 i
  | 2 => hbmTy0_2 i
  | _ => ⟨S100000x133, .f32⟩

abbrev bufTy : (tb : Table) → Fin (tcTables nBuf tb) → BufTy
  | .hbm, ⟨i, _⟩ => hbmTy i
  | .local _ .vmem, ⟨0, _⟩ => ⟨S5000x133, .f32⟩
  | .local _ .vmem, ⟨1, _⟩ => ⟨S5000x133, .f32⟩
  | .local _ .vmem, ⟨2, _⟩ => ⟨S133x256, .f32⟩
  | .local _ .vmem, ⟨3, _⟩ => ⟨S5000x256, .f32⟩
  | .local _ .vmem, ⟨4, _⟩ => ⟨S5000x256, .f32⟩
  | .local _ .vmem, ⟨5, _⟩ => ⟨S5000x147, .f32⟩
  | .local _ .vmem, ⟨6, _⟩ => ⟨S5000x147, .f32⟩
  | .local _ .vmem, ⟨7, _⟩ => ⟨S147x256, .f32⟩
  | .local _ .vmem, ⟨8, _⟩ => ⟨S5000x256, .f32⟩
  | .local _ .vmem, ⟨9, _⟩ => ⟨S5000x256, .f32⟩
  | .local _ .vmem, ⟨10, _⟩ => ⟨S2000x6x256, .f32⟩
  | .local _ .vmem, ⟨11, _⟩ => ⟨S2000x6x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x256, .f32⟩
  | .local _ .vmem, ⟨23, _⟩ => ⟨S2000x256, .f32⟩
  | .local _ .vmem, ⟨24, _⟩ => ⟨S2000x256, .f32⟩
  | .local _ .vmem, ⟨25, _⟩ => ⟨S2000x6x256, .f32⟩
  | .local _ .vmem, ⟨26, _⟩ => ⟨S2000x6x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S256x256, .f32⟩
  | .local _ .vmem, ⟨38, _⟩ => ⟨S2000x256, .f32⟩
  | .local _ .vmem, ⟨39, _⟩ => ⟨S2000x256, .f32⟩
  | .local _ .vmem, ⟨40, _⟩ => ⟨S2000x6x256, .f32⟩
  | .local _ .vmem, ⟨41, _⟩ => ⟨S2000x6x256, .f32⟩
  | .local _ .vmem, ⟨42, _⟩ => ⟨S2000x256, .f32⟩
  | .local _ .vmem, ⟨43, _⟩ => ⟨S2000x256, .f32⟩
  | .local _ .vmem, ⟨44, _⟩ => ⟨S2000x256, .f32⟩
  | .local _ .vmem, ⟨45, _⟩ => ⟨S2000x256, .f32⟩
  | .local _ .vmem, ⟨46, _⟩ => ⟨S2000x256, .f32⟩
  | .local _ .vmem, ⟨47, _⟩ => ⟨S2000x256, .f32⟩
  | .local _ .vmem, ⟨48, _⟩ => ⟨S2000x256, .f32⟩
  | .local _ .vmem, ⟨49, _⟩ => ⟨S2000x256, .f32⟩
  | .local _ .vmem, ⟨50, _⟩ => ⟨S2000x256, .f32⟩
  | .local _ .vmem, ⟨51, _⟩ => ⟨S2000x256, .f32⟩
  | .local _ .vmem, ⟨52, _⟩ => ⟨S256x256, .f32⟩
  | .local _ .vmem, ⟨53, _⟩ => ⟨S2000x256, .f32⟩
  | .local _ .vmem, ⟨54, _⟩ => ⟨S2000x256, .f32⟩
  | .local _ .vmem, ⟨55, _⟩ => ⟨S2000x6x256, .f32⟩
  | .local _ .vmem, ⟨56, _⟩ => ⟨S2000x6x256, .f32⟩
  | .local _ .vmem, ⟨57, _⟩ => ⟨S2000x256, .f32⟩
  | .local _ .vmem, ⟨58, _⟩ => ⟨S2000x256, .f32⟩
  | .local _ .vmem, ⟨59, _⟩ => ⟨S2000x256, .f32⟩
  | .local _ .vmem, ⟨60, _⟩ => ⟨S2000x256, .f32⟩
  | .local _ .vmem, ⟨61, _⟩ => ⟨S2000x256, .f32⟩
  | .local _ .vmem, ⟨62, _⟩ => ⟨S2000x256, .f32⟩
  | .local _ .vmem, ⟨63, _⟩ => ⟨S2000x256, .f32⟩
  | .local _ .vmem, ⟨64, _⟩ => ⟨S2000x256, .f32⟩
  | .local _ .vmem, ⟨65, _⟩ => ⟨S256x256, .f32⟩
  | .local _ .vmem, ⟨66, _⟩ => ⟨S256x256, .f32⟩
  | .local _ .vmem, ⟨67, _⟩ => ⟨S256x256, .f32⟩
  | .local _ .vmem, ⟨68, _⟩ => ⟨S256x256, .f32⟩
  | .local _ .vmem, ⟨69, _⟩ => ⟨S1x256, .f32⟩
  | .local _ .vmem, ⟨70, _⟩ => ⟨S2000x256, .f32⟩
  | .local _ .vmem, ⟨71, _⟩ => ⟨S2000x256, .f32⟩
  | _, _ => ⟨S100000x133, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v5 : Ref sig .tc := ⟨.hbm, 39, rfl⟩
abbrev main_v6 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v7 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_c_1 : Ref sig .tc := ⟨.hbm, 72, rfl⟩
abbrev main_call2_c_2 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_c_3 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_call2_cst : Ref sig .tc := ⟨.hbm, 84, rfl⟩
abbrev main_call2_v15 : Ref sig .tc := ⟨.hbm, 85, rfl⟩
abbrev main_v8 : Ref sig .tc := ⟨.hbm, 86, rfl⟩
abbrev main_v9 : Ref sig .tc := ⟨.hbm, 87, rfl⟩
abbrev main_v10 : Ref sig .tc := ⟨.hbm, 88, rfl⟩
abbrev main_v11 : Ref sig .tc := ⟨.hbm, 89, rfl⟩
abbrev main_call3_c : Ref sig .tc := ⟨.hbm, 90, rfl⟩
abbrev main_call3_v0 : Ref sig .tc := ⟨.hbm, 91, rfl⟩
abbrev main_call3_v1 : Ref sig .tc := ⟨.hbm, 92, rfl⟩
abbrev main_call3_c_0 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_v5 : Ref sig .tc := ⟨.hbm, 97, rfl⟩
abbrev main_call3_c_1 : Ref sig .tc := ⟨.hbm, 98, rfl⟩
abbrev main_call3_c_2 : Ref sig .tc := ⟨.hbm, 99, rfl⟩
abbrev main_call3_v6 : Ref sig .tc := ⟨.hbm, 100, rfl⟩
abbrev main_call3_v7 : Ref sig .tc := ⟨.hbm, 101, rfl⟩
abbrev main_call3_v8 : Ref sig .tc := ⟨.hbm, 102, rfl⟩
abbrev main_call3_v9 : Ref sig .tc := ⟨.hbm, 103, rfl⟩
abbrev main_call3_v10 : Ref sig .tc := ⟨.hbm, 104, rfl⟩
abbrev main_call3_v11 : Ref sig .tc := ⟨.hbm, 105, rfl⟩
abbrev main_call3_c_3 : Ref sig .tc := ⟨.hbm, 106, rfl⟩
abbrev main_call3_v12 : Ref sig .tc := ⟨.hbm, 107, rfl⟩
abbrev main_call3_v13 : Ref sig .tc := ⟨.hbm, 108, rfl⟩
abbrev main_call3_v14 : Ref sig .tc := ⟨.hbm, 109, rfl⟩
abbrev main_call3_cst : Ref sig .tc := ⟨.hbm, 110, rfl⟩
abbrev main_call3_v15 : Ref sig .tc := ⟨.hbm, 111, rfl⟩
abbrev main_v12 : Ref sig .tc := ⟨.hbm, 112, rfl⟩
abbrev main_v13 : Ref sig .tc := ⟨.hbm, 113, rfl⟩
abbrev main_call4_c : Ref sig .tc := ⟨.hbm, 114, rfl⟩
abbrev main_call4_v0 : Ref sig .tc := ⟨.hbm, 115, rfl⟩
abbrev main_call4_v1 : Ref sig .tc := ⟨.hbm, 116, rfl⟩
abbrev main_call4_c_0 : Ref sig .tc := ⟨.hbm, 117, rfl⟩
abbrev main_call4_v2 : Ref sig .tc := ⟨.hbm, 118, rfl⟩
abbrev main_call4_v3 : Ref sig .tc := ⟨.hbm, 119, rfl⟩
abbrev main_call4_v4 : Ref sig .tc := ⟨.hbm, 120, rfl⟩
abbrev main_call4_v5 : Ref sig .tc := ⟨.hbm, 121, rfl⟩
abbrev main_call4_c_1 : Ref sig .tc := ⟨.hbm, 122, rfl⟩
abbrev main_call4_c_2 : Ref sig .tc := ⟨.hbm, 123, rfl⟩
abbrev main_call4_v6 : Ref sig .tc := ⟨.hbm, 124, rfl⟩
abbrev main_call4_v7 : Ref sig .tc := ⟨.hbm, 125, rfl⟩
abbrev main_call4_v8 : Ref sig .tc := ⟨.hbm, 126, rfl⟩
abbrev main_call4_v9 : Ref sig .tc := ⟨.hbm, 127, rfl⟩
abbrev main_call4_v10 : Ref sig .tc := ⟨.hbm, 128, rfl⟩
abbrev main_call4_v11 : Ref sig .tc := ⟨.hbm, 129, rfl⟩
abbrev main_call4_c_3 : Ref sig .tc := ⟨.hbm, 130, rfl⟩
abbrev main_call4_v12 : Ref sig .tc := ⟨.hbm, 131, rfl⟩
abbrev main_call4_v13 : Ref sig .tc := ⟨.hbm, 132, rfl⟩
abbrev main_call4_v14 : Ref sig .tc := ⟨.hbm, 133, rfl⟩
abbrev main_call4_cst : Ref sig .tc := ⟨.hbm, 134, rfl⟩
abbrev main_call4_v15 : Ref sig .tc := ⟨.hbm, 135, rfl⟩
abbrev main_v14 : Ref sig .tc := ⟨.hbm, 136, rfl⟩
abbrev main_call5_c : Ref sig .tc := ⟨.hbm, 137, rfl⟩
abbrev main_call5_v0 : Ref sig .tc := ⟨.hbm, 138, rfl⟩
abbrev main_call5_v1 : Ref sig .tc := ⟨.hbm, 139, rfl⟩
abbrev main_call5_c_0 : Ref sig .tc := ⟨.hbm, 140, rfl⟩
abbrev main_call5_v2 : Ref sig .tc := ⟨.hbm, 141, rfl⟩
abbrev main_call5_v3 : Ref sig .tc := ⟨.hbm, 142, rfl⟩
abbrev main_call5_v4 : Ref sig .tc := ⟨.hbm, 143, rfl⟩
abbrev main_call5_v5 : Ref sig .tc := ⟨.hbm, 144, rfl⟩
abbrev main_call5_c_1 : Ref sig .tc := ⟨.hbm, 145, rfl⟩
abbrev main_call5_c_2 : Ref sig .tc := ⟨.hbm, 146, rfl⟩
abbrev main_call5_v6 : Ref sig .tc := ⟨.hbm, 147, rfl⟩
abbrev main_call5_v7 : Ref sig .tc := ⟨.hbm, 148, rfl⟩
abbrev main_call5_v8 : Ref sig .tc := ⟨.hbm, 149, rfl⟩
abbrev main_call5_v9 : Ref sig .tc := ⟨.hbm, 150, rfl⟩
abbrev main_call5_v10 : Ref sig .tc := ⟨.hbm, 151, rfl⟩
abbrev main_call5_v11 : Ref sig .tc := ⟨.hbm, 152, rfl⟩
abbrev main_call5_c_3 : Ref sig .tc := ⟨.hbm, 153, rfl⟩
abbrev main_call5_v12 : Ref sig .tc := ⟨.hbm, 154, rfl⟩
abbrev main_call5_v13 : Ref sig .tc := ⟨.hbm, 155, rfl⟩
abbrev main_call5_v14 : Ref sig .tc := ⟨.hbm, 156, rfl⟩
abbrev main_call5_cst : Ref sig .tc := ⟨.hbm, 157, rfl⟩
abbrev main_call5_v15 : Ref sig .tc := ⟨.hbm, 158, rfl⟩
abbrev main_v15 : Ref sig .tc := ⟨.hbm, 159, rfl⟩
abbrev main_v16 : Ref sig .tc := ⟨.hbm, 160, rfl⟩
abbrev main_v17 : Ref sig .tc := ⟨.hbm, 161, rfl⟩
abbrev main_v18 : Ref sig .tc := ⟨.hbm, 162, rfl⟩
abbrev main_call6_c : Ref sig .tc := ⟨.hbm, 163, rfl⟩
abbrev main_call6_v0 : Ref sig .tc := ⟨.hbm, 164, rfl⟩
abbrev main_call6_v1 : Ref sig .tc := ⟨.hbm, 165, rfl⟩
abbrev main_call6_c_0 : Ref sig .tc := ⟨.hbm, 166, rfl⟩
abbrev main_call6_v2 : Ref sig .tc := ⟨.hbm, 167, rfl⟩
abbrev main_call6_v3 : Ref sig .tc := ⟨.hbm, 168, rfl⟩
abbrev main_call6_v4 : Ref sig .tc := ⟨.hbm, 169, rfl⟩
abbrev main_call6_v5 : Ref sig .tc := ⟨.hbm, 170, rfl⟩
abbrev main_call6_c_1 : Ref sig .tc := ⟨.hbm, 171, rfl⟩
abbrev main_call6_c_2 : Ref sig .tc := ⟨.hbm, 172, rfl⟩
abbrev main_call6_v6 : Ref sig .tc := ⟨.hbm, 173, rfl⟩
abbrev main_call6_v7 : Ref sig .tc := ⟨.hbm, 174, rfl⟩
abbrev main_call6_v8 : Ref sig .tc := ⟨.hbm, 175, rfl⟩
abbrev main_call6_v9 : Ref sig .tc := ⟨.hbm, 176, rfl⟩
abbrev main_call6_v10 : Ref sig .tc := ⟨.hbm, 177, rfl⟩
abbrev main_call6_v11 : Ref sig .tc := ⟨.hbm, 178, rfl⟩
abbrev main_call6_c_3 : Ref sig .tc := ⟨.hbm, 179, rfl⟩
abbrev main_call6_v12 : Ref sig .tc := ⟨.hbm, 180, rfl⟩
abbrev main_call6_v13 : Ref sig .tc := ⟨.hbm, 181, rfl⟩
abbrev main_call6_v14 : Ref sig .tc := ⟨.hbm, 182, rfl⟩
abbrev main_call6_cst : Ref sig .tc := ⟨.hbm, 183, rfl⟩
abbrev main_call6_v15 : Ref sig .tc := ⟨.hbm, 184, rfl⟩
abbrev main_v19 : Ref sig .tc := ⟨.hbm, 185, rfl⟩
abbrev main_v20 : Ref sig .tc := ⟨.hbm, 186, rfl⟩
abbrev main_call7_c : Ref sig .tc := ⟨.hbm, 187, rfl⟩
abbrev main_call7_v0 : Ref sig .tc := ⟨.hbm, 188, rfl⟩
abbrev main_call7_v1 : Ref sig .tc := ⟨.hbm, 189, rfl⟩
abbrev main_call7_c_0 : Ref sig .tc := ⟨.hbm, 190, rfl⟩
abbrev main_call7_v2 : Ref sig .tc := ⟨.hbm, 191, rfl⟩
abbrev main_call7_v3 : Ref sig .tc := ⟨.hbm, 192, rfl⟩
abbrev main_call7_v4 : Ref sig .tc := ⟨.hbm, 193, rfl⟩
abbrev main_call7_v5 : Ref sig .tc := ⟨.hbm, 194, rfl⟩
abbrev main_call7_c_1 : Ref sig .tc := ⟨.hbm, 195, rfl⟩
abbrev main_call7_c_2 : Ref sig .tc := ⟨.hbm, 196, rfl⟩
abbrev main_call7_v6 : Ref sig .tc := ⟨.hbm, 197, rfl⟩
abbrev main_call7_v7 : Ref sig .tc := ⟨.hbm, 198, rfl⟩
abbrev main_call7_v8 : Ref sig .tc := ⟨.hbm, 199, rfl⟩
abbrev main_call7_v9 : Ref sig .tc := ⟨.hbm, 200, rfl⟩
abbrev main_call7_v10 : Ref sig .tc := ⟨.hbm, 201, rfl⟩
abbrev main_call7_v11 : Ref sig .tc := ⟨.hbm, 202, rfl⟩
abbrev main_call7_c_3 : Ref sig .tc := ⟨.hbm, 203, rfl⟩
abbrev main_call7_v12 : Ref sig .tc := ⟨.hbm, 204, rfl⟩
abbrev main_call7_v13 : Ref sig .tc := ⟨.hbm, 205, rfl⟩
abbrev main_call7_v14 : Ref sig .tc := ⟨.hbm, 206, rfl⟩
abbrev main_call7_cst : Ref sig .tc := ⟨.hbm, 207, rfl⟩
abbrev main_call7_v15 : Ref sig .tc := ⟨.hbm, 208, rfl⟩
abbrev main_v21 : Ref sig .tc := ⟨.hbm, 209, rfl⟩
abbrev main_call8_c : Ref sig .tc := ⟨.hbm, 210, rfl⟩
abbrev main_call8_v0 : Ref sig .tc := ⟨.hbm, 211, rfl⟩
abbrev main_call8_v1 : Ref sig .tc := ⟨.hbm, 212, rfl⟩
abbrev main_call8_c_0 : Ref sig .tc := ⟨.hbm, 213, rfl⟩
abbrev main_call8_v2 : Ref sig .tc := ⟨.hbm, 214, rfl⟩
abbrev main_call8_v3 : Ref sig .tc := ⟨.hbm, 215, rfl⟩
abbrev main_call8_v4 : Ref sig .tc := ⟨.hbm, 216, rfl⟩
abbrev main_call8_v5 : Ref sig .tc := ⟨.hbm, 217, rfl⟩
abbrev main_call8_c_1 : Ref sig .tc := ⟨.hbm, 218, rfl⟩
abbrev main_call8_c_2 : Ref sig .tc := ⟨.hbm, 219, rfl⟩
abbrev main_call8_v6 : Ref sig .tc := ⟨.hbm, 220, rfl⟩
abbrev main_call8_v7 : Ref sig .tc := ⟨.hbm, 221, rfl⟩
abbrev main_call8_v8 : Ref sig .tc := ⟨.hbm, 222, rfl⟩
abbrev main_call8_v9 : Ref sig .tc := ⟨.hbm, 223, rfl⟩
abbrev main_call8_v10 : Ref sig .tc := ⟨.hbm, 224, rfl⟩
abbrev main_call8_v11 : Ref sig .tc := ⟨.hbm, 225, rfl⟩
abbrev main_call8_c_3 : Ref sig .tc := ⟨.hbm, 226, rfl⟩
abbrev main_call8_v12 : Ref sig .tc := ⟨.hbm, 227, rfl⟩
abbrev main_call8_v13 : Ref sig .tc := ⟨.hbm, 228, rfl⟩
abbrev main_call8_v14 : Ref sig .tc := ⟨.hbm, 229, rfl⟩
abbrev main_call8_cst : Ref sig .tc := ⟨.hbm, 230, rfl⟩
abbrev main_call8_v15 : Ref sig .tc := ⟨.hbm, 231, rfl⟩
abbrev main_v22 : Ref sig .tc := ⟨.hbm, 232, rfl⟩
abbrev main_v23 : Ref sig .tc := ⟨.hbm, 233, rfl⟩
abbrev main_v24 : Ref sig .tc := ⟨.hbm, 234, rfl⟩
abbrev main_v25 : Ref sig .tc := ⟨.hbm, 235, rfl⟩
abbrev main_call9_c : Ref sig .tc := ⟨.hbm, 236, rfl⟩
abbrev main_call9_v0 : Ref sig .tc := ⟨.hbm, 237, rfl⟩
abbrev main_call9_v1 : Ref sig .tc := ⟨.hbm, 238, rfl⟩
abbrev main_call9_c_0 : Ref sig .tc := ⟨.hbm, 239, rfl⟩
abbrev main_call9_v2 : Ref sig .tc := ⟨.hbm, 240, rfl⟩
abbrev main_call9_v3 : Ref sig .tc := ⟨.hbm, 241, rfl⟩
abbrev main_call9_v4 : Ref sig .tc := ⟨.hbm, 242, rfl⟩
abbrev main_call9_v5 : Ref sig .tc := ⟨.hbm, 243, rfl⟩
abbrev main_call9_c_1 : Ref sig .tc := ⟨.hbm, 244, rfl⟩
abbrev main_call9_c_2 : Ref sig .tc := ⟨.hbm, 245, rfl⟩
abbrev main_call9_v6 : Ref sig .tc := ⟨.hbm, 246, rfl⟩
abbrev main_call9_v7 : Ref sig .tc := ⟨.hbm, 247, rfl⟩
abbrev main_call9_v8 : Ref sig .tc := ⟨.hbm, 248, rfl⟩
abbrev main_call9_v9 : Ref sig .tc := ⟨.hbm, 249, rfl⟩
abbrev main_call9_v10 : Ref sig .tc := ⟨.hbm, 250, rfl⟩
abbrev main_call9_v11 : Ref sig .tc := ⟨.hbm, 251, rfl⟩
abbrev main_call9_c_3 : Ref sig .tc := ⟨.hbm, 252, rfl⟩
abbrev main_call9_v12 : Ref sig .tc := ⟨.hbm, 253, rfl⟩
abbrev main_call9_v13 : Ref sig .tc := ⟨.hbm, 254, rfl⟩
abbrev main_call9_v14 : Ref sig .tc := ⟨.hbm, 255, rfl⟩
abbrev main_call9_cst : Ref sig .tc := ⟨.hbm, 256, rfl⟩
abbrev main_call9_v15 : Ref sig .tc := ⟨.hbm, 257, rfl⟩
abbrev main_v26 : Ref sig .tc := ⟨.hbm, 258, rfl⟩
abbrev main_v27 : Ref sig .tc := ⟨.hbm, 259, rfl⟩
abbrev main_v28 : Ref sig .tc := ⟨.hbm, 260, rfl⟩
abbrev main_v29 : Ref sig .tc := ⟨.hbm, 261, rfl⟩
abbrev main_v30 : Ref sig .tc := ⟨.hbm, 262, rfl⟩
abbrev main_call10_v0 : Ref sig .tc := ⟨.hbm, 263, rfl⟩
abbrev main_call10_v1 : Ref sig .tc := ⟨.hbm, 264, rfl⟩
abbrev main_v31 : Ref sig .tc := ⟨.hbm, 265, rfl⟩
abbrev main_c : Ref sig .tc := ⟨.hbm, 266, rfl⟩
abbrev main_v32 : Ref sig .tc := ⟨.hbm, 267, rfl⟩
abbrev main_c_0 : Ref sig .tc := ⟨.hbm, 268, rfl⟩
abbrev main_v33 : Ref sig .tc := ⟨.hbm, 269, rfl⟩
abbrev main_call11_call0_c : Ref sig .tc := ⟨.hbm, 270, rfl⟩
abbrev main_call11_call0_v0 : Ref sig .tc := ⟨.hbm, 271, rfl⟩
abbrev main_v34 : Ref sig .tc := ⟨.hbm, 272, rfl⟩
abbrev main_c_1 : Ref sig .tc := ⟨.hbm, 273, rfl⟩
abbrev main_v35 : Ref sig .tc := ⟨.hbm, 274, rfl⟩
abbrev main_c_2 : Ref sig .tc := ⟨.hbm, 275, rfl⟩
abbrev main_v36 : Ref sig .tc := ⟨.hbm, 276, rfl⟩
abbrev main_v37 : Ref sig .tc := ⟨.hbm, 277, rfl⟩
abbrev main_c_3 : Ref sig .tc := ⟨.hbm, 278, rfl⟩
abbrev main_v38 : Ref sig .tc := ⟨.hbm, 279, rfl⟩
abbrev main_v39 : Ref sig .tc := ⟨.hbm, 280, rfl⟩
abbrev main_v40 : Ref sig .tc := ⟨.hbm, 281, rfl⟩
abbrev main_v41 : Ref sig .tc := ⟨.hbm, 282, rfl⟩
abbrev main_c_4 : Ref sig .tc := ⟨.hbm, 283, rfl⟩
abbrev main_v42 : Ref sig .tc := ⟨.hbm, 284, rfl⟩
abbrev main_v43 : Ref sig .tc := ⟨.hbm, 285, rfl⟩
abbrev main_call12_call0_c : Ref sig .tc := ⟨.hbm, 286, rfl⟩
abbrev main_call12_call0_v0 : Ref sig .tc := ⟨.hbm, 287, rfl⟩
abbrev main_v44 : Ref sig .tc := ⟨.hbm, 288, rfl⟩
abbrev main_c_5 : Ref sig .tc := ⟨.hbm, 289, rfl⟩
abbrev main_v45 : Ref sig .tc := ⟨.hbm, 290, rfl⟩
abbrev main_v46 : Ref sig .tc := ⟨.hbm, 291, rfl⟩
abbrev main_call13_c : Ref sig .tc := ⟨.hbm, 292, rfl⟩
abbrev main_call13_v0 : Ref sig .tc := ⟨.hbm, 293, rfl⟩
abbrev main_call13_v1 : Ref sig .tc := ⟨.hbm, 294, rfl⟩
abbrev main_call13_c_0 : Ref sig .tc := ⟨.hbm, 295, rfl⟩
abbrev main_call13_v2 : Ref sig .tc := ⟨.hbm, 296, rfl⟩
abbrev main_call13_v3 : Ref sig .tc := ⟨.hbm, 297, rfl⟩
abbrev main_call13_v4 : Ref sig .tc := ⟨.hbm, 298, rfl⟩
abbrev main_call13_v5 : Ref sig .tc := ⟨.hbm, 299, rfl⟩
abbrev main_call13_c_1 : Ref sig .tc := ⟨.hbm, 300, rfl⟩
abbrev main_call13_c_2 : Ref sig .tc := ⟨.hbm, 301, rfl⟩
abbrev main_call13_v6 : Ref sig .tc := ⟨.hbm, 302, rfl⟩
abbrev main_call13_v7 : Ref sig .tc := ⟨.hbm, 303, rfl⟩
abbrev main_call13_v8 : Ref sig .tc := ⟨.hbm, 304, rfl⟩
abbrev main_call13_v9 : Ref sig .tc := ⟨.hbm, 305, rfl⟩
abbrev main_call13_v10 : Ref sig .tc := ⟨.hbm, 306, rfl⟩
abbrev main_call13_v11 : Ref sig .tc := ⟨.hbm, 307, rfl⟩
abbrev main_call13_c_3 : Ref sig .tc := ⟨.hbm, 308, rfl⟩
abbrev main_call13_v12 : Ref sig .tc := ⟨.hbm, 309, rfl⟩
abbrev main_call13_v13 : Ref sig .tc := ⟨.hbm, 310, rfl⟩
abbrev main_call13_c_4 : Ref sig .tc := ⟨.hbm, 311, rfl⟩
abbrev main_call13_v14 : Ref sig .tc := ⟨.hbm, 312, rfl⟩
abbrev main_v47 : Ref sig .tc := ⟨.hbm, 313, rfl⟩
abbrev main_cst : Ref sig .tc := ⟨.hbm, 314, rfl⟩
abbrev main_v48 : Ref sig .tc := ⟨.hbm, 315, rfl⟩
abbrev main_v49 : Ref sig .tc := ⟨.hbm, 316, rfl⟩
abbrev main_v50 : Ref sig .tc := ⟨.hbm, 317, rfl⟩
abbrev main_v51 : Ref sig .tc := ⟨.hbm, 318, rfl⟩
abbrev main_v52 : Ref sig .tc := ⟨.hbm, 319, rfl⟩
abbrev main_v53 : Ref sig .tc := ⟨.hbm, 320, rfl⟩
abbrev main_v54 : Ref sig .tc := ⟨.hbm, 321, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg4_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg2_1 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg4_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc6_stg2_1 : Ref sig .tc := ⟨.vmem, 45, rfl⟩
abbrev cc7_stg0_0 : Ref sig .tc := ⟨.vmem, 46, rfl⟩
abbrev cc7_stg0_1 : Ref sig .tc := ⟨.vmem, 47, rfl⟩
abbrev cc7_stg1_0 : Ref sig .tc := ⟨.vmem, 48, rfl⟩
abbrev cc7_stg1_1 : Ref sig .tc := ⟨.vmem, 49, rfl⟩
abbrev cc7_stg2_0 : Ref sig .tc := ⟨.vmem, 50, rfl⟩
abbrev cc7_stg2_1 : Ref sig .tc := ⟨.vmem, 51, rfl⟩
abbrev cc7_stg3_0 : Ref sig .tc := ⟨.vmem, 52, rfl⟩
abbrev cc7_stg4_0 : Ref sig .tc := ⟨.vmem, 53, rfl⟩
abbrev cc7_stg4_1 : Ref sig .tc := ⟨.vmem, 54, rfl⟩
abbrev cc8_stg0_0 : Ref sig .tc := ⟨.vmem, 55, rfl⟩
abbrev cc8_stg0_1 : Ref sig .tc := ⟨.vmem, 56, rfl⟩
abbrev cc8_stg1_0 : Ref sig .tc := ⟨.vmem, 57, rfl⟩
abbrev cc8_stg1_1 : Ref sig .tc := ⟨.vmem, 58, rfl⟩
abbrev cc9_stg0_0 : Ref sig .tc := ⟨.vmem, 59, rfl⟩
abbrev cc9_stg0_1 : Ref sig .tc := ⟨.vmem, 60, rfl⟩
abbrev cc9_stg1_0 : Ref sig .tc := ⟨.vmem, 61, rfl⟩
abbrev cc9_stg1_1 : Ref sig .tc := ⟨.vmem, 62, rfl⟩
abbrev cc9_stg2_0 : Ref sig .tc := ⟨.vmem, 63, rfl⟩
abbrev cc9_stg2_1 : Ref sig .tc := ⟨.vmem, 64, rfl⟩
abbrev cc9_stg3_0 : Ref sig .tc := ⟨.vmem, 65, rfl⟩
abbrev cc9_stg4_0 : Ref sig .tc := ⟨.vmem, 66, rfl⟩
abbrev cc9_stg5_0 : Ref sig .tc := ⟨.vmem, 67, rfl⟩
abbrev cc9_stg6_0 : Ref sig .tc := ⟨.vmem, 68, rfl⟩
abbrev cc9_stg7_0 : Ref sig .tc := ⟨.vmem, 69, rfl⟩
abbrev cc9_stg8_0 : Ref sig .tc := ⟨.vmem, 70, rfl⟩
abbrev cc9_stg8_1 : Ref sig .tc := ⟨.vmem, 71, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc3_sem3_0 : DmaSem sig := 22
abbrev cc3_sem4_0 : DmaSem sig := 23
abbrev cc3_sem4_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem2_1 : DmaSem sig := 36
abbrev cc5_sem3_0 : DmaSem sig := 37
abbrev cc5_sem4_0 : DmaSem sig := 38
abbrev cc5_sem4_1 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc6_sem2_1 : DmaSem sig := 45
abbrev cc7_sem0_0 : DmaSem sig := 46
abbrev cc7_sem0_1 : DmaSem sig := 47
abbrev cc7_sem1_0 : DmaSem sig := 48
abbrev cc7_sem1_1 : DmaSem sig := 49
abbrev cc7_sem2_0 : DmaSem sig := 50
abbrev cc7_sem2_1 : DmaSem sig := 51
abbrev cc7_sem3_0 : DmaSem sig := 52
abbrev cc7_sem4_0 : DmaSem sig := 53
abbrev cc7_sem4_1 : DmaSem sig := 54
abbrev cc8_sem0_0 : DmaSem sig := 55
abbrev cc8_sem0_1 : DmaSem sig := 56
abbrev cc8_sem1_0 : DmaSem sig := 57
abbrev cc8_sem1_1 : DmaSem sig := 58
abbrev cc9_sem0_0 : DmaSem sig := 59
abbrev cc9_sem0_1 : DmaSem sig := 60
abbrev cc9_sem1_0 : DmaSem sig := 61
abbrev cc9_sem1_1 : DmaSem sig := 62
abbrev cc9_sem2_0 : DmaSem sig := 63
abbrev cc9_sem2_1 : DmaSem sig := 64
abbrev cc9_sem3_0 : DmaSem sig := 65
abbrev cc9_sem4_0 : DmaSem sig := 66
abbrev cc9_sem5_0 : DmaSem sig := 67
abbrev cc9_sem6_0 : DmaSem sig := 68
abbrev cc9_sem7_0 : DmaSem sig := 69
abbrev cc9_sem8_0 : DmaSem sig := 70
abbrev cc9_sem8_1 : DmaSem sig := 71

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x133 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S133x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x147 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S147x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x6x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x6x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S256x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![50], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x6x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![100], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x256 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S256x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S2000x256 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![50], ![false]⟩

def cc8_transform_0 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x6x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x256 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x256 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x256 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S2000x256 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S256x256 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S256x256 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S256x256 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S256x256 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S1x256 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 2 → Memref sig .tc .vmem S2000x256 .f32 := fun | 0 => Memref.whole cc9_stg8_0 | 1 => Memref.whole cc9_stg8_1 | ⟨_ + 2, h⟩ => absurd h (Nat.not_lt.2 (Nat.le_add_left _ _))
abbrev sem9_8 : Fin 2 → DmaSem sig := fun | 0 => cc9_sem8_0 | 1 => cc9_sem8_1 | ⟨_ + 2, h⟩ => absurd h (Nat.not_lt.2 (Nat.le_add_left _ _))
abbrev reads9_8 : Fin grid9.rank → Bool := ![true]

class Facts₀ : Prop where
  inb_S5000x133_S5000x133_0_0 : ∀ a, (![0, 0] : Fin 2 → Nat) a + S5000x133.size a ≤ S5000x133.size a
  h_S5000x133 : 0 < S5000x133.numel
  inb_S133x256_S133x256_0_0 : ∀ a, (![0, 0] : Fin 2 → Nat) a + S133x256.size a ≤ S133x256.size a
  h_S133x256 : 0 < S133x256.numel
  inb_S5000x256_S5000x256_0_0 : ∀ a, (![0, 0] : Fin 2 → Nat) a + S5000x256.size a ≤ S5000x256.size a
  h_S5000x256 : 0 < S5000x256.numel
  inb_S5000x147_S5000x147_0_0 : ∀ a, (![0, 0] : Fin 2 → Nat) a + S5000x147.size a ≤ S5000x147.size a
  h_S5000x147 : 0 < S5000x147.numel
  inb_S147x256_S147x256_0_0 : ∀ a, (![0, 0] : Fin 2 → Nat) a + S147x256.size a ≤ S147x256.size a
  h_S147x256 : 0 < S147x256.numel
  slices_S768x256_S256x256_0_0 : S768x256.Slices ![0, 0] S256x256
  slices_S768x256_S256x256_256_0 : S768x256.Slices ![256, 0] S256x256
  slices_S768x256_S256x256_512_0 : S768x256.Slices ![512, 0] S256x256
  bcast_S_S100000x6 : S_.BroadcastsInDim S100000x6 (![] : Fin 0 → Fin S100000x6.rank)
  bcast_S100000x6_S100000x6x1_0_1 : S100000x6.BroadcastsInDim S100000x6x1 (![0, 1] : Fin 2 → Fin S100000x6x1.rank)
  bcast_S_S100000x6x1 : S_.BroadcastsInDim S100000x6x1 (![] : Fin 0 → Fin S100000x6x1.rank)
  bcast_S1_S1x1x1_2 : S1.BroadcastsInDim S1x1x1 (![2] : Fin 1 → Fin S1x1x1.rank)
  bcast_S1x1x1_S100000x6x1_0_1_2 : S1x1x1.BroadcastsInDim S100000x6x1 (![0, 1, 2] : Fin 3 → Fin S100000x6x1.rank)
  reducesTo_S100000x6x1_S100000x6_d2 : S100000x6x1.ReducesTo [2] S100000x6
  h_S_ : 0 < S_.numel
  bcast_S100000x6_S100000x6x256_0_1 : S100000x6.BroadcastsInDim S100000x6x256 (![0, 1] : Fin 2 → Fin S100000x6x256.rank)
  bcast_S_S100000x6x256 : S_.BroadcastsInDim S100000x6x256 (![] : Fin 0 → Fin S100000x6x256.rank)
  inb_S2000x6x256_S2000x6x256_0_0_0 : ∀ a, (![0, 0, 0] : Fin 3 → Nat) a + S2000x6x256.size a ≤ S2000x6x256.size a
  h_S2000x6x256 : 0 < S2000x6x256.numel
  shapeCasts_S2000x6x256_S2000x6x256 : S2000x6x256.ShapeCasts S2000x6x256
  reduces_S2000x6x256_S2000x256 : S2000x6x256.Reduces [1] S2000x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bcast_S_S200000 : S_.BroadcastsInDim S200000 (![] : Fin 0 → Fin S200000.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  reducesTo_S200000x1_S200000_d1 : S200000x1.ReducesTo [1] S200000
  bcast_S200000_S200000x256_0 : S200000.BroadcastsInDim S200000x256 (![0] : Fin 1 → Fin S200000x256.rank)
  bcast_S_S200000x256 : S_.BroadcastsInDim S200000x256 (![] : Fin 0 → Fin S200000x256.rank)
  slices_S3x256x256_S1x256x256_0_0_0 : S3x256x256.Slices ![0, 0, 0] S1x256x256
  shapeCasts_S1x256x256_S256x256 : S1x256x256.ShapeCasts S256x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S3x256x256_S1x256x256_1_0_0 : S3x256x256.Slices ![1, 0, 0] S1x256x256
  slices_S3x256x256_S1x256x256_2_0_0 : S3x256x256.Slices ![2, 0, 0] S1x256x256
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  slices_S5000_S1_4999 : S5000.Slices ![4999] S1
  slices_S5000_S4999_0 : S5000.Slices ![0] S4999
  concatenates_S1_S4999_S5000_d0 : Shape.Concatenates [S1, S4999] S5000 0
  bcast_S_S1 : S_.BroadcastsInDim S1 (![] : Fin 0 → Fin S1.rank)
  bcast_S_S_ : S_.BroadcastsInDim S_ (![] : Fin 0 → Fin S_.rank)
  reduceWindows_S5000_S5000_w5000s1p4999_0 : S5000.ReduceWindows (![5000] : Fin 1 → Nat) ![1] ![4999] ![0] S5000
  bcast_S_S100000 : S_.BroadcastsInDim S100000 (![] : Fin 0 → Fin S100000.rank)
  bcast_S_S5000 : S_.BroadcastsInDim S5000 (![] : Fin 0 → Fin S5000.rank)
  bcast_S5000_S5000x1_0 : S5000.BroadcastsInDim S5000x1 (![0] : Fin 1 → Fin S5000x1.rank)
  reduceWindows_S100000_S100000_w100000s1p99999_0 : S100000.ReduceWindows (![100000] : Fin 1 → Nat) ![1] ![99999] ![0] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1x1_S100000x1_0_1 : S1x1.BroadcastsInDim S100000x1 (![0, 1] : Fin 2 → Fin S100000x1.rank)
  reducesTo_S100000x1_S100000_d1 : S100000x1.ReducesTo [1] S100000
  bcast_S_S5000x256 : S_.BroadcastsInDim S5000x256 (![] : Fin 0 → Fin S5000x256.rank)
  bcast_S5000x1_S5000x256_0_1 : S5000x1.BroadcastsInDim S5000x256 (![0, 1] : Fin 2 → Fin S5000x256.rank)
  dot_S5000x133_S133x256_S5000x256_1_0_0_1_n_n_wf : DotDims.WF S5000x133 S133x256 S5000x256 [1] [0] [0] [1] [] []
  dot_S5000x147_S147x256_S5000x256_1_0_0_1_n_n_wf : DotDims.WF S5000x147 S147x256 S5000x256 [1] [0] [0] [1] [] []
  gather_S200000x256_S100000x6x1_S100000x6x256_2_0_n_n_0_2_1256_wf : GatherDims.WF S200000x256 S100000x6x1 S100000x6x256 [2] [0] [] [0] [] 2 ![1, 256]
  gather_S200000x256_S200000x1_S200000x256_1_0_n_n_0_1_1256_wf : GatherDims.WF S200000x256 S200000x1 S200000x256 [1] [0] [] [0] [] 1 ![1, 256]
  gather_S100000x256_S200000x1_S200000x256_1_0_n_n_0_1_1256_wf : GatherDims.WF S100000x256 S200000x1 S200000x256 [1] [0] [] [0] [] 1 ![1, 256]
  dot_S2000x256_S256x256_S2000x256_1_0_0_1_n_n_wf : DotDims.WF S2000x256 S256x256 S2000x256 [1] [0] [0] [1] [] []
  scatter_S5000_S1_S__n_0_0_0_wf : ScatterDims.WF S5000 S1 S_ [] [0] [0] 0
  scatter_S100000_S5000x1_S5000_n_0_0_1_wf : ScatterDims.WF S100000 S5000x1 S5000 [] [0] [0] 1
  gather_S5000_S100000x1_S100000_n_0_n_n_0_1_1_wf : GatherDims.WF S5000 S100000x1 S100000 [] [0] [] [0] [] 1 ![1]
  scatter_S5000x256_S100000x1_S100000x256_1_0_0_1_wf : ScatterDims.WF S5000x256 S100000x1 S100000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x133.size a ≤ S100000x133.size a
  hwx0_0 : ∀ i : grid0.Coords, EltTy.bits .f32 = 32 ∨ (Rect.block (s := S100000x133) S5000x133.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S133x256.size a ≤ S133x256.size a
  hwx0_1 : ∀ i : grid0.Coords, EltTy.bits .f32 = 32 ∨ (Rect.block (s := S133x256) S133x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S100000x256.size a
  hwx0_2 : ∀ i : grid0.Coords, EltTy.bits .f32 = 32 ∨ (Rect.block (s := S100000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x147.size a ≤ S200000x147.size a
  hwx1_0 : ∀ i : grid1.Coords, EltTy.bits .f32 = 32 ∨ (Rect.block (s := S200000x147) S5000x147.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S147x256.size a ≤ S147x256.size a
  hwx1_1 : ∀ i : grid1.Coords, EltTy.bits .f32 = 32 ∨ (Rect.block (s := S147x256) S147x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S200000x256.size a
  hwx1_2 : ∀ i : grid1.Coords, EltTy.bits .f32 = 32 ∨ (Rect.block (s := S200000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x6x256.size a ≤ S100000x6x256.size a
  hwx2_0 : ∀ i : grid2.Coords, EltTy.bits .f32 = 32 ∨ (Rect.block (s := S100000x6x256) S2000x6x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S100000x256.size a
  hwx2_1 : ∀ i : grid2.Coords, EltTy.bits .f32 = 32 ∨ (Rect.block (s := S100000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S100000x256.size a
  hwx2_2 : ∀ i : grid2.Coords, EltTy.bits .f32 = 32 ∨ (Rect.block (s := S100000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S200000x256.size a
  hwx3_0 : ∀ i : grid3.Coords, EltTy.bits .f32 = 32 ∨ (Rect.block (s := S200000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S200000x256.size a
  hwx3_1 : ∀ i : grid3.Coords, EltTy.bits .f32 = 32 ∨ (Rect.block (s := S200000x256) S2000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S200000x256.size a
  hwx3_2 : ∀ i : grid3.Coords, EltTy.bits .f32 = 32 ∨ (Rect.block (s := S200000x256) S2000x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x256.size a ≤ S200000x256.size a
  hwx3_4 : ∀ i : grid3.Coords, EltTy.bits .f32 = 32 ∨ (Rect.block (s := S200000x256) S2000x256.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x6x256.size a ≤ S100000x6x256.size a
  hwx4_0 : ∀ i : grid4.Coords, EltTy.bits .f32 = 32 ∨ (Rect.block (s := S100000x6x256) S2000x6x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S100000x256.size a
  hwx4_1 : ∀ i : grid4.Coords, EltTy.bits .f32 = 32 ∨ (Rect.block (s := S100000x256) S2000x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S100000x256.size a
  hwx4_2 : ∀ i : grid4.Coords, EltTy.bits .f32 = 32 ∨ (Rect.block (s := S100000x256) S2000x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S200000x256.size a
  hwx5_0 : ∀ i : grid5.Coords, EltTy.bits .f32 = 32 ∨ (Rect.block (s := S200000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x256.size a ≤ S200000x256.size a
  hwx5_1 : ∀ i : grid5.Coords, EltTy.bits .f32 = 32 ∨ (Rect.block (s := S200000x256) S2000x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x256.size a ≤ S200000x256.size a
  hwx5_2 : ∀ i : grid5.Coords, EltTy.bits .f32 = 32 ∨ (Rect.block (s := S200000x256) S2000x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x256.size a ≤ S256x256.size a
  hwx5_3 : ∀ i : grid5.Coords, EltTy.bits .f32 = 32 ∨ (Rect.block (s := S256x256) S256x256.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x256.size a ≤ S200000x256.size a
  hwx5_4 : ∀ i : grid5.Coords, EltTy.bits .f32 = 32 ∨ (Rect.block (s := S200000x256) S2000x256.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x6x256.size a ≤ S100000x6x256.size a
  hwx6_0 : ∀ i : grid6.Coords, EltTy.bits .f32 = 32 ∨ (Rect.block (s := S100000x6x256) S2000x6x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x256.size a ≤ S100000x256.size a
  hwx6_1 : ∀ i : grid6.Coords, EltTy.bits .f32 = 32 ∨ (Rect.block (s := S100000x256) S2000x256.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x256.size a ≤ S100000x256.size a
  hwx6_2 : ∀ i : grid6.Coords, EltTy.bits .f32 = 32 ∨ (Rect.block (s := S100000x256) S2000x256.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S200000x256.size a
  hwx7_0 : ∀ i : grid7.Coords, EltTy.bits .f32 = 32 ∨ (Rect.block (s := S200000x256) S2000x256.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x256.size a ≤ S200000x256.size a
  hwx7_1 : ∀ i : grid7.Coords, EltTy.bits .f32 = 32 ∨ (Rect.block (s := S200000x256) S2000x256.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x256.size a ≤ S200000x256.size a
  hwx7_2 : ∀ i : grid7.Coords, EltTy.bits .f32 = 32 ∨ (Rect.block (s := S200000x256) S2000x256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S256x256.size a ≤ S256x256.size a
  hwx7_3 : ∀ i : grid7.Coords, EltTy.bits .f32 = 32 ∨ (Rect.block (s := S256x256) S256x256.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2000x256.size a ≤ S200000x256.size a
  hwx7_4 : ∀ i : grid7.Coords, EltTy.bits .f32 = 32 ∨ (Rect.block (s := S200000x256) S2000x256.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x6x256.size a ≤ S100000x6x256.size a
  hwx8_0 : ∀ i : grid8.Coords, EltTy.bits .f32 = 32 ∨ (Rect.block (s := S100000x6x256) S2000x6x256.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x256.size a ≤ S100000x256.size a
  hwx8_1 : ∀ i : grid8.Coords, EltTy.bits .f32 = 32 ∨ (Rect.block (s := S100000x256) S2000x256.size (cc8_transform_1 i) (hinb8_1 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x256.size a ≤ S100000x256.size a
  hwx9_0 : ∀ i : grid9.Coords, EltTy.bits .f32 = 32 ∨ (Rect.block (s := S100000x256) S2000x256.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x256.size a ≤ S100000x256.size a
  hwx9_1 : ∀ i : grid9.Coords, EltTy.bits .f32 = 32 ∨ (Rect.block (s := S100000x256) S2000x256.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2000x256.size a ≤ S100000x256.size a
  hwx9_2 : ∀ i : grid9.Coords, EltTy.bits .f32 = 32 ∨ (Rect.block (s := S100000x256) S2000x256.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S256x256.size a ≤ S256x256.size a
  hwx9_3 : ∀ i : grid9.Coords, EltTy.bits .f32 = 32 ∨ (Rect.block (s := S256x256) S256x256.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S256x256.size a ≤ S256x256.size a
  hwx9_4 : ∀ i : grid9.Coords, EltTy.bits .f32 = 32 ∨ (Rect.block (s := S256x256) S256x256.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S256x256.size a ≤ S256x256.size a
  hwx9_5 : ∀ i : grid9.Coords, EltTy.bits .f32 = 32 ∨ (Rect.block (s := S256x256) S256x256.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S256x256.size a ≤ S256x256.size a
  hwx9_6 : ∀ i : grid9.Coords, EltTy.bits .f32 = 32 ∨ (Rect.block (s := S256x256) S256x256.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S1x256.size a ≤ S1x256.size a
  hwx9_7 : ∀ i : grid9.Coords, EltTy.bits .f32 = 32 ∨ (Rect.block (s := S1x256) S1x256.size (cc9_transform_7 i) (hinb9_7 i)).WholeWords (EltTy.packing .f32)
  hstage9_8 : ∀ j, (stage9_8 j).IsWhole
  nbuf9_8 : grid9.bufCount reads9_8 false = 2
  hreads9_8 : ∀ i i' : grid9.Coords, (∀ a, reads9_8 a = true → i a = i' a) → cc9_transform_8 i = cc9_transform_8 i'
  hinb9_8 : ∀ (i : grid9.Coords) a, (cc9_transform_8 i a + 1) * S2000x256.size a ≤ S100000x256.size a
  hwx9_8 : ∀ i : grid9.Coords, EltTy.bits .f32 = 32 ∨ (Rect.block (s := S100000x256) S2000x256.size (cc9_transform_8 i) (hinb9_8 i)).WholeWords (EltTy.packing .f32)

variable [Facts₀]

def dot_S5000x133_S133x256_S5000x256_1_0_0_1_n_n : DotDims S5000x133 S133x256 S5000x256 where
  lhsContracting := [1]
  rhsContracting := [0]
  lhsNonContracting := [0]
  rhsNonContracting := [1]
  lhsBatch := []
  rhsBatch := []
  wf := dot_S5000x133_S133x256_S5000x256_1_0_0_1_n_n_wf
def dot_S5000x147_S147x256_S5000x256_1_0_0_1_n_n : DotDims S5000x147 S147x256 S5000x256 where
  lhsContracting := [1]
  rhsContracting := [0]
  lhsNonContracting := [0]
  rhsNonContracting := [1]
  lhsBatch := []
  rhsBatch := []
  wf := dot_S5000x147_S147x256_S5000x256_1_0_0_1_n_n_wf
def gather_S200000x256_S100000x6x1_S100000x6x256_2_0_n_n_0_2_1256 : GatherDims S200000x256 S100000x6x1 S100000x6x256 where
  offsetDims := [2]
  collapsedSliceDims := [0]
  operandBatchingDims := []
  startIndicesBatchingDims := []
  startIndexMap := [0]
  indexVectorDim := 2
  sliceSizes := ![1, 256]
  wf := gather_S200000x256_S100000x6x1_S100000x6x256_2_0_n_n_0_2_1256_wf
def gather_S200000x256_S200000x1_S200000x256_1_0_n_n_0_1_1256 : GatherDims S200000x256 S200000x1 S200000x256 where
  offsetDims := [1]
  collapsedSliceDims := [0]
  operandBatchingDims := []
  startIndicesBatchingDims := []
  startIndexMap := [0]
  indexVectorDim := 1
  sliceSizes := ![1, 256]
  wf := gather_S200000x256_S200000x1_S200000x256_1_0_n_n_0_1_1256_wf
def gather_S100000x256_S200000x1_S200000x256_1_0_n_n_0_1_1256 : GatherDims S100000x256 S200000x1 S200000x256 where
  offsetDims := [1]
  collapsedSliceDims := [0]
  operandBatchingDims := []
  startIndicesBatchingDims := []
  startIndexMap := [0]
  indexVectorDim := 1
  sliceSizes := ![1, 256]
  wf := gather_S100000x256_S200000x1_S200000x256_1_0_n_n_0_1_1256_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S5000_S1_S__n_0_0_0 : ScatterDims S5000 S1 S_ where
  updateWindowDims := []
  insertedWindowDims := [0]
  scatterDimsToOperandDims := [0]
  indexVectorDim := 0
  wf := scatter_S5000_S1_S__n_0_0_0_wf
def scatter_S100000_S5000x1_S5000_n_0_0_1 : ScatterDims S100000 S5000x1 S5000 where
  updateWindowDims := []
  insertedWindowDims := [0]
  scatterDimsToOperandDims := [0]
  indexVectorDim := 1
  wf := scatter_S100000_S5000x1_S5000_n_0_0_1_wf
def gather_S5000_S100000x1_S100000_n_0_n_n_0_1_1 : GatherDims S5000 S100000x1 S100000 where
  offsetDims := []
  collapsedSliceDims := [0]
  operandBatchingDims := []
  startIndicesBatchingDims := []
  startIndexMap := [0]
  indexVectorDim := 1
  sliceSizes := ![1]
  wf := gather_S5000_S100000x1_S100000_n_0_n_n_0_1_1_wf
def scatter_S5000x256_S100000x1_S100000x256_1_0_0_1 : ScatterDims S5000x256 S100000x1 S100000x256 where
  updateWindowDims := [1]
  insertedWindowDims := [0]
  scatterDimsToOperandDims := [0]
  indexVectorDim := 1
  wf := scatter_S5000x256_S100000x1_S100000x256_1_0_0_1_wf

abbrev win0_0 : Pipeline.Window sig grid0 :=
  Pipeline.Window.ofSpec (Memref.whole main_arg0) S5000x133.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S133x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S5000x147.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S147x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v5) S2000x6x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v8) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v1) S2000x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v10) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v11) S2000x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v12) S2000x6x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v6) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v13) S2000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v15) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v14) S2000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v1) S2000x256.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v17) S256x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v18) S2000x256.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v19) S2000x6x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v13) S2000x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v20) S2000x256.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v22) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v21) S2000x256.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v1) S2000x256.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v24) S256x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v25) S2000x256.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v26) S2000x6x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v27) S2000x256.size cc8_transform_1 reads8_1 true false 2 stage8_1 sem8_1
    hrank8 hreads8_1 hinb8_1 nbuf8_1 (Memref.isWhole_whole _) hwx8_1 hstage8_1

abbrev win8 : Fin 2 → Pipeline.Window sig grid8 := fun | 0 => win8_0 | 1 => win8_1 | ⟨_ + 2, h⟩ => absurd h (Nat.not_lt.2 (Nat.le_add_left _ _))
abbrev spec8 : Fin 2 → Pipeline.WinSpec sig grid8.rank := fun w => (win8 w).toWinSpec

abbrev win9_0 : Pipeline.Window sig grid9 :=
  Pipeline.Window.ofSpec (Memref.whole main_v27) S2000x256.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v20) S2000x256.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v0) S2000x256.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v2) S256x256.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v3) S256x256.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v4) S256x256.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_arg5) S256x256.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v28) S1x256.size cc9_transform_7 reads9_7 false true 1 stage9_7 sem9_7
    hrank9 hreads9_7 hinb9_7 nbuf9_7 (Memref.isWhole_whole _) hwx9_7 hstage9_7

abbrev win9_8 : Pipeline.Window sig grid9 :=
  Pipeline.Window.ofSpec (Memref.whole main_v29) S2000x256.size cc9_transform_8 reads9_8 true false 2 stage9_8 sem9_8
    hrank9 hreads9_8 hinb9_8 nbuf9_8 (Memref.isWhole_whole _) hwx9_8 hstage9_8

abbrev win9 : Fin 9 → Pipeline.Window sig grid9 := fun | 0 => win9_0 | 1 => win9_1 | 2 => win9_2 | 3 => win9_3 | 4 => win9_4 | 5 => win9_5 | 6 => win9_6 | 7 => win9_7 | 8 => win9_8 | ⟨_ + 9, h⟩ => absurd h (Nat.not_lt.2 (Nat.le_add_left _ _))
abbrev spec9 : Fin 9 → Pipeline.WinSpec sig grid9.rank := fun w => (win9 w).toWinSpec

class Facts : Prop extends Facts₀ where

variable [Facts]
-- ==== ReferenceIdeal.lean ====
abbrev S100000x133 : Shape := ⟨2, ![100000, 133]⟩
abbrev S200000x147 : Shape := ⟨2, ![200000, 147]⟩
abbrev S133x256 : Shape := ⟨2, ![133, 256]⟩
abbrev S147x256 : Shape := ⟨2, ![147, 256]⟩
abbrev S3x256x256 : Shape := ⟨3, ![3, 256, 256]⟩
abbrev S256x256 : Shape := ⟨2, ![256, 256]⟩
abbrev S256 : Shape := ⟨1, ![256]⟩
abbrev S768x256 : Shape := ⟨2, ![768, 256]⟩
abbrev S100000x6 : Shape := ⟨2, ![100000, 6]⟩
abbrev S200000 : Shape := ⟨1, ![200000]⟩
abbrev S5000 : Shape := ⟨1, ![5000]⟩
abbrev S100000x256 : Shape := ⟨2, ![100000, 256]⟩
abbrev S_ : Shape := ⟨0, ![]⟩
abbrev S200000x256 : Shape := ⟨2, ![200000, 256]⟩
abbrev S100000x6x1 : Shape := ⟨3, ![100000, 6, 1]⟩
abbrev S100000x6x256 : Shape := ⟨3, ![100000, 6, 256]⟩
abbrev S200000x1 : Shape := ⟨2, ![200000, 1]⟩
abbrev S1x256x256 : Shape := ⟨3, ![1, 256, 256]⟩
abbrev S100000x768 : Shape := ⟨2, ![100000, 768]⟩
abbrev S1x256 : Shape := ⟨2, ![1, 256]⟩
abbrev S1 : Shape := ⟨1, ![1]⟩
abbrev S4999 : Shape := ⟨1, ![4999]⟩
abbrev S100000 : Shape := ⟨1, ![100000]⟩
abbrev S5000x1 : Shape := ⟨2, ![5000, 1]⟩
abbrev S100000x1 : Shape := ⟨2, ![100000, 1]⟩
abbrev S1x1 : Shape := ⟨2, ![1, 1]⟩
abbrev S5000x256 : Shape := ⟨2, ![5000, 256]⟩

abbrev nBuf : Space → Nat
  | .hbm => 226
  | .vmem => 0
  | .smem => 0
  | _ => 0

abbrev hbmTy0_0 (i : Nat) : BufTy := match i % 128 with
  | 0 => ⟨S100000x133, .f32⟩
  | 1 => ⟨S200000x147, .f32⟩
  | 2 => ⟨S133x256, .f32⟩
  | 3 => ⟨S147x256, .f32⟩
  | 4 => ⟨S3x256x256, .f32⟩
  | 5 => ⟨S256x256, .f32⟩
  | 6 => ⟨S256, .f32⟩
  | 7 => ⟨S768x256, .f32⟩
  | 8 => ⟨S100000x6, .i32⟩
  | 9 => ⟨S200000, .i32⟩
  | 10 => ⟨S200000, .i32⟩
  | 11 => ⟨S5000, .i32⟩
  | 12 => ⟨S100000x256, .f32⟩
  | 13 => ⟨S_, .f32⟩
  | 14 => ⟨S100000x256, .f32⟩
  | 15 => ⟨S100000x256, .f32⟩
  | 16 => ⟨S200000x256, .f32⟩
  | 17 => ⟨S_, .f32⟩
  | 18 => ⟨S200000x256, .f32⟩
  | 19 => ⟨S200000x256, .f32⟩
  | 20 => ⟨S_, .i32⟩
  | 21 => ⟨S100000x6, .i32⟩
  | 22 => ⟨S100000x6, .i1⟩
  | 23 => ⟨S_, .i32⟩
  | 24 => ⟨S100000x6, .i32⟩
  | 25 => ⟨S100000x6, .i32⟩
  | 26 => ⟨S100000x6, .i32⟩
  | 27 => ⟨S100000x6x1, .i32⟩
  | 28 => ⟨S100000x6x256, .f32⟩
  | 29 => ⟨S_, .f32⟩
  | 30 => ⟨S100000x256, .f32⟩
  | 31 => ⟨S_, .f32⟩
  | 32 => ⟨S100000x256, .f32⟩
  | 33 => ⟨S100000x256, .f32⟩
  | 34 => ⟨S100000x256, .f32⟩
  | 35 => ⟨S_, .i32⟩
  | 36 => ⟨S200000, .i32⟩
  | 37 => ⟨S200000, .i1⟩
  | 38 => ⟨S_, .i32⟩
  | 39 => ⟨S200000, .i32⟩
  | 40 => ⟨S200000, .i32⟩
  | 41 => ⟨S200000, .i32⟩
  | 42 => ⟨S200000x1, .i32⟩
  | 43 => ⟨S200000x256, .f32⟩
  | 44 => ⟨S_, .i32⟩
  | 45 => ⟨S200000, .i32⟩
  | 46 => ⟨S200000, .i1⟩
  | 47 => ⟨S_, .i32⟩
  | 48 => ⟨S200000, .i32⟩
  | 49 => ⟨S200000, .i32⟩
  | 50 => ⟨S200000, .i32⟩
  | 51 => ⟨S200000x1, .i32⟩
  | 52 => ⟨S200000x256, .f32⟩
  | 53 => ⟨S200000x256, .f32⟩
  | 54 => ⟨S1x256x256, .f32⟩
  | 55 => ⟨S256x256, .f32⟩
  | 56 => ⟨S200000x256, .f32⟩
  | 57 => ⟨S200000x256, .f32⟩
  | 58 => ⟨S_, .f32⟩
  | 59 => ⟨S200000x256, .f32⟩
  | 60 => ⟨S200000x256, .f32⟩
  | 61 => ⟨S_, .i32⟩
  | 62 => ⟨S100000x6, .i32⟩
  | 63 => ⟨S100000x6, .i1⟩
  | 64 => ⟨S_, .i32⟩
  | 65 => ⟨S100000x6, .i32⟩
  | 66 => ⟨S100000x6, .i32⟩
  | 67 => ⟨S100000x6, .i32⟩
  | 68 => ⟨S100000x6x1, .i32⟩
  | 69 => ⟨S100000x6x256, .f32⟩
  | 70 => ⟨S_, .f32⟩
  | 71 => ⟨S100000x256, .f32⟩
  | 72 => ⟨S_, .f32⟩
  | 73 => ⟨S100000x256, .f32⟩
  | 74 => ⟨S100000x256, .f32⟩
  | 75 => ⟨S100000x256, .f32⟩
  | 76 => ⟨S_, .i32⟩
  | 77 => ⟨S200000, .i32⟩
  | 78 => ⟨S200000, .i1⟩
  | 79 => ⟨S_, .i32⟩
  | 80 => ⟨S200000, .i32⟩
  | 81 => ⟨S200000, .i32⟩
  | 82 => ⟨S200000, .i32⟩
  | 83 => ⟨S200000x1, .i32⟩
  | 84 => ⟨S200000x256, .f32⟩
  | 85 => ⟨S_, .i32⟩
  | 86 => ⟨S200000, .i32⟩
  | 87 => ⟨S200000, .i1⟩
  | 88 => ⟨S_, .i32⟩
  | 89 => ⟨S200000, .i32⟩
  | 90 => ⟨S200000, .i32⟩
  | 91 => ⟨S200000, .i32⟩
  | 92 => ⟨S200000x1, .i32⟩
  | 93 => ⟨S200000x256, .f32⟩
  | 94 => ⟨S200000x256, .f32⟩
  | 95 => ⟨S1x256x256, .f32⟩
  | 96 => ⟨S256x256, .f32⟩
  | 97 => ⟨S200000x256, .f32⟩
  | 98 => ⟨S200000x256, .f32⟩
  | 99 => ⟨S_, .f32⟩
  | 100 => ⟨S200000x256, .f32⟩
  | 101 => ⟨S200000x256, .f32⟩
  | 102 => ⟨S_, .i32⟩
  | 103 => ⟨S100000x6, .i32⟩
  | 104 => ⟨S100000x6, .i1⟩
  | 105 => ⟨S_, .i32⟩
  | 106 => ⟨S100000x6, .i32⟩
  | 107 => ⟨S100000x6, .i32⟩
  | 108 => ⟨S100000x6, .i32⟩
  | 109 => ⟨S100000x6x1, .i32⟩
  | 110 => ⟨S100000x6x256, .f32⟩
  | 111 => ⟨S_, .f32⟩
  | 112 => ⟨S100000x256, .f32⟩
  | 113 => ⟨S_, .f32⟩
  | 114 => ⟨S100000x256, .f32⟩
  | 115 => ⟨S100000x256, .f32⟩
  | 116 => ⟨S100000x256, .f32⟩
  | 117 => ⟨S_, .i32⟩
  | 118 => ⟨S200000, .i32⟩
  | 119 => ⟨S200000, .i1⟩
  | 120 => ⟨S_, .i32⟩
  | 121 => ⟨S200000, .i32⟩
  | 122 => ⟨S200000, .i32⟩
  | 123 => ⟨S200000, .i32⟩
  | 124 => ⟨S200000x1, .i32⟩
  | 125 => ⟨S200000x256, .f32⟩
  | 126 => ⟨S_, .i32⟩
  | 127 => ⟨S200000, .i32⟩
  | _ => ⟨S100000x133, .f32⟩

abbrev hbmTy0_1 (i : Nat) : BufTy := match i % 128 with
  | 0 => ⟨S200000, .i1⟩
  | 1 => ⟨S_, .i32⟩
  | 2 => ⟨S200000, .i32⟩
  | 3 => ⟨S200000, .i32⟩
  | 4 => ⟨S200000, .i32⟩
  | 5 => ⟨S200000x1, .i32⟩
  | 6 => ⟨S200000x256, .f32⟩
  | 7 => ⟨S200000x256, .f32⟩
  | 8 => ⟨S1x256x256, .f32⟩
  | 9 => ⟨S256x256, .f32⟩
  | 10 => ⟨S200000x256, .f32⟩
  | 11 => ⟨S200000x256, .f32⟩
  | 12 => ⟨S_, .f32⟩
  | 13 => ⟨S200000x256, .f32⟩
  | 14 => ⟨S200000x256, .f32⟩
  | 15 => ⟨S_, .i32⟩
  | 16 => ⟨S100000x6, .i32⟩
  | 17 => ⟨S100000x6, .i1⟩
  | 18 => ⟨S_, .i32⟩
  | 19 => ⟨S100000x6, .i32⟩
  | 20 => ⟨S100000x6, .i32⟩
  | 21 => ⟨S100000x6, .i32⟩
  | 22 => ⟨S100000x6x1, .i32⟩
  | 23 => ⟨S100000x6x256, .f32⟩
  | 24 => ⟨S_, .f32⟩
  | 25 => ⟨S100000x256, .f32⟩
  | 26 => ⟨S_, .f32⟩
  | 27 => ⟨S100000x256, .f32⟩
  | 28 => ⟨S100000x256, .f32⟩
  | 29 => ⟨S100000x768, .f32⟩
  | 30 => ⟨S100000x256, .f32⟩
  | 31 => ⟨S100000x256, .f32⟩
  | 32 => ⟨S1x256, .f32⟩
  | 33 => ⟨S100000x256, .f32⟩
  | 34 => ⟨S100000x256, .f32⟩
  | 35 => ⟨S_, .f32⟩
  | 36 => ⟨S100000x256, .f32⟩
  | 37 => ⟨S100000x256, .f32⟩
  | 38 => ⟨S5000, .i32⟩
  | 39 => ⟨S1, .i32⟩
  | 40 => ⟨S4999, .i32⟩
  | 41 => ⟨S5000, .i32⟩
  | 42 => ⟨S_, .i32⟩
  | 43 => ⟨S1, .i32⟩
  | 44 => ⟨S_, .i32⟩
  | 45 => ⟨S5000, .i32⟩
  | 46 => ⟨S_, .i32⟩
  | 47 => ⟨S_, .i32⟩
  | 48 => ⟨S5000, .i32⟩
  | 49 => ⟨S_, .i32⟩
  | 50 => ⟨S100000, .i32⟩
  | 51 => ⟨S_, .i32⟩
  | 52 => ⟨S5000, .i32⟩
  | 53 => ⟨S5000, .i1⟩
  | 54 => ⟨S_, .i32⟩
  | 55 => ⟨S5000, .i32⟩
  | 56 => ⟨S5000, .i32⟩
  | 57 => ⟨S5000, .i32⟩
  | 58 => ⟨S5000x1, .i32⟩
  | 59 => ⟨S_, .i32⟩
  | 60 => ⟨S5000, .i32⟩
  | 61 => ⟨S100000, .i32⟩
  | 62 => ⟨S_, .i32⟩
  | 63 => ⟨S_, .i32⟩
  | 64 => ⟨S100000, .i32⟩
  | 65 => ⟨S_, .i32⟩
  | 66 => ⟨S100000, .i32⟩
  | 67 => ⟨S100000, .i32⟩
  | 68 => ⟨S_, .i32⟩
  | 69 => ⟨S100000, .i32⟩
  | 70 => ⟨S100000, .i1⟩
  | 71 => ⟨S_, .i32⟩
  | 72 => ⟨S100000, .i32⟩
  | 73 => ⟨S100000, .i32⟩
  | 74 => ⟨S100000, .i32⟩
  | 75 => ⟨S100000x1, .i32⟩
  | 76 => ⟨S1, .i32⟩
  | 77 => ⟨S_, .i32⟩
  | 78 => ⟨S100000x1, .i32⟩
  | 79 => ⟨S100000x1, .i1⟩
  | 80 => ⟨S1x1, .i32⟩
  | 81 => ⟨S100000x1, .i32⟩
  | 82 => ⟨S100000x1, .i1⟩
  | 83 => ⟨S100000x1, .i1⟩
  | 84 => ⟨S_, .i1⟩
  | 85 => ⟨S100000, .i1⟩
  | 86 => ⟨S100000, .i32⟩
  | 87 => ⟨S_, .i32⟩
  | 88 => ⟨S100000, .i32⟩
  | 89 => ⟨S100000, .i32⟩
  | 90 => ⟨S_, .f32⟩
  | 91 => ⟨S5000x256, .f32⟩
  | 92 => ⟨S100000x1, .i32⟩
  | 93 => ⟨S5000x256, .f32⟩
  | 94 => ⟨S5000x1, .i32⟩
  | 95 => ⟨S5000x1, .f32⟩
  | 96 => ⟨S5000x256, .f32⟩
  | 97 => ⟨S5000x256, .f32⟩
  | _ => ⟨S100000x133, .f32⟩

abbrev hbmTy (i : Nat) : BufTy := match i / 128 with
  | 0 => hbmTy0_0 i
  | 1 => hbmTy0_1 i
  | _ => ⟨S100000x133, .f32⟩

abbrev bufTy : (tb : Table) → Fin (tcTables nBuf tb) → BufTy
  | .hbm, ⟨i, _⟩ => hbmTy i
  | _, _ => ⟨S100000x133, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_call0_cst : Ref sig .tc := ⟨.hbm, 13, rfl⟩
abbrev main_call0_v0 : Ref sig .tc := ⟨.hbm, 14, rfl⟩
abbrev main_v1 : Ref sig .tc := ⟨.hbm, 15, rfl⟩
abbrev main_v2 : Ref sig .tc := ⟨.hbm, 16, rfl⟩
abbrev main_call1_cst : Ref sig .tc := ⟨.hbm, 17, rfl⟩
abbrev main_call1_v0 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c_2 : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_call2_cst : Ref sig .tc := ⟨.hbm, 58, rfl⟩
abbrev main_call2_v0 : Ref sig .tc := ⟨.hbm, 59, rfl⟩
abbrev main_v34 : Ref sig .tc := ⟨.hbm, 60, rfl⟩
abbrev main_c_6 : Ref sig .tc := ⟨.hbm, 61, rfl⟩
abbrev main_v35 : Ref sig .tc := ⟨.hbm, 62, rfl⟩
abbrev main_v36 : Ref sig .tc := ⟨.hbm, 63, rfl⟩
abbrev main_c_7 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_8 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_c_10 : Ref sig .tc := ⟨.hbm, 76, rfl⟩
abbrev main_v46 : Ref sig .tc := ⟨.hbm, 77, rfl⟩
abbrev main_v47 : Ref sig .tc := ⟨.hbm, 78, rfl⟩
abbrev main_c_11 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_c_12 : Ref sig .tc := ⟨.hbm, 85, rfl⟩
abbrev main_v53 : Ref sig .tc := ⟨.hbm, 86, rfl⟩
abbrev main_v54 : Ref sig .tc := ⟨.hbm, 87, rfl⟩
abbrev main_c_13 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_call3_cst : Ref sig .tc := ⟨.hbm, 99, rfl⟩
abbrev main_call3_v0 : Ref sig .tc := ⟨.hbm, 100, rfl⟩
abbrev main_v65 : Ref sig .tc := ⟨.hbm, 101, rfl⟩
abbrev main_c_14 : Ref sig .tc := ⟨.hbm, 102, rfl⟩
abbrev main_v66 : Ref sig .tc := ⟨.hbm, 103, rfl⟩
abbrev main_v67 : Ref sig .tc := ⟨.hbm, 104, rfl⟩
abbrev main_c_15 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_16 : Ref sig .tc := ⟨.hbm, 111, rfl⟩
abbrev main_v73 : Ref sig .tc := ⟨.hbm, 112, rfl⟩
abbrev main_cst_17 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_c_18 : Ref sig .tc := ⟨.hbm, 117, rfl⟩
abbrev main_v77 : Ref sig .tc := ⟨.hbm, 118, rfl⟩
abbrev main_v78 : Ref sig .tc := ⟨.hbm, 119, rfl⟩
abbrev main_c_19 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_c_20 : Ref sig .tc := ⟨.hbm, 126, rfl⟩
abbrev main_v84 : Ref sig .tc := ⟨.hbm, 127, rfl⟩
abbrev main_v85 : Ref sig .tc := ⟨.hbm, 128, rfl⟩
abbrev main_c_21 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_call4_cst : Ref sig .tc := ⟨.hbm, 140, rfl⟩
abbrev main_call4_v0 : Ref sig .tc := ⟨.hbm, 141, rfl⟩
abbrev main_v96 : Ref sig .tc := ⟨.hbm, 142, rfl⟩
abbrev main_c_22 : Ref sig .tc := ⟨.hbm, 143, rfl⟩
abbrev main_v97 : Ref sig .tc := ⟨.hbm, 144, rfl⟩
abbrev main_v98 : Ref sig .tc := ⟨.hbm, 145, rfl⟩
abbrev main_c_23 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_cst_24 : Ref sig .tc := ⟨.hbm, 152, rfl⟩
abbrev main_v104 : Ref sig .tc := ⟨.hbm, 153, rfl⟩
abbrev main_cst_25 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_call5_cst : Ref sig .tc := ⟨.hbm, 163, rfl⟩
abbrev main_call5_v0 : Ref sig .tc := ⟨.hbm, 164, rfl⟩
abbrev main_v113 : Ref sig .tc := ⟨.hbm, 165, rfl⟩
abbrev main_v114 : Ref sig .tc := ⟨.hbm, 166, rfl⟩
abbrev main_call6_v0 : Ref sig .tc := ⟨.hbm, 167, rfl⟩
abbrev main_call6_v1 : Ref sig .tc := ⟨.hbm, 168, rfl⟩
abbrev main_v115 : Ref sig .tc := ⟨.hbm, 169, rfl⟩
abbrev main_c_26 : Ref sig .tc := ⟨.hbm, 170, rfl⟩
abbrev main_v116 : Ref sig .tc := ⟨.hbm, 171, rfl⟩
abbrev main_c_27 : Ref sig .tc := ⟨.hbm, 172, rfl⟩
abbrev main_v117 : Ref sig .tc := ⟨.hbm, 173, rfl⟩
abbrev main_call7_call0_c : Ref sig .tc := ⟨.hbm, 174, rfl⟩
abbrev main_call7_call0_v0 : Ref sig .tc := ⟨.hbm, 175, rfl⟩
abbrev main_v118 : Ref sig .tc := ⟨.hbm, 176, rfl⟩
abbrev main_c_28 : Ref sig .tc := ⟨.hbm, 177, rfl⟩
abbrev main_v119 : Ref sig .tc := ⟨.hbm, 178, rfl⟩
abbrev main_c_29 : Ref sig .tc := ⟨.hbm, 179, rfl⟩
abbrev main_v120 : Ref sig .tc := ⟨.hbm, 180, rfl⟩
abbrev main_v121 : Ref sig .tc := ⟨.hbm, 181, rfl⟩
abbrev main_c_30 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_c_31 : Ref sig .tc := ⟨.hbm, 187, rfl⟩
abbrev main_v126 : Ref sig .tc := ⟨.hbm, 188, rfl⟩
abbrev main_v127 : Ref sig .tc := ⟨.hbm, 189, rfl⟩
abbrev main_call8_call0_c : Ref sig .tc := ⟨.hbm, 190, rfl⟩
abbrev main_call8_call0_v0 : Ref sig .tc := ⟨.hbm, 191, rfl⟩
abbrev main_v128 : Ref sig .tc := ⟨.hbm, 192, rfl⟩
abbrev main_c_32 : Ref sig .tc := ⟨.hbm, 193, rfl⟩
abbrev main_v129 : Ref sig .tc := ⟨.hbm, 194, rfl⟩
abbrev main_v130 : Ref sig .tc := ⟨.hbm, 195, rfl⟩
abbrev main_call9_c : Ref sig .tc := ⟨.hbm, 196, rfl⟩
abbrev main_call9_v0 : Ref sig .tc := ⟨.hbm, 197, rfl⟩
abbrev main_call9_v1 : Ref sig .tc := ⟨.hbm, 198, rfl⟩
abbrev main_call9_c_0 : Ref sig .tc := ⟨.hbm, 199, rfl⟩
abbrev main_call9_v2 : Ref sig .tc := ⟨.hbm, 200, rfl⟩
abbrev main_call9_v3 : Ref sig .tc := ⟨.hbm, 201, rfl⟩
abbrev main_call9_v4 : Ref sig .tc := ⟨.hbm, 202, rfl⟩
abbrev main_call9_v5 : Ref sig .tc := ⟨.hbm, 203, rfl⟩
abbrev main_call9_c_1 : Ref sig .tc := ⟨.hbm, 204, rfl⟩
abbrev main_call9_c_2 : Ref sig .tc := ⟨.hbm, 205, rfl⟩
abbrev main_call9_v6 : Ref sig .tc := ⟨.hbm, 206, rfl⟩
abbrev main_call9_v7 : Ref sig .tc := ⟨.hbm, 207, rfl⟩
abbrev main_call9_v8 : Ref sig .tc := ⟨.hbm, 208, rfl⟩
abbrev main_call9_v9 : Ref sig .tc := ⟨.hbm, 209, rfl⟩
abbrev main_call9_v10 : Ref sig .tc := ⟨.hbm, 210, rfl⟩
abbrev main_call9_v11 : Ref sig .tc := ⟨.hbm, 211, rfl⟩
abbrev main_call9_c_3 : Ref sig .tc := ⟨.hbm, 212, rfl⟩
abbrev main_call9_v12 : Ref sig .tc := ⟨.hbm, 213, rfl⟩
abbrev main_call9_v13 : Ref sig .tc := ⟨.hbm, 214, rfl⟩
abbrev main_call9_c_4 : Ref sig .tc := ⟨.hbm, 215, rfl⟩
abbrev main_call9_v14 : Ref sig .tc := ⟨.hbm, 216, rfl⟩
abbrev main_v131 : Ref sig .tc := ⟨.hbm, 217, rfl⟩
abbrev main_cst_33 : Ref sig .tc := ⟨.hbm, 218, rfl⟩
abbrev main_v132 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_v136 : Ref sig .tc := ⟨.hbm, 223, rfl⟩
abbrev main_v137 : Ref sig .tc := ⟨.hbm, 224, rfl⟩
abbrev main_v138 : Ref sig .tc := ⟨.hbm, 225, rfl⟩

abbrev nD : Nat := 1
abbrev τ : Topo := Topo.v7x

variable {F : FTy → Type} [FloatOps F]

class Facts₀ : Prop where
  bcast_S_S100000x256 : S_.BroadcastsInDim S100000x256 (![] : Fin 0 → Fin S100000x256.rank)
  bcast_S_S200000x256 : S_.BroadcastsInDim S200000x256 (![] : Fin 0 → Fin S200000x256.rank)
  bcast_S_S100000x6 : S_.BroadcastsInDim S100000x6 (![] : Fin 0 → Fin S100000x6.rank)
  bcast_S100000x6_S100000x6x1_0_1 : S100000x6.BroadcastsInDim S100000x6x1 (![0, 1] : Fin 2 → Fin S100000x6x1.rank)
  reducesTo_S100000x6x256_S100000x256_d1 : S100000x6x256.ReducesTo [1] S100000x256
  h_S_ : 0 < S_.numel
  bcast_S_S200000 : S_.BroadcastsInDim S200000 (![] : Fin 0 → Fin S200000.rank)
  bcast_S200000_S200000x1_0 : S200000.BroadcastsInDim S200000x1 (![0] : Fin 1 → Fin S200000x1.rank)
  slices_S3x256x256_S1x256x256_0_0_0 : S3x256x256.Slices ![0, 0, 0] S1x256x256
  shapeCasts_S1x256x256_S256x256 : S1x256x256.ShapeCasts S256x256
  slices_S3x256x256_S1x256x256_1_0_0 : S3x256x256.Slices ![1, 0, 0] S1x256x256
  slices_S3x256x256_S1x256x256_2_0_0 : S3x256x256.Slices ![2, 0, 0] S1x256x256
  concatenates_S100000x256_S100000x256_S100000x256_S100000x768_d1 : Shape.Concatenates [S100000x256, S100000x256, S100000x256] S100000x768 1
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  slices_S5000_S1_4999 : S5000.Slices ![4999] S1
  slices_S5000_S4999_0 : S5000.Slices ![0] S4999
  concatenates_S1_S4999_S5000_d0 : Shape.Concatenates [S1, S4999] S5000 0
  bcast_S_S1 : S_.BroadcastsInDim S1 (![] : Fin 0 → Fin S1.rank)
  bcast_S_S_ : S_.BroadcastsInDim S_ (![] : Fin 0 → Fin S_.rank)
  reduceWindows_S5000_S5000_w5000s1p4999_0 : S5000.ReduceWindows (![5000] : Fin 1 → Nat) ![1] ![4999] ![0] S5000
  bcast_S_S100000 : S_.BroadcastsInDim S100000 (![] : Fin 0 → Fin S100000.rank)
  bcast_S_S5000 : S_.BroadcastsInDim S5000 (![] : Fin 0 → Fin S5000.rank)
  bcast_S5000_S5000x1_0 : S5000.BroadcastsInDim S5000x1 (![0] : Fin 1 → Fin S5000x1.rank)
  reduceWindows_S100000_S100000_w100000s1p99999_0 : S100000.ReduceWindows (![100000] : Fin 1 → Nat) ![1] ![99999] ![0] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  bcast_S_S5000x256 : S_.BroadcastsInDim S5000x256 (![] : Fin 0 → Fin S5000x256.rank)
  bcast_S5000x1_S5000x256_0_1 : S5000x1.BroadcastsInDim S5000x256 (![0, 1] : Fin 2 → Fin S5000x256.rank)
  dot_S100000x133_S133x256_S100000x256_1_0_0_1_n_n_wf : DotDims.WF S100000x133 S133x256 S100000x256 [1] [0] [0] [1] [] []
  dot_S200000x147_S147x256_S200000x256_1_0_0_1_n_n_wf : DotDims.WF S200000x147 S147x256 S200000x256 [1] [0] [0] [1] [] []
  gather_S200000x256_S100000x6x1_S100000x6x256_2_0_n_n_0_2_1256_wf : GatherDims.WF S200000x256 S100000x6x1 S100000x6x256 [2] [0] [] [0] [] 2 ![1, 256]
  gather_S200000x256_S200000x1_S200000x256_1_0_n_n_0_1_1256_wf : GatherDims.WF S200000x256 S200000x1 S200000x256 [1] [0] [] [0] [] 1 ![1, 256]
  gather_S100000x256_S200000x1_S200000x256_1_0_n_n_0_1_1256_wf : GatherDims.WF S100000x256 S200000x1 S200000x256 [1] [0] [] [0] [] 1 ![1, 256]
  dot_S200000x256_S256x256_S200000x256_1_0_0_1_n_n_wf : DotDims.WF S200000x256 S256x256 S200000x256 [1] [0] [0] [1] [] []
  dot_S100000x768_S768x256_S100000x256_1_0_0_1_n_n_wf : DotDims.WF S100000x768 S768x256 S100000x256 [1] [0] [0] [1] [] []
  dot_S100000x256_S256x256_S100000x256_1_0_0_1_n_n_wf : DotDims.WF S100000x256 S256x256 S100000x256 [1] [0] [0] [1] [] []
  scatter_S5000_S1_S__n_0_0_0_wf : ScatterDims.WF S5000 S1 S_ [] [0] [0] 0
  scatter_S100000_S5000x1_S5000_n_0_0_1_wf : ScatterDims.WF S100000 S5000x1 S5000 [] [0] [0] 1
  gather_S5000_S100000x1_S100000_n_0_n_n_0_1_1_wf : GatherDims.WF S5000 S100000x1 S100000 [] [0] [] [0] [] 1 ![1]
  scatter_S5000x256_S100000x1_S100000x256_1_0_0_1_wf : ScatterDims.WF S5000x256 S100000x1 S100000x256 [1] [0] [0] 1

variable [Facts₀]

def dot_S100000x133_S133x256_S100000x256_1_0_0_1_n_n : DotDims S100000x133 S133x256 S100000x256 where
  lhsContracting := [1]
  rhsContracting := [0]
  lhsNonContracting := [0]
  rhsNonContracting := [1]
  lhsBatch := []
  rhsBatch := []
  wf := dot_S100000x133_S133x256_S100000x256_1_0_0_1_n_n_wf
def dot_S200000x147_S147x256_S200000x256_1_0_0_1_n_n : DotDims S200000x147 S147x256 S200000x256 where
  lhsContracting := [1]
  rhsContracting := [0]
  lhsNonContracting := [0]
  rhsNonContracting := [1]
  lhsBatch := []
  rhsBatch := []
  wf := dot_S200000x147_S147x256_S200000x256_1_0_0_1_n_n_wf
def gather_S200000x256_S100000x6x1_S100000x6x256_2_0_n_n_0_2_1256 : GatherDims S200000x256 S100000x6x1 S100000x6x256 where
  offsetDims := [2]
  collapsedSliceDims := [0]
  operandBatchingDims := []
  startIndicesBatchingDims := []
  startIndexMap := [0]
  indexVectorDim := 2
  sliceSizes := ![1, 256]
  wf := gather_S200000x256_S100000x6x1_S100000x6x256_2_0_n_n_0_2_1256_wf
def gather_S200000x256_S200000x1_S200000x256_1_0_n_n_0_1_1256 : GatherDims S200000x256 S200000x1 S200000x256 where
  offsetDims := [1]
  collapsedSliceDims := [0]
  operandBatchingDims := []
  startIndicesBatchingDims := []
  startIndexMap := [0]
  indexVectorDim := 1
  sliceSizes := ![1, 256]
  wf := gather_S200000x256_S200000x1_S200000x256_1_0_n_n_0_1_1256_wf
def gather_S100000x256_S200000x1_S200000x256_1_0_n_n_0_1_1256 : GatherDims S100000x256 S200000x1 S200000x256 where
  offsetDims := [1]
  collapsedSliceDims := [0]
  operandBatchingDims := []
  startIndicesBatchingDims := []
  startIndexMap := [0]
  indexVectorDim := 1
  sliceSizes := ![1, 256]
  wf := gather_S100000x256_S200000x1_S200000x256_1_0_n_n_0_1_1256_wf
def dot_S200000x256_S256x256_S200000x256_1_0_0_1_n_n : DotDims S200000x256 S256x256 S200000x256 where
  lhsContracting := [1]
  rhsContracting := [0]
  lhsNonContracting := [0]
  rhsNonContracting := [1]
  lhsBatch := []
  rhsBatch := []
  wf := dot_S200000x256_S256x256_S200000x256_1_0_0_1_n_n_wf
def dot_S100000x768_S768x256_S100000x256_1_0_0_1_n_n : DotDims S100000x768 S768x256 S100000x256 where
  lhsContracting := [1]
  rhsContracting := [0]
  lhsNonContracting := [0]
  rhsNonContracting := [1]
  lhsBatch := []
  rhsBatch := []
  wf := dot_S100000x768_S768x256_S100000x256_1_0_0_1_n_n_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def scatter_S5000_S1_S__n_0_0_0 : ScatterDims S5000 S1 S_ where
  updateWindowDims := []
  insertedWindowDims := [0]
  scatterDimsToOperandDims := [0]
  indexVectorDim := 0
  wf := scatter_S5000_S1_S__n_0_0_0_wf
def scatter_S100000_S5000x1_S5000_n_0_0_1 : ScatterDims S100000 S5000x1 S5000 where
  updateWindowDims := []
  insertedWindowDims := [0]
  scatterDimsToOperandDims := [0]
  indexVectorDim := 1
  wf := scatter_S100000_S5000x1_S5000_n_0_0_1_wf
def gather_S5000_S100000x1_S100000_n_0_n_n_0_1_1 : GatherDims S5000 S100000x1 S100000 where
  offsetDims := []
  collapsedSliceDims := [0]
  operandBatchingDims := []
  startIndicesBatchingDims := []
  startIndexMap := [0]
  indexVectorDim := 1
  sliceSizes := ![1]
  wf := gather_S5000_S100000x1_S100000_n_0_n_n_0_1_1_wf
def scatter_S5000x256_S100000x1_S100000x256_1_0_0_1 : ScatterDims S5000x256 S100000x1 S100000x256 where
  updateWindowDims := [1]
  insertedWindowDims := [0]
  scatterDimsToOperandDims := [0]
  indexVectorDim := 1
  wf := scatter_S5000x256_S100000x1_S100000x256_1_0_0_1_wf

class Facts : Prop extends Facts₀ where

variable [Facts]
-- ==== Proof.RefOps.lean ====
/- The printed reference program's @main as literal lists of its host operations, one list per printed window
   main_partK, every call of a module-local function laid out as that function's operations over the call's own
   buffer record; and, per list, that each operation's buffers are TensorCore buffers. -/
import proofs.«413102_j68977174774322_1_alg».proof.Proof.Gen.ReferenceIdeal
import Idealize.ShloMosaic.Lib.StableHlo.Run

noncomputable section

namespace Cert.ReferenceIdeal.HostLine

open Cert.ReferenceIdeal Cert.ReferenceIdeal.Gen Idealize.ShloMosaic Idealize.ShloMosaic.TcCoe Idealize.SL.Sem Idealize.ShloMosaic.StableHlo

variable {F : FTy → Type} [FloatOps F]

/-- The operations of window main_part0, in order (66). -/
abbrev line0 : List (HloOp τ sig (Elt F)) :=
  [ StableHlo.binary main_arg0 main_arg2 main_v0 ((fun l r => Host.dotGeneral dot_S100000x133_S133x256_S100000x256_1_0_0_1_n_n none l r) : (⟨S100000x133, .f32⟩ : BufTy).Contents (Elt F) → (⟨S133x256, .f32⟩ : BufTy).Contents (Elt F) → (⟨S100000x256, .f32⟩ : BufTy).Contents (Elt F)),
    StableHlo.TRef.nullary main_call0.cst (constant S_ .f32 0x00000000#32),
    StableHlo.TRef.unary main_call0.cst main_call0.v0 (broadcastInDim S100000x256 ![] bcast_S_S100000x256),
    StableHlo.TRef.binary (.of main_v0 : StableHlo.TRef sig ⟨S100000x256, .f32⟩) main_call0.v0 main_call0.v1 maximumf,
    StableHlo.binary main_arg1 main_arg3 main_v2 ((fun l r => Host.dotGeneral dot_S200000x147_S147x256_S200000x256_1_0_0_1_n_n none l r) : (⟨S200000x147, .f32⟩ : BufTy).Contents (Elt F) → (⟨S147x256, .f32⟩ : BufTy).Contents (Elt F) → (⟨S200000x256, .f32⟩ : BufTy).Contents (Elt F)),
    StableHlo.TRef.nullary main_call1.cst (constant S_ .f32 0x00000000#32),
    StableHlo.TRef.unary main_call1.cst main_call1.v0 (broadcastInDim S200000x256 ![] bcast_S_S200000x256),
    StableHlo.TRef.binary (.of main_v2 : StableHlo.TRef sig ⟨S200000x256, .f32⟩) main_call1.v0 main_call1.v1 maximumf,
    StableHlo.nullary main_c (constantI S_ 32 0#32),
    StableHlo.unary main_c main_v4 (broadcastInDim S100000x6 ![] bcast_S_S100000x6 : (⟨S_, .i32⟩ : BufTy).Contents (Elt F) → (⟨S100000x6, .i32⟩ : BufTy).Contents (Elt F)),
    StableHlo.binary main_arg8 main_v4 main_v5 (cmpi .slt : (⟨S100000x6, .i32⟩ : BufTy).Contents (Elt F) → (⟨S100000x6, .i32⟩ : BufTy).Contents (Elt F) → (⟨S100000x6, .i1⟩ : BufTy).Contents (Elt F)),
    StableHlo.nullary main_c_0 (constantI S_ 32 200000#32),
    StableHlo.unary main_c_0 main_v6 (broadcastInDim S100000x6 ![] bcast_S_S100000x6 : (⟨S_, .i32⟩ : BufTy).Contents (Elt F) → (⟨S100000x6, .i32⟩ : BufTy).Contents (Elt F)),
    StableHlo.binary main_arg8 main_v6 main_v7 (addi : (⟨S100000x6, .i32⟩ : BufTy).Contents (Elt F) → (⟨S100000x6, .i32⟩ : BufTy).Contents (Elt F) → (⟨S100000x6, .i32⟩ : BufTy).Contents (Elt F)),
    StableHlo.ternary main_v5 main_v7 main_arg8 main_v8 (select : (⟨S100000x6, .i1⟩ : BufTy).Contents (Elt F) → (⟨S100000x6, .i32⟩ : BufTy).Contents (Elt F) → (⟨S100000x6, .i32⟩ : BufTy).Contents (Elt F) → (⟨S100000x6, .i32⟩ : BufTy).Contents (Elt F)),
    StableHlo.unary main_v8 main_v9 (broadcastInDim S100000x6x1 ![0, 1] bcast_S100000x6_S100000x6x1_0_1 : (⟨S100000x6, .i32⟩ : BufTy).Contents (Elt F) → (⟨S100000x6x1, .i32⟩ : BufTy).Contents (Elt F)),
    StableHlo.binary main_v3 main_v9 main_v10 ((fun x i => Host.gather gather_S200000x256_S100000x6x1_S100000x6x256_2_0_n_n_0_2_1256 x i) : (⟨S200000x256, .f32⟩ : BufTy).Contents (Elt F) → (⟨S100000x6x1, .i32⟩ : BufTy).Contents (Elt F) → (⟨S100000x6x256, .f32⟩ : BufTy).Contents (Elt F)),
    StableHlo.nullary main_cst (constant S_ .f32 0x00000000#32),
    StableHlo.binary main_v10 main_cst main_v11 ((fun x v => Host.reduceAdd x v reducesTo_S100000x6x256_S100000x256_d1 h_S_) : (⟨S100000x6x256, .f32⟩ : BufTy).Contents (Elt F) → (⟨S_, .f32⟩ : BufTy).Contents (Elt F) → (⟨S100000x256, .f32⟩ : BufTy).Contents (Elt F)),
    StableHlo.nullary main_cst_1 (constant S_ .f32 0xFF800000#32),
    StableHlo.binary main_v10 main_cst_1 main_v12 ((fun x v => Host.reduce FloatOps.maximumf x v reducesTo_S100000x6x256_S100000x256_d1 h_S_) : (⟨S100000x6x256, .f32⟩ : BufTy).Contents (Elt F) → (⟨S_, .f32⟩ : BufTy).Contents (Elt F) → (⟨S100000x256, .f32⟩ : BufTy).Contents (Elt F)),
    StableHlo.binary main_v11 main_v12 main_v13 (mulf : (⟨S100000x256, .f32⟩ : BufTy).Contents (Elt F) → (⟨S100000x256, .f32⟩ : BufTy).Contents (Elt F) → (⟨S100000x256, .f32⟩ : BufTy).Contents (Elt F)),
    StableHlo.binary main_v1 main_v13 main_v14 (addf : (⟨S100000x256, .f32⟩ : BufTy).Contents (Elt F) → (⟨S100000x256, .f32⟩ : BufTy).Contents (Elt F) → (⟨S100000x256, .f32⟩ : BufTy).Contents (Elt F)),
    StableHlo.nullary main_c_2 (constantI S_ 32 0#32),
    StableHlo.unary main_c_2 main_v15 (broadcastInDim S200000 ![] bcast_S_S200000 : (⟨S_, .i32⟩ : BufTy).Contents (Elt F) → (⟨S200000, .i32⟩ : BufTy).Contents (Elt F)),
    StableHlo.binary main_arg10 main_v15 main_v16 (cmpi .slt : (⟨S200000, .i32⟩ : BufTy).Contents (Elt F) → (⟨S200000, .i32⟩ : BufTy).Contents (Elt F) → (⟨S200000, .i1⟩ : BufTy).Contents (Elt F)),
    StableHlo.nullary main_c_3 (constantI S_ 32 200000#32),
    StableHlo.unary main_c_3 main_v17 (broadcastInDim S200000 ![] bcast_S_S200000 : (⟨S_, .i32⟩ : BufTy).Contents (Elt F) → (⟨S200000, .i32⟩ : BufTy).Contents (Elt F)),
    StableHlo.binary main_arg10 main_v17 main_v18 (addi : (⟨S200000, .i32⟩ : BufTy).Contents (Elt F) → (⟨S200000, .i32⟩ : BufTy).Contents (Elt F) → (⟨S200000, .i32⟩ : BufTy).Contents (Elt F)),
    StableHlo.ternary main_v16 main_v18 main_arg10 main_v19 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v19 main_v20 (broadcastInDim S200000x1 ![0] bcast_S200000_S200000x1_0 : (⟨S200000, .i32⟩ : BufTy).Contents (Elt F) → (⟨S200000x1, .i32⟩ : BufTy).Contents (Elt F)),
    StableHlo.binary main_v3 main_v20 main_v21 ((fun x i => Host.gather gather_S200000x256_S200000x1_S200000x256_1_0_n_n_0_1_1256 x i) : (⟨S200000x256, .f32⟩ : BufTy).Contents (Elt F) → (⟨S200000x1, .i32⟩ : BufTy).Contents (Elt F) → (⟨S200000x256, .f32⟩ : BufTy).Contents (Elt F)),
    StableHlo.nullary main_c_4 (constantI S_ 32 0#32),
    StableHlo.unary main_c_4 main_v22 (broadcastInDim S200000 ![] bcast_S_S200000 : (⟨S_, .i32⟩ : BufTy).Contents (Elt F) → (⟨S200000, .i32⟩ : BufTy).Contents (Elt F)),
    StableHlo.binary main_arg9 main_v22 main_v23 (cmpi .slt : (⟨S200000, .i32⟩ : BufTy).Contents (Elt F) → (⟨S200000, .i32⟩ : BufTy).Contents (Elt F) → (⟨S200000, .i1⟩ : BufTy).Contents (Elt F)),
    StableHlo.nullary main_c_5 (constantI S_ 32 100000#32),
    StableHlo.unary main_c_5 main_v24 (broadcastInDim S200000 ![] bcast_S_S200000 : (⟨S_, .i32⟩ : BufTy).Contents (Elt F) → (⟨S200000, .i32⟩ : BufTy).Contents (Elt F)),
    StableHlo.binary main_arg9 main_v24 main_v25 (addi : (⟨S200000, .i32⟩ : BufTy).Contents (Elt F) → (⟨S200000, .i32⟩ : BufTy).Contents (Elt F) → (⟨S200000, .i32⟩ : BufTy).Contents (Elt F)),
    StableHlo.ternary main_v23 main_v25 main_arg9 main_v26 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v26 main_v27 (broadcastInDim S200000x1 ![0] bcast_S200000_S200000x1_0 : (⟨S200000, .i32⟩ : BufTy).Contents (Elt F) → (⟨S200000x1, .i32⟩ : BufTy).Contents (Elt F)),
    StableHlo.binary main_v14 main_v27 main_v28 ((fun x i => Host.gather gather_S100000x256_S200000x1_S200000x256_1_0_n_n_0_1_1256 x i) : (⟨S100000x256, .f32⟩ : BufTy).Contents (Elt F) → (⟨S200000x1, .i32⟩ : BufTy).Contents (Elt F) → (⟨S200000x256, .f32⟩ : BufTy).Contents (Elt F)),
    StableHlo.binary main_v28 main_v21 main_v29 (subf : (⟨S200000x256, .f32⟩ : BufTy).Contents (Elt F) → (⟨S200000x256, .f32⟩ : BufTy).Contents (Elt F) → (⟨S200000x256, .f32⟩ : BufTy).Contents (Elt F)),
    StableHlo.unary main_arg4 main_v30 ((extractStridedSlice S1x256x256 ![0, 0, 0] · slices_S3x256x256_S1x256x256_0_0_0) : (⟨S3x256x256, .f32⟩ : BufTy).Contents (Elt F) → (⟨S1x256x256, .f32⟩ : BufTy).Contents (Elt F)),
    StableHlo.reshape main_v30 main_v31 rfl shapeCasts_S1x256x256_S256x256,
    StableHlo.binary main_v29 main_v31 main_v32 ((fun l r => Host.dotGeneral dot_S200000x256_S256x256_S200000x256_1_0_0_1_n_n none l r) : (⟨S200000x256, .f32⟩ : BufTy).Contents (Elt F) → (⟨S256x256, .f32⟩ : BufTy).Contents (Elt F) → (⟨S200000x256, .f32⟩ : BufTy).Contents (Elt F)),
    StableHlo.binary main_v3 main_v32 main_v33 (addf : (⟨S200000x256, .f32⟩ : BufTy).Contents (Elt F) → (⟨S200000x256, .f32⟩ : BufTy).Contents (Elt F) → (⟨S200000x256, .f32⟩ : BufTy).Contents (Elt F)),
    StableHlo.TRef.nullary main_call2.cst (constant S_ .f32 0x00000000#32),
    StableHlo.TRef.unary main_call2.cst main_call2.v0 (broadcastInDim S200000x256 ![] bcast_S_S200000x256),
    StableHlo.TRef.binary (.of main_v33 : StableHlo.TRef sig ⟨S200000x256, .f32⟩) main_call2.v0 main_call2.v1 maximumf,
    StableHlo.nullary main_c_6 (constantI S_ 32 0#32),
    StableHlo.unary main_c_6 main_v35 (broadcastInDim S100000x6 ![] bcast_S_S100000x6 : (⟨S_, .i32⟩ : BufTy).Contents (Elt F) → (⟨S100000x6, .i32⟩ : BufTy).Contents (Elt F)),
    StableHlo.binary main_arg8 main_v35 main_v36 (cmpi .slt : (⟨S100000x6, .i32⟩ : BufTy).Contents (Elt F) → (⟨S100000x6, .i32⟩ : BufTy).Contents (Elt F) → (⟨S100000x6, .i1⟩ : BufTy).Contents (Elt F)),
    StableHlo.nullary main_c_7 (constantI S_ 32 200000#32),
    StableHlo.unary main_c_7 main_v37 (broadcastInDim S100000x6 ![] bcast_S_S100000x6 : (⟨S_, .i32⟩ : BufTy).Contents (Elt F) → (⟨S100000x6, .i32⟩ : BufTy).Contents (Elt F)),
    StableHlo.binary main_arg8 main_v37 main_v38 (addi : (⟨S100000x6, .i32⟩ : BufTy).Contents (Elt F) → (⟨S100000x6, .i32⟩ : BufTy).Contents (Elt F) → (⟨S100000x6, .i32⟩ : BufTy).Contents (Elt F)),
    StableHlo.ternary main_v36 main_v38 main_arg8 main_v39 (select : (⟨S100000x6, .i1⟩ : BufTy).Contents (Elt F) → (⟨S100000x6, .i32⟩ : BufTy).Contents (Elt F) → (⟨S100000x6, .i32⟩ : BufTy).Contents (Elt F) → (⟨S100000x6, .i32⟩ : BufTy).Contents (Elt F)),
    StableHlo.unary main_v39 main_v40 (broadcastInDim S100000x6x1 ![0, 1] bcast_S100000x6_S100000x6x1_0_1 : (⟨S100000x6, .i32⟩ : BufTy).Contents (Elt F) → (⟨S100000x6x1, .i32⟩ : BufTy).Contents (Elt F)),
    StableHlo.binary main_v34 main_v40 main_v41 ((fun x i => Host.gather gather_S200000x256_S100000x6x1_S100000x6x256_2_0_n_n_0_2_1256 x i) : (⟨S200000x256, .f32⟩ : BufTy).Contents (Elt F) → (⟨S100000x6x1, .i32⟩ : BufTy).Contents (Elt F) → (⟨S100000x6x256, .f32⟩ : BufTy).Contents (Elt F)),
    StableHlo.nullary main_cst_8 (constant S_ .f32 0x00000000#32),
    StableHlo.binary main_v41 main_cst_8 main_v42 ((fun x v => Host.reduceAdd x v reducesTo_S100000x6x256_S100000x256_d1 h_S_) : (⟨S100000x6x256, .f32⟩ : BufTy).Contents (Elt F) → (⟨S_, .f32⟩ : BufTy).Contents (Elt F) → (⟨S100000x256, .f32⟩ : BufTy).Contents (Elt F)),
    StableHlo.nullary main_cst_9 (constant S_ .f32 0xFF800000#32),
    StableHlo.binary main_v41 main_cst_9 main_v43 ((fun x v => Host.reduce FloatOps.maximumf x v reducesTo_S100000x6x256_S100000x256_d1 h_S_) : (⟨S100000x6x256, .f32⟩ : BufTy).Contents (Elt F) → (⟨S_, .f32⟩ : BufTy).Contents (Elt F) → (⟨S100000x256, .f32⟩ : BufTy).Contents (Elt F)),
    StableHlo.binary main_v42 main_v43 main_v44 (mulf : (⟨S100000x256, .f32⟩ : BufTy).Contents (Elt F) → (⟨S100000x256, .f32⟩ : BufTy).Contents (Elt F) → (⟨S100000x256, .f32⟩ : BufTy).Contents (Elt F)),
    StableHlo.binary main_v14 main_v44 main_v45 (addf : (⟨S100000x256, .f32⟩ : BufTy).Contents (Elt F) → (⟨S100000x256, .f32⟩ : BufTy).Contents (Elt F) → (⟨S100000x256, .f32⟩ : BufTy).Contents (Elt F)),
    StableHlo.nullary main_c_10 (constantI S_ 32 0#32),
    StableHlo.unary main_c_10 main_v46 (broadcastInDim S200000 ![] bcast_S_S200000 : (⟨S_, .i32⟩ : BufTy).Contents (Elt F) → (⟨S200000, .i32⟩ : BufTy).Contents (Elt F)) ]

set_option maxRecDepth 8192 in
theorem line0_sub : (line0 : List (HloOp τ sig (Elt F))).Forall fun op => op.bufs ⊆ tcRefs τ sig :=
  ⟨binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., nullary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., nullary_bufs_sub .., binary_bufs_sub .., binary_bufs_sub .., binary_bufs_sub .., nullary_bufs_sub .., unary_bufs_sub ..⟩

/-- The operations of window main_part1, in order (62). -/
abbrev line1 : List (HloOp τ sig (Elt F)) :=
  [ StableHlo.binary main_arg10 main_v46 main_v47 (cmpi .slt : (⟨S200000, .i32⟩ : BufTy).Contents (Elt F) → (⟨S200000, .i32⟩ : BufTy).Contents (Elt F) → (⟨S200000, .i1⟩ : BufTy).Contents (Elt F)),
    StableHlo.nullary main_c_11 (constantI S_ 32 200000#32),
    StableHlo.unary main_c_11 main_v48 (broadcastInDim S200000 ![] bcast_S_S200000 : (⟨S_, .i32⟩ : BufTy).Contents (Elt F) → (⟨S200000, .i32⟩ : BufTy).Contents (Elt F)),
    StableHlo.binary main_arg10 main_v48 main_v49 (addi : (⟨S200000, .i32⟩ : BufTy).Contents (Elt F) → (⟨S200000, .i32⟩ : BufTy).Contents (Elt F) → (⟨S200000, .i32⟩ : BufTy).Contents (Elt F)),
    StableHlo.ternary main_v47 main_v49 main_arg10 main_v50 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v50 main_v51 (broadcastInDim S200000x1 ![0] bcast_S200000_S200000x1_0 : (⟨S200000, .i32⟩ : BufTy).Contents (Elt F) → (⟨S200000x1, .i32⟩ : BufTy).Contents (Elt F)),
    StableHlo.binary main_v34 main_v51 main_v52 ((fun x i => Host.gather gather_S200000x256_S200000x1_S200000x256_1_0_n_n_0_1_1256 x i) : (⟨S200000x256, .f32⟩ : BufTy).Contents (Elt F) → (⟨S200000x1, .i32⟩ : BufTy).Contents (Elt F) → (⟨S200000x256, .f32⟩ : BufTy).Contents (Elt F)),
    StableHlo.nullary main_c_12 (constantI S_ 32 0#32),
    StableHlo.unary main_c_12 main_v53 (broadcastInDim S200000 ![] bcast_S_S200000 : (⟨S_, .i32⟩ : BufTy).Contents (Elt F) → (⟨S200000, .i32⟩ : BufTy).Contents (Elt F)),
    StableHlo.binary main_arg9 main_v53 main_v54 (cmpi .slt : (⟨S200000, .i32⟩ : BufTy).Contents (Elt F) → (⟨S200000, .i32⟩ : BufTy).Contents (Elt F) → (⟨S200000, .i1⟩ : BufTy).Contents (Elt F)),
    StableHlo.nullary main_c_13 (constantI S_ 32 100000#32),
    StableHlo.unary main_c_13 main_v55 (broadcastInDim S200000 ![] bcast_S_S200000 : (⟨S_, .i32⟩ : BufTy).Contents (Elt F) → (⟨S200000, .i32⟩ : BufTy).Contents (Elt F)),
    StableHlo.binary main_arg9 main_v55 main_v56 (addi : (⟨S200000, .i32⟩ : BufTy).Contents (Elt F) → (⟨S200000, .i32⟩ : BufTy).Contents (Elt F) → (⟨S200000, .i32⟩ : BufTy).Contents (Elt F)),
    StableHlo.ternary main_v54 main_v56 main_arg9 main_v57 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v57 main_v58 (broadcastInDim S200000x1 ![0] bcast_S200000_S200000x1_0 : (⟨S200000, .i32⟩ : BufTy).Contents (Elt F) → (⟨S200000x1, .i32⟩ : BufTy).Contents (Elt F)),
    StableHlo.binary main_v45 main_v58 main_v59 ((fun x i => Host.gather gather_S100000x256_S200000x1_S200000x256_1_0_n_n_0_1_1256 x i) : (⟨S100000x256, .f32⟩ : BufTy).Contents (Elt F) → (⟨S200000x1, .i32⟩ : BufTy).Contents (Elt F) → (⟨S200000x256, .f32⟩ : BufTy).Contents (Elt F)),
    StableHlo.binary main_v59 main_v52 main_v60 (subf : (⟨S200000x256, .f32⟩ : BufTy).Contents (Elt F) → (⟨S200000x256, .f32⟩ : BufTy).Contents (Elt F) → (⟨S200000x256, .f32⟩ : BufTy).Contents (Elt F)),
    StableHlo.unary main_arg4 main_v61 ((extractStridedSlice S1x256x256 ![1, 0, 0] · slices_S3x256x256_S1x256x256_1_0_0) : (⟨S3x256x256, .f32⟩ : BufTy).Contents (Elt F) → (⟨S1x256x256, .f32⟩ : BufTy).Contents (Elt F)),
    StableHlo.reshape main_v61 main_v62 rfl shapeCasts_S1x256x256_S256x256,
    StableHlo.binary main_v60 main_v62 main_v63 ((fun l r => Host.dotGeneral dot_S200000x256_S256x256_S200000x256_1_0_0_1_n_n none l r) : (⟨S200000x256, .f32⟩ : BufTy).Contents (Elt F) → (⟨S256x256, .f32⟩ : BufTy).Contents (Elt F) → (⟨S200000x256, .f32⟩ : BufTy).Contents (Elt F)),
    StableHlo.binary main_v3 main_v63 main_v64 (addf : (⟨S200000x256, .f32⟩ : BufTy).Contents (Elt F) → (⟨S200000x256, .f32⟩ : BufTy).Contents (Elt F) → (⟨S200000x256, .f32⟩ : BufTy).Contents (Elt F)),
    StableHlo.TRef.nullary main_call3.cst (constant S_ .f32 0x00000000#32),
    StableHlo.TRef.unary main_call3.cst main_call3.v0 (broadcastInDim S200000x256 ![] bcast_S_S200000x256),
    StableHlo.TRef.binary (.of main_v64 : StableHlo.TRef sig ⟨S200000x256, .f32⟩) main_call3.v0 main_call3.v1 maximumf,
    StableHlo.nullary main_c_14 (constantI S_ 32 0#32),
    StableHlo.unary main_c_14 main_v66 (broadcastInDim S100000x6 ![] bcast_S_S100000x6 : (⟨S_, .i32⟩ : BufTy).Contents (Elt F) → (⟨S100000x6, .i32⟩ : BufTy).Contents (Elt F)),
    StableHlo.binary main_arg8 main_v66 main_v67 (cmpi .slt : (⟨S100000x6, .i32⟩ : BufTy).Contents (Elt F) → (⟨S100000x6, .i32⟩ : BufTy).Contents (Elt F) → (⟨S100000x6, .i1⟩ : BufTy).Contents (Elt F)),
    StableHlo.nullary main_c_15 (constantI S_ 32 200000#32),
    StableHlo.unary main_c_15 main_v68 (broadcastInDim S100000x6 ![] bcast_S_S100000x6 : (⟨S_, .i32⟩ : BufTy).Contents (Elt F) → (⟨S100000x6, .i32⟩ : BufTy).Contents (Elt F)),
    StableHlo.binary main_arg8 main_v68 main_v69 (addi : (⟨S100000x6, .i32⟩ : BufTy).Contents (Elt F) → (⟨S100000x6, .i32⟩ : BufTy).Contents (Elt F) → (⟨S100000x6, .i32⟩ : BufTy).Contents (Elt F)),
    StableHlo.ternary main_v67 main_v69 main_arg8 main_v70 (select : (⟨S100000x6, .i1⟩ : BufTy).Contents (Elt F) → (⟨S100000x6, .i32⟩ : BufTy).Contents (Elt F) → (⟨S100000x6, .i32⟩ : BufTy).Contents (Elt F) → (⟨S100000x6, .i32⟩ : BufTy).Contents (Elt F)),
    StableHlo.unary main_v70 main_v71 (broadcastInDim S100000x6x1 ![0, 1] bcast_S100000x6_S100000x6x1_0_1 : (⟨S100000x6, .i32⟩ : BufTy).Contents (Elt F) → (⟨S100000x6x1, .i32⟩ : BufTy).Contents (Elt F)),
    StableHlo.binary main_v65 main_v71 main_v72 ((fun x i => Host.gather gather_S200000x256_S100000x6x1_S100000x6x256_2_0_n_n_0_2_1256 x i) : (⟨S200000x256, .f32⟩ : BufTy).Contents (Elt F) → (⟨S100000x6x1, .i32⟩ : BufTy).Contents (Elt F) → (⟨S100000x6x256, .f32⟩ : BufTy).Contents (Elt F)),
    StableHlo.nullary main_cst_16 (constant S_ .f32 0x00000000#32),
    StableHlo.binary main_v72 main_cst_16 main_v73 ((fun x v => Host.reduceAdd x v reducesTo_S100000x6x256_S100000x256_d1 h_S_) : (⟨S100000x6x256, .f32⟩ : BufTy).Contents (Elt F) → (⟨S_, .f32⟩ : BufTy).Contents (Elt F) → (⟨S100000x256, .f32⟩ : BufTy).Contents (Elt F)),
    StableHlo.nullary main_cst_17 (constant S_ .f32 0xFF800000#32),
    StableHlo.binary main_v72 main_cst_17 main_v74 ((fun x v => Host.reduce FloatOps.maximumf x v reducesTo_S100000x6x256_S100000x256_d1 h_S_) : (⟨S100000x6x256, .f32⟩ : BufTy).Contents (Elt F) → (⟨S_, .f32⟩ : BufTy).Contents (Elt F) → (⟨S100000x256, .f32⟩ : BufTy).Contents (Elt F)),
    StableHlo.binary main_v73 main_v74 main_v75 (mulf : (⟨S100000x256, .f32⟩ : BufTy).Contents (Elt F) → (⟨S100000x256, .f32⟩ : BufTy).Contents (Elt F) → (⟨S100000x256, .f32⟩ : BufTy).Contents (Elt F)),
    StableHlo.binary main_v45 main_v75 main_v76 (addf : (⟨S100000x256, .f32⟩ : BufTy).Contents (Elt F) → (⟨S100000x256, .f32⟩ : BufTy).Contents (Elt F) → (⟨S100000x256, .f32⟩ : BufTy).Contents (Elt F)),
    StableHlo.nullary main_c_18 (constantI S_ 32 0#32),
    StableHlo.unary main_c_18 main_v77 (broadcastInDim S200000 ![] bcast_S_S200000 : (⟨S_, .i32⟩ : BufTy).Contents (Elt F) → (⟨S200000, .i32⟩ : BufTy).Contents (Elt F)),
    StableHlo.binary main_arg10 main_v77 main_v78 (cmpi .slt : (⟨S200000, .i32⟩ : BufTy).Contents (Elt F) → (⟨S200000, .i32⟩ : BufTy).Contents (Elt F) → (⟨S200000, .i1⟩ : BufTy).Contents (Elt F)),
    StableHlo.nullary main_c_19 (constantI S_ 32 200000#32),
    StableHlo.unary main_c_19 main_v79 (broadcastInDim S200000 ![] bcast_S_S200000 : (⟨S_, .i32⟩ : BufTy).Contents (Elt F) → (⟨S200000, .i32⟩ : BufTy).Contents (Elt F)),
    StableHlo.binary main_arg10 main_v79 main_v80 (addi : (⟨S200000, .i32⟩ : BufTy).Contents (Elt F) → (⟨S200000, .i32⟩ : BufTy).Contents (Elt F) → (⟨S200000, .i32⟩ : BufTy).Contents (Elt F)),
    StableHlo.ternary main_v78 main_v80 main_arg10 main_v81 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v81 main_v82 (broadcastInDim S200000x1 ![0] bcast_S200000_S200000x1_0 : (⟨S200000, .i32⟩ : BufTy).Contents (Elt F) → (⟨S200000x1, .i32⟩ : BufTy).Contents (Elt F)),
    StableHlo.binary main_v65 main_v82 main_v83 ((fun x i => Host.gather gather_S200000x256_S200000x1_S200000x256_1_0_n_n_0_1_1256 x i) : (⟨S200000x256, .f32⟩ : BufTy).Contents (Elt F) → (⟨S200000x1, .i32⟩ : BufTy).Contents (Elt F) → (⟨S200000x256, .f32⟩ : BufTy).Contents (Elt F)),
    StableHlo.nullary main_c_20 (constantI S_ 32 0#32),
    StableHlo.unary main_c_20 main_v84 (broadcastInDim S200000 ![] bcast_S_S200000 : (⟨S_, .i32⟩ : BufTy).Contents (Elt F) → (⟨S200000, .i32⟩ : BufTy).Contents (Elt F)),
    StableHlo.binary main_arg9 main_v84 main_v85 (cmpi .slt : (⟨S200000, .i32⟩ : BufTy).Contents (Elt F) → (⟨S200000, .i32⟩ : BufTy).Contents (Elt F) → (⟨S200000, .i1⟩ : BufTy).Contents (Elt F)),
    StableHlo.nullary main_c_21 (constantI S_ 32 100000#32),
    StableHlo.unary main_c_21 main_v86 (broadcastInDim S200000 ![] bcast_S_S200000 : (⟨S_, .i32⟩ : BufTy).Contents (Elt F) → (⟨S200000, .i32⟩ : BufTy).Contents (Elt F)),
    StableHlo.binary main_arg9 main_v86 main_v87 (addi : (⟨S200000, .i32⟩ : BufTy).Contents (Elt F) → (⟨S200000, .i32⟩ : BufTy).Contents (Elt F) → (⟨S200000, .i32⟩ : BufTy).Contents (Elt F)),
    StableHlo.ternary main_v85 main_v87 main_arg9 main_v88 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v88 main_v89 (broadcastInDim S200000x1 ![0] bcast_S200000_S200000x1_0 : (⟨S200000, .i32⟩ : BufTy).Contents (Elt F) → (⟨S200000x1, .i32⟩ : BufTy).Contents (Elt F)),
    StableHlo.binary main_v76 main_v89 main_v90 ((fun x i => Host.gather gather_S100000x256_S200000x1_S200000x256_1_0_n_n_0_1_1256 x i) : (⟨S100000x256, .f32⟩ : BufTy).Contents (Elt F) → (⟨S200000x1, .i32⟩ : BufTy).Contents (Elt F) → (⟨S200000x256, .f32⟩ : BufTy).Contents (Elt F)),
    StableHlo.binary main_v90 main_v83 main_v91 (subf : (⟨S200000x256, .f32⟩ : BufTy).Contents (Elt F) → (⟨S200000x256, .f32⟩ : BufTy).Contents (Elt F) → (⟨S200000x256, .f32⟩ : BufTy).Contents (Elt F)),
    StableHlo.unary main_arg4 main_v92 ((extractStridedSlice S1x256x256 ![2, 0, 0] · slices_S3x256x256_S1x256x256_2_0_0) : (⟨S3x256x256, .f32⟩ : BufTy).Contents (Elt F) → (⟨S1x256x256, .f32⟩ : BufTy).Contents (Elt F)),
    StableHlo.reshape main_v92 main_v93 rfl shapeCasts_S1x256x256_S256x256,
    StableHlo.binary main_v91 main_v93 main_v94 ((fun l r => Host.dotGeneral dot_S200000x256_S256x256_S200000x256_1_0_0_1_n_n none l r) : (⟨S200000x256, .f32⟩ : BufTy).Contents (Elt F) → (⟨S256x256, .f32⟩ : BufTy).Contents (Elt F) → (⟨S200000x256, .f32⟩ : BufTy).Contents (Elt F)),
    StableHlo.binary main_v3 main_v94 main_v95 (addf : (⟨S200000x256, .f32⟩ : BufTy).Contents (Elt F) → (⟨S200000x256, .f32⟩ : BufTy).Contents (Elt F) → (⟨S200000x256, .f32⟩ : BufTy).Contents (Elt F)) ]

set_option maxRecDepth 8192 in
theorem line1_sub : (line1 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., nullary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., binary_bufs_sub .., binary_bufs_sub ..⟩

/-- The operations of window main_part2, in order (86). -/
abbrev line2 : List (HloOp τ sig (Elt F)) :=
  [ StableHlo.TRef.nullary main_call4.cst (constant S_ .f32 0x00000000#32),
    StableHlo.TRef.unary main_call4.cst main_call4.v0 (broadcastInDim S200000x256 ![] bcast_S_S200000x256),
    StableHlo.TRef.binary (.of main_v95 : StableHlo.TRef sig ⟨S200000x256, .f32⟩) main_call4.v0 main_call4.v1 maximumf,
    StableHlo.nullary main_c_22 (constantI S_ 32 0#32),
    StableHlo.unary main_c_22 main_v97 (broadcastInDim S100000x6 ![] bcast_S_S100000x6 : (⟨S_, .i32⟩ : BufTy).Contents (Elt F) → (⟨S100000x6, .i32⟩ : BufTy).Contents (Elt F)),
    StableHlo.binary main_arg8 main_v97 main_v98 (cmpi .slt : (⟨S100000x6, .i32⟩ : BufTy).Contents (Elt F) → (⟨S100000x6, .i32⟩ : BufTy).Contents (Elt F) → (⟨S100000x6, .i1⟩ : BufTy).Contents (Elt F)),
    StableHlo.nullary main_c_23 (constantI S_ 32 200000#32),
    StableHlo.unary main_c_23 main_v99 (broadcastInDim S100000x6 ![] bcast_S_S100000x6 : (⟨S_, .i32⟩ : BufTy).Contents (Elt F) → (⟨S100000x6, .i32⟩ : BufTy).Contents (Elt F)),
    StableHlo.binary main_arg8 main_v99 main_v100 (addi : (⟨S100000x6, .i32⟩ : BufTy).Contents (Elt F) → (⟨S100000x6, .i32⟩ : BufTy).Contents (Elt F) → (⟨S100000x6, .i32⟩ : BufTy).Contents (Elt F)),
    StableHlo.ternary main_v98 main_v100 main_arg8 main_v101 (select : (⟨S100000x6, .i1⟩ : BufTy).Contents (Elt F) → (⟨S100000x6, .i32⟩ : BufTy).Contents (Elt F) → (⟨S100000x6, .i32⟩ : BufTy).Contents (Elt F) → (⟨S100000x6, .i32⟩ : BufTy).Contents (Elt F)),
    StableHlo.unary main_v101 main_v102 (broadcastInDim S100000x6x1 ![0, 1] bcast_S100000x6_S100000x6x1_0_1 : (⟨S100000x6, .i32⟩ : BufTy).Contents (Elt F) → (⟨S100000x6x1, .i32⟩ : BufTy).Contents (Elt F)),
    StableHlo.binary main_v96 main_v102 main_v103 ((fun x i => Host.gather gather_S200000x256_S100000x6x1_S100000x6x256_2_0_n_n_0_2_1256 x i) : (⟨S200000x256, .f32⟩ : BufTy).Contents (Elt F) → (⟨S100000x6x1, .i32⟩ : BufTy).Contents (Elt F) → (⟨S100000x6x256, .f32⟩ : BufTy).Contents (Elt F)),
    StableHlo.nullary main_cst_24 (constant S_ .f32 0x00000000#32),
    StableHlo.binary main_v103 main_cst_24 main_v104 ((fun x v => Host.reduceAdd x v reducesTo_S100000x6x256_S100000x256_d1 h_S_) : (⟨S100000x6x256, .f32⟩ : BufTy).Contents (Elt F) → (⟨S_, .f32⟩ : BufTy).Contents (Elt F) → (⟨S100000x256, .f32⟩ : BufTy).Contents (Elt F)),
    StableHlo.nullary main_cst_25 (constant S_ .f32 0xFF800000#32),
    StableHlo.binary main_v103 main_cst_25 main_v105 ((fun x v => Host.reduce FloatOps.maximumf x v reducesTo_S100000x6x256_S100000x256_d1 h_S_) : (⟨S100000x6x256, .f32⟩ : BufTy).Contents (Elt F) → (⟨S_, .f32⟩ : BufTy).Contents (Elt F) → (⟨S100000x256, .f32⟩ : BufTy).Contents (Elt F)),
    StableHlo.binary main_v104 main_v105 main_v106 (mulf : (⟨S100000x256, .f32⟩ : BufTy).Contents (Elt F) → (⟨S100000x256, .f32⟩ : BufTy).Contents (Elt F) → (⟨S100000x256, .f32⟩ : BufTy).Contents (Elt F)),
    StableHlo.nary ![main_v106, main_v76, main_v1] main_v107 (fun u => concatenate S100000x768 1 [⟨S100000x256, u 0⟩, ⟨S100000x256, u 1⟩, ⟨S100000x256, u 2⟩] concatenates_S100000x256_S100000x256_S100000x256_S100000x768_d1),
    StableHlo.binary main_v107 main_arg7 main_v108 ((fun l r => Host.dotGeneral dot_S100000x768_S768x256_S100000x256_1_0_0_1_n_n none l r) : (⟨S100000x768, .f32⟩ : BufTy).Contents (Elt F) → (⟨S768x256, .f32⟩ : BufTy).Contents (Elt F) → (⟨S100000x256, .f32⟩ : BufTy).Contents (Elt F)),
    StableHlo.binary main_v108 main_arg5 main_v109 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    StableHlo.unary main_arg6 main_v110 (broadcastInDim S1x256 ![1] bcast_S256_S1x256_1 : (⟨S256, .f32⟩ : BufTy).Contents (Elt F) → (⟨S1x256, .f32⟩ : BufTy).Contents (Elt F)),
    StableHlo.unary main_v110 main_v111 (broadcastInDim S100000x256 ![0, 1] bcast_S1x256_S100000x256_0_1 : (⟨S1x256, .f32⟩ : BufTy).Contents (Elt F) → (⟨S100000x256, .f32⟩ : BufTy).Contents (Elt F)),
    StableHlo.binary main_v109 main_v111 main_v112 (addf : (⟨S100000x256, .f32⟩ : BufTy).Contents (Elt F) → (⟨S100000x256, .f32⟩ : BufTy).Contents (Elt F) → (⟨S100000x256, .f32⟩ : BufTy).Contents (Elt F)),
    StableHlo.TRef.nullary main_call5.cst (constant S_ .f32 0x00000000#32),
    StableHlo.TRef.unary main_call5.cst main_call5.v0 (broadcastInDim S100000x256 ![] bcast_S_S100000x256),
    StableHlo.TRef.binary (.of main_v112 : StableHlo.TRef sig ⟨S100000x256, .f32⟩) main_call5.v0 main_call5.v1 maximumf,
    StableHlo.nullary main_v114 (iotaInDim S5000 32 0),
    StableHlo.TRef.unary (.of main_arg11 : StableHlo.TRef sig ⟨S5000, .i32⟩) main_call6.v0 (extractStridedSlice S1 ![4999] · slices_S5000_S1_4999),
    StableHlo.TRef.unary (.of main_arg11 : StableHlo.TRef sig ⟨S5000, .i32⟩) main_call6.v1 (extractStridedSlice S4999 ![0] · slices_S5000_S4999_0),
    StableHlo.TRef.binary main_call6.v0 main_call6.v1 main_call6.v2 (fun a b => concatenate S5000 0 [⟨S1, a⟩, ⟨S4999, b⟩] concatenates_S1_S4999_S5000_d0),
    StableHlo.nullary main_c_26 (constantI S_ 32 0#32),
    StableHlo.unary main_c_26 main_v116 (broadcastInDim S1 ![] bcast_S_S1 : (⟨S_, .i32⟩ : BufTy).Contents (Elt F) → (⟨S1, .i32⟩ : BufTy).Contents (Elt F)),
    StableHlo.nullary main_c_27 (constantI S_ 32 0#32),
    StableHlo.ternary main_v115 main_v116 main_c_27 main_v117 ((fun x i u => Host.scatter scatter_S5000_S1_S__n_0_0_0 (fun _ b => b) x i u) : (⟨S5000, .i32⟩ : BufTy).Contents (Elt F) → (⟨S1, .i32⟩ : BufTy).Contents (Elt F) → (⟨S_, .i32⟩ : BufTy).Contents (Elt F) → (⟨S5000, .i32⟩ : BufTy).Contents (Elt F)),
    StableHlo.TRef.nullary main_call7.call0.c (constantI S_ 32 0#32),
    StableHlo.TRef.unary main_call7.call0.c main_call7.call0.v0 (broadcastInDim S_ ![] bcast_S_S_),
    StableHlo.TRef.binary (.of main_v117 : StableHlo.TRef sig ⟨S5000, .i32⟩) main_call7.call0.v0 main_call7.call0.v1 (fun x v => Host.reduceWindow IntOp.addi ![5000] ![1] ![4999] ![0] x v reduceWindows_S5000_S5000_w5000s1p4999_0 h_S_),
    StableHlo.nullary main_c_28 (constantI S_ 32 0#32),
    StableHlo.unary main_c_28 main_v119 (broadcastInDim S100000 ![] bcast_S_S100000 : (⟨S_, .i32⟩ : BufTy).Contents (Elt F) → (⟨S100000, .i32⟩ : BufTy).Contents (Elt F)),
    StableHlo.nullary main_c_29 (constantI S_ 32 0#32),
    StableHlo.unary main_c_29 main_v120 (broadcastInDim S5000 ![] bcast_S_S5000 : (⟨S_, .i32⟩ : BufTy).Contents (Elt F) → (⟨S5000, .i32⟩ : BufTy).Contents (Elt F)),
    StableHlo.binary main_v118 main_v120 main_v121 (cmpi .slt : (⟨S5000, .i32⟩ : BufTy).Contents (Elt F) → (⟨S5000, .i32⟩ : BufTy).Contents (Elt F) → (⟨S5000, .i1⟩ : BufTy).Contents (Elt F)),
    StableHlo.nullary main_c_30 (constantI S_ 32 100000#32),
    StableHlo.unary main_c_30 main_v122 (broadcastInDim S5000 ![] bcast_S_S5000 : (⟨S_, .i32⟩ : BufTy).Contents (Elt F) → (⟨S5000, .i32⟩ : BufTy).Contents (Elt F)),
    StableHlo.binary main_v118 main_v122 main_v123 (addi : (⟨S5000, .i32⟩ : BufTy).Contents (Elt F) → (⟨S5000, .i32⟩ : BufTy).Contents (Elt F) → (⟨S5000, .i32⟩ : BufTy).Contents (Elt F)),
    StableHlo.ternary main_v121 main_v123 main_v118 main_v124 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    StableHlo.unary main_v124 main_v125 (broadcastInDim S5000x1 ![0] bcast_S5000_S5000x1_0 : (⟨S5000, .i32⟩ : BufTy).Contents (Elt F) → (⟨S5000x1, .i32⟩ : BufTy).Contents (Elt F)),
    StableHlo.nullary main_c_31 (constantI S_ 32 1#32),
    StableHlo.unary main_c_31 main_v126 (broadcastInDim S5000 ![] bcast_S_S5000 : (⟨S_, .i32⟩ : BufTy).Contents (Elt F) → (⟨S5000, .i32⟩ : BufTy).Contents (Elt F)),
    StableHlo.ternary main_v119 main_v125 main_v126 main_v127 ((fun x i u => Host.scatter scatter_S100000_S5000x1_S5000_n_0_0_1 IntOp.addi x i u) : (⟨S100000, .i32⟩ : BufTy).Contents (Elt F) → (⟨S5000x1, .i32⟩ : BufTy).Contents (Elt F) → (⟨S5000, .i32⟩ : BufTy).Contents (Elt F) → (⟨S100000, .i32⟩ : BufTy).Contents (Elt F)),
    StableHlo.TRef.nullary main_call8.call0.c (constantI S_ 32 0#32),
    StableHlo.TRef.unary main_call8.call0.c main_call8.call0.v0 (broadcastInDim S_ ![] bcast_S_S_),
    StableHlo.TRef.binary (.of main_v127 : StableHlo.TRef sig ⟨S100000, .i32⟩) main_call8.call0.v0 main_call8.call0.v1 (fun x v => Host.reduceWindow IntOp.addi ![100000] ![1] ![99999] ![0] x v reduceWindows_S100000_S100000_w100000s1p99999_0 h_S_),
    StableHlo.nullary main_c_32 (constantI S_ 32 1#32),
    StableHlo.unary main_c_32 main_v129 (broadcastInDim S100000 ![] bcast_S_S100000 : (⟨S_, .i32⟩ : BufTy).Contents (Elt F) → (⟨S100000, .i32⟩ : BufTy).Contents (Elt F)),
    StableHlo.binary main_v128 main_v129 main_v130 (subi : (⟨S100000, .i32⟩ : BufTy).Contents (Elt F) → (⟨S100000, .i32⟩ : BufTy).Contents (Elt F) → (⟨S100000, .i32⟩ : BufTy).Contents (Elt F)),
    StableHlo.TRef.nullary main_call9.c (constantI S_ 32 0#32),
    StableHlo.TRef.unary main_call9.c main_call9.v0 (broadcastInDim S100000 ![] bcast_S_S100000),
    StableHlo.TRef.binary (.of main_v130 : StableHlo.TRef sig ⟨S100000, .i32⟩) main_call9.v0 main_call9.v1 (cmpi .slt),
    StableHlo.TRef.nullary main_call9.c_0 (constantI S_ 32 5000#32),
    StableHlo.TRef.unary main_call9.c_0 main_call9.v2 (broadcastInDim S100000 ![] bcast_S_S100000),
    StableHlo.TRef.binary (.of main_v130 : StableHlo.TRef sig ⟨S100000, .i32⟩) main_call9.v2 main_call9.v3 addi,
    StableHlo.TRef.ternary main_call9.v1 main_call9.v3 (.of main_v130 : StableHlo.TRef sig ⟨S100000, .i32⟩) main_call9.call0.v0 select,
    StableHlo.TRef.unary main_call9.call0.v0 main_call9.v5 (broadcastInDim S100000x1 ![0] bcast_S100000_S100000x1_0),
    StableHlo.TRef.nullary main_call9.c_1 (constantI S1 32 4999#32),
    StableHlo.TRef.nullary main_call9.c_2 (constantI S_ 32 0#32),
    StableHlo.TRef.unary main_call9.c_2 main_call9.v6 (broadcastInDim S100000x1 ![] bcast_S_S100000x1),
    StableHlo.TRef.binary main_call9.v5 main_call9.v6 main_call9.v7 (cmpi .sge),
    StableHlo.TRef.unary main_call9.c_1 main_call9.v8 (broadcastInDim S1x1 ![1] bcast_S1_S1x1_1),
    StableHlo.TRef.unary main_call9.v8 main_call9.v9 (broadcastInDim S100000x1 ![0, 1] bcast_S1x1_S100000x1_0_1),
    StableHlo.TRef.binary main_call9.v5 main_call9.v9 main_call9.v10 (cmpi .sle),
    StableHlo.TRef.binary main_call9.v7 main_call9.v10 main_call9.v11 andi,
    StableHlo.TRef.nullary main_call9.c_3 (constantI S_ 1 1#1),
    StableHlo.TRef.binary main_call9.v11 main_call9.c_3 main_call9.v12 (fun x v => Host.reduce IntOp.andi x v reducesTo_S100000x1_S100000_d1 h_S_),
    StableHlo.TRef.binary (.of main_v114 : StableHlo.TRef sig ⟨S5000, .i32⟩) main_call9.v5 main_call9.v13 (fun x i => Host.gather gather_S5000_S100000x1_S100000_n_0_n_n_0_1_1 x i),
    StableHlo.TRef.nullary main_call9.c_4 (constantI S_ 32 2147483648#32),
    StableHlo.TRef.unary main_call9.c_4 main_call9.v14 (broadcastInDim S100000 ![] bcast_S_S100000),
    StableHlo.TRef.ternary main_call9.v12 main_call9.v13 main_call9.v14 main_call9.v15 select,
    StableHlo.nullary main_cst_33 (constant S_ .f32 0x00000000#32),
    StableHlo.unary main_cst_33 main_v132 (broadcastInDim S5000x256 ![] bcast_S_S5000x256 : (⟨S_, .f32⟩ : BufTy).Contents (Elt F) → (⟨S5000x256, .f32⟩ : BufTy).Contents (Elt F)),
    StableHlo.unary main_v131 main_v133 (broadcastInDim S100000x1 ![0] bcast_S100000_S100000x1_0 : (⟨S100000, .i32⟩ : BufTy).Contents (Elt F) → (⟨S100000x1, .i32⟩ : BufTy).Contents (Elt F)),
    StableHlo.ternary main_v132 main_v133 main_v113 main_v134 ((fun x i u => Host.scatterAdd scatter_S5000x256_S100000x1_S100000x256_1_0_0_1 x i u) : (⟨S5000x256, .f32⟩ : BufTy).Contents (Elt F) → (⟨S100000x1, .i32⟩ : BufTy).Contents (Elt F) → (⟨S100000x256, .f32⟩ : BufTy).Contents (Elt F) → (⟨S5000x256, .f32⟩ : BufTy).Contents (Elt F)),
    StableHlo.unary main_arg11 main_v135 (broadcastInDim S5000x1 ![0] bcast_S5000_S5000x1_0 : (⟨S5000, .i32⟩ : BufTy).Contents (Elt F) → (⟨S5000x1, .i32⟩ : BufTy).Contents (Elt F)),
    StableHlo.unary main_v135 main_v136 (sitofp .f32 : (⟨S5000x1, .i32⟩ : BufTy).Contents (Elt F) → (⟨S5000x1, .f32⟩ : BufTy).Contents (Elt F)),
    StableHlo.unary main_v136 main_v137 (broadcastInDim S5000x256 ![0, 1] bcast_S5000x1_S5000x256_0_1 : (⟨S5000x1, .f32⟩ : BufTy).Contents (Elt F) → (⟨S5000x256, .f32⟩ : BufTy).Contents (Elt F)),
    StableHlo.binary main_v134 main_v137 main_v138 (Host.divf : (⟨S5000x256, .f32⟩ : BufTy).Contents (Elt F) → (⟨S5000x256, .f32⟩ : BufTy).Contents (Elt F) → (⟨S5000x256, .f32⟩ : BufTy).Contents (Elt F)) ]

set_option maxRecDepth 8192 in
theorem line2_sub : (line2 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., nullary_bufs_sub .., binary_bufs_sub .., binary_bufs_sub .., nary_bufs_sub .., binary_bufs_sub .., binary_bufs_sub .., unary_bufs_sub .., unary_bufs_sub .., binary_bufs_sub .., nullary_bufs_sub .., unary_bufs_sub .., binary_bufs_sub .., nullary_bufs_sub .., unary_bufs_sub .., unary_bufs_sub .., binary_bufs_sub .., nullary_bufs_sub .., unary_bufs_sub .., nullary_bufs_sub .., ternary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., unary_bufs_sub .., unary_bufs_sub .., ternary_bufs_sub .., unary_bufs_sub .., unary_bufs_sub .., unary_bufs_sub .., binary_bufs_sub ..⟩

end Cert.ReferenceIdeal.HostLine

end
-- ==== Proof.Stages.lean ====
/-
  The message-passing encoder, stage by stage, as functions of whole arrays: each stage is the composition of host
  operations the reference program applies (its own shape records), so that the reference's result IS `encode` of
  its arguments, and every stage of the kernel's program is compared with the same function.

    embedAtoms x w      relu (x · w)                                  atoms' features into hidden vectors
    embedBonds x w      relu (x · w)                                  bonds' features into hidden vectors
    nbrRows t a2b       t[a2b]  : [A, 6, H]                           the six incoming bonds' rows per atom
    bondRows t i        t[i]    : [B, H]                              a row of the bond table per bond
    atomRows t i        t[i]    : [B, H]                              a row of the atom table per bond
    sumTimesMax n       (Σ_j n[a, j, h]) · (max_j n[a, j, h])         the aggregate over the six neighbours
    layerWeight k W     W[k]    : [H, H]
    depthStep g r b w   relu (b + (g − r) · w)                        one round's new bond messages
    readout a m i W Wo bo   relu (([a | m | i] · W) · Wo + bo)        the atoms' output vectors
    molIds sizes        the molecule of each atom (sizes repeated)    integer bookkeeping only
    pool h sizes        per-molecule sums of h's rows, over the molecule's size
  An index below zero counts from the array's end (the `select` of `index + extent`), as jnp indexing does.
-/
import proofs.«413102_j68977174774322_1_alg».proof.Proof.Gen.ReferenceIdeal
import Idealize.ShloMosaic.PureOps.Ideal

noncomputable section

namespace Cert.ReferenceIdeal.Stage

open Cert.ReferenceIdeal Cert.ReferenceIdeal.Gen Idealize.ShloMosaic

variable {F : FTy → Type} [FloatOps F]

/-- The all-zeros array a rectifier compares with. -/
def zerosA : FVec F S100000x256 .f32 :=
  broadcastInDim S100000x256 ![] bcast_S_S100000x256 (constant (F := F) S_ .f32 0x00000000#32)
def zerosB : FVec F S200000x256 .f32 :=
  broadcastInDim S200000x256 ![] bcast_S_S200000x256 (constant (F := F) S_ .f32 0x00000000#32)

def embedAtoms (x : FVec F S100000x133 .f32) (w : FVec F S133x256 .f32) : FVec F S100000x256 .f32 :=
  maximumf (Host.dotGeneral dot_S100000x133_S133x256_S100000x256_1_0_0_1_n_n none x w) zerosA

def embedBonds (x : FVec F S200000x147 .f32) (w : FVec F S147x256 .f32) : FVec F S200000x256 .f32 :=
  maximumf (Host.dotGeneral dot_S200000x147_S147x256_S200000x256_1_0_0_1_n_n none x w) zerosB

/-- An atom-by-neighbour index table with its negative entries counted from the bond table's end. -/
def wrapNbr (a2b : IVec S100000x6 32) : IVec S100000x6 32 :=
  select (cmpi .slt a2b (broadcastInDim S100000x6 ![] bcast_S_S100000x6 (constantI S_ 32 0#32)))
    (addi a2b (broadcastInDim S100000x6 ![] bcast_S_S100000x6 (constantI S_ 32 200000#32))) a2b

def nbrRows (t : FVec F S200000x256 .f32) (a2b : IVec S100000x6 32) : FVec F S100000x6x256 .f32 :=
  Host.gather gather_S200000x256_S100000x6x1_S100000x6x256_2_0_n_n_0_2_1256 t
    (broadcastInDim S100000x6x1 ![0, 1] bcast_S100000x6_S100000x6x1_0_1 (wrapNbr a2b))

/-- A per-bond index with its negative entries counted from the end of a table of `200000` rows. -/
def wrapBond (i : IVec S200000 32) : IVec S200000 32 :=
  select (cmpi .slt i (broadcastInDim S200000 ![] bcast_S_S200000 (constantI S_ 32 0#32)))
    (addi i (broadcastInDim S200000 ![] bcast_S_S200000 (constantI S_ 32 200000#32))) i

/-- A per-bond index with its negative entries counted from the end of a table of `100000` rows. -/
def wrapAtom (i : IVec S200000 32) : IVec S200000 32 :=
  select (cmpi .slt i (broadcastInDim S200000 ![] bcast_S_S200000 (constantI S_ 32 0#32)))
    (addi i (broadcastInDim S200000 ![] bcast_S_S200000 (constantI S_ 32 100000#32))) i

def bondRows (t : FVec F S200000x256 .f32) (i : IVec S200000 32) : FVec F S200000x256 .f32 :=
  Host.gather gather_S200000x256_S200000x1_S200000x256_1_0_n_n_0_1_1256 t
    (broadcastInDim S200000x1 ![0] bcast_S200000_S200000x1_0 (wrapBond i))

def atomRows (t : FVec F S100000x256 .f32) (i : IVec S200000 32) : FVec F S200000x256 .f32 :=
  Host.gather gather_S100000x256_S200000x1_S200000x256_1_0_n_n_0_1_1256 t
    (broadcastInDim S200000x1 ![0] bcast_S200000_S200000x1_0 (wrapAtom i))

def sumTimesMax (n : FVec F S100000x6x256 .f32) : FVec F S100000x256 .f32 :=
  mulf (Host.reduceAdd n (constant (F := F) S_ .f32 0x00000000#32) reducesTo_S100000x6x256_S100000x256_d1 h_S_)
    (Host.reduce FloatOps.maximumf n (constant (F := F) S_ .f32 0xFF800000#32) reducesTo_S100000x6x256_S100000x256_d1 h_S_)

def layerWeight0 (W : FVec F S3x256x256 .f32) : FVec F S256x256 .f32 :=
  shapeCast S256x256 (extractStridedSlice S1x256x256 ![0, 0, 0] W slices_S3x256x256_S1x256x256_0_0_0) shapeCasts_S1x256x256_S256x256
def layerWeight1 (W : FVec F S3x256x256 .f32) : FVec F S256x256 .f32 :=
  shapeCast S256x256 (extractStridedSlice S1x256x256 ![1, 0, 0] W slices_S3x256x256_S1x256x256_1_0_0) shapeCasts_S1x256x256_S256x256
def layerWeight2 (W : FVec F S3x256x256 .f32) : FVec F S256x256 .f32 :=
  shapeCast S256x256 (extractStridedSlice S1x256x256 ![2, 0, 0] W slices_S3x256x256_S1x256x256_2_0_0) shapeCasts_S1x256x256_S256x256

def depthStep (g r b : FVec F S200000x256 .f32) (w : FVec F S256x256 .f32) : FVec F S200000x256 .f32 :=
  maximumf (addf b (Host.dotGeneral dot_S200000x256_S256x256_S200000x256_1_0_0_1_n_n none (subf g r) w)) zerosB

def readout (a m i : FVec F S100000x256 .f32) (W : FVec F S768x256 .f32) (Wo : FVec F S256x256 .f32) (bo : FVec F S256 .f32) :
    FVec F S100000x256 .f32 :=
  maximumf
    (addf
      (Host.dotGeneral dot_S100000x256_S256x256_S100000x256_1_0_0_1_n_n none
        (Host.dotGeneral dot_S100000x768_S768x256_S100000x256_1_0_0_1_n_n none
          (concatenate S100000x768 1 [⟨S100000x256, a⟩, ⟨S100000x256, m⟩, ⟨S100000x256, i⟩]
            concatenates_S100000x256_S100000x256_S100000x256_S100000x768_d1) W) Wo)
      (broadcastInDim S100000x256 ![0, 1] bcast_S1x256_S100000x256_0_1 (broadcastInDim S1x256 ![1] bcast_S256_S1x256_1 bo)))
    zerosA

/-- The molecule each atom belongs to: `jnp.repeat (arange 5000) sizes` at total length `100000` — the sizes rolled by
    one and their first zeroed, summed up to each molecule (its first atom), a one scattered at each start, summed up
    to each atom, less one; then `arange 5000` taken there (outside `[0, 5000)` the fill value). -/
def molIds (sizes : IVec S5000 32) : IVec S100000 32 :=
  let iota : IVec S5000 32 := iotaInDim S5000 32 0
  let rolled : IVec S5000 32 :=
    concatenate S5000 0 [⟨S1, extractStridedSlice S1 ![4999] sizes slices_S5000_S1_4999⟩,
      ⟨S4999, extractStridedSlice S4999 ![0] sizes slices_S5000_S4999_0⟩] concatenates_S1_S4999_S5000_d0
  let firstZero : IVec S5000 32 :=
    Host.scatter scatter_S5000_S1_S__n_0_0_0 (fun _ b => b) rolled (broadcastInDim S1 ![] bcast_S_S1 (constantI S_ 32 0#32)) (constantI S_ 32 0#32)
  let starts : IVec S5000 32 :=
    Host.reduceWindow IntOp.addi ![5000] ![1] ![4999] ![0] firstZero (broadcastInDim S_ ![] bcast_S_S_ (constantI S_ 32 0#32))
      reduceWindows_S5000_S5000_w5000s1p4999_0 h_S_
  let startsW : IVec S5000 32 :=
    select (cmpi .slt starts (broadcastInDim S5000 ![] bcast_S_S5000 (constantI S_ 32 0#32)))
      (addi starts (broadcastInDim S5000 ![] bcast_S_S5000 (constantI S_ 32 100000#32))) starts
  let marks : IVec S100000 32 :=
    Host.scatter scatter_S100000_S5000x1_S5000_n_0_0_1 IntOp.addi (broadcastInDim S100000 ![] bcast_S_S100000 (constantI S_ 32 0#32))
      (broadcastInDim S5000x1 ![0] bcast_S5000_S5000x1_0 startsW) (broadcastInDim S5000 ![] bcast_S_S5000 (constantI S_ 32 1#32))
  let counted : IVec S100000 32 :=
    Host.reduceWindow IntOp.addi ![100000] ![1] ![99999] ![0] marks (broadcastInDim S_ ![] bcast_S_S_ (constantI S_ 32 0#32))
      reduceWindows_S100000_S100000_w100000s1p99999_0 h_S_
  let pos : IVec S100000 32 := subi counted (broadcastInDim S100000 ![] bcast_S_S100000 (constantI S_ 32 1#32))
  let posW : IVec S100000 32 :=
    select (cmpi .slt pos (broadcastInDim S100000 ![] bcast_S_S100000 (constantI S_ 32 0#32)))
      (addi pos (broadcastInDim S100000 ![] bcast_S_S100000 (constantI S_ 32 5000#32))) pos
  let posC : IVec S100000x1 32 := broadcastInDim S100000x1 ![0] bcast_S100000_S100000x1_0 posW
  let inRange : IVec S100000 1 :=
    Host.reduce IntOp.andi
      (andi (cmpi .sge posC (broadcastInDim S100000x1 ![] bcast_S_S100000x1 (constantI S_ 32 0#32)))
        (cmpi .sle posC (broadcastInDim S100000x1 ![0, 1] bcast_S1x1_S100000x1_0_1 (broadcastInDim S1x1 ![1] bcast_S1_S1x1_1 (constantI S1 32 4999#32)))))
      (constantI S_ 1 1#1) reducesTo_S100000x1_S100000_d1 h_S_
  select inRange (Host.gather gather_S5000_S100000x1_S100000_n_0_n_n_0_1_1 iota posC)
    (broadcastInDim S100000 ![] bcast_S_S100000 (constantI S_ 32 2147483648#32))

def pool (h : FVec F S100000x256 .f32) (sizes : IVec S5000 32) : FVec F S5000x256 .f32 :=
  Host.divf
    (Host.scatterAdd scatter_S5000x256_S100000x1_S100000x256_1_0_0_1
      (broadcastInDim S5000x256 ![] bcast_S_S5000x256 (constant (F := F) S_ .f32 0x00000000#32))
      (broadcastInDim S100000x1 ![0] bcast_S100000_S100000x1_0 (molIds sizes)) h)
    (broadcastInDim S5000x256 ![0, 1] bcast_S5000x1_S5000x256_0_1 (sitofp .f32 (broadcastInDim S5000x1 ![0] bcast_S5000_S5000x1_0 sizes)))

/-- The atoms' and bonds' embedded features. -/
def atoms0 (fa : FVec F S100000x133 .f32) (wia : FVec F S133x256 .f32) : FVec F S100000x256 .f32 := embedAtoms fa wia
def bonds0 (fb : FVec F S200000x147 .f32) (wib : FVec F S147x256 .f32) : FVec F S200000x256 .f32 := embedBonds fb wib

/-- One round: the atoms' messages grow by the aggregate of their incoming bonds' messages. -/
def atomsNext (ma : FVec F S100000x256 .f32) (mb : FVec F S200000x256 .f32) (a2b : IVec S100000x6 32) : FVec F S100000x256 .f32 :=
  addf ma (sumTimesMax (nbrRows mb a2b))

/-- One round: a bond's new message from its source atom's, less its reverse bond's. -/
def bondsNext (ma : FVec F S100000x256 .f32) (mb ib : FVec F S200000x256 .f32) (w : FVec F S256x256 .f32)
    (b2a b2revb : IVec S200000 32) : FVec F S200000x256 .f32 :=
  depthStep (atomRows ma b2a) (bondRows mb b2revb) ib w

/-- The whole encoder: three rounds, the last aggregate, the readout, the per-molecule mean. -/
def encode (fa : FVec F S100000x133 .f32) (fb : FVec F S200000x147 .f32) (wia : FVec F S133x256 .f32) (wib : FVec F S147x256 .f32)
    (wh : FVec F S3x256x256 .f32) (wo : FVec F S256x256 .f32) (bo : FVec F S256 .f32) (wlr : FVec F S768x256 .f32)
    (a2b : IVec S100000x6 32) (b2a b2revb : IVec S200000 32) (sizes : IVec S5000 32) : FVec F S5000x256 .f32 :=
  let ia := atoms0 fa wia
  let ib := bonds0 fb wib
  let ma1 := atomsNext ia ib a2b
  let mb1 := bondsNext ma1 ib ib (layerWeight0 wh) b2a b2revb
  let ma2 := atomsNext ma1 mb1 a2b
  let mb2 := bondsNext ma2 mb1 ib (layerWeight1 wh) b2a b2revb
  let ma3 := atomsNext ma2 mb2 a2b
  let mb3 := bondsNext ma3 mb2 ib (layerWeight2 wh) b2a b2revb
  pool (readout (sumTimesMax (nbrRows mb3 a2b)) ma3 ia wlr wo bo) sizes

end Cert.ReferenceIdeal.Stage

end
-- ==== Proof.RefRun.lean ====
import proofs.«413102_j68977174774322_1_alg».proof.Proof.RefOps
import proofs.«413102_j68977174774322_1_alg».proof.Proof.Stages

set_option maxRecDepth 16384

noncomputable section

namespace Cert.ReferenceIdeal.HostLine

open Cert.ReferenceIdeal Cert.ReferenceIdeal.Gen Idealize.ShloMosaic Idealize.ShloMosaic.TcCoe Idealize.SL.Sem Idealize.ShloMosaic.StableHlo

variable {F : FTy → Type} [FloatOps F]

/-- The fold over two lists in a row is the second list's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## @main is the straight line

Each printed window is its list run in order: the module-local functions unfold at their calls to their own
operations over the call's buffer record, and sequencing is re-associated to the right. -/

set_option maxRecDepth 8192 in
set_option maxHeartbeats 4000000 in
theorem main_part0_eq (c : Dev nD) : main_part0 (F := F) c = seq line0 := by
  simp only [main_part0, fn_relu.body, fn_relu_0.body, seq, bind_assoc, pure_bind]
  rfl

set_option maxRecDepth 8192 in
set_option maxHeartbeats 4000000 in
theorem main_part1_eq (c : Dev nD) : main_part1 (F := F) c = seq line1 := by
  simp only [main_part1, fn_relu.body, fn_relu_0.body, seq, bind_assoc, pure_bind]
  rfl

set_option maxRecDepth 8192 in
set_option maxHeartbeats 4000000 in
theorem main_part2_eq (c : Dev nD) : main_part2 (F := F) c = seq line2 := by
  simp only [main_part2, fn_relu.body, fn_relu_0.body, fn_roll_static.body, fn_cumsum.body, fn_cumsum_1.body,
    fn_cumsum_2.body, fn_cumsum_3.body, fn_take.body, fn_where.body, seq, bind_assoc, pure_bind]

/-- @main's operations, in order: the three windows' lists one after the other. -/
abbrev ops : List (HloOp τ sig (Elt F)) := line0 ++ (line1 ++ line2)

theorem main_eq (c : Dev nD) : main (F := F) c = seq ops := by
  simp only [ops, seq_append, ← main_part0_eq c, ← main_part1_eq c, ← main_part2_eq c]
  rfl

theorem ops_sub : (ops : List (HloOp τ sig (Elt F))).Forall fun op => op.bufs ⊆ tcRefs τ sig :=
  List.forall_iff_forall_mem.mpr fun op h =>
    (List.mem_append.mp h).elim (List.forall_iff_forall_mem.mp line0_sub op) fun h =>
      (List.mem_append.mp h).elim (List.forall_iff_forall_mem.mp line1_sub op) (List.forall_iff_forall_mem.mp line2_sub op)

theorem scopedRefs_eq : (Finset.univ.filter fun b : Ref sig .tc => b.isScoped) = ∅ := by decide
theorem scopedSems_eq : (Finset.univ.filter fun sm : SemLoc sig => sm.isScoped .tc) = ∅ := by decide

/-- No operation of a window allocates: each determines its results. -/
theorem line0_fresh : ∀ op ∈ (line0 : List (HloOp τ sig (Elt F))), op.fresh = ∅ := by intro _ h; (repeat (cases h with | head => rfl | tail _ h => ?_)); exact nomatch h
theorem line1_fresh : ∀ op ∈ (line1 : List (HloOp τ sig (Elt F))), op.fresh = ∅ := by intro _ h; (repeat (cases h with | head => rfl | tail _ h => ?_)); exact nomatch h
theorem line2_fresh : ∀ op ∈ (line2 : List (HloOp τ sig (Elt F))), op.fresh = ∅ := by intro _ h; (repeat (cases h with | head => rfl | tail _ h => ?_)); exact nomatch h

theorem ops_fresh : ∀ op ∈ (ops : List (HloOp τ sig (Elt F))), op.fresh = ∅ := fun op h =>
  (List.mem_append.mp h).elim (line0_fresh op) fun h =>
    (List.mem_append.mp h).elim (line1_fresh op) (line2_fresh op)

/-- Every weakly fair execution of the reference's @main terminates, nothing faulting, every TensorCore buffer at the
    fold of the operations' results over its launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## The windows' results

For an arbitrary valuation `W` at a window's head, each buffer a later window reads, after the window, as the
stage functions of the buffers before it. The gathers, reductions and scatters stay folded: the equations never look
inside them. -/

attribute [local irreducible] Host.gather Host.reduce Host.reduceAdd Host.scatter Host.scatterAdd Host.reduceWindow

/-- The fold read at one buffer in one pass: each operation's result at its own buffer is its function's value, at any
    other buffer what was there; a typed reference's transport of contents along `rfl` is the identity. -/
local macro "after_results_typed" : tactic =>
  `(tactic| (simp (disch := decide) only [after_cons, after_nil,
      nullary_result', unary_result', binary_result', ternary_result', reshape_result', nary_result',
      nullary_result_ne', unary_result_ne', binary_result_ne', ternary_result_ne', reshape_result_ne', nary_result_ne',
      TRef.ofBuf, TRef.toBuf, cast_eq]))

/-! ### The first window: the embeddings, the first round, the second round's atoms -/

set_option maxRecDepth 8192 in
theorem w0_v1 (W : Valuation τ sig (Elt F)) :
    after line0 W (main_v1 : DevRef τ sig) = (Stage.atoms0 (W (main_arg0 : DevRef τ sig)) (W (main_arg2 : DevRef τ sig))) := by
  after_results_simp
  rfl
set_option maxRecDepth 8192 in
theorem w0_v3 (W : Valuation τ sig (Elt F)) :
    after line0 W (main_v3 : DevRef τ sig) = (Stage.bonds0 (W (main_arg1 : DevRef τ sig)) (W (main_arg3 : DevRef τ sig))) := by
  after_results_simp
  rfl
set_option maxRecDepth 8192 in
theorem w0_v34 (W : Valuation τ sig (Elt F)) :
    after line0 W (main_v34 : DevRef τ sig) = (Stage.bondsNext (Stage.atomsNext (Stage.atoms0 (W (main_arg0 : DevRef τ sig)) (W (main_arg2 : DevRef τ sig))) (Stage.bonds0 (W (main_arg1 : DevRef τ sig)) (W (main_arg3 : DevRef τ sig))) (W (main_arg8 : DevRef τ sig))) (Stage.bonds0 (W (main_arg1 : DevRef τ sig)) (W (main_arg3 : DevRef τ sig))) (Stage.bonds0 (W (main_arg1 : DevRef τ sig)) (W (main_arg3 : DevRef τ sig))) (Stage.layerWeight0 (W (main_arg4 : DevRef τ sig))) (W (main_arg9 : DevRef τ sig)) (W (main_arg10 : DevRef τ sig))) := by
  after_results_simp
  rfl
set_option maxRecDepth 8192 in
theorem w0_v45 (W : Valuation τ sig (Elt F)) :
    after line0 W (main_v45 : DevRef τ sig) = (Stage.atomsNext (Stage.atomsNext (Stage.atoms0 (W (main_arg0 : DevRef τ sig)) (W (main_arg2 : DevRef τ sig))) (Stage.bonds0 (W (main_arg1 : DevRef τ sig)) (W (main_arg3 : DevRef τ sig))) (W (main_arg8 : DevRef τ sig))) (Stage.bondsNext (Stage.atomsNext (Stage.atoms0 (W (main_arg0 : DevRef τ sig)) (W (main_arg2 : DevRef τ sig))) (Stage.bonds0 (W (main_arg1 : DevRef τ sig)) (W (main_arg3 : DevRef τ sig))) (W (main_arg8 : DevRef τ sig))) (Stage.bonds0 (W (main_arg1 : DevRef τ sig)) (W (main_arg3 : DevRef τ sig))) (Stage.bonds0 (W (main_arg1 : DevRef τ sig)) (W (main_arg3 : DevRef τ sig))) (Stage.layerWeight0 (W (main_arg4 : DevRef τ sig))) (W (main_arg9 : DevRef τ sig)) (W (main_arg10 : DevRef τ sig))) (W (main_arg8 : DevRef τ sig))) := by
  after_results_simp
  rfl
set_option maxRecDepth 8192 in
theorem w0_v46 (W : Valuation τ sig (Elt F)) :
    after line0 W (main_v46 : DevRef τ sig) = broadcastInDim S200000 ![] bcast_S_S200000 (constantI S_ 32 0#32) := by
  after_results_simp
set_option maxRecDepth 8192 in
theorem w0_arg0 (W : Valuation τ sig (Elt F)) :
    after line0 W (main_arg0 : DevRef τ sig) = W (main_arg0 : DevRef τ sig) := by
  after_results_simp
set_option maxRecDepth 8192 in
theorem w0_arg1 (W : Valuation τ sig (Elt F)) :
    after line0 W (main_arg1 : DevRef τ sig) = W (main_arg1 : DevRef τ sig) := by
  after_results_simp
set_option maxRecDepth 8192 in
theorem w0_arg2 (W : Valuation τ sig (Elt F)) :
    after line0 W (main_arg2 : DevRef τ sig) = W (main_arg2 : DevRef τ sig) := by
  after_results_simp
set_option maxRecDepth 8192 in
theorem w0_arg3 (W : Valuation τ sig (Elt F)) :
    after line0 W (main_arg3 : DevRef τ sig) = W (main_arg3 : DevRef τ sig) := by
  after_results_simp
set_option maxRecDepth 8192 in
theorem w0_arg4 (W : Valuation τ sig (Elt F)) :
    after line0 W (main_arg4 : DevRef τ sig) = W (main_arg4 : DevRef τ sig) := by
  after_results_simp
set_option maxRecDepth 8192 in
theorem w0_arg5 (W : Valuation τ sig (Elt F)) :
    after line0 W (main_arg5 : DevRef τ sig) = W (main_arg5 : DevRef τ sig) := by
  after_results_simp
set_option maxRecDepth 8192 in
theorem w0_arg6 (W : Valuation τ sig (Elt F)) :
    after line0 W (main_arg6 : DevRef τ sig) = W (main_arg6 : DevRef τ sig) := by
  after_results_simp
set_option maxRecDepth 8192 in
theorem w0_arg7 (W : Valuation τ sig (Elt F)) :
    after line0 W (main_arg7 : DevRef τ sig) = W (main_arg7 : DevRef τ sig) := by
  after_results_simp
set_option maxRecDepth 8192 in
theorem w0_arg8 (W : Valuation τ sig (Elt F)) :
    after line0 W (main_arg8 : DevRef τ sig) = W (main_arg8 : DevRef τ sig) := by
  after_results_simp
set_option maxRecDepth 8192 in
theorem w0_arg9 (W : Valuation τ sig (Elt F)) :
    after line0 W (main_arg9 : DevRef τ sig) = W (main_arg9 : DevRef τ sig) := by
  after_results_simp
set_option maxRecDepth 8192 in
theorem w0_arg10 (W : Valuation τ sig (Elt F)) :
    after line0 W (main_arg10 : DevRef τ sig) = W (main_arg10 : DevRef τ sig) := by
  after_results_simp
set_option maxRecDepth 8192 in
theorem w0_arg11 (W : Valuation τ sig (Elt F)) :
    after line0 W (main_arg11 : DevRef τ sig) = W (main_arg11 : DevRef τ sig) := by
  after_results_simp

/-! ### The second window: the second round's bonds, the third round (its bonds before their rectifier)

The window's first operation compares with the zeros the first window's last operation made: `h46`. -/

set_option maxRecDepth 8192 in
set_option maxHeartbeats 4000000 in
theorem w1_v76 (W : Valuation τ sig (Elt F)) (h46 : W (main_v46 : DevRef τ sig) = broadcastInDim S200000 ![] bcast_S_S200000 (constantI S_ 32 0#32)) :
    after line1 W (main_v76 : DevRef τ sig) = (Stage.atomsNext (W (main_v45 : DevRef τ sig)) (Stage.bondsNext (W (main_v45 : DevRef τ sig)) (W (main_v34 : DevRef τ sig)) (W (main_v3 : DevRef τ sig)) (Stage.layerWeight1 (W (main_arg4 : DevRef τ sig))) (W (main_arg9 : DevRef τ sig)) (W (main_arg10 : DevRef τ sig))) (W (main_arg8 : DevRef τ sig))) := by
  after_results_simp
  rw [h46]
  rfl
set_option maxRecDepth 8192 in
set_option maxHeartbeats 4000000 in
theorem w1_v95 (W : Valuation τ sig (Elt F)) (h46 : W (main_v46 : DevRef τ sig) = broadcastInDim S200000 ![] bcast_S_S200000 (constantI S_ 32 0#32)) :
    after line1 W (main_v95 : DevRef τ sig) = (addf (W (main_v3 : DevRef τ sig)) (Host.dotGeneral dot_S200000x256_S256x256_S200000x256_1_0_0_1_n_n none (subf (Stage.atomRows (Stage.atomsNext (W (main_v45 : DevRef τ sig)) (Stage.bondsNext (W (main_v45 : DevRef τ sig)) (W (main_v34 : DevRef τ sig)) (W (main_v3 : DevRef τ sig)) (Stage.layerWeight1 (W (main_arg4 : DevRef τ sig))) (W (main_arg9 : DevRef τ sig)) (W (main_arg10 : DevRef τ sig))) (W (main_arg8 : DevRef τ sig))) (W (main_arg9 : DevRef τ sig))) (Stage.bondRows (Stage.bondsNext (W (main_v45 : DevRef τ sig)) (W (main_v34 : DevRef τ sig)) (W (main_v3 : DevRef τ sig)) (Stage.layerWeight1 (W (main_arg4 : DevRef τ sig))) (W (main_arg9 : DevRef τ sig)) (W (main_arg10 : DevRef τ sig))) (W (main_arg10 : DevRef τ sig)))) (Stage.layerWeight2 (W (main_arg4 : DevRef τ sig))))) := by
  after_results_simp
  rw [h46]
  rfl
set_option maxRecDepth 8192 in
theorem w1_v1 (W : Valuation τ sig (Elt F)) :
    after line1 W (main_v1 : DevRef τ sig) = W (main_v1 : DevRef τ sig) := by
  after_results_simp
set_option maxRecDepth 8192 in
theorem w1_arg0 (W : Valuation τ sig (Elt F)) :
    after line1 W (main_arg0 : DevRef τ sig) = W (main_arg0 : DevRef τ sig) := by
  after_results_simp
set_option maxRecDepth 8192 in
theorem w1_arg1 (W : Valuation τ sig (Elt F)) :
    after line1 W (main_arg1 : DevRef τ sig) = W (main_arg1 : DevRef τ sig) := by
  after_results_simp
set_option maxRecDepth 8192 in
theorem w1_arg2 (W : Valuation τ sig (Elt F)) :
    after line1 W (main_arg2 : DevRef τ sig) = W (main_arg2 : DevRef τ sig) := by
  after_results_simp
set_option maxRecDepth 8192 in
theorem w1_arg3 (W : Valuation τ sig (Elt F)) :
    after line1 W (main_arg3 : DevRef τ sig) = W (main_arg3 : DevRef τ sig) := by
  after_results_simp
set_option maxRecDepth 8192 in
theorem w1_arg4 (W : Valuation τ sig (Elt F)) :
    after line1 W (main_arg4 : DevRef τ sig) = W (main_arg4 : DevRef τ sig) := by
  after_results_simp
set_option maxRecDepth 8192 in
theorem w1_arg5 (W : Valuation τ sig (Elt F)) :
    after line1 W (main_arg5 : DevRef τ sig) = W (main_arg5 : DevRef τ sig) := by
  after_results_simp
set_option maxRecDepth 8192 in
theorem w1_arg6 (W : Valuation τ sig (Elt F)) :
    after line1 W (main_arg6 : DevRef τ sig) = W (main_arg6 : DevRef τ sig) := by
  after_results_simp
set_option maxRecDepth 8192 in
theorem w1_arg7 (W : Valuation τ sig (Elt F)) :
    after line1 W (main_arg7 : DevRef τ sig) = W (main_arg7 : DevRef τ sig) := by
  after_results_simp
set_option maxRecDepth 8192 in
theorem w1_arg8 (W : Valuation τ sig (Elt F)) :
    after line1 W (main_arg8 : DevRef τ sig) = W (main_arg8 : DevRef τ sig) := by
  after_results_simp
set_option maxRecDepth 8192 in
theorem w1_arg9 (W : Valuation τ sig (Elt F)) :
    after line1 W (main_arg9 : DevRef τ sig) = W (main_arg9 : DevRef τ sig) := by
  after_results_simp
set_option maxRecDepth 8192 in
theorem w1_arg10 (W : Valuation τ sig (Elt F)) :
    after line1 W (main_arg10 : DevRef τ sig) = W (main_arg10 : DevRef τ sig) := by
  after_results_simp
set_option maxRecDepth 8192 in
theorem w1_arg11 (W : Valuation τ sig (Elt F)) :
    after line1 W (main_arg11 : DevRef τ sig) = W (main_arg11 : DevRef τ sig) := by
  after_results_simp

/-! ### The third window: the last rectifier and aggregate, the readout, the pooling -/

/-- The last window's first stretch (17 operations): the last round's rectifier and the last aggregate. -/
abbrev line2a : List (HloOp τ sig (Elt F)) :=
  [ StableHlo.TRef.nullary main_call4.cst (constant S_ .f32 0x00000000#32),
    StableHlo.TRef.unary main_call4.cst main_call4.v0 (broadcastInDim S200000x256 ![] bcast_S_S200000x256),
    StableHlo.TRef.binary (.of main_v95 : StableHlo.TRef sig ⟨S200000x256, .f32⟩) main_call4.v0 main_call4.v1 maximumf,
    StableHlo.nullary main_c_22 (constantI S_ 32 0#32),
    StableHlo.unary main_c_22 main_v97 (broadcastInDim S100000x6 ![] bcast_S_S100000x6 : (⟨S_, .i32⟩ : BufTy).Contents (Elt F) → (⟨S100000x6, .i32⟩ : BufTy).Contents (Elt F)),
    StableHlo.binary main_arg8 main_v97 main_v98 (cmpi .slt : (⟨S100000x6, .i32⟩ : BufTy).Contents (Elt F) → (⟨S100000x6, .i32⟩ : BufTy).Contents (Elt F) → (⟨S100000x6, .i1⟩ : BufTy).Contents (Elt F)),
    StableHlo.nullary main_c_23 (constantI S_ 32 200000#32),
    StableHlo.unary main_c_23 main_v99 (broadcastInDim S100000x6 ![] bcast_S_S100000x6 : (⟨S_, .i32⟩ : BufTy).Contents (Elt F) → (⟨S100000x6, .i32⟩ : BufTy).Contents (Elt F)),
    StableHlo.binary main_arg8 main_v99 main_v100 (addi : (⟨S100000x6, .i32⟩ : BufTy).Contents (Elt F) → (⟨S100000x6, .i32⟩ : BufTy).Contents (Elt F) → (⟨S100000x6, .i32⟩ : BufTy).Contents (Elt F)),
    StableHlo.ternary main_v98 main_v100 main_arg8 main_v101 (select : (⟨S100000x6, .i1⟩ : BufTy).Contents (Elt F) → (⟨S100000x6, .i32⟩ : BufTy).Contents (Elt F) → (⟨S100000x6, .i32⟩ : BufTy).Contents (Elt F) → (⟨S100000x6, .i32⟩ : BufTy).Contents (Elt F)),
    StableHlo.unary main_v101 main_v102 (broadcastInDim S100000x6x1 ![0, 1] bcast_S100000x6_S100000x6x1_0_1 : (⟨S100000x6, .i32⟩ : BufTy).Contents (Elt F) → (⟨S100000x6x1, .i32⟩ : BufTy).Contents (Elt F)),
    StableHlo.binary main_v96 main_v102 main_v103 ((fun x i => Host.gather gather_S200000x256_S100000x6x1_S100000x6x256_2_0_n_n_0_2_1256 x i) : (⟨S200000x256, .f32⟩ : BufTy).Contents (Elt F) → (⟨S100000x6x1, .i32⟩ : BufTy).Contents (Elt F) → (⟨S100000x6x256, .f32⟩ : BufTy).Contents (Elt F)),
    StableHlo.nullary main_cst_24 (constant S_ .f32 0x00000000#32),
    StableHlo.binary main_v103 main_cst_24 main_v104 ((fun x v => Host.reduceAdd x v reducesTo_S100000x6x256_S100000x256_d1 h_S_) : (⟨S100000x6x256, .f32⟩ : BufTy).Contents (Elt F) → (⟨S_, .f32⟩ : BufTy).Contents (Elt F) → (⟨S100000x256, .f32⟩ : BufTy).Contents (Elt F)),
    StableHlo.nullary main_cst_25 (constant S_ .f32 0xFF800000#32),
    StableHlo.binary main_v103 main_cst_25 main_v105 ((fun x v => Host.reduce FloatOps.maximumf x v reducesTo_S100000x6x256_S100000x256_d1 h_S_) : (⟨S100000x6x256, .f32⟩ : BufTy).Contents (Elt F) → (⟨S_, .f32⟩ : BufTy).Contents (Elt F) → (⟨S100000x256, .f32⟩ : BufTy).Contents (Elt F)),
    StableHlo.binary main_v104 main_v105 main_v106 (mulf : (⟨S100000x256, .f32⟩ : BufTy).Contents (Elt F) → (⟨S100000x256, .f32⟩ : BufTy).Contents (Elt F) → (⟨S100000x256, .f32⟩ : BufTy).Contents (Elt F)) ]

/-- Its second stretch (12 operations): the readout, the molecule counter and the two pieces of the rolled sizes. -/
abbrev line2b : List (HloOp τ sig (Elt F)) :=
  [ StableHlo.nary ![main_v106, main_v76, main_v1] main_v107 (fun u => concatenate S100000x768 1 [⟨S100000x256, u 0⟩, ⟨S100000x256, u 1⟩, ⟨S100000x256, u 2⟩] concatenates_S100000x256_S100000x256_S100000x256_S100000x768_d1),
    StableHlo.binary main_v107 main_arg7 main_v108 ((fun l r => Host.dotGeneral dot_S100000x768_S768x256_S100000x256_1_0_0_1_n_n none l r) : (⟨S100000x768, .f32⟩ : BufTy).Contents (Elt F) → (⟨S768x256, .f32⟩ : BufTy).Contents (Elt F) → (⟨S100000x256, .f32⟩ : BufTy).Contents (Elt F)),
    StableHlo.binary main_v108 main_arg5 main_v109 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    StableHlo.unary main_arg6 main_v110 (broadcastInDim S1x256 ![1] bcast_S256_S1x256_1 : (⟨S256, .f32⟩ : BufTy).Contents (Elt F) → (⟨S1x256, .f32⟩ : BufTy).Contents (Elt F)),
    StableHlo.unary main_v110 main_v111 (broadcastInDim S100000x256 ![0, 1] bcast_S1x256_S100000x256_0_1 : (⟨S1x256, .f32⟩ : BufTy).Contents (Elt F) → (⟨S100000x256, .f32⟩ : BufTy).Contents (Elt F)),
    StableHlo.binary main_v109 main_v111 main_v112 (addf : (⟨S100000x256, .f32⟩ : BufTy).Contents (Elt F) → (⟨S100000x256, .f32⟩ : BufTy).Contents (Elt F) → (⟨S100000x256, .f32⟩ : BufTy).Contents (Elt F)),
    StableHlo.TRef.nullary main_call5.cst (constant S_ .f32 0x00000000#32),
    StableHlo.TRef.unary main_call5.cst main_call5.v0 (broadcastInDim S100000x256 ![] bcast_S_S100000x256),
    StableHlo.TRef.binary (.of main_v112 : StableHlo.TRef sig ⟨S100000x256, .f32⟩) main_call5.v0 main_call5.v1 maximumf,
    StableHlo.nullary main_v114 (iotaInDim S5000 32 0),
    StableHlo.TRef.unary (.of main_arg11 : StableHlo.TRef sig ⟨S5000, .i32⟩) main_call6.v0 (extractStridedSlice S1 ![4999] · slices_S5000_S1_4999),
    StableHlo.TRef.unary (.of main_arg11 : StableHlo.TRef sig ⟨S5000, .i32⟩) main_call6.v1 (extractStridedSlice S4999 ![0] · slices_S5000_S4999_0) ]

/-- Its third stretch (57 operations): the pooling. -/
abbrev line2c : List (HloOp τ sig (Elt F)) :=
  [ StableHlo.TRef.binary main_call6.v0 main_call6.v1 main_call6.v2 (fun a b => concatenate S5000 0 [⟨S1, a⟩, ⟨S4999, b⟩] concatenates_S1_S4999_S5000_d0),
    StableHlo.nullary main_c_26 (constantI S_ 32 0#32),
    StableHlo.unary main_c_26 main_v116 (broadcastInDim S1 ![] bcast_S_S1 : (⟨S_, .i32⟩ : BufTy).Contents (Elt F) → (⟨S1, .i32⟩ : BufTy).Contents (Elt F)),
    StableHlo.nullary main_c_27 (constantI S_ 32 0#32),
    StableHlo.ternary main_v115 main_v116 main_c_27 main_v117 ((fun x i u => Host.scatter scatter_S5000_S1_S__n_0_0_0 (fun _ b => b) x i u) : (⟨S5000, .i32⟩ : BufTy).Contents (Elt F) → (⟨S1, .i32⟩ : BufTy).Contents (Elt F) → (⟨S_, .i32⟩ : BufTy).Contents (Elt F) → (⟨S5000, .i32⟩ : BufTy).Contents (Elt F)),
    StableHlo.TRef.nullary main_call7.call0.c (constantI S_ 32 0#32),
    StableHlo.TRef.unary main_call7.call0.c main_call7.call0.v0 (broadcastInDim S_ ![] bcast_S_S_),
    StableHlo.TRef.binary (.of main_v117 : StableHlo.TRef sig ⟨S5000, .i32⟩) main_call7.call0.v0 main_call7.call0.v1 (fun x v => Host.reduceWindow IntOp.addi ![5000] ![1] ![4999] ![0] x v reduceWindows_S5000_S5000_w5000s1p4999_0 h_S_),
    StableHlo.nullary main_c_28 (constantI S_ 32 0#32),
    StableHlo.unary main_c_28 main_v119 (broadcastInDim S100000 ![] bcast_S_S100000 : (⟨S_, .i32⟩ : BufTy).Contents (Elt F) → (⟨S100000, .i32⟩ : BufTy).Contents (Elt F)),
    StableHlo.nullary main_c_29 (constantI S_ 32 0#32),
    StableHlo.unary main_c_29 main_v120 (broadcastInDim S5000 ![] bcast_S_S5000 : (⟨S_, .i32⟩ : BufTy).Contents (Elt F) → (⟨S5000, .i32⟩ : BufTy).Contents (Elt F)),
    StableHlo.binary main_v118 main_v120 main_v121 (cmpi .slt : (⟨S5000, .i32⟩ : BufTy).Contents (Elt F) → (⟨S5000, .i32⟩ : BufTy).Contents (Elt F) → (⟨S5000, .i1⟩ : BufTy).Contents (Elt F)),
    StableHlo.nullary main_c_30 (constantI S_ 32 100000#32),
    StableHlo.unary main_c_30 main_v122 (broadcastInDim S5000 ![] bcast_S_S5000 : (⟨S_, .i32⟩ : BufTy).Contents (Elt F) → (⟨S5000, .i32⟩ : BufTy).Contents (Elt F)),
    StableHlo.binary main_v118 main_v122 main_v123 (addi : (⟨S5000, .i32⟩ : BufTy).Contents (Elt F) → (⟨S5000, .i32⟩ : BufTy).Contents (Elt F) → (⟨S5000, .i32⟩ : BufTy).Contents (Elt F)),
    StableHlo.ternary main_v121 main_v123 main_v118 main_v124 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    StableHlo.unary main_v124 main_v125 (broadcastInDim S5000x1 ![0] bcast_S5000_S5000x1_0 : (⟨S5000, .i32⟩ : BufTy).Contents (Elt F) → (⟨S5000x1, .i32⟩ : BufTy).Contents (Elt F)),
    StableHlo.nullary main_c_31 (constantI S_ 32 1#32),
    StableHlo.unary main_c_31 main_v126 (broadcastInDim S5000 ![] bcast_S_S5000 : (⟨S_, .i32⟩ : BufTy).Contents (Elt F) → (⟨S5000, .i32⟩ : BufTy).Contents (Elt F)),
    StableHlo.ternary main_v119 main_v125 main_v126 main_v127 ((fun x i u => Host.scatter scatter_S100000_S5000x1_S5000_n_0_0_1 IntOp.addi x i u) : (⟨S100000, .i32⟩ : BufTy).Contents (Elt F) → (⟨S5000x1, .i32⟩ : BufTy).Contents (Elt F) → (⟨S5000, .i32⟩ : BufTy).Contents (Elt F) → (⟨S100000, .i32⟩ : BufTy).Contents (Elt F)),
    StableHlo.TRef.nullary main_call8.call0.c (constantI S_ 32 0#32),
    StableHlo.TRef.unary main_call8.call0.c main_call8.call0.v0 (broadcastInDim S_ ![] bcast_S_S_),
    StableHlo.TRef.binary (.of main_v127 : StableHlo.TRef sig ⟨S100000, .i32⟩) main_call8.call0.v0 main_call8.call0.v1 (fun x v => Host.reduceWindow IntOp.addi ![100000] ![1] ![99999] ![0] x v reduceWindows_S100000_S100000_w100000s1p99999_0 h_S_),
    StableHlo.nullary main_c_32 (constantI S_ 32 1#32),
    StableHlo.unary main_c_32 main_v129 (broadcastInDim S100000 ![] bcast_S_S100000 : (⟨S_, .i32⟩ : BufTy).Contents (Elt F) → (⟨S100000, .i32⟩ : BufTy).Contents (Elt F)),
    StableHlo.binary main_v128 main_v129 main_v130 (subi : (⟨S100000, .i32⟩ : BufTy).Contents (Elt F) → (⟨S100000, .i32⟩ : BufTy).Contents (Elt F) → (⟨S100000, .i32⟩ : BufTy).Contents (Elt F)),
    StableHlo.TRef.nullary main_call9.c (constantI S_ 32 0#32),
    StableHlo.TRef.unary main_call9.c main_call9.v0 (broadcastInDim S100000 ![] bcast_S_S100000),
    StableHlo.TRef.binary (.of main_v130 : StableHlo.TRef sig ⟨S100000, .i32⟩) main_call9.v0 main_call9.v1 (cmpi .slt),
    StableHlo.TRef.nullary main_call9.c_0 (constantI S_ 32 5000#32),
    StableHlo.TRef.unary main_call9.c_0 main_call9.v2 (broadcastInDim S100000 ![] bcast_S_S100000),
    StableHlo.TRef.binary (.of main_v130 : StableHlo.TRef sig ⟨S100000, .i32⟩) main_call9.v2 main_call9.v3 addi,
    StableHlo.TRef.ternary main_call9.v1 main_call9.v3 (.of main_v130 : StableHlo.TRef sig ⟨S100000, .i32⟩) main_call9.call0.v0 select,
    StableHlo.TRef.unary main_call9.call0.v0 main_call9.v5 (broadcastInDim S100000x1 ![0] bcast_S100000_S100000x1_0),
    StableHlo.TRef.nullary main_call9.c_1 (constantI S1 32 4999#32),
    StableHlo.TRef.nullary main_call9.c_2 (constantI S_ 32 0#32),
    StableHlo.TRef.unary main_call9.c_2 main_call9.v6 (broadcastInDim S100000x1 ![] bcast_S_S100000x1),
    StableHlo.TRef.binary main_call9.v5 main_call9.v6 main_call9.v7 (cmpi .sge),
    StableHlo.TRef.unary main_call9.c_1 main_call9.v8 (broadcastInDim S1x1 ![1] bcast_S1_S1x1_1),
    StableHlo.TRef.unary main_call9.v8 main_call9.v9 (broadcastInDim S100000x1 ![0, 1] bcast_S1x1_S100000x1_0_1),
    StableHlo.TRef.binary main_call9.v5 main_call9.v9 main_call9.v10 (cmpi .sle),
    StableHlo.TRef.binary main_call9.v7 main_call9.v10 main_call9.v11 andi,
    StableHlo.TRef.nullary main_call9.c_3 (constantI S_ 1 1#1),
    StableHlo.TRef.binary main_call9.v11 main_call9.c_3 main_call9.v12 (fun x v => Host.reduce IntOp.andi x v reducesTo_S100000x1_S100000_d1 h_S_),
    StableHlo.TRef.binary (.of main_v114 : StableHlo.TRef sig ⟨S5000, .i32⟩) main_call9.v5 main_call9.v13 (fun x i => Host.gather gather_S5000_S100000x1_S100000_n_0_n_n_0_1_1 x i),
    StableHlo.TRef.nullary main_call9.c_4 (constantI S_ 32 2147483648#32),
    StableHlo.TRef.unary main_call9.c_4 main_call9.v14 (broadcastInDim S100000 ![] bcast_S_S100000),
    StableHlo.TRef.ternary main_call9.v12 main_call9.v13 main_call9.v14 main_call9.v15 select,
    StableHlo.nullary main_cst_33 (constant S_ .f32 0x00000000#32),
    StableHlo.unary main_cst_33 main_v132 (broadcastInDim S5000x256 ![] bcast_S_S5000x256 : (⟨S_, .f32⟩ : BufTy).Contents (Elt F) → (⟨S5000x256, .f32⟩ : BufTy).Contents (Elt F)),
    StableHlo.unary main_v131 main_v133 (broadcastInDim S100000x1 ![0] bcast_S100000_S100000x1_0 : (⟨S100000, .i32⟩ : BufTy).Contents (Elt F) → (⟨S100000x1, .i32⟩ : BufTy).Contents (Elt F)),
    StableHlo.ternary main_v132 main_v133 main_v113 main_v134 ((fun x i u => Host.scatterAdd scatter_S5000x256_S100000x1_S100000x256_1_0_0_1 x i u) : (⟨S5000x256, .f32⟩ : BufTy).Contents (Elt F) → (⟨S100000x1, .i32⟩ : BufTy).Contents (Elt F) → (⟨S100000x256, .f32⟩ : BufTy).Contents (Elt F) → (⟨S5000x256, .f32⟩ : BufTy).Contents (Elt F)),
    StableHlo.unary main_arg11 main_v135 (broadcastInDim S5000x1 ![0] bcast_S5000_S5000x1_0 : (⟨S5000, .i32⟩ : BufTy).Contents (Elt F) → (⟨S5000x1, .i32⟩ : BufTy).Contents (Elt F)),
    StableHlo.unary main_v135 main_v136 (sitofp .f32 : (⟨S5000x1, .i32⟩ : BufTy).Contents (Elt F) → (⟨S5000x1, .f32⟩ : BufTy).Contents (Elt F)),
    StableHlo.unary main_v136 main_v137 (broadcastInDim S5000x256 ![0, 1] bcast_S5000x1_S5000x256_0_1 : (⟨S5000x1, .f32⟩ : BufTy).Contents (Elt F) → (⟨S5000x256, .f32⟩ : BufTy).Contents (Elt F)),
    StableHlo.binary main_v134 main_v137 main_v138 (Host.divf : (⟨S5000x256, .f32⟩ : BufTy).Contents (Elt F) → (⟨S5000x256, .f32⟩ : BufTy).Contents (Elt F) → (⟨S5000x256, .f32⟩ : BufTy).Contents (Elt F)) ]

/-- The last window is its three stretches in a row (each cut falls before a concatenate, whose operands are then read
    at the stretch's head). -/
theorem line2_cut : (line2 : List (HloOp τ sig (Elt F))) = line2a ++ (line2b ++ line2c) := rfl

set_option maxRecDepth 8192 in
theorem w2a_v76 (W : Valuation τ sig (Elt F)) :
    after line2a W (main_v76 : DevRef τ sig) = W (main_v76 : DevRef τ sig) := by
  after_results_simp
set_option maxRecDepth 8192 in
theorem w2a_v1 (W : Valuation τ sig (Elt F)) :
    after line2a W (main_v1 : DevRef τ sig) = W (main_v1 : DevRef τ sig) := by
  after_results_simp
set_option maxRecDepth 8192 in
theorem w2a_arg5 (W : Valuation τ sig (Elt F)) :
    after line2a W (main_arg5 : DevRef τ sig) = W (main_arg5 : DevRef τ sig) := by
  after_results_simp
set_option maxRecDepth 8192 in
theorem w2a_arg6 (W : Valuation τ sig (Elt F)) :
    after line2a W (main_arg6 : DevRef τ sig) = W (main_arg6 : DevRef τ sig) := by
  after_results_simp
set_option maxRecDepth 8192 in
theorem w2a_arg7 (W : Valuation τ sig (Elt F)) :
    after line2a W (main_arg7 : DevRef τ sig) = W (main_arg7 : DevRef τ sig) := by
  after_results_simp
set_option maxRecDepth 8192 in
theorem w2a_arg11 (W : Valuation τ sig (Elt F)) :
    after line2a W (main_arg11 : DevRef τ sig) = W (main_arg11 : DevRef τ sig) := by
  after_results_simp
set_option maxRecDepth 8192 in
theorem w2b_arg11 (W : Valuation τ sig (Elt F)) :
    after line2b W (main_arg11 : DevRef τ sig) = W (main_arg11 : DevRef τ sig) := by
  after_results_simp

set_option maxRecDepth 8192 in
theorem w2a_v106 (W : Valuation τ sig (Elt F)) :
    after line2a W (main_v106 : DevRef τ sig) = Stage.sumTimesMax (Stage.nbrRows (maximumf (W (main_v95 : DevRef τ sig)) Stage.zerosB) (W (main_arg8 : DevRef τ sig))) := by
  after_results_simp
  rfl

set_option maxRecDepth 8192 in
theorem w2b_v113 (W : Valuation τ sig (Elt F)) :
    after line2b W (main_v113 : DevRef τ sig) = Stage.readout (W (main_v106 : DevRef τ sig)) (W (main_v76 : DevRef τ sig)) (W (main_v1 : DevRef τ sig)) (W (main_arg7 : DevRef τ sig)) (W (main_arg5 : DevRef τ sig)) (W (main_arg6 : DevRef τ sig)) := by
  after_results_simp
  rfl

set_option maxRecDepth 8192 in
theorem w2b_v114 (W : Valuation τ sig (Elt F)) : after line2b W (main_v114 : DevRef τ sig) = iotaInDim S5000 32 0 := by
  after_results_simp

set_option maxRecDepth 8192 in
theorem w2b_s0 (W : Valuation τ sig (Elt F)) : after line2b W (main_call6_v0 : DevRef τ sig) = extractStridedSlice S1 ![4999] (W (main_arg11 : DevRef τ sig)) slices_S5000_S1_4999 := by
  after_results_simp
  rfl

set_option maxRecDepth 8192 in
theorem w2b_s1 (W : Valuation τ sig (Elt F)) : after line2b W (main_call6_v1 : DevRef τ sig) = extractStridedSlice S4999 ![0] (W (main_arg11 : DevRef τ sig)) slices_S5000_S4999_0 := by
  after_results_simp
  rfl

set_option maxRecDepth 8192 in
set_option maxHeartbeats 1000000 in
/-- The pooling, from the sizes' two rolled pieces, the molecule counter and the atoms' output vectors at its head. -/
theorem w2c_v138 (W : Valuation τ sig (Elt F)) (sizes : IVec S5000 32) (h0 : W (main_call6_v0 : DevRef τ sig) = extractStridedSlice S1 ![4999] sizes slices_S5000_S1_4999)
    (h1 : W (main_call6_v1 : DevRef τ sig) = extractStridedSlice S4999 ![0] sizes slices_S5000_S4999_0) (hi : W (main_v114 : DevRef τ sig) = iotaInDim S5000 32 0)
    (hs : W (main_arg11 : DevRef τ sig) = sizes) :
    after line2c W (main_v138 : DevRef τ sig) = Stage.pool (W (main_v113 : DevRef τ sig)) sizes := by
  after_results_typed
  rw [h0, h1, hi, hs]
  rfl

theorem w2_v138 (W : Valuation τ sig (Elt F)) :
    after line2 W (main_v138 : DevRef τ sig) = (Stage.pool (Stage.readout (Stage.sumTimesMax (Stage.nbrRows (maximumf (W (main_v95 : DevRef τ sig)) Stage.zerosB) (W (main_arg8 : DevRef τ sig)))) (W (main_v76 : DevRef τ sig)) (W (main_v1 : DevRef τ sig)) (W (main_arg7 : DevRef τ sig)) (W (main_arg5 : DevRef τ sig)) (W (main_arg6 : DevRef τ sig))) (W (main_arg11 : DevRef τ sig))) := by
  have e : after line2 W = after line2c (after line2b (after line2a W)) := by
    rw [line2_cut, after_app, after_app]
  have hs : after line2b (after line2a W) (main_arg11 : DevRef τ sig) = (W (main_arg11 : DevRef τ sig)) := by rw [w2b_arg11, w2a_arg11]
  have h0 : after line2b (after line2a W) (main_call6_v0 : DevRef τ sig) = extractStridedSlice S1 ![4999] (W (main_arg11 : DevRef τ sig)) slices_S5000_S1_4999 := by rw [w2b_s0, w2a_arg11]
  have h1 : after line2b (after line2a W) (main_call6_v1 : DevRef τ sig) = extractStridedSlice S4999 ![0] (W (main_arg11 : DevRef τ sig)) slices_S5000_S4999_0 := by rw [w2b_s1, w2a_arg11]
  rw [e, w2c_v138 _ _ h0 h1 (w2b_v114 _) hs, w2b_v113, w2a_v106, w2a_v76, w2a_v1, w2a_arg5, w2a_arg6, w2a_arg7]

set_option maxRecDepth 8192 in
theorem w2_arg0 (W : Valuation τ sig (Elt F)) :
    after line2 W (main_arg0 : DevRef τ sig) = W (main_arg0 : DevRef τ sig) := by
  after_results_simp
set_option maxRecDepth 8192 in
theorem w2_arg1 (W : Valuation τ sig (Elt F)) :
    after line2 W (main_arg1 : DevRef τ sig) = W (main_arg1 : DevRef τ sig) := by
  after_results_simp
set_option maxRecDepth 8192 in
theorem w2_arg2 (W : Valuation τ sig (Elt F)) :
    after line2 W (main_arg2 : DevRef τ sig) = W (main_arg2 : DevRef τ sig) := by
  after_results_simp
set_option maxRecDepth 8192 in
theorem w2_arg3 (W : Valuation τ sig (Elt F)) :
    after line2 W (main_arg3 : DevRef τ sig) = W (main_arg3 : DevRef τ sig) := by
  after_results_simp
set_option maxRecDepth 8192 in
theorem w2_arg4 (W : Valuation τ sig (Elt F)) :
    after line2 W (main_arg4 : DevRef τ sig) = W (main_arg4 : DevRef τ sig) := by
  after_results_simp
set_option maxRecDepth 8192 in
theorem w2_arg5 (W : Valuation τ sig (Elt F)) :
    after line2 W (main_arg5 : DevRef τ sig) = W (main_arg5 : DevRef τ sig) := by
  after_results_simp
set_option maxRecDepth 8192 in
theorem w2_arg6 (W : Valuation τ sig (Elt F)) :
    after line2 W (main_arg6 : DevRef τ sig) = W (main_arg6 : DevRef τ sig) := by
  after_results_simp
set_option maxRecDepth 8192 in
theorem w2_arg7 (W : Valuation τ sig (Elt F)) :
    after line2 W (main_arg7 : DevRef τ sig) = W (main_arg7 : DevRef τ sig) := by
  after_results_simp
set_option maxRecDepth 8192 in
theorem w2_arg8 (W : Valuation τ sig (Elt F)) :
    after line2 W (main_arg8 : DevRef τ sig) = W (main_arg8 : DevRef τ sig) := by
  after_results_simp
set_option maxRecDepth 8192 in
theorem w2_arg9 (W : Valuation τ sig (Elt F)) :
    after line2 W (main_arg9 : DevRef τ sig) = W (main_arg9 : DevRef τ sig) := by
  after_results_simp
set_option maxRecDepth 8192 in
theorem w2_arg10 (W : Valuation τ sig (Elt F)) :
    after line2 W (main_arg10 : DevRef τ sig) = W (main_arg10 : DevRef τ sig) := by
  after_results_simp
set_option maxRecDepth 8192 in
theorem w2_arg11 (W : Valuation τ sig (Elt F)) :
    after line2 W (main_arg11 : DevRef τ sig) = W (main_arg11 : DevRef τ sig) := by
  after_results_simp

/-- The whole line's fold, window after window. -/
theorem ops_after (V : Valuation τ sig (Elt F)) : after ops V = after line2 (after line1 (after line0 V)) :=
  (after_app line0 (line1 ++ line2) V).trans (after_app line1 line2 (after line0 V))

/-- The result buffer after the operations is the encoder of the arguments' contents. -/
theorem out_eq (V : Valuation τ sig (Elt F)) :
    after ops V (main_v138 : DevRef τ sig)
      = Stage.encode (F := F) (V (main_arg0 : DevRef τ sig)) (V (main_arg1 : DevRef τ sig)) (V (main_arg2 : DevRef τ sig))
          (V (main_arg3 : DevRef τ sig)) (V (main_arg4 : DevRef τ sig)) (V (main_arg5 : DevRef τ sig)) (V (main_arg6 : DevRef τ sig))
          (V (main_arg7 : DevRef τ sig)) (V (main_arg8 : DevRef τ sig)) (V (main_arg9 : DevRef τ sig)) (V (main_arg10 : DevRef τ sig))
          (V (main_arg11 : DevRef τ sig)) := by
  have h46 := w0_v46 V
  rw [ops_after, w2_v138, w1_v95 _ h46, w1_v76 _ h46, w1_v1, w1_arg5, w1_arg6, w1_arg7, w1_arg8, w1_arg11,
    w0_v45, w0_v34, w0_v3, w0_v1, w0_arg4, w0_arg5, w0_arg6, w0_arg7, w0_arg8, w0_arg9, w0_arg10, w0_arg11]
  rfl

/-- No operation writes an argument. -/
theorem arg_eq (V : Valuation τ sig (Elt F)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig)
    ∧ after ops V (main_arg5 : DevRef τ sig) = V (main_arg5 : DevRef τ sig)
    ∧ after ops V (main_arg6 : DevRef τ sig) = V (main_arg6 : DevRef τ sig)
    ∧ after ops V (main_arg7 : DevRef τ sig) = V (main_arg7 : DevRef τ sig)
    ∧ after ops V (main_arg8 : DevRef τ sig) = V (main_arg8 : DevRef τ sig)
    ∧ after ops V (main_arg9 : DevRef τ sig) = V (main_arg9 : DevRef τ sig)
    ∧ after ops V (main_arg10 : DevRef τ sig) = V (main_arg10 : DevRef τ sig)
    ∧ after ops V (main_arg11 : DevRef τ sig) = V (main_arg11 : DevRef τ sig) :=
  ⟨by rw [ops_after, w2_arg0, w1_arg0, w0_arg0],
   by rw [ops_after, w2_arg1, w1_arg1, w0_arg1],
   by rw [ops_after, w2_arg2, w1_arg2, w0_arg2],
   by rw [ops_after, w2_arg3, w1_arg3, w0_arg3],
   by rw [ops_after, w2_arg4, w1_arg4, w0_arg4],
   by rw [ops_after, w2_arg5, w1_arg5, w0_arg5],
   by rw [ops_after, w2_arg6, w1_arg6, w0_arg6],
   by rw [ops_after, w2_arg7, w1_arg7, w0_arg7],
   by rw [ops_after, w2_arg8, w1_arg8, w0_arg8],
   by rw [ops_after, w2_arg9, w1_arg9, w0_arg9],
   by rw [ops_after, w2_arg10, w1_arg10, w0_arg10],
   by rw [ops_after, w2_arg11, w1_arg11, w0_arg11]⟩

end Cert.ReferenceIdeal.HostLine

end
-- ==== Proof.Ranges.lean ====
/-
  An index array is IN ROWS of a table of `N` rows when each of its words, read as a natural number, is below `N`
  (for `N < 2^31` the same as `0 ≤ i < N` of the signed reading).
-/
import Idealize.ShloMosaic.PureOps

namespace Cert

open Idealize.ShloMosaic

/-- Every word of `i` is a row number of a table of `N` rows. -/
def InRows (N : Nat) {S : Shape} (i : IVec S 32) : Prop := ∀ j : S.Idx, (i j).toNat < N

end Cert
-- ==== Proof.PreDecode.lean ====
/-
  The stated precondition is one bit: the conjunction of eleven `all`-reductions. Its last three say, of each word x of
  the three index arrays, 0 ≤ x and x < N in the signed order (N the row count of the table the array indexes, below 2³¹).
  A conjunction that is 1 has every conjunct 1; an `all` that is 1 has every element 1; and a word between 0 and N in the
  signed order has its sign bit clear, so it reads the same as a natural number and is below N there too.
-/
import proofs.«413102_j68977174774322_1_alg».proof.Defs
import proofs.«413102_j68977174774322_1_alg».proof.Proof.Gen.Pre_finite_inputs
import proofs.«413102_j68977174774322_1_alg».proof.Proof.Ranges
import Idealize.ShloMosaic.Lib.ReduceAll
import Idealize.ShloMosaic.Lib.ValueIdx
import Idealize.ShloMosaic.Lib.StableHlo.Predicate

set_option maxRecDepth 16384

noncomputable section

namespace Cert.PreRead

open Idealize.ShloMosaic Idealize.SL.Sem

/-- A word that is at least 0 and below `N` in the signed order, `N` below 2³¹, is below `N` as a natural number:
    0 ≤ x signed clears the sign bit, so the signed and the unsigned readings of x agree. -/
theorem toNat_lt_of_between (x : BitVec 32) (N : Nat) (hN : N < 2 ^ 31)
    (h : IntOp.andi (IntOp.cmpi .sge x 0#32) (IntOp.cmpi .slt x (BitVec.ofNat 32 N)) = 1#1) : x.toNat < N := by
  obtain ⟨h0, h1⟩ := IntOp.andi_eq_one.1 h
  rw [IntOp.cmpi_sge] at h0
  rw [IntOp.cmpi_slt, StableHlo.Predicate.toInt_ofNat_small N hN] at h1
  have z : (0#32 : BitVec 32).toInt = 0 := by decide
  rw [z] at h0
  have hx := x.isLt
  rw [BitVec.toInt_eq_toNat_cond] at h0 h1
  split at h0 <;> omega

/-- A shape of rank 0 has one index. -/
theorem scalar_idx_subsingleton : Subsingleton Cert.Pre_finite_inputs.S_.Idx :=
  ⟨fun a b => funext fun d => d.elim0⟩

/-- Under the stated precondition the three index arrays are row numbers of the tables they index. -/
theorem ranges_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    Cert.InRows 200000 (m ((c.tc : Thread Cert.KernelIdeal.nD Cert.KernelIdeal.τ).loc Cert.KernelIdeal.main_arg8))
      ∧ Cert.InRows 100000 (m ((c.tc : Thread Cert.KernelIdeal.nD Cert.KernelIdeal.τ).loc Cert.KernelIdeal.main_arg9))
      ∧ Cert.InRows 200000 (m ((c.tc : Thread Cert.KernelIdeal.nD Cert.KernelIdeal.τ).loc Cert.KernelIdeal.main_arg10)) := by
  haveI := scalar_idx_subsingleton
  -- the precondition's one bit, read at the one index of a scalar
  have e := congrFun (h c) ValueIdx.ix0
  dsimp only [Cert.Pre_finite_inputs.fn, Cert.Pre_finite_inputs.fn_part1, Cert.Pre_finite_inputs.fn_part2,
    Cert.Pre_finite_inputs.fn_part3] at e
  -- the conjunction nests to the left: the three range tests are its last three conjuncts
  obtain ⟨e1, e10⟩ := IntOp.andi_eq_one.1 e
  obtain ⟨e2, e9⟩ := IntOp.andi_eq_one.1 e1
  obtain ⟨-, e8⟩ := IntOp.andi_eq_one.1 e2
  -- each `all` gives its element at j: (x ≥ 0) ∧ (x < N), the constants broadcast from scalars
  refine ⟨fun j => ?_, fun j => ?_, fun j => ?_⟩
  · exact toNat_lt_of_between _ 200000 (by norm_num) (Host.reduce_andi_all _ _ _ _ _ e8 j)
  · exact toNat_lt_of_between _ 100000 (by norm_num) (Host.reduce_andi_all _ _ _ _ _ e9 j)
  · exact toNat_lt_of_between _ 200000 (by norm_num) (Host.reduce_andi_all _ _ _ _ _ e10 j)

end Cert.PreRead

end
-- ==== Proof.ThreadVals.lean ====
/-
  The values the encoder passes from round to round, as functions of the launch memory's argument arrays on a core:
  `ia`, `ib` the embedded features; `maK`, `mbK` the atoms' and bonds' messages after round `K`.
-/
import proofs.«413102_j68977174774322_1_alg».proof.Proof.Gen.KernelIdeal
import proofs.«413102_j68977174774322_1_alg».proof.Proof.Stages

set_option maxRecDepth 16384

noncomputable section

namespace Cert.KernelIdeal.Thread

open Cert.KernelIdeal Cert.KernelIdeal.Gen Idealize.ShloMosaic Idealize.ShloMosaic.TcCoe Idealize.SL.Sem
open Cert.ReferenceIdeal (Stage.atoms0 Stage.bonds0 Stage.atomsNext Stage.bondsNext Stage.layerWeight0 Stage.layerWeight1 Stage.layerWeight2 Stage.sumTimesMax Stage.nbrRows Stage.readout Stage.pool Stage.encode)

variable (m : (ℓ : Loc nD τ sig) → Buf (Elt Ideal) ℓ) (c : Dev nD)

abbrev A0 : FVec Ideal S100000x133 .f32 := m ((c.tc : Thread nD τ).loc main_arg0)
abbrev A1 : FVec Ideal S200000x147 .f32 := m ((c.tc : Thread nD τ).loc main_arg1)
abbrev A2 : FVec Ideal S133x256 .f32 := m ((c.tc : Thread nD τ).loc main_arg2)
abbrev A3 : FVec Ideal S147x256 .f32 := m ((c.tc : Thread nD τ).loc main_arg3)
abbrev A4 : FVec Ideal S3x256x256 .f32 := m ((c.tc : Thread nD τ).loc main_arg4)
abbrev A5 : FVec Ideal S256x256 .f32 := m ((c.tc : Thread nD τ).loc main_arg5)
abbrev A6 : FVec Ideal S256 .f32 := m ((c.tc : Thread nD τ).loc main_arg6)
abbrev A7 : FVec Ideal S768x256 .f32 := m ((c.tc : Thread nD τ).loc main_arg7)
abbrev A8 : IVec S100000x6 32 := m ((c.tc : Thread nD τ).loc main_arg8)
abbrev A9 : IVec S200000 32 := m ((c.tc : Thread nD τ).loc main_arg9)
abbrev A10 : IVec S200000 32 := m ((c.tc : Thread nD τ).loc main_arg10)
abbrev A11 : IVec S5000 32 := m ((c.tc : Thread nD τ).loc main_arg11)

def ia : FVec Ideal S100000x256 .f32 := Stage.atoms0 (F := Ideal) (A0 m c) (A2 m c)
def ib : FVec Ideal S200000x256 .f32 := Stage.bonds0 (F := Ideal) (A1 m c) (A3 m c)
def ma1 : FVec Ideal S100000x256 .f32 := Stage.atomsNext (ia m c) (ib m c) (A8 m c)
def mb1 : FVec Ideal S200000x256 .f32 := Stage.bondsNext (ma1 m c) (ib m c) (ib m c) (Stage.layerWeight0 (A4 m c)) (A9 m c) (A10 m c)
def ma2 : FVec Ideal S100000x256 .f32 := Stage.atomsNext (ma1 m c) (mb1 m c) (A8 m c)
def mb2 : FVec Ideal S200000x256 .f32 := Stage.bondsNext (ma2 m c) (mb1 m c) (ib m c) (Stage.layerWeight1 (A4 m c)) (A9 m c) (A10 m c)
def ma3 : FVec Ideal S100000x256 .f32 := Stage.atomsNext (ma2 m c) (mb2 m c) (A8 m c)
def mb3 : FVec Ideal S200000x256 .f32 := Stage.bondsNext (ma3 m c) (mb2 m c) (ib m c) (Stage.layerWeight2 (A4 m c)) (A9 m c) (A10 m c)

/-- The encoder of the arguments is the pooled readout of the last round's values. -/
theorem encode_eq :
    Stage.encode (F := Ideal) (A0 m c) (A1 m c) (A2 m c) (A3 m c) (A4 m c) (A5 m c) (A6 m c) (A7 m c) (A8 m c) (A9 m c) (A10 m c) (A11 m c)
      = Stage.pool (Stage.readout (Stage.sumTimesMax (Stage.nbrRows (mb3 m c) (A8 m c))) (ma3 m c) (ia m c) (A7 m c) (A5 m c) (A6 m c)) (A11 m c) := rfl

end Cert.KernelIdeal.Thread

end
-- ==== Proof.KStages.lean ====
/-
  The host operations the kernel's program runs between its regions, as functions of whole arrays (that program's own
  shape records): the three row lookups `jnp.take` makes (rows of a table at an index array, an index below zero counted
  from the end, an index outside the table answered by the fill pattern), the weight blocks it slices, the bias as a
  row, and the per-molecule mean after the last region.
-/
import proofs.«413102_j68977174774322_1_alg».proof.Proof.Gen.KernelIdeal
import Idealize.ShloMosaic.PureOps.Ideal

noncomputable section

namespace Cert.KernelIdeal.HostFn

open Cert.KernelIdeal Cert.KernelIdeal.Gen Idealize.ShloMosaic

variable {F : FTy → Type} [FloatOps F]

/-- An atom-by-neighbour index table with its negative entries counted from the bond table's end. -/
def wrapNbr (a2b : IVec S100000x6 32) : IVec S100000x6 32 :=
  select (cmpi .slt a2b (broadcastInDim S100000x6 ![] bcast_S_S100000x6 (constantI S_ 32 0#32)))
    (addi a2b (broadcastInDim S100000x6 ![] bcast_S_S100000x6 (constantI S_ 32 200000#32))) a2b

/-- Which entries of the table, so counted, lie in `[0, 199999]`. -/
def nbrInRange (a2b : IVec S100000x6 32) : IVec S100000x6 1 :=
  Host.reduce IntOp.andi
    (andi
      (cmpi .sge (broadcastInDim S100000x6x1 ![0, 1] bcast_S100000x6_S100000x6x1_0_1 (wrapNbr a2b))
        (broadcastInDim S100000x6x1 ![] bcast_S_S100000x6x1 (constantI S_ 32 0#32)))
      (cmpi .sle (broadcastInDim S100000x6x1 ![0, 1] bcast_S100000x6_S100000x6x1_0_1 (wrapNbr a2b))
        (broadcastInDim S100000x6x1 ![0, 1, 2] bcast_S1x1x1_S100000x6x1_0_1_2 (broadcastInDim S1x1x1 ![2] bcast_S1_S1x1x1_2 (constantI S1 32 199999#32)))))
    (constantI S_ 1 1#1) reducesTo_S100000x6x1_S100000x6_d2 h_S_

/-- `jnp.take t a2b` along the rows: the six neighbour rows per atom, the fill pattern where the index is outside. -/
def takeNbr (t : FVec F S200000x256 .f32) (a2b : IVec S100000x6 32) : FVec F S100000x6x256 .f32 :=
  select (broadcastInDim S100000x6x256 ![0, 1] bcast_S100000x6_S100000x6x256_0_1 (nbrInRange a2b))
    (Host.gather gather_S200000x256_S100000x6x1_S100000x6x256_2_0_n_n_0_2_1256 t
      (broadcastInDim S100000x6x1 ![0, 1] bcast_S100000x6_S100000x6x1_0_1 (wrapNbr a2b)))
    (broadcastInDim S100000x6x256 ![] bcast_S_S100000x6x256 (constant (F := F) S_ .f32 0x7FC00000#32))

/-- A per-bond index with its negative entries counted from the end of a table of `N` rows (`N` as a word). -/
def wrapRow (N : BitVec 32) (i : IVec S200000 32) : IVec S200000 32 :=
  select (cmpi .slt i (broadcastInDim S200000 ![] bcast_S_S200000 (constantI S_ 32 0#32)))
    (addi i (broadcastInDim S200000 ![] bcast_S_S200000 (constantI S_ 32 N))) i

/-- Which entries of a per-bond index, counted so from `N`, lie in `[0, top]`. -/
def rowInRange (N top : BitVec 32) (i : IVec S200000 32) : IVec S200000 1 :=
  Host.reduce IntOp.andi
    (andi
      (cmpi .sge (broadcastInDim S200000x1 ![0] bcast_S200000_S200000x1_0 (wrapRow N i))
        (broadcastInDim S200000x1 ![] bcast_S_S200000x1 (constantI S_ 32 0#32)))
      (cmpi .sle (broadcastInDim S200000x1 ![0] bcast_S200000_S200000x1_0 (wrapRow N i))
        (broadcastInDim S200000x1 ![0, 1] bcast_S1x1_S200000x1_0_1 (broadcastInDim S1x1 ![1] bcast_S1_S1x1_1 (constantI S1 32 top)))))
    (constantI S_ 1 1#1) reducesTo_S200000x1_S200000_d1 h_S_

/-- `jnp.take t i` along the rows of the bond table. -/
def takeBond (t : FVec F S200000x256 .f32) (i : IVec S200000 32) : FVec F S200000x256 .f32 :=
  select (broadcastInDim S200000x256 ![0] bcast_S200000_S200000x256_0 (rowInRange 200000#32 199999#32 i))
    (Host.gather gather_S200000x256_S200000x1_S200000x256_1_0_n_n_0_1_1256 t
      (broadcastInDim S200000x1 ![0] bcast_S200000_S200000x1_0 (wrapRow 200000#32 i)))
    (broadcastInDim S200000x256 ![] bcast_S_S200000x256 (constant (F := F) S_ .f32 0x7FC00000#32))

/-- `jnp.take t i` along the rows of the atom table. -/
def takeAtom (t : FVec F S100000x256 .f32) (i : IVec S200000 32) : FVec F S200000x256 .f32 :=
  select (broadcastInDim S200000x256 ![0] bcast_S200000_S200000x256_0 (rowInRange 100000#32 99999#32 i))
    (Host.gather gather_S100000x256_S200000x1_S200000x256_1_0_n_n_0_1_1256 t
      (broadcastInDim S200000x1 ![0] bcast_S200000_S200000x1_0 (wrapRow 100000#32 i)))
    (broadcastInDim S200000x256 ![] bcast_S_S200000x256 (constant (F := F) S_ .f32 0x7FC00000#32))

def layerWeight0 (W : FVec F S3x256x256 .f32) : FVec F S256x256 .f32 :=
  shapeCast S256x256 (extractStridedSlice S1x256x256 ![0, 0, 0] W slices_S3x256x256_S1x256x256_0_0_0) shapeCasts_S1x256x256_S256x256
def layerWeight1 (W : FVec F S3x256x256 .f32) : FVec F S256x256 .f32 :=
  shapeCast S256x256 (extractStridedSlice S1x256x256 ![1, 0, 0] W slices_S3x256x256_S1x256x256_1_0_0) shapeCasts_S1x256x256_S256x256
def layerWeight2 (W : FVec F S3x256x256 .f32) : FVec F S256x256 .f32 :=
  shapeCast S256x256 (extractStridedSlice S1x256x256 ![2, 0, 0] W slices_S3x256x256_S1x256x256_2_0_0) shapeCasts_S1x256x256_S256x256

/-- The three row blocks of the readout's first weight. -/
def mixWeight0 (W : FVec F S768x256 .f32) : FVec F S256x256 .f32 := extractStridedSlice S256x256 ![0, 0] W slices_S768x256_S256x256_0_0
def mixWeight1 (W : FVec F S768x256 .f32) : FVec F S256x256 .f32 := extractStridedSlice S256x256 ![256, 0] W slices_S768x256_S256x256_256_0
def mixWeight2 (W : FVec F S768x256 .f32) : FVec F S256x256 .f32 := extractStridedSlice S256x256 ![512, 0] W slices_S768x256_S256x256_512_0

/-- The bias as one row. -/
def biasRow (b : FVec F S256 .f32) : FVec F S1x256 .f32 := shapeCast S1x256 b shapeCasts_S256_S1x256

/-- The molecule each atom belongs to: `jnp.repeat (arange 5000) sizes` at total length `100000` — the sizes rolled by
    one and their first zeroed, summed up to each molecule (its first atom), a one scattered at each start, summed up
    to each atom, less one; then `arange 5000` taken there (outside `[0, 5000)` the fill value). -/
def molIds (sizes : IVec S5000 32) : IVec S100000 32 :=
  let iota : IVec S5000 32 := iotaInDim S5000 32 0
  let rolled : IVec S5000 32 :=
    concatenate S5000 0 [⟨S1, extractStridedSlice S1 ![4999] sizes slices_S5000_S1_4999⟩,
      ⟨S4999, extractStridedSlice S4999 ![0] sizes slices_S5000_S4999_0⟩] concatenates_S1_S4999_S5000_d0
  let firstZero : IVec S5000 32 :=
    Host.scatter scatter_S5000_S1_S__n_0_0_0 (fun _ b => b) rolled (broadcastInDim S1 ![] bcast_S_S1 (constantI S_ 32 0#32)) (constantI S_ 32 0#32)
  let starts : IVec S5000 32 :=
    Host.reduceWindow IntOp.addi ![5000] ![1] ![4999] ![0] firstZero (broadcastInDim S_ ![] bcast_S_S_ (constantI S_ 32 0#32))
      reduceWindows_S5000_S5000_w5000s1p4999_0 h_S_
  let startsW : IVec S5000 32 :=
    select (cmpi .slt starts (broadcastInDim S5000 ![] bcast_S_S5000 (constantI S_ 32 0#32)))
      (addi starts (broadcastInDim S5000 ![] bcast_S_S5000 (constantI S_ 32 100000#32))) starts
  let marks : IVec S100000 32 :=
    Host.scatter scatter_S100000_S5000x1_S5000_n_0_0_1 IntOp.addi (broadcastInDim S100000 ![] bcast_S_S100000 (constantI S_ 32 0#32))
      (broadcastInDim S5000x1 ![0] bcast_S5000_S5000x1_0 startsW) (broadcastInDim S5000 ![] bcast_S_S5000 (constantI S_ 32 1#32))
  let counted : IVec S100000 32 :=
    Host.reduceWindow IntOp.addi ![100000] ![1] ![99999] ![0] marks (broadcastInDim S_ ![] bcast_S_S_ (constantI S_ 32 0#32))
      reduceWindows_S100000_S100000_w100000s1p99999_0 h_S_
  let pos : IVec S100000 32 := subi counted (broadcastInDim S100000 ![] bcast_S_S100000 (constantI S_ 32 1#32))
  let posW : IVec S100000 32 :=
    select (cmpi .slt pos (broadcastInDim S100000 ![] bcast_S_S100000 (constantI S_ 32 0#32)))
      (addi pos (broadcastInDim S100000 ![] bcast_S_S100000 (constantI S_ 32 5000#32))) pos
  let posC : IVec S100000x1 32 := broadcastInDim S100000x1 ![0] bcast_S100000_S100000x1_0 posW
  let inRange : IVec S100000 1 :=
    Host.reduce IntOp.andi
      (andi (cmpi .sge posC (broadcastInDim S100000x1 ![] bcast_S_S100000x1 (constantI S_ 32 0#32)))
        (cmpi .sle posC (broadcastInDim S100000x1 ![0, 1] bcast_S1x1_S100000x1_0_1 (broadcastInDim S1x1 ![1] bcast_S1_S1x1_1 (constantI S1 32 4999#32)))))
      (constantI S_ 1 1#1) reducesTo_S100000x1_S100000_d1 h_S_
  select inRange (Host.gather gather_S5000_S100000x1_S100000_n_0_n_n_0_1_1 iota posC)
    (broadcastInDim S100000 ![] bcast_S_S100000 (constantI S_ 32 2147483648#32))

def pool (h : FVec F S100000x256 .f32) (sizes : IVec S5000 32) : FVec F S5000x256 .f32 :=
  Host.divf
    (Host.scatterAdd scatter_S5000x256_S100000x1_S100000x256_1_0_0_1
      (broadcastInDim S5000x256 ![] bcast_S_S5000x256 (constant (F := F) S_ .f32 0x00000000#32))
      (broadcastInDim S100000x1 ![0] bcast_S100000_S100000x1_0 (molIds sizes)) h)
    (broadcastInDim S5000x256 ![0, 1] bcast_S5000x1_S5000x256_0_1 (sitofp .f32 (broadcastInDim S5000x1 ![0] bcast_S5000_S5000x1_0 sizes)))

end Cert.KernelIdeal.HostFn

end
-- ==== Proof.ThreadFacts.lean ====
/-
  What the kernel program's buffers hold where its rounds meet, stated at two boundaries of @main: after the first
  round's bond update (the fourth region's exit) and after the third round's (the eighth region's exit). Each is a
  record of equations between a buffer's contents there and the encoder's value of the launch arguments.
-/
import proofs.«413102_j68977174774322_1_alg».proof.Proof.Gen.KernelIdeal.Frame
import proofs.«413102_j68977174774322_1_alg».proof.Proof.ThreadVals
import proofs.«413102_j68977174774322_1_alg».proof.Proof.KStages

set_option maxRecDepth 16384

noncomputable section

namespace Cert.KernelIdeal.Thread

open Cert.KernelIdeal Cert.KernelIdeal.Gen Idealize.ShloMosaic Idealize.ShloMosaic.TcCoe Idealize.SL.Sem
open Cert.ReferenceIdeal (Stage.atoms0 Stage.bonds0 Stage.atomsNext Stage.bondsNext Stage.layerWeight0 Stage.layerWeight1 Stage.layerWeight2 Stage.sumTimesMax Stage.nbrRows Stage.bondRows Stage.atomRows Stage.depthStep Stage.readout Stage.pool Stage.encode Stage.embedAtoms Stage.embedBonds)

variable (m : (ℓ : Loc nD τ sig) → Buf (Elt Ideal) ℓ) (ρ : Dev nD → PrngReg) (c : Dev nD)

/-- After the first round: the embedded features, the atoms' and bonds' first messages, the readout's weight blocks, and
    the arguments the later rounds read, untouched. -/
structure AfterRound1 : Prop where
  v0 : W9 m ρ c (Proc.devRef .tc main_v0) = ia m c
  v1 : W9 m ρ c (Proc.devRef .tc main_v1) = ib m c
  v6 : W9 m ρ c (Proc.devRef .tc main_v6) = ma1 m c
  v11 : W9 m ρ c (Proc.devRef .tc main_v11) = mb1 m c
  v2 : W9 m ρ c (Proc.devRef .tc main_v2) = HostFn.mixWeight0 (A7 m c)
  v3 : W9 m ρ c (Proc.devRef .tc main_v3) = HostFn.mixWeight1 (A7 m c)
  v4 : W9 m ρ c (Proc.devRef .tc main_v4) = HostFn.mixWeight2 (A7 m c)
  a4 : W9 m ρ c (Proc.devRef .tc main_arg4) = A4 m c
  a5 : W9 m ρ c (Proc.devRef .tc main_arg5) = A5 m c
  a6 : W9 m ρ c (Proc.devRef .tc main_arg6) = A6 m c
  a8 : W9 m ρ c (Proc.devRef .tc main_arg8) = A8 m c
  a9 : W9 m ρ c (Proc.devRef .tc main_arg9) = A9 m c
  a10 : W9 m ρ c (Proc.devRef .tc main_arg10) = A10 m c
  a11 : W9 m ρ c (Proc.devRef .tc main_arg11) = A11 m c

/-- After the third round: what the last aggregate, the readout and the pooling read. -/
structure AfterRound3 : Prop where
  v0 : W21 m ρ c (Proc.devRef .tc main_v0) = ia m c
  v20 : W21 m ρ c (Proc.devRef .tc main_v20) = ma3 m c
  v25 : W21 m ρ c (Proc.devRef .tc main_v25) = mb3 m c
  v2 : W21 m ρ c (Proc.devRef .tc main_v2) = HostFn.mixWeight0 (A7 m c)
  v3 : W21 m ρ c (Proc.devRef .tc main_v3) = HostFn.mixWeight1 (A7 m c)
  v4 : W21 m ρ c (Proc.devRef .tc main_v4) = HostFn.mixWeight2 (A7 m c)
  a5 : W21 m ρ c (Proc.devRef .tc main_arg5) = A5 m c
  a6 : W21 m ρ c (Proc.devRef .tc main_arg6) = A6 m c
  a8 : W21 m ρ c (Proc.devRef .tc main_arg8) = A8 m c
  a11 : W21 m ρ c (Proc.devRef .tc main_arg11) = A11 m c

end Cert.KernelIdeal.Thread

end
-- ==== Proof.KBridge.lean ====
import proofs.«413102_j68977174774322_1_alg».proof.Proof.Stages
import proofs.«413102_j68977174774322_1_alg».proof.Proof.KStages
import proofs.«413102_j68977174774322_1_alg».proof.Proof.Ranges
import Idealize.ShloMosaic.Lib.StableHlo.Predicate
import Idealize.ShloMosaic.Lib.ValueIdx
import Idealize.ShloMosaic.PureOps.Reduce

set_option maxRecDepth 16384

noncomputable section

namespace Cert.KernelIdeal.HostFn

open Idealize.ShloMosaic
open Cert.ReferenceIdeal (Stage.nbrRows Stage.bondRows Stage.atomRows Stage.layerWeight0 Stage.layerWeight1 Stage.layerWeight2 Stage.pool)

/-! ### Words

A row number of a table with fewer than `2^31` rows is a non-negative word read signed: counting from the table's end
leaves it alone, and it passes both range tests. -/

/-- `select (x < 0) (x + n) x` is `x` at a word below `2^31`. -/
theorem wrap_word (x n : BitVec 32) (hx : x.toNat < 2 ^ 31) :
    Scalar.select (IntOp.cmpi .slt x 0#32) (IntOp.addi x n) x = x := by
  have h0 : ¬ IntOp.cmpi .slt x 0#32 = 1#1 := fun e =>
    Nat.not_lt_zero _ ((StableHlo.Predicate.slt_iff_toNat hx (by decide)).1 e)
  exact if_neg h0

/-- `(0 ≤ x) ∧ (x ≤ top)`, both read signed, holds at a word below `N` when `top` is `N − 1` and `N < 2^31`. -/
theorem inRange_word (N : Nat) (hN : N < 2 ^ 31) (x top : BitVec 32) (hx : x.toNat < N) (htop : top.toNat = N - 1) :
    IntOp.andi (IntOp.cmpi .sge x 0#32) (IntOp.cmpi .sle x top) = 1#1 := by
  have h1 : IntOp.cmpi .sge x 0#32 = 1#1 :=
    (StableHlo.Predicate.sge_iff_toNat (by omega) (by decide)).2 (Nat.zero_le _)
  have h2 : IntOp.cmpi .sle x top = 1#1 :=
    (StableHlo.Predicate.sle_iff_toNat (by omega) (by omega)).2 (by omega)
  rw [h1, h2]; rfl

/-! ### A conjunction of ones -/

/-- A left fold by `and` from 1 over bits that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    have e : IntOp.andi 1#1 (f a) = 1#1 := by rw [hf a]; rfl
    show l.foldl (fun r n => IntOp.andi r (f n)) (IntOp.andi 1#1 (f a)) = 1#1
    rw [e]
    exact foldl_andi_ones f hf l

/-- A reduction by `and` from 1 of an array of ones is 1 at every result index. -/
theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_ones x hx _

/-! ### The index arrays: the wrap is the identity and the range mask is all ones on row numbers -/

theorem wrapNbr_of_inRows (a2b : IVec S100000x6 32) (h : Cert.InRows 200000 a2b) : wrapNbr a2b = a2b := by
  funext k
  exact wrap_word (a2b k) _ (Nat.lt_trans (h k) (by decide))

theorem nbrInRange_of_inRows (a2b : IVec S100000x6 32) (h : Cert.InRows 200000 a2b) (k : S100000x6.Idx) :
    nbrInRange a2b k = 1#1 := by
  unfold nbrInRange
  rw [wrapNbr_of_inRows a2b h]
  refine reduce_andi_ones _ _ _ _ rfl (fun q => ?_) k
  exact inRange_word 200000 (by decide) _ _ (h _) rfl

theorem wrapRow_of_inRows (N : BitVec 32) (n : Nat) (hn : n ≤ 2 ^ 31) (i : IVec S200000 32) (h : Cert.InRows n i) :
    wrapRow N i = i := by
  funext k
  exact wrap_word (i k) N (Nat.lt_of_lt_of_le (h k) hn)

theorem rowInRange_of_inRows (N top : BitVec 32) (n : Nat) (hn : n < 2 ^ 31) (htop : top.toNat = n - 1)
    (i : IVec S200000 32) (h : Cert.InRows n i) (k : S200000.Idx) : rowInRange N top i k = 1#1 := by
  unfold rowInRange
  rw [wrapRow_of_inRows N n (Nat.le_of_lt hn) i h]
  refine reduce_andi_ones _ _ _ _ rfl (fun q => ?_) k
  exact inRange_word n hn _ _ (h _) htop

/-! ### The lookups

With the mask all ones the `select` keeps the gathered rows; the gather itself is the reference's, over equal records. -/

attribute [local irreducible] Host.gather Host.scatter Host.scatterAdd Host.reduce Host.reduceWindow

theorem takeNbr_eq (t : FVec Ideal S200000x256 .f32) (a2b : IVec S100000x6 32) (h : Cert.InRows 200000 a2b) :
    takeNbr (F := Ideal) t a2b = Stage.nbrRows (F := Ideal) t a2b := by
  funext j
  have hm : broadcastInDim S100000x6x256 ![0, 1] Gen.bcast_S100000x6_S100000x6x256_0_1 (nbrInRange a2b) j = 1#1 :=
    nbrInRange_of_inRows a2b h _
  unfold takeNbr
  rw [ValueIdx.select_apply, hm, ValueIdx.select_one]
  rfl

theorem takeBond_eq (t : FVec Ideal S200000x256 .f32) (i : IVec S200000 32) (h : Cert.InRows 200000 i) :
    takeBond (F := Ideal) t i = Stage.bondRows (F := Ideal) t i := by
  funext j
  have hm : broadcastInDim S200000x256 ![0] Gen.bcast_S200000_S200000x256_0 (rowInRange 200000#32 199999#32 i) j = 1#1 :=
    rowInRange_of_inRows 200000#32 199999#32 200000 (by decide) rfl i h _
  unfold takeBond
  rw [ValueIdx.select_apply, hm, ValueIdx.select_one]
  rfl

theorem takeAtom_eq (t : FVec Ideal S100000x256 .f32) (i : IVec S200000 32) (h : Cert.InRows 100000 i) :
    takeAtom (F := Ideal) t i = Stage.atomRows (F := Ideal) t i := by
  funext j
  have hm : broadcastInDim S200000x256 ![0] Gen.bcast_S200000_S200000x256_0 (rowInRange 100000#32 99999#32 i) j = 1#1 :=
    rowInRange_of_inRows 100000#32 99999#32 100000 (by decide) rfl i h _
  unfold takeAtom
  rw [ValueIdx.select_apply, hm, ValueIdx.select_one]
  rfl

/-! ### The weight blocks and the per-molecule mean: the same operations over the two programs' equal records -/

theorem layerWeight0_eq (W : FVec Ideal S3x256x256 .f32) : layerWeight0 (F := Ideal) W = Stage.layerWeight0 (F := Ideal) W := by
  rfl
theorem layerWeight1_eq (W : FVec Ideal S3x256x256 .f32) : layerWeight1 (F := Ideal) W = Stage.layerWeight1 (F := Ideal) W := by
  rfl
theorem layerWeight2_eq (W : FVec Ideal S3x256x256 .f32) : layerWeight2 (F := Ideal) W = Stage.layerWeight2 (F := Ideal) W := by
  rfl

theorem molIds_eq (sizes : IVec S5000 32) : molIds sizes = Cert.ReferenceIdeal.Stage.molIds sizes := rfl

theorem pool_eq (h : FVec Ideal S100000x256 .f32) (sizes : IVec S5000 32) :
    pool (F := Ideal) h sizes = Stage.pool (F := Ideal) h sizes := by
  unfold pool Cert.ReferenceIdeal.Stage.pool
  rw [molIds_eq]
  rfl

end Cert.KernelIdeal.HostFn

end
-- ==== Proof.Region0.lean ====
import proofs.«413102_j68977174774322_1_alg».proof.Proof.Gen.KernelIdeal.Frame
import proofs.«413102_j68977174774322_1_alg».proof.Proof.Stages
import proofs.«413102_j68977174774322_1_alg».proof.Proof.KStages
import Idealize.ShloMosaic.Lib.ValueIdx
import Idealize.ShloMosaic.Lib.Pipeline.Value
import Idealize.ShloMosaic.PureOps.Ideal.Laws

/-!
  Region 0: the atoms' embedding. Each grid point `t` multiplies rows `5000 t … 5000 t + 4999` of the atoms' features
  by the whole weight and rectifies; written back block by block, the output array is `relu (x · w)`, the stage
  function `embedAtoms` of the two arrays the region finds. Both sides, at row `5000 t + r` and column `q`, are
  `max (Σ_k x[5000 t + r, k] · w[k, q]) 0`.
-/

set_option maxRecDepth 16384

noncomputable section

namespace Cert.KernelIdeal.RegionValue

open Cert.KernelIdeal Cert.KernelIdeal.Gen Idealize.ShloMosaic Idealize.ShloMosaic.TcCoe Idealize.SL.Sem
open Cert.ReferenceIdeal (Stage.embedAtoms Stage.embedBonds Stage.sumTimesMax Stage.depthStep Stage.readout)
open Idealize.ShloMosaic.ValueIdx

namespace Region0

/-! ## The kernel's matmul record: where it reads its operands -/

theorem kdot_lhs_0 (j : S5000x256.Idx) (k : dot_S5000x133_S133x256_S5000x256_1_0_0_1_n_n.contr.Idx) :
    (dot_S5000x133_S133x256_S5000x256_1_0_0_1_n_n.lhsIdx j k 0).val = (j 0).val := by
  unfold DotDims.lhsIdx
  rw [dif_neg (show ¬ (0 : Fin S5000x133.rank) ∈ dot_S5000x133_S133x256_S5000x256_1_0_0_1_n_n.lhsBatch by decide),
    dif_pos (show (0 : Fin S5000x133.rank) ∈ dot_S5000x133_S133x256_S5000x256_1_0_0_1_n_n.lhsNonContracting by decide)]
  rfl

theorem kdot_lhs_1 (j : S5000x256.Idx) (k : dot_S5000x133_S133x256_S5000x256_1_0_0_1_n_n.contr.Idx) :
    (dot_S5000x133_S133x256_S5000x256_1_0_0_1_n_n.lhsIdx j k 1).val = (k ⟨0, by decide⟩).val :=
  dot_S5000x133_S133x256_S5000x256_1_0_0_1_n_n.lhsIdx_val_of_single (cl := 1) rfl j k

theorem kdot_rhs_0 (j : S5000x256.Idx) (k : dot_S5000x133_S133x256_S5000x256_1_0_0_1_n_n.contr.Idx) :
    (dot_S5000x133_S133x256_S5000x256_1_0_0_1_n_n.rhsIdx j k 0).val = (k ⟨0, by decide⟩).val :=
  dot_S5000x133_S133x256_S5000x256_1_0_0_1_n_n.rhsIdx_val_of_single (cr := 0) rfl j k

theorem kdot_rhs_1 (j : S5000x256.Idx) (k : dot_S5000x133_S133x256_S5000x256_1_0_0_1_n_n.contr.Idx) :
    (dot_S5000x133_S133x256_S5000x256_1_0_0_1_n_n.rhsIdx j k 1).val = (j 1).val := by
  unfold DotDims.rhsIdx
  rw [dif_neg (show ¬ (1 : Fin S133x256.rank) ∈ dot_S5000x133_S133x256_S5000x256_1_0_0_1_n_n.rhsBatch by decide),
    dif_pos (show (1 : Fin S133x256.rank) ∈ dot_S5000x133_S133x256_S5000x256_1_0_0_1_n_n.rhsNonContracting by decide)]
  rfl

/-- The body's stored value at row `r`, column `q` of its block: the rectified inner product of the block's row `r`
    with the weight's column `q`. -/
theorem pay_apply (x : FVec Ideal S5000x133 .f32) (w : FVec Ideal S133x256 .f32) (r : Fin 5000) (q : Fin 256) :
    k0_pay1 (F := Ideal) x w (ix2 r q) = max (∑ k : Fin 133, x (ix2 r k) * w (ix2 k q)) 0 := by
  unfold k0_pay1
  rw [maximumf_apply, broadcast_apply]
  simp only [matmul]
  rw [Ideal.matmul_constant_zero_apply,
    ← Equiv.sum_comp (contrEquiv1 dot_S5000x133_S133x256_S5000x256_1_0_0_1_n_n 133 rfl rfl).symm]
  have hz : (Scalar.ofBits (F := Ideal) .f32 0x00000000#32) = 0 := Ideal.ofBits_zero_f32
  rw [hz]
  refine congrArg (fun s => max s (0 : EReal)) (Finset.sum_congr rfl fun k _ => ?_)
  have hk := contrEquiv1_symm_val dot_S5000x133_S133x256_S5000x256_1_0_0_1_n_n 133 rfl rfl k
  have hl : dot_S5000x133_S133x256_S5000x256_1_0_0_1_n_n.lhsIdx (ix2 r q)
      ((contrEquiv1 dot_S5000x133_S133x256_S5000x256_1_0_0_1_n_n 133 rfl rfl).symm k) = ix2 r k := by
    funext a; apply Fin.ext
    match a with
    | ⟨0, _⟩ => exact kdot_lhs_0 _ _
    | ⟨1, _⟩ => exact (kdot_lhs_1 _ _).trans hk
  have hr : dot_S5000x133_S133x256_S5000x256_1_0_0_1_n_n.rhsIdx (ix2 r q)
      ((contrEquiv1 dot_S5000x133_S133x256_S5000x256_1_0_0_1_n_n 133 rfl rfl).symm k) = ix2 k q := by
    funext a; apply Fin.ext
    match a with
    | ⟨0, _⟩ => exact (kdot_rhs_0 _ _).trans hk
    | ⟨1, _⟩ => exact kdot_rhs_1 _ _
  rw [hl, hr]

/-! ## The reference's dot record: where it reads its operands -/

theorem rdot_lhs_0 (j : Cert.ReferenceIdeal.S100000x256.Idx) (k : Cert.ReferenceIdeal.dot_S100000x133_S133x256_S100000x256_1_0_0_1_n_n.contr.Idx) :
    (Cert.ReferenceIdeal.dot_S100000x133_S133x256_S100000x256_1_0_0_1_n_n.lhsIdx j k 0).val = (j 0).val := by
  unfold DotDims.lhsIdx
  rw [dif_neg (show ¬ (0 : Fin Cert.ReferenceIdeal.S100000x133.rank) ∈ Cert.ReferenceIdeal.dot_S100000x133_S133x256_S100000x256_1_0_0_1_n_n.lhsBatch by decide),
    dif_pos (show (0 : Fin Cert.ReferenceIdeal.S100000x133.rank) ∈ Cert.ReferenceIdeal.dot_S100000x133_S133x256_S100000x256_1_0_0_1_n_n.lhsNonContracting by decide)]
  rfl

theorem rdot_lhs_1 (j : Cert.ReferenceIdeal.S100000x256.Idx) (k : Cert.ReferenceIdeal.dot_S100000x133_S133x256_S100000x256_1_0_0_1_n_n.contr.Idx) :
    (Cert.ReferenceIdeal.dot_S100000x133_S133x256_S100000x256_1_0_0_1_n_n.lhsIdx j k 1).val = (k ⟨0, by decide⟩).val :=
  Cert.ReferenceIdeal.dot_S100000x133_S133x256_S100000x256_1_0_0_1_n_n.lhsIdx_val_of_single (cl := 1) rfl j k

theorem rdot_rhs_0 (j : Cert.ReferenceIdeal.S100000x256.Idx) (k : Cert.ReferenceIdeal.dot_S100000x133_S133x256_S100000x256_1_0_0_1_n_n.contr.Idx) :
    (Cert.ReferenceIdeal.dot_S100000x133_S133x256_S100000x256_1_0_0_1_n_n.rhsIdx j k 0).val = (k ⟨0, by decide⟩).val :=
  Cert.ReferenceIdeal.dot_S100000x133_S133x256_S100000x256_1_0_0_1_n_n.rhsIdx_val_of_single (cr := 0) rfl j k

theorem rdot_rhs_1 (j : Cert.ReferenceIdeal.S100000x256.Idx) (k : Cert.ReferenceIdeal.dot_S100000x133_S133x256_S100000x256_1_0_0_1_n_n.contr.Idx) :
    (Cert.ReferenceIdeal.dot_S100000x133_S133x256_S100000x256_1_0_0_1_n_n.rhsIdx j k 1).val = (j 1).val := by
  unfold DotDims.rhsIdx
  rw [dif_neg (show ¬ (1 : Fin Cert.ReferenceIdeal.S133x256.rank) ∈ Cert.ReferenceIdeal.dot_S100000x133_S133x256_S100000x256_1_0_0_1_n_n.rhsBatch by decide),
    dif_pos (show (1 : Fin Cert.ReferenceIdeal.S133x256.rank) ∈ Cert.ReferenceIdeal.dot_S100000x133_S133x256_S100000x256_1_0_0_1_n_n.rhsNonContracting by decide)]
  rfl

/-- The stage function at atom `a`, hidden column `q`: the rectified inner product of the atom's feature row with
    the weight's column `q`. -/
theorem embedAtoms_apply (x : FVec Ideal Cert.ReferenceIdeal.S100000x133 .f32) (w : FVec Ideal Cert.ReferenceIdeal.S133x256 .f32)
    (a : Fin 100000) (q : Fin 256) :
    Stage.embedAtoms (F := Ideal) x w (ix2 a q) = max (∑ k : Fin 133, x (ix2 a k) * w (ix2 k q)) 0 := by
  unfold Stage.embedAtoms
  rw [maximumf_apply]
  have hz : Cert.ReferenceIdeal.Stage.zerosA (F := Ideal) (ix2 a q) = 0 := Ideal.ofBits_zero_f32
  rw [hz]
  simp only [Host.dotGeneral]
  rw [Ideal.dotGeneral_apply,
    ← Equiv.sum_comp (contrEquiv1 Cert.ReferenceIdeal.dot_S100000x133_S133x256_S100000x256_1_0_0_1_n_n 133 rfl rfl).symm]
  refine congrArg (fun s => max s (0 : EReal)) (Finset.sum_congr rfl fun k _ => ?_)
  have hk := contrEquiv1_symm_val Cert.ReferenceIdeal.dot_S100000x133_S133x256_S100000x256_1_0_0_1_n_n 133 rfl rfl k
  have hl : Cert.ReferenceIdeal.dot_S100000x133_S133x256_S100000x256_1_0_0_1_n_n.lhsIdx (ix2 a q)
      ((contrEquiv1 Cert.ReferenceIdeal.dot_S100000x133_S133x256_S100000x256_1_0_0_1_n_n 133 rfl rfl).symm k) = ix2 a k := by
    funext ax; apply Fin.ext
    match ax with
    | ⟨0, _⟩ => exact rdot_lhs_0 _ _
    | ⟨1, _⟩ => exact (rdot_lhs_1 _ _).trans hk
  have hr : Cert.ReferenceIdeal.dot_S100000x133_S133x256_S100000x256_1_0_0_1_n_n.rhsIdx (ix2 a q)
      ((contrEquiv1 Cert.ReferenceIdeal.dot_S100000x133_S133x256_S100000x256_1_0_0_1_n_n 133 rfl rfl).symm k) = ix2 k q := by
    funext ax; apply Fin.ext
    match ax with
    | ⟨0, _⟩ => exact (rdot_rhs_0 _ _).trans hk
    | ⟨1, _⟩ => exact rdot_rhs_1 _ _
  rw [hl, hr]

variable (V : (c : Dev nD) → (b : Ref sig .tc) → Buf (Elt Ideal) ((c : Thread nD τ).loc b))

/-! ## From blocks to the array -/

theorem zero_offsets : (![0, 0] : Fin 2 → Nat) = fun _ => 0 := funext fun a => by fin_cases a <;> rfl

/-- The printed index maps over the grid: the atoms' block and the output's block are block `t` of the rows, the
    weight's block is the whole weight. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the stage function of the arrays the region finds. -/
theorem flushed_eq (c : Dev nD) (t : Fin cfg0.N) :
    (dat0 (F := Ideal) V c).flushed 2 t
      = ((cfg0.win 2).blk t).view.read (Elt Ideal) (Stage.embedAtoms (F := Ideal) (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x133) zero_offsets, View.ld_unit_zero (S := S133x256) zero_offsets]
  obtain ⟨e00, e01, e10, e11, e20, e21⟩ := block_indices t
  have ht : t.val < 20 := t.isLt
  funext j
  obtain ⟨r, q, rfl⟩ : ∃ (r : Fin 5000) (q : Fin 256), j = ix2 r q := ⟨j 0, j 1, eq_ix2 j⟩
  have hr : r.val < 5000 := r.isLt
  have hq : q.val < 256 := q.isLt
  show k0_pay1 (F := Ideal) (iblk0 V c 0 t) (iblk0 V c 1 t) (ix2 r q)
    = Stage.embedAtoms (F := Ideal) (V c main_arg0) (V c main_arg2) (((cfg0.win 2).blk t).view.emb (ix2 r q))
  have hout : ((cfg0.win 2).blk t).view.emb (ix2 r q) = ix2 (⟨5000 * t.val + r.val, by omega⟩ : Fin 100000) q := by
    funext a; apply Fin.ext
    match a with
    | ⟨0, _⟩ => show win0_2.index t (0 : Fin 2) * 5000 + 1 * r.val = 5000 * t.val + r.val; omega
    | ⟨1, _⟩ => show win0_2.index t (1 : Fin 2) * 256 + 1 * q.val = q.val; omega
  rw [hout]
  refine (pay_apply (iblk0 V c 0 t) (iblk0 V c 1 t) r q).trans ?_
  refine Eq.trans ?_ (embedAtoms_apply (V c main_arg0) (V c main_arg2) ⟨5000 * t.val + r.val, by omega⟩ q).symm
  refine congrArg (fun s => max s (0 : EReal)) (Finset.sum_congr rfl fun k _ => ?_)
  have hk : k.val < 133 := k.isLt
  have hx : iblk0 V c 0 t (ix2 r k) = V c main_arg0 (ix2 (⟨5000 * t.val + r.val, by omega⟩ : Fin 100000) k) := by
    show V c main_arg0 (((cfg0.win 0).blk t).view.emb (ix2 r k)) = V c main_arg0 (ix2 (⟨5000 * t.val + r.val, by omega⟩ : Fin 100000) k)
    refine congrArg (V c main_arg0) ?_
    funext a; apply Fin.ext
    match a with
    | ⟨0, _⟩ => show win0_0.index t (0 : Fin 2) * 5000 + 1 * r.val = 5000 * t.val + r.val; omega
    | ⟨1, _⟩ => show win0_0.index t (1 : Fin 2) * 133 + 1 * k.val = k.val; omega
  have hw : iblk0 V c 1 t (ix2 k q) = V c main_arg2 (ix2 k q) := by
    show V c main_arg2 (((cfg0.win 1).blk t).view.emb (ix2 k q)) = V c main_arg2 (ix2 k q)
    refine congrArg (V c main_arg2) ?_
    funext a; apply Fin.ext
    match a with
    | ⟨0, _⟩ => show win0_1.index t (0 : Fin 2) * 133 + 1 * k.val = k.val; omega
    | ⟨1, _⟩ => show win0_1.index t (1 : Fin 2) * 256 + 1 * q.val = q.val; omega
  rw [hx, hw]

/-- An index of the output array is in point `t`'s block iff each coordinate is in the block's range on its axis. -/
theorem mem_block (t : Fin cfg0.N) (i : S100000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v0).slice (win0_2.rect t)).set ↔ _
  rw [View.set_slice_whole, Rect.mem_set_unit]
  exact Iff.rfl

/-- Every index of the output array is in the block of the point its row falls in. -/
theorem covered (i : S100000x256.Idx) :
    ∃ t : Fin cfg0.N, (cfg0.win 2).flush t = true ∧ i ∈ ((cfg0.win 2).blk t).view.set := by
  have hi0 : (i 0).val < 100000 := (i 0).isLt
  have hi1 : (i 1).val < 256 := (i 1).isLt
  have hN : cfg0.N = 20 := N_0
  refine ⟨⟨(i 0).val / 5000, by rw [hN]; omega⟩, flush0_2 _, ?_⟩
  obtain ⟨e00, e01, e10, e11, e20, e21⟩ := block_indices ⟨(i 0).val / 5000, by rw [hN]; omega⟩
  rw [mem_block]
  intro a
  match a with
  | ⟨0, _⟩ => show win0_2.index ⟨(i 0).val / 5000, _⟩ (0 : Fin 2) * 5000 ≤ (i 0).val ∧ (i 0).val < win0_2.index ⟨(i 0).val / 5000, _⟩ (0 : Fin 2) * 5000 + 5000; rw [e20]; show (i 0).val / 5000 * 5000 ≤ (i 0).val ∧ (i 0).val < (i 0).val / 5000 * 5000 + 5000; omega
  | ⟨1, _⟩ => show win0_2.index ⟨(i 0).val / 5000, _⟩ (1 : Fin 2) * 256 ≤ (i 1).val ∧ (i 1).val < win0_2.index ⟨(i 0).val / 5000, _⟩ (1 : Fin 2) * 256 + 256; rw [e21]; omega

end Region0

variable (V : (c : Dev nD) → (b : Ref sig .tc) → Buf (Elt Ideal) ((c : Thread nD τ).loc b))

theorem region0 (c : Dev nD) :
    (dat0 (F := Ideal) V c).arrAt 2 cfg0.N = Stage.embedAtoms (F := Ideal) (V c main_arg0) (V c main_arg2) :=
  (dat0 (F := Ideal) V c).arrAt_eq_of_cover 2 (Stage.embedAtoms (F := Ideal) (V c main_arg0) (V c main_arg2))
    (fun t _ => Region0.flushed_eq V c t) Region0.covered

end Cert.KernelIdeal.RegionValue

end
-- ==== Proof.Region1.lean ====
import proofs.«413102_j68977174774322_1_alg».proof.Proof.Gen.KernelIdeal.Frame
import proofs.«413102_j68977174774322_1_alg».proof.Proof.Stages
import proofs.«413102_j68977174774322_1_alg».proof.Proof.KStages
import Idealize.ShloMosaic.Lib.ValueIdx
import Idealize.ShloMosaic.Lib.Pipeline.Value
import Idealize.ShloMosaic.PureOps.Ideal.Laws

/-!
  Region 1: the bonds' embedding. Each grid point `t` multiplies rows `5000 t … 5000 t + 4999` of the bonds' features
  by the whole weight and rectifies; written back block by block, the output array is `relu (x · w)`, the stage
  function `embedBonds` of the two arrays the region finds. Both sides, at row `5000 t + r` and column `q`, are
  `max (Σ_k x[5000 t + r, k] · w[k, q]) 0`.
-/

set_option maxRecDepth 16384

noncomputable section

namespace Cert.KernelIdeal.RegionValue

open Cert.KernelIdeal Cert.KernelIdeal.Gen Idealize.ShloMosaic Idealize.ShloMosaic.TcCoe Idealize.SL.Sem
open Cert.ReferenceIdeal (Stage.embedAtoms Stage.embedBonds Stage.sumTimesMax Stage.depthStep Stage.readout)
open Idealize.ShloMosaic.ValueIdx

namespace Region1

/-! ## The kernel's matmul record: where it reads its operands -/

theorem kdot_lhs_0 (j : S5000x256.Idx) (k : dot_S5000x147_S147x256_S5000x256_1_0_0_1_n_n.contr.Idx) :
    (dot_S5000x147_S147x256_S5000x256_1_0_0_1_n_n.lhsIdx j k 0).val = (j 0).val := by
  unfold DotDims.lhsIdx
  rw [dif_neg (show ¬ (0 : Fin S5000x147.rank) ∈ dot_S5000x147_S147x256_S5000x256_1_0_0_1_n_n.lhsBatch by decide),
    dif_pos (show (0 : Fin S5000x147.rank) ∈ dot_S5000x147_S147x256_S5000x256_1_0_0_1_n_n.lhsNonContracting by decide)]
  rfl

theorem kdot_lhs_1 (j : S5000x256.Idx) (k : dot_S5000x147_S147x256_S5000x256_1_0_0_1_n_n.contr.Idx) :
    (dot_S5000x147_S147x256_S5000x256_1_0_0_1_n_n.lhsIdx j k 1).val = (k ⟨0, by decide⟩).val :=
  dot_S5000x147_S147x256_S5000x256_1_0_0_1_n_n.lhsIdx_val_of_single (cl := 1) rfl j k

theorem kdot_rhs_0 (j : S5000x256.Idx) (k : dot_S5000x147_S147x256_S5000x256_1_0_0_1_n_n.contr.Idx) :
    (dot_S5000x147_S147x256_S5000x256_1_0_0_1_n_n.rhsIdx j k 0).val = (k ⟨0, by decide⟩).val :=
  dot_S5000x147_S147x256_S5000x256_1_0_0_1_n_n.rhsIdx_val_of_single (cr := 0) rfl j k

theorem kdot_rhs_1 (j : S5000x256.Idx) (k : dot_S5000x147_S147x256_S5000x256_1_0_0_1_n_n.contr.Idx) :
    (dot_S5000x147_S147x256_S5000x256_1_0_0_1_n_n.rhsIdx j k 1).val = (j 1).val := by
  unfold DotDims.rhsIdx
  rw [dif_neg (show ¬ (1 : Fin S147x256.rank) ∈ dot_S5000x147_S147x256_S5000x256_1_0_0_1_n_n.rhsBatch by decide),
    dif_pos (show (1 : Fin S147x256.rank) ∈ dot_S5000x147_S147x256_S5000x256_1_0_0_1_n_n.rhsNonContracting by decide)]
  rfl

/-- The body's stored value at row `r`, column `q` of its block: the rectified inner product of the block's row `r`
    with the weight's column `q`. -/
theorem pay_apply (x : FVec Ideal S5000x147 .f32) (w : FVec Ideal S147x256 .f32) (r : Fin 5000) (q : Fin 256) :
    k1_pay1 (F := Ideal) x w (ix2 r q) = max (∑ k : Fin 147, x (ix2 r k) * w (ix2 k q)) 0 := by
  unfold k1_pay1
  rw [maximumf_apply, broadcast_apply]
  simp only [matmul]
  rw [Ideal.matmul_constant_zero_apply,
    ← Equiv.sum_comp (contrEquiv1 dot_S5000x147_S147x256_S5000x256_1_0_0_1_n_n 147 rfl rfl).symm]
  have hz : (Scalar.ofBits (F := Ideal) .f32 0x00000000#32) = 0 := Ideal.ofBits_zero_f32
  rw [hz]
  refine congrArg (fun s => max s (0 : EReal)) (Finset.sum_congr rfl fun k _ => ?_)
  have hk := contrEquiv1_symm_val dot_S5000x147_S147x256_S5000x256_1_0_0_1_n_n 147 rfl rfl k
  have hl : dot_S5000x147_S147x256_S5000x256_1_0_0_1_n_n.lhsIdx (ix2 r q)
      ((contrEquiv1 dot_S5000x147_S147x256_S5000x256_1_0_0_1_n_n 147 rfl rfl).symm k) = ix2 r k := by
    funext a; apply Fin.ext
    match a with
    | ⟨0, _⟩ => exact kdot_lhs_0 _ _
    | ⟨1, _⟩ => exact (kdot_lhs_1 _ _).trans hk
  have hr : dot_S5000x147_S147x256_S5000x256_1_0_0_1_n_n.rhsIdx (ix2 r q)
      ((contrEquiv1 dot_S5000x147_S147x256_S5000x256_1_0_0_1_n_n 147 rfl rfl).symm k) = ix2 k q := by
    funext a; apply Fin.ext
    match a with
    | ⟨0, _⟩ => exact (kdot_rhs_0 _ _).trans hk
    | ⟨1, _⟩ => exact kdot_rhs_1 _ _
  rw [hl, hr]

/-! ## The reference's dot record: where it reads its operands -/

theorem rdot_lhs_0 (j : Cert.ReferenceIdeal.S200000x256.Idx) (k : Cert.ReferenceIdeal.dot_S200000x147_S147x256_S200000x256_1_0_0_1_n_n.contr.Idx) :
    (Cert.ReferenceIdeal.dot_S200000x147_S147x256_S200000x256_1_0_0_1_n_n.lhsIdx j k 0).val = (j 0).val := by
  unfold DotDims.lhsIdx
  rw [dif_neg (show ¬ (0 : Fin Cert.ReferenceIdeal.S200000x147.rank) ∈ Cert.ReferenceIdeal.dot_S200000x147_S147x256_S200000x256_1_0_0_1_n_n.lhsBatch by decide),
    dif_pos (show (0 : Fin Cert.ReferenceIdeal.S200000x147.rank) ∈ Cert.ReferenceIdeal.dot_S200000x147_S147x256_S200000x256_1_0_0_1_n_n.lhsNonContracting by decide)]
  rfl

theorem rdot_lhs_1 (j : Cert.ReferenceIdeal.S200000x256.Idx) (k : Cert.ReferenceIdeal.dot_S200000x147_S147x256_S200000x256_1_0_0_1_n_n.contr.Idx) :
    (Cert.ReferenceIdeal.dot_S200000x147_S147x256_S200000x256_1_0_0_1_n_n.lhsIdx j k 1).val = (k ⟨0, by decide⟩).val :=
  Cert.ReferenceIdeal.dot_S200000x147_S147x256_S200000x256_1_0_0_1_n_n.lhsIdx_val_of_single (cl := 1) rfl j k

theorem rdot_rhs_0 (j : Cert.ReferenceIdeal.S200000x256.Idx) (k : Cert.ReferenceIdeal.dot_S200000x147_S147x256_S200000x256_1_0_0_1_n_n.contr.Idx) :
    (Cert.ReferenceIdeal.dot_S200000x147_S147x256_S200000x256_1_0_0_1_n_n.rhsIdx j k 0).val = (k ⟨0, by decide⟩).val :=
  Cert.ReferenceIdeal.dot_S200000x147_S147x256_S200000x256_1_0_0_1_n_n.rhsIdx_val_of_single (cr := 0) rfl j k

theorem rdot_rhs_1 (j : Cert.ReferenceIdeal.S200000x256.Idx) (k : Cert.ReferenceIdeal.dot_S200000x147_S147x256_S200000x256_1_0_0_1_n_n.contr.Idx) :
    (Cert.ReferenceIdeal.dot_S200000x147_S147x256_S200000x256_1_0_0_1_n_n.rhsIdx j k 1).val = (j 1).val := by
  unfold DotDims.rhsIdx
  rw [dif_neg (show ¬ (1 : Fin Cert.ReferenceIdeal.S147x256.rank) ∈ Cert.ReferenceIdeal.dot_S200000x147_S147x256_S200000x256_1_0_0_1_n_n.rhsBatch by decide),
    dif_pos (show (1 : Fin Cert.ReferenceIdeal.S147x256.rank) ∈ Cert.ReferenceIdeal.dot_S200000x147_S147x256_S200000x256_1_0_0_1_n_n.rhsNonContracting by decide)]
  rfl

/-- The stage function at bond `a`, hidden column `q`: the rectified inner product of the bond's feature row with
    the weight's column `q`. -/
theorem embedBonds_apply (x : FVec Ideal Cert.ReferenceIdeal.S200000x147 .f32) (w : FVec Ideal Cert.ReferenceIdeal.S147x256 .f32)
    (a : Fin 200000) (q : Fin 256) :
    Stage.embedBonds (F := Ideal) x w (ix2 a q) = max (∑ k : Fin 147, x (ix2 a k) * w (ix2 k q)) 0 := by
  unfold Stage.embedBonds
  rw [maximumf_apply]
  have hz : Cert.ReferenceIdeal.Stage.zerosB (F := Ideal) (ix2 a q) = 0 := Ideal.ofBits_zero_f32
  rw [hz]
  simp only [Host.dotGeneral]
  rw [Ideal.dotGeneral_apply,
    ← Equiv.sum_comp (contrEquiv1 Cert.ReferenceIdeal.dot_S200000x147_S147x256_S200000x256_1_0_0_1_n_n 147 rfl rfl).symm]
  refine congrArg (fun s => max s (0 : EReal)) (Finset.sum_congr rfl fun k _ => ?_)
  have hk := contrEquiv1_symm_val Cert.ReferenceIdeal.dot_S200000x147_S147x256_S200000x256_1_0_0_1_n_n 147 rfl rfl k
  have hl : Cert.ReferenceIdeal.dot_S200000x147_S147x256_S200000x256_1_0_0_1_n_n.lhsIdx (ix2 a q)
      ((contrEquiv1 Cert.ReferenceIdeal.dot_S200000x147_S147x256_S200000x256_1_0_0_1_n_n 147 rfl rfl).symm k) = ix2 a k := by
    funext ax; apply Fin.ext
    match ax with
    | ⟨0, _⟩ => exact rdot_lhs_0 _ _
    | ⟨1, _⟩ => exact (rdot_lhs_1 _ _).trans hk
  have hr : Cert.ReferenceIdeal.dot_S200000x147_S147x256_S200000x256_1_0_0_1_n_n.rhsIdx (ix2 a q)
      ((contrEquiv1 Cert.ReferenceIdeal.dot_S200000x147_S147x256_S200000x256_1_0_0_1_n_n 147 rfl rfl).symm k) = ix2 k q := by
    funext ax; apply Fin.ext
    match ax with
    | ⟨0, _⟩ => exact (rdot_rhs_0 _ _).trans hk
    | ⟨1, _⟩ => exact rdot_rhs_1 _ _
  rw [hl, hr]

variable (V : (c : Dev nD) → (b : Ref sig .tc) → Buf (Elt Ideal) ((c : Thread nD τ).loc b))

/-! ## From blocks to the array -/

theorem zero_offsets : (![0, 0] : Fin 2 → Nat) = fun _ => 0 := funext fun a => by fin_cases a <;> rfl

/-- The printed index maps over the grid: the bonds' block and the output's block are block `t` of the rows, the
    weight's block is the whole weight. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the stage function of the arrays the region finds. -/
theorem flushed_eq (c : Dev nD) (t : Fin cfg1.N) :
    (dat1 (F := Ideal) V c).flushed 2 t
      = ((cfg1.win 2).blk t).view.read (Elt Ideal) (Stage.embedBonds (F := Ideal) (V c main_arg1) (V c main_arg3)) := by
  show (cfg1.win 2).cut (grid1.coords t) ((dat1 V c).after 2 t) = _
  rw [after1_2]
  unfold out1_2
  rw [View.canon_unit_zero zero_offsets]
  simp only [View.ld_unit_zero (S := S5000x147) zero_offsets, View.ld_unit_zero (S := S147x256) zero_offsets]
  obtain ⟨e00, e01, e10, e11, e20, e21⟩ := block_indices t
  have ht : t.val < 40 := t.isLt
  funext j
  obtain ⟨r, q, rfl⟩ : ∃ (r : Fin 5000) (q : Fin 256), j = ix2 r q := ⟨j 0, j 1, eq_ix2 j⟩
  have hr : r.val < 5000 := r.isLt
  have hq : q.val < 256 := q.isLt
  show k1_pay1 (F := Ideal) (iblk1 V c 0 t) (iblk1 V c 1 t) (ix2 r q)
    = Stage.embedBonds (F := Ideal) (V c main_arg1) (V c main_arg3) (((cfg1.win 2).blk t).view.emb (ix2 r q))
  have hout : ((cfg1.win 2).blk t).view.emb (ix2 r q) = ix2 (⟨5000 * t.val + r.val, by omega⟩ : Fin 200000) q := by
    funext a; apply Fin.ext
    match a with
    | ⟨0, _⟩ => show win1_2.index t (0 : Fin 2) * 5000 + 1 * r.val = 5000 * t.val + r.val; omega
    | ⟨1, _⟩ => show win1_2.index t (1 : Fin 2) * 256 + 1 * q.val = q.val; omega
  rw [hout]
  refine (pay_apply (iblk1 V c 0 t) (iblk1 V c 1 t) r q).trans ?_
  refine Eq.trans ?_ (embedBonds_apply (V c main_arg1) (V c main_arg3) ⟨5000 * t.val + r.val, by omega⟩ q).symm
  refine congrArg (fun s => max s (0 : EReal)) (Finset.sum_congr rfl fun k _ => ?_)
  have hk : k.val < 147 := k.isLt
  have hx : iblk1 V c 0 t (ix2 r k) = V c main_arg1 (ix2 (⟨5000 * t.val + r.val, by omega⟩ : Fin 200000) k) := by
    show V c main_arg1 (((cfg1.win 0).blk t).view.emb (ix2 r k)) = V c main_arg1 (ix2 (⟨5000 * t.val + r.val, by omega⟩ : Fin 200000) k)
    refine congrArg (V c main_arg1) ?_
    funext a; apply Fin.ext
    match a with
    | ⟨0, _⟩ => show win1_0.index t (0 : Fin 2) * 5000 + 1 * r.val = 5000 * t.val + r.val; omega
    | ⟨1, _⟩ => show win1_0.index t (1 : Fin 2) * 147 + 1 * k.val = k.val; omega
  have hw : iblk1 V c 1 t (ix2 k q) = V c main_arg3 (ix2 k q) := by
    show V c main_arg3 (((cfg1.win 1).blk t).view.emb (ix2 k q)) = V c main_arg3 (ix2 k q)
    refine congrArg (V c main_arg3) ?_
    funext a; apply Fin.ext
    match a with
    | ⟨0, _⟩ => show win1_1.index t (0 : Fin 2) * 147 + 1 * k.val = k.val; omega
    | ⟨1, _⟩ => show win1_1.index t (1 : Fin 2) * 256 + 1 * q.val = q.val; omega
  rw [hx, hw]

/-- An index of the output array is in point `t`'s block iff each coordinate is in the block's range on its axis. -/
theorem mem_block (t : Fin cfg1.N) (i : S200000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v1).slice (win1_2.rect t)).set ↔ _
  rw [View.set_slice_whole, Rect.mem_set_unit]
  exact Iff.rfl

/-- Every index of the output array is in the block of the point its row falls in. -/
theorem covered (i : S200000x256.Idx) :
    ∃ t : Fin cfg1.N, (cfg1.win 2).flush t = true ∧ i ∈ ((cfg1.win 2).blk t).view.set := by
  have hi0 : (i 0).val < 200000 := (i 0).isLt
  have hi1 : (i 1).val < 256 := (i 1).isLt
  have hN : cfg1.N = 40 := N_1
  refine ⟨⟨(i 0).val / 5000, by rw [hN]; omega⟩, flush1_2 _, ?_⟩
  obtain ⟨e00, e01, e10, e11, e20, e21⟩ := block_indices ⟨(i 0).val / 5000, by rw [hN]; omega⟩
  rw [mem_block]
  intro a
  match a with
  | ⟨0, _⟩ => show win1_2.index ⟨(i 0).val / 5000, _⟩ (0 : Fin 2) * 5000 ≤ (i 0).val ∧ (i 0).val < win1_2.index ⟨(i 0).val / 5000, _⟩ (0 : Fin 2) * 5000 + 5000; rw [e20]; show (i 0).val / 5000 * 5000 ≤ (i 0).val ∧ (i 0).val < (i 0).val / 5000 * 5000 + 5000; omega
  | ⟨1, _⟩ => show win1_2.index ⟨(i 0).val / 5000, _⟩ (1 : Fin 2) * 256 ≤ (i 1).val ∧ (i 1).val < win1_2.index ⟨(i 0).val / 5000, _⟩ (1 : Fin 2) * 256 + 256; rw [e21]; omega

end Region1

variable (V : (c : Dev nD) → (b : Ref sig .tc) → Buf (Elt Ideal) ((c : Thread nD τ).loc b))

theorem region1 (c : Dev nD) :
    (dat1 (F := Ideal) V c).arrAt 2 cfg1.N = Stage.embedBonds (F := Ideal) (V c main_arg1) (V c main_arg3) :=
  (dat1 (F := Ideal) V c).arrAt_eq_of_cover 2 (Stage.embedBonds (F := Ideal) (V c main_arg1) (V c main_arg3))
    (fun t _ => Region1.flushed_eq V c t) Region1.covered

end Cert.KernelIdeal.RegionValue

end
-- ==== Proof.RegionLin.lean ====
import proofs.«413102_j68977174774322_1_alg».proof.Proof.Region0
import proofs.«413102_j68977174774322_1_alg».proof.Proof.Region1
-- ==== Proof.Region2.lean ====
import proofs.«413102_j68977174774322_1_alg».proof.Proof.Gen.KernelIdeal.Frame
import proofs.«413102_j68977174774322_1_alg».proof.Proof.Stages
import proofs.«413102_j68977174774322_1_alg».proof.Proof.KStages
import Idealize.ShloMosaic.Lib.Pipeline.Value
import Idealize.ShloMosaic.Lib.ValueIdx
import Idealize.ShloMosaic.Lib.IdealHost
import Idealize.ShloMosaic.PureOps.Ideal.Laws

/-!
  The first round's atom update. The region's body, on a block of 2000 atoms, adds to each atom's hidden vector the
  aggregate of its six neighbour rows: at (atom p, hidden q)

      atom[p, q] + (Σ_k nei[p, k, q]) · (max_k nei[p, k, q]),

  the maximum taken from -∞. The stage function is the same expression over the whole arrays of 100000 atoms. Both
  are read at an index as `entry + agg (the six neighbour entries)`; block t of each input is rows
  2000 t … 2000 t + 1999 of its array, as is block t of the output, and the fifty blocks tile the output array.
-/

set_option maxRecDepth 16384

noncomputable section

namespace Cert.KernelIdeal.RegionValue

open Cert.KernelIdeal Cert.KernelIdeal.Gen Idealize.ShloMosaic Idealize.ShloMosaic.TcCoe Idealize.SL.Sem
open Cert.ReferenceIdeal (Stage.embedAtoms Stage.embedBonds Stage.sumTimesMax Stage.depthStep Stage.readout)

variable (V : (c : Dev nD) → (b : Ref sig .tc) → Buf (Elt Ideal) ((c : Thread nD τ).loc b))

namespace AtomUpdate1

open Idealize.ShloMosaic.ValueIdx

/-- The aggregate of six neighbour entries at one hidden coordinate: their sum times their maximum (the fold of
    `max` from `-∞`, the f32 pattern `0xFF800000`). -/
def agg (f : Fin 6 → EReal) : EReal :=
  (∑ k : Fin 6, f k) * (Finset.univ : Finset (Fin 6)).fold max (Ideal.ofBits .f32 0xFF800000#32) f

/-- In a block of 2000 atoms, the index (atom p, hidden q) with neighbour k inserted on axis 1 is (p, k, q). -/
theorem lift_blk (h : S2000x6x256.Reduces [1] S2000x256) (p : Fin 2000) (k : Fin 6) (q : Fin 256) :
    h.lift (ix2 p q) k = ix3 p k q :=
  funext fun a => by
    match a with
    | ⟨0, _⟩ => rfl
    | ⟨1, _⟩ => rfl
    | ⟨2, _⟩ => rfl

/-- The same in the whole array of 100000 atoms. -/
theorem lift_arr (h : S100000x6x256.Reduces [1] S100000x256) (p : Fin 100000) (k : Fin 6) (q : Fin 256) :
    h.lift (ix2 p q) k = ix3 p k q :=
  funext fun a => by
    match a with
    | ⟨0, _⟩ => rfl
    | ⟨1, _⟩ => rfl
    | ⟨2, _⟩ => rfl

/-- Dropping the neighbour axis of [100000, 6, 256] leaves [100000, 256]. -/
theorem reduces_arr : S100000x6x256.Reduces [1] S100000x256 := by decide

/-- The body's value at (atom p, hidden q) of a block: the atom's entry plus the aggregate of its six neighbour
    entries there. The two reductions over the neighbour axis are a sum and a fold of `max` over `Fin 6`. -/
theorem pay_apply (x0 : FVec Ideal S2000x6x256 .f32) (x1 : FVec Ideal S2000x256 .f32) (p : Fin 2000) (q : Fin 256) :
    k2_pay1 (F := Ideal) x0 x1 (ix2 p q) = x1 (ix2 p q) + agg (fun k => x0 (ix3 p k q)) := by
  unfold k2_pay1
  simp only [shapeCast_self]
  rw [addf_apply, mulf_apply]
  refine congrArg (x1 (ix2 p q) + ·) ?_
  unfold agg
  refine congrArg₂ (· * ·) ?_ ?_
  · refine (Ideal.multiReduction_add_single x0 _ reduces_S2000x6x256_S2000x256 _ _ (ix2 p q)).trans ?_
    exact Finset.sum_congr rfl fun k _ => congrArg x0 (lift_blk _ p k q)
  · refine (Ideal.multiReduction_maximumf_single x0 _ reduces_S2000x6x256_S2000x256 _ _ (ix2 p q)).trans ?_
    exact congrArg (Finset.univ.fold max _) (funext fun k => congrArg x0 (lift_blk _ p k q))

/-- The stage function at (atom p, hidden q) of the whole arrays: the same expression. The host's sum starts from
    the zero word, which is the extended real 0; its maximum starts from the same `-∞` word as the body's. -/
theorem stage_apply (a : FVec Ideal S100000x256 .f32) (n : FVec Ideal S100000x6x256 .f32) (p : Fin 100000) (q : Fin 256) :
    addf a (Stage.sumTimesMax (F := Ideal) n) (ix2 p q) = a (ix2 p q) + agg (fun k => n (ix3 p k q)) := by
  unfold Stage.sumTimesMax
  rw [addf_apply, mulf_apply]
  refine congrArg (a (ix2 p q) + ·) ?_
  unfold agg
  refine congrArg₂ (· * ·) ?_ ?_
  · refine (hostReduceAdd_apply n _ _ _ (ix2 p q)).trans ?_
    refine (Ideal.hostReduceAdd_single _ reduces_arr n _ (ix2 p q)).trans ?_
    rw [constant_apply, Ideal.ofBits_zero_f32, zero_add]
    exact Finset.sum_congr rfl fun k _ => congrArg n (lift_arr _ p k q)
  · refine (Host.reduce_eq_fold_single FloatOps.maximumf n _ _ reduces_arr _ (ix2 p q)).trans ?_
    exact congrArg (Finset.univ.fold max _) (funext fun k => congrArg n (lift_arr _ p k q))

theorem hz2 : (![0, 0] : Fin 2 → Nat) = fun _ => 0 := funext fun a => by fin_cases a <;> rfl
theorem hz3 : (![0, 0, 0] : Fin 3 → Nat) = fun _ => 0 := funext fun a => by fin_cases a <;> rfl

/-- The body's value at an index j of a block is the stage function at an index i of the whole arrays, once the
    block of atom entries read at j is the array read at i and the block of neighbour rows read at (j 0, k, j 1) is
    the array read at (i 0, k, i 1), for each of the six neighbours k. -/
theorem point_eq (x0 : FVec Ideal S2000x6x256 .f32) (x1 : FVec Ideal S2000x256 .f32)
    (a : FVec Ideal S100000x256 .f32) (n : FVec Ideal S100000x6x256 .f32) (j : S2000x256.Idx) (i : S100000x256.Idx)
    (h1 : x1 j = a i) (h0 : ∀ k : Fin 6, x0 (ix3 (j 0) k (j 1)) = n (ix3 (i 0) k (i 1))) :
    k2_pay1 (F := Ideal) x0 x1 j = addf a (Stage.sumTimesMax (F := Ideal) n) i := by
  refine (congrArg (k2_pay1 (F := Ideal) x0 x1) (eq_ix2 j)).trans ?_
  refine (pay_apply x0 x1 (j 0) (j 1)).trans ?_
  refine Eq.trans ?_ (congrArg (addf a (Stage.sumTimesMax (F := Ideal) n)) (eq_ix2 i)).symm
  refine Eq.trans ?_ (stage_apply a n (i 0) (i 1)).symm
  refine congrArg₂ (· + ·) ?_ (congrArg agg (funext h0))
  exact ((congrArg x1 (eq_ix2 j)).symm.trans h1).trans (congrArg a (eq_ix2 i))

/-- The printed index maps over the grid: at point t every window is at block t on the atom axis and at block 0
    on the other axes. -/
theorem idx_facts : ∀ t : Fin cfg2.N, win2_2.index t (0 : Fin 2) = t.val ∧ win2_2.index t (1 : Fin 2) = 0
    ∧ win2_0.index t (0 : Fin 3) = t.val ∧ win2_0.index t (1 : Fin 3) = 0 ∧ win2_0.index t (2 : Fin 3) = 0
    ∧ win2_1.index t (0 : Fin 2) = t.val ∧ win2_1.index t (1 : Fin 2) = 0 :=
  (by decide +kernel : ∀ t : Fin grid2.N, _)

/-- What point t writes back is block t of the stage function of the arrays the region finds: the atom block and
    the neighbour block at t are the same rows of their arrays as the output block. -/
theorem flushed_eq (c : Dev nD) (t : Fin cfg2.N) :
    (dat2 (F := Ideal) V c).flushed 2 t
      = ((cfg2.win 2).blk t).view.read (Elt Ideal) (addf (V c main_v0) (Stage.sumTimesMax (F := Ideal) (V c main_v5))) := by
  show (cfg2.win 2).cut (grid2.coords t) ((dat2 (F := Ideal) V c).after 2 t) = _
  rw [after2_2]
  unfold out2_2
  rw [View.canon_unit_zero hz2]
  simp only [View.ld_unit_zero (S := S2000x6x256) hz3, View.ld_unit_zero (S := S2000x256) hz2]
  obtain ⟨e0, e1, e2, e3, e4, e5, e6⟩ := idx_facts t
  funext j
  show k2_pay1 (F := Ideal) (iblk2 V c 0 t) (iblk2 V c 1 t) j
    = addf (V c main_v0) (Stage.sumTimesMax (F := Ideal) (V c main_v5)) (((cfg2.win 2).blk t).view.emb j)
  refine point_eq (iblk2 V c 0 t) (iblk2 V c 1 t) (V c main_v0) (V c main_v5) j (((cfg2.win 2).blk t).view.emb j) ?_ ?_
  · show V c main_v0 (((cfg2.win 1).blk t).view.emb j) = V c main_v0 (((cfg2.win 2).blk t).view.emb j)
    refine congrArg (V c main_v0) ?_
    funext a; apply Fin.ext
    match a with
    | ⟨0, _⟩ => show win2_1.index t (0 : Fin 2) * 2000 + 1 * (j 0).val = win2_2.index t (0 : Fin 2) * 2000 + 1 * (j 0).val; omega
    | ⟨1, _⟩ => show win2_1.index t (1 : Fin 2) * 256 + 1 * (j 1).val = win2_2.index t (1 : Fin 2) * 256 + 1 * (j 1).val; omega
  · intro k
    show V c main_v5 (((cfg2.win 0).blk t).view.emb (ix3 (j 0) k (j 1)))
      = V c main_v5 (ix3 ((((cfg2.win 2).blk t).view.emb j) 0) k ((((cfg2.win 2).blk t).view.emb j) 1))
    refine congrArg (V c main_v5) ?_
    funext a; apply Fin.ext
    match a with
    | ⟨0, _⟩ => show win2_0.index t (0 : Fin 3) * 2000 + 1 * (j 0).val = win2_2.index t (0 : Fin 2) * 2000 + 1 * (j 0).val; omega
    | ⟨1, _⟩ => show win2_0.index t (1 : Fin 3) * 6 + 1 * k.val = k.val; omega
    | ⟨2, _⟩ => show win2_0.index t (2 : Fin 3) * 256 + 1 * (j 1).val = win2_2.index t (1 : Fin 2) * 256 + 1 * (j 1).val; omega

/-- An index of the output array is in point t's block iff each coordinate is in the block's range on its axis. -/
theorem mem_blk (t : Fin cfg2.N) (i : S100000x256.Idx) :
    i ∈ ((cfg2.win 2).blk t).view.set ↔ ∀ a : Fin 2, win2_2.index t a * S2000x256.size a ≤ (i a).val ∧ (i a).val < win2_2.index t a * S2000x256.size a + S2000x256.size a := by
  show i ∈ ((View.whole main_v6).slice (win2_2.rect t)).set ↔ _
  rw [View.set_slice_whole, Rect.mem_set_unit]
  exact Iff.rfl

/-- The fifty blocks of 2000 atoms tile the output array: atom r is in the block of point r / 2000. -/
theorem covered (i : S100000x256.Idx) :
    ∃ t : Fin cfg2.N, (cfg2.win 2).flush t = true ∧ i ∈ ((cfg2.win 2).blk t).view.set := by
  have hi0 : (i 0).val < 100000 := (i 0).isLt
  have hi1 : (i 1).val < 256 := (i 1).isLt
  have hN : cfg2.N = 50 := N_2
  let t : Fin cfg2.N := ⟨(i 0).val / 2000, by rw [hN]; omega⟩
  obtain ⟨e0, e1, -⟩ := idx_facts t
  have ht : t.val = (i 0).val / 2000 := rfl
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 256 ≤ (i 1).val ∧ (i 1).val < win2_2.index t (1 : Fin 2) * 256 + 256; omega

end AtomUpdate1

theorem region2 (c : Dev nD) :
    (dat2 (F := Ideal) V c).arrAt 2 cfg2.N = addf (V c main_v0) (Stage.sumTimesMax (F := Ideal) (V c main_v5)) :=
  (dat2 (F := Ideal) V c).arrAt_eq_of_cover 2 _ (fun t _ => AtomUpdate1.flushed_eq V c t) AtomUpdate1.covered

end Cert.KernelIdeal.RegionValue

end
-- ==== Proof.Region4.lean ====
import proofs.«413102_j68977174774322_1_alg».proof.Proof.Gen.KernelIdeal.Frame
import proofs.«413102_j68977174774322_1_alg».proof.Proof.Stages
import proofs.«413102_j68977174774322_1_alg».proof.Proof.KStages
import Idealize.ShloMosaic.Lib.Pipeline.Value
import Idealize.ShloMosaic.Lib.ValueIdx
import Idealize.ShloMosaic.Lib.IdealHost
import Idealize.ShloMosaic.PureOps.Ideal.Laws

/-!
  The second round's atom update. The region's body, on a block of 2000 atoms, adds to each atom's hidden vector the
  aggregate of its six neighbour rows: at (atom p, hidden q)

      atom[p, q] + (Σ_k nei[p, k, q]) · (max_k nei[p, k, q]),

  the maximum taken from -∞. The stage function is the same expression over the whole arrays of 100000 atoms. Both
  are read at an index as `entry + agg (the six neighbour entries)`; block t of each input is rows
  2000 t … 2000 t + 1999 of its array, as is block t of the output, and the fifty blocks tile the output array.
-/

set_option maxRecDepth 16384

noncomputable section

namespace Cert.KernelIdeal.RegionValue

open Cert.KernelIdeal Cert.KernelIdeal.Gen Idealize.ShloMosaic Idealize.ShloMosaic.TcCoe Idealize.SL.Sem
open Cert.ReferenceIdeal (Stage.embedAtoms Stage.embedBonds Stage.sumTimesMax Stage.depthStep Stage.readout)

variable (V : (c : Dev nD) → (b : Ref sig .tc) → Buf (Elt Ideal) ((c : Thread nD τ).loc b))

namespace AtomUpdate2

open Idealize.ShloMosaic.ValueIdx

/-- The aggregate of six neighbour entries at one hidden coordinate: their sum times their maximum (the fold of
    `max` from `-∞`, the f32 pattern `0xFF800000`). -/
def agg (f : Fin 6 → EReal) : EReal :=
  (∑ k : Fin 6, f k) * (Finset.univ : Finset (Fin 6)).fold max (Ideal.ofBits .f32 0xFF800000#32) f

/-- In a block of 2000 atoms, the index (atom p, hidden q) with neighbour k inserted on axis 1 is (p, k, q). -/
theorem lift_blk (h : S2000x6x256.Reduces [1] S2000x256) (p : Fin 2000) (k : Fin 6) (q : Fin 256) :
    h.lift (ix2 p q) k = ix3 p k q :=
  funext fun a => by
    match a with
    | ⟨0, _⟩ => rfl
    | ⟨1, _⟩ => rfl
    | ⟨2, _⟩ => rfl

/-- The same in the whole array of 100000 atoms. -/
theorem lift_arr (h : S100000x6x256.Reduces [1] S100000x256) (p : Fin 100000) (k : Fin 6) (q : Fin 256) :
    h.lift (ix2 p q) k = ix3 p k q :=
  funext fun a => by
    match a with
    | ⟨0, _⟩ => rfl
    | ⟨1, _⟩ => rfl
    | ⟨2, _⟩ => rfl

/-- Dropping the neighbour axis of [100000, 6, 256] leaves [100000, 256]. -/
theorem reduces_arr : S100000x6x256.Reduces [1] S100000x256 := by decide

/-- The body's value at (atom p, hidden q) of a block: the atom's entry plus the aggregate of its six neighbour
    entries there. The two reductions over the neighbour axis are a sum and a fold of `max` over `Fin 6`. -/
theorem pay_apply (x0 : FVec Ideal S2000x6x256 .f32) (x1 : FVec Ideal S2000x256 .f32) (p : Fin 2000) (q : Fin 256) :
    k4_pay1 (F := Ideal) x0 x1 (ix2 p q) = x1 (ix2 p q) + agg (fun k => x0 (ix3 p k q)) := by
  unfold k4_pay1
  simp only [shapeCast_self]
  rw [addf_apply, mulf_apply]
  refine congrArg (x1 (ix2 p q) + ·) ?_
  unfold agg
  refine congrArg₂ (· * ·) ?_ ?_
  · refine (Ideal.multiReduction_add_single x0 _ reduces_S2000x6x256_S2000x256 _ _ (ix2 p q)).trans ?_
    exact Finset.sum_congr rfl fun k _ => congrArg x0 (lift_blk _ p k q)
  · refine (Ideal.multiReduction_maximumf_single x0 _ reduces_S2000x6x256_S2000x256 _ _ (ix2 p q)).trans ?_
    exact congrArg (Finset.univ.fold max _) (funext fun k => congrArg x0 (lift_blk _ p k q))

/-- The stage function at (atom p, hidden q) of the whole arrays: the same expression. The host's sum starts from
    the zero word, which is the extended real 0; its maximum starts from the same `-∞` word as the body's. -/
theorem stage_apply (a : FVec Ideal S100000x256 .f32) (n : FVec Ideal S100000x6x256 .f32) (p : Fin 100000) (q : Fin 256) :
    addf a (Stage.sumTimesMax (F := Ideal) n) (ix2 p q) = a (ix2 p q) + agg (fun k => n (ix3 p k q)) := by
  unfold Stage.sumTimesMax
  rw [addf_apply, mulf_apply]
  refine congrArg (a (ix2 p q) + ·) ?_
  unfold agg
  refine congrArg₂ (· * ·) ?_ ?_
  · refine (hostReduceAdd_apply n _ _ _ (ix2 p q)).trans ?_
    refine (Ideal.hostReduceAdd_single _ reduces_arr n _ (ix2 p q)).trans ?_
    rw [constant_apply, Ideal.ofBits_zero_f32, zero_add]
    exact Finset.sum_congr rfl fun k _ => congrArg n (lift_arr _ p k q)
  · refine (Host.reduce_eq_fold_single FloatOps.maximumf n _ _ reduces_arr _ (ix2 p q)).trans ?_
    exact congrArg (Finset.univ.fold max _) (funext fun k => congrArg n (lift_arr _ p k q))

theorem hz2 : (![0, 0] : Fin 2 → Nat) = fun _ => 0 := funext fun a => by fin_cases a <;> rfl
theorem hz3 : (![0, 0, 0] : Fin 3 → Nat) = fun _ => 0 := funext fun a => by fin_cases a <;> rfl

/-- The body's value at an index j of a block is the stage function at an index i of the whole arrays, once the
    block of atom entries read at j is the array read at i and the block of neighbour rows read at (j 0, k, j 1) is
    the array read at (i 0, k, i 1), for each of the six neighbours k. -/
theorem point_eq (x0 : FVec Ideal S2000x6x256 .f32) (x1 : FVec Ideal S2000x256 .f32)
    (a : FVec Ideal S100000x256 .f32) (n : FVec Ideal S100000x6x256 .f32) (j : S2000x256.Idx) (i : S100000x256.Idx)
    (h1 : x1 j = a i) (h0 : ∀ k : Fin 6, x0 (ix3 (j 0) k (j 1)) = n (ix3 (i 0) k (i 1))) :
    k4_pay1 (F := Ideal) x0 x1 j = addf a (Stage.sumTimesMax (F := Ideal) n) i := by
  refine (congrArg (k4_pay1 (F := Ideal) x0 x1) (eq_ix2 j)).trans ?_
  refine (pay_apply x0 x1 (j 0) (j 1)).trans ?_
  refine Eq.trans ?_ (congrArg (addf a (Stage.sumTimesMax (F := Ideal) n)) (eq_ix2 i)).symm
  refine Eq.trans ?_ (stage_apply a n (i 0) (i 1)).symm
  refine congrArg₂ (· + ·) ?_ (congrArg agg (funext h0))
  exact ((congrArg x1 (eq_ix2 j)).symm.trans h1).trans (congrArg a (eq_ix2 i))

/-- The printed index maps over the grid: at point t every window is at block t on the atom axis and at block 0
    on the other axes. -/
theorem idx_facts : ∀ t : Fin cfg4.N, win4_2.index t (0 : Fin 2) = t.val ∧ win4_2.index t (1 : Fin 2) = 0
    ∧ win4_0.index t (0 : Fin 3) = t.val ∧ win4_0.index t (1 : Fin 3) = 0 ∧ win4_0.index t (2 : Fin 3) = 0
    ∧ win4_1.index t (0 : Fin 2) = t.val ∧ win4_1.index t (1 : Fin 2) = 0 :=
  (by decide +kernel : ∀ t : Fin grid4.N, _)

/-- What point t writes back is block t of the stage function of the arrays the region finds: the atom block and
    the neighbour block at t are the same rows of their arrays as the output block. -/
theorem flushed_eq (c : Dev nD) (t : Fin cfg4.N) :
    (dat4 (F := Ideal) V c).flushed 2 t
      = ((cfg4.win 2).blk t).view.read (Elt Ideal) (addf (V c main_v6) (Stage.sumTimesMax (F := Ideal) (V c main_v12))) := by
  show (cfg4.win 2).cut (grid4.coords t) ((dat4 (F := Ideal) V c).after 2 t) = _
  rw [after4_2]
  unfold out4_2
  rw [View.canon_unit_zero hz2]
  simp only [View.ld_unit_zero (S := S2000x6x256) hz3, View.ld_unit_zero (S := S2000x256) hz2]
  obtain ⟨e0, e1, e2, e3, e4, e5, e6⟩ := idx_facts t
  funext j
  show k4_pay1 (F := Ideal) (iblk4 V c 0 t) (iblk4 V c 1 t) j
    = addf (V c main_v6) (Stage.sumTimesMax (F := Ideal) (V c main_v12)) (((cfg4.win 2).blk t).view.emb j)
  refine point_eq (iblk4 V c 0 t) (iblk4 V c 1 t) (V c main_v6) (V c main_v12) j (((cfg4.win 2).blk t).view.emb j) ?_ ?_
  · show V c main_v6 (((cfg4.win 1).blk t).view.emb j) = V c main_v6 (((cfg4.win 2).blk t).view.emb j)
    refine congrArg (V c main_v6) ?_
    funext a; apply Fin.ext
    match a with
    | ⟨0, _⟩ => show win4_1.index t (0 : Fin 2) * 2000 + 1 * (j 0).val = win4_2.index t (0 : Fin 2) * 2000 + 1 * (j 0).val; omega
    | ⟨1, _⟩ => show win4_1.index t (1 : Fin 2) * 256 + 1 * (j 1).val = win4_2.index t (1 : Fin 2) * 256 + 1 * (j 1).val; omega
  · intro k
    show V c main_v12 (((cfg4.win 0).blk t).view.emb (ix3 (j 0) k (j 1)))
      = V c main_v12 (ix3 ((((cfg4.win 2).blk t).view.emb j) 0) k ((((cfg4.win 2).blk t).view.emb j) 1))
    refine congrArg (V c main_v12) ?_
    funext a; apply Fin.ext
    match a with
    | ⟨0, _⟩ => show win4_0.index t (0 : Fin 3) * 2000 + 1 * (j 0).val = win4_2.index t (0 : Fin 2) * 2000 + 1 * (j 0).val; omega
    | ⟨1, _⟩ => show win4_0.index t (1 : Fin 3) * 6 + 1 * k.val = k.val; omega
    | ⟨2, _⟩ => show win4_0.index t (2 : Fin 3) * 256 + 1 * (j 1).val = win4_2.index t (1 : Fin 2) * 256 + 1 * (j 1).val; omega

/-- An index of the output array is in point t's block iff each coordinate is in the block's range on its axis. -/
theorem mem_blk (t : Fin cfg4.N) (i : S100000x256.Idx) :
    i ∈ ((cfg4.win 2).blk t).view.set ↔ ∀ a : Fin 2, win4_2.index t a * S2000x256.size a ≤ (i a).val ∧ (i a).val < win4_2.index t a * S2000x256.size a + S2000x256.size a := by
  show i ∈ ((View.whole main_v13).slice (win4_2.rect t)).set ↔ _
  rw [View.set_slice_whole, Rect.mem_set_unit]
  exact Iff.rfl

/-- The fifty blocks of 2000 atoms tile the output array: atom r is in the block of point r / 2000. -/
theorem covered (i : S100000x256.Idx) :
    ∃ t : Fin cfg4.N, (cfg4.win 2).flush t = true ∧ i ∈ ((cfg4.win 2).blk t).view.set := by
  have hi0 : (i 0).val < 100000 := (i 0).isLt
  have hi1 : (i 1).val < 256 := (i 1).isLt
  have hN : cfg4.N = 50 := N_4
  let t : Fin cfg4.N := ⟨(i 0).val / 2000, by rw [hN]; omega⟩
  obtain ⟨e0, e1, -⟩ := idx_facts t
  have ht : t.val = (i 0).val / 2000 := rfl
  refine ⟨t, flush4_2 t, ?_⟩
  rw [mem_blk]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 256 ≤ (i 1).val ∧ (i 1).val < win4_2.index t (1 : Fin 2) * 256 + 256; omega

end AtomUpdate2

theorem region4 (c : Dev nD) :
    (dat4 (F := Ideal) V c).arrAt 2 cfg4.N = addf (V c main_v6) (Stage.sumTimesMax (F := Ideal) (V c main_v12)) :=
  (dat4 (F := Ideal) V c).arrAt_eq_of_cover 2 _ (fun t _ => AtomUpdate2.flushed_eq V c t) AtomUpdate2.covered

end Cert.KernelIdeal.RegionValue

end
-- ==== Proof.Region6.lean ====
import proofs.«413102_j68977174774322_1_alg».proof.Proof.Gen.KernelIdeal.Frame
import proofs.«413102_j68977174774322_1_alg».proof.Proof.Stages
import proofs.«413102_j68977174774322_1_alg».proof.Proof.KStages
import Idealize.ShloMosaic.Lib.Pipeline.Value
import Idealize.ShloMosaic.Lib.ValueIdx
import Idealize.ShloMosaic.Lib.IdealHost
import Idealize.ShloMosaic.PureOps.Ideal.Laws

/-!
  The third round's atom update. The region's body, on a block of 2000 atoms, adds to each atom's hidden vector the
  aggregate of its six neighbour rows: at (atom p, hidden q)

      atom[p, q] + (Σ_k nei[p, k, q]) · (max_k nei[p, k, q]),

  the maximum taken from -∞. The stage function is the same expression over the whole arrays of 100000 atoms. Both
  are read at an index as `entry + agg (the six neighbour entries)`; block t of each input is rows
  2000 t … 2000 t + 1999 of its array, as is block t of the output, and the fifty blocks tile the output array.
-/

set_option maxRecDepth 16384

noncomputable section

namespace Cert.KernelIdeal.RegionValue

open Cert.KernelIdeal Cert.KernelIdeal.Gen Idealize.ShloMosaic Idealize.ShloMosaic.TcCoe Idealize.SL.Sem
open Cert.ReferenceIdeal (Stage.embedAtoms Stage.embedBonds Stage.sumTimesMax Stage.depthStep Stage.readout)

variable (V : (c : Dev nD) → (b : Ref sig .tc) → Buf (Elt Ideal) ((c : Thread nD τ).loc b))

namespace AtomUpdate3

open Idealize.ShloMosaic.ValueIdx

/-- The aggregate of six neighbour entries at one hidden coordinate: their sum times their maximum (the fold of
    `max` from `-∞`, the f32 pattern `0xFF800000`). -/
def agg (f : Fin 6 → EReal) : EReal :=
  (∑ k : Fin 6, f k) * (Finset.univ : Finset (Fin 6)).fold max (Ideal.ofBits .f32 0xFF800000#32) f

/-- In a block of 2000 atoms, the index (atom p, hidden q) with neighbour k inserted on axis 1 is (p, k, q). -/
theorem lift_blk (h : S2000x6x256.Reduces [1] S2000x256) (p : Fin 2000) (k : Fin 6) (q : Fin 256) :
    h.lift (ix2 p q) k = ix3 p k q :=
  funext fun a => by
    match a with
    | ⟨0, _⟩ => rfl
    | ⟨1, _⟩ => rfl
    | ⟨2, _⟩ => rfl

/-- The same in the whole array of 100000 atoms. -/
theorem lift_arr (h : S100000x6x256.Reduces [1] S100000x256) (p : Fin 100000) (k : Fin 6) (q : Fin 256) :
    h.lift (ix2 p q) k = ix3 p k q :=
  funext fun a => by
    match a with
    | ⟨0, _⟩ => rfl
    | ⟨1, _⟩ => rfl
    | ⟨2, _⟩ => rfl

/-- Dropping the neighbour axis of [100000, 6, 256] leaves [100000, 256]. -/
theorem reduces_arr : S100000x6x256.Reduces [1] S100000x256 := by decide

/-- The body's value at (atom p, hidden q) of a block: the atom's entry plus the aggregate of its six neighbour
    entries there. The two reductions over the neighbour axis are a sum and a fold of `max` over `Fin 6`. -/
theorem pay_apply (x0 : FVec Ideal S2000x6x256 .f32) (x1 : FVec Ideal S2000x256 .f32) (p : Fin 2000) (q : Fin 256) :
    k6_pay1 (F := Ideal) x0 x1 (ix2 p q) = x1 (ix2 p q) + agg (fun k => x0 (ix3 p k q)) := by
  unfold k6_pay1
  simp only [shapeCast_self]
  rw [addf_apply, mulf_apply]
  refine congrArg (x1 (ix2 p q) + ·) ?_
  unfold agg
  refine congrArg₂ (· * ·) ?_ ?_
  · refine (Ideal.multiReduction_add_single x0 _ reduces_S2000x6x256_S2000x256 _ _ (ix2 p q)).trans ?_
    exact Finset.sum_congr rfl fun k _ => congrArg x0 (lift_blk _ p k q)
  · refine (Ideal.multiReduction_maximumf_single x0 _ reduces_S2000x6x256_S2000x256 _ _ (ix2 p q)).trans ?_
    exact congrArg (Finset.univ.fold max _) (funext fun k => congrArg x0 (lift_blk _ p k q))

/-- The stage function at (atom p, hidden q) of the whole arrays: the same expression. The host's sum starts from
    the zero word, which is the extended real 0; its maximum starts from the same `-∞` word as the body's. -/
theorem stage_apply (a : FVec Ideal S100000x256 .f32) (n : FVec Ideal S100000x6x256 .f32) (p : Fin 100000) (q : Fin 256) :
    addf a (Stage.sumTimesMax (F := Ideal) n) (ix2 p q) = a (ix2 p q) + agg (fun k => n (ix3 p k q)) := by
  unfold Stage.sumTimesMax
  rw [addf_apply, mulf_apply]
  refine congrArg (a (ix2 p q) + ·) ?_
  unfold agg
  refine congrArg₂ (· * ·) ?_ ?_
  · refine (hostReduceAdd_apply n _ _ _ (ix2 p q)).trans ?_
    refine (Ideal.hostReduceAdd_single _ reduces_arr n _ (ix2 p q)).trans ?_
    rw [constant_apply, Ideal.ofBits_zero_f32, zero_add]
    exact Finset.sum_congr rfl fun k _ => congrArg n (lift_arr _ p k q)
  · refine (Host.reduce_eq_fold_single FloatOps.maximumf n _ _ reduces_arr _ (ix2 p q)).trans ?_
    exact congrArg (Finset.univ.fold max _) (funext fun k => congrArg n (lift_arr _ p k q))

theorem hz2 : (![0, 0] : Fin 2 → Nat) = fun _ => 0 := funext fun a => by fin_cases a <;> rfl
theorem hz3 : (![0, 0, 0] : Fin 3 → Nat) = fun _ => 0 := funext fun a => by fin_cases a <;> rfl

/-- The body's value at an index j of a block is the stage function at an index i of the whole arrays, once the
    block of atom entries read at j is the array read at i and the block of neighbour rows read at (j 0, k, j 1) is
    the array read at (i 0, k, i 1), for each of the six neighbours k. -/
theorem point_eq (x0 : FVec Ideal S2000x6x256 .f32) (x1 : FVec Ideal S2000x256 .f32)
    (a : FVec Ideal S100000x256 .f32) (n : FVec Ideal S100000x6x256 .f32) (j : S2000x256.Idx) (i : S100000x256.Idx)
    (h1 : x1 j = a i) (h0 : ∀ k : Fin 6, x0 (ix3 (j 0) k (j 1)) = n (ix3 (i 0) k (i 1))) :
    k6_pay1 (F := Ideal) x0 x1 j = addf a (Stage.sumTimesMax (F := Ideal) n) i := by
  refine (congrArg (k6_pay1 (F := Ideal) x0 x1) (eq_ix2 j)).trans ?_
  refine (pay_apply x0 x1 (j 0) (j 1)).trans ?_
  refine Eq.trans ?_ (congrArg (addf a (Stage.sumTimesMax (F := Ideal) n)) (eq_ix2 i)).symm
  refine Eq.trans ?_ (stage_apply a n (i 0) (i 1)).symm
  refine congrArg₂ (· + ·) ?_ (congrArg agg (funext h0))
  exact ((congrArg x1 (eq_ix2 j)).symm.trans h1).trans (congrArg a (eq_ix2 i))

/-- The printed index maps over the grid: at point t every window is at block t on the atom axis and at block 0
    on the other axes. -/
theorem idx_facts : ∀ t : Fin cfg6.N, win6_2.index t (0 : Fin 2) = t.val ∧ win6_2.index t (1 : Fin 2) = 0
    ∧ win6_0.index t (0 : Fin 3) = t.val ∧ win6_0.index t (1 : Fin 3) = 0 ∧ win6_0.index t (2 : Fin 3) = 0
    ∧ win6_1.index t (0 : Fin 2) = t.val ∧ win6_1.index t (1 : Fin 2) = 0 :=
  (by decide +kernel : ∀ t : Fin grid6.N, _)

/-- What point t writes back is block t of the stage function of the arrays the region finds: the atom block and
    the neighbour block at t are the same rows of their arrays as the output block. -/
theorem flushed_eq (c : Dev nD) (t : Fin cfg6.N) :
    (dat6 (F := Ideal) V c).flushed 2 t
      = ((cfg6.win 2).blk t).view.read (Elt Ideal) (addf (V c main_v13) (Stage.sumTimesMax (F := Ideal) (V c main_v19))) := by
  show (cfg6.win 2).cut (grid6.coords t) ((dat6 (F := Ideal) V c).after 2 t) = _
  rw [after6_2]
  unfold out6_2
  rw [View.canon_unit_zero hz2]
  simp only [View.ld_unit_zero (S := S2000x6x256) hz3, View.ld_unit_zero (S := S2000x256) hz2]
  obtain ⟨e0, e1, e2, e3, e4, e5, e6⟩ := idx_facts t
  funext j
  show k6_pay1 (F := Ideal) (iblk6 V c 0 t) (iblk6 V c 1 t) j
    = addf (V c main_v13) (Stage.sumTimesMax (F := Ideal) (V c main_v19)) (((cfg6.win 2).blk t).view.emb j)
  refine point_eq (iblk6 V c 0 t) (iblk6 V c 1 t) (V c main_v13) (V c main_v19) j (((cfg6.win 2).blk t).view.emb j) ?_ ?_
  · show V c main_v13 (((cfg6.win 1).blk t).view.emb j) = V c main_v13 (((cfg6.win 2).blk t).view.emb j)
    refine congrArg (V c main_v13) ?_
    funext a; apply Fin.ext
    match a with
    | ⟨0, _⟩ => show win6_1.index t (0 : Fin 2) * 2000 + 1 * (j 0).val = win6_2.index t (0 : Fin 2) * 2000 + 1 * (j 0).val; omega
    | ⟨1, _⟩ => show win6_1.index t (1 : Fin 2) * 256 + 1 * (j 1).val = win6_2.index t (1 : Fin 2) * 256 + 1 * (j 1).val; omega
  · intro k
    show V c main_v19 (((cfg6.win 0).blk t).view.emb (ix3 (j 0) k (j 1)))
      = V c main_v19 (ix3 ((((cfg6.win 2).blk t).view.emb j) 0) k ((((cfg6.win 2).blk t).view.emb j) 1))
    refine congrArg (V c main_v19) ?_
    funext a; apply Fin.ext
    match a with
    | ⟨0, _⟩ => show win6_0.index t (0 : Fin 3) * 2000 + 1 * (j 0).val = win6_2.index t (0 : Fin 2) * 2000 + 1 * (j 0).val; omega
    | ⟨1, _⟩ => show win6_0.index t (1 : Fin 3) * 6 + 1 * k.val = k.val; omega
    | ⟨2, _⟩ => show win6_0.index t (2 : Fin 3) * 256 + 1 * (j 1).val = win6_2.index t (1 : Fin 2) * 256 + 1 * (j 1).val; omega

/-- An index of the output array is in point t's block iff each coordinate is in the block's range on its axis. -/
theorem mem_blk (t : Fin cfg6.N) (i : S100000x256.Idx) :
    i ∈ ((cfg6.win 2).blk t).view.set ↔ ∀ a : Fin 2, win6_2.index t a * S2000x256.size a ≤ (i a).val ∧ (i a).val < win6_2.index t a * S2000x256.size a + S2000x256.size a := by
  show i ∈ ((View.whole main_v20).slice (win6_2.rect t)).set ↔ _
  rw [View.set_slice_whole, Rect.mem_set_unit]
  exact Iff.rfl

/-- The fifty blocks of 2000 atoms tile the output array: atom r is in the block of point r / 2000. -/
theorem covered (i : S100000x256.Idx) :
    ∃ t : Fin cfg6.N, (cfg6.win 2).flush t = true ∧ i ∈ ((cfg6.win 2).blk t).view.set := by
  have hi0 : (i 0).val < 100000 := (i 0).isLt
  have hi1 : (i 1).val < 256 := (i 1).isLt
  have hN : cfg6.N = 50 := N_6
  let t : Fin cfg6.N := ⟨(i 0).val / 2000, by rw [hN]; omega⟩
  obtain ⟨e0, e1, -⟩ := idx_facts t
  have ht : t.val = (i 0).val / 2000 := rfl
  refine ⟨t, flush6_2 t, ?_⟩
  rw [mem_blk]
  intro a
  match a with
  | ⟨0, _⟩ => show win6_2.index t (0 : Fin 2) * 2000 ≤ (i 0).val ∧ (i 0).val < win6_2.index t (0 : Fin 2) * 2000 + 2000; omega
  | ⟨1, _⟩ => show win6_2.index t (1 : Fin 2) * 256 ≤ (i 1).val ∧ (i 1).val < win6_2.index t (1 : Fin 2) * 256 + 256; omega

end AtomUpdate3

theorem region6 (c : Dev nD) :
    (dat6 (F := Ideal) V c).arrAt 2 cfg6.N = addf (V c main_v13) (Stage.sumTimesMax (F := Ideal) (V c main_v19)) :=
  (dat6 (F := Ideal) V c).arrAt_eq_of_cover 2 _ (fun t _ => AtomUpdate3.flushed_eq V c t) AtomUpdate3.covered

end Cert.KernelIdeal.RegionValue

end
-- ==== Proof.Region8.lean ====
import proofs.«413102_j68977174774322_1_alg».proof.Proof.Gen.KernelIdeal.Frame
import proofs.«413102_j68977174774322_1_alg».proof.Proof.Stages
import proofs.«413102_j68977174774322_1_alg».proof.Proof.KStages
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Cert.ReferenceIdeal (Stage.embedAtoms Stage.embedBonds Stage.sumTimesMax Stage.depthStep Stage.readout)
open Idealize.ShloMosaic.ValueIdx

/-! ## The aggregate at an index: (Σ_k n[a, k, h]) · (max_k n[a, k, h])

The body reduces a 2000 × 6 × 256 block over its neighbour axis twice, once by sum and once by maximum, and
multiplies; the stage function does the same to the whole 100000 × 6 × 256 array. Both are read at an index
(row, lane) as the sum of the six entries times the fold of max over the six entries from negative infinity. -/

/-- Inserting coordinate k on axis 1 of the block index (p, q) gives (p, k, q). -/
theorem agg8_lift_blk (p : Fin 2000) (k : Fin 6) (q : Fin 256) :
    reduces_S2000x6x256_S2000x256.lift (ix2 p q) k = ix3 p k q := by
  funext a
  match a with
  | ⟨0, _⟩ => rfl
  | ⟨1, _⟩ => rfl
  | ⟨2, _⟩ => rfl

/-- The body's stored value at row p, lane q: the six neighbour entries summed, times their maximum
    (the fold of max over the six entries from the accumulator's value, negative infinity). -/
theorem agg8_pay_apply (x0 : Vec Ideal S2000x6x256 .f32) (p : Fin 2000) (q : Fin 256) :
    k8_pay1 (F := Ideal) x0 (ix2 p q)
      = (∑ k : Fin 6, x0 (ix3 p k q))
        * (Finset.univ : Finset (Fin 6)).fold max (FloatOps.ofBits (F := Ideal) .f32 0xFF800000#32) (fun k => x0 (ix3 p k q)) := by
  unfold k8_pay1
  rw [mulf_apply]
  refine congrArg₂ (· * ·) ?_ ?_
  · refine (Ideal.multiReduction_add_single _ _ reduces_S2000x6x256_S2000x256 _ _ (ix2 p q)).trans ?_
    rw [shapeCast_self]
    exact Finset.sum_congr rfl (fun k _ => congrArg x0 (agg8_lift_blk p k q))
  · refine (Ideal.multiReduction_maximumf_single _ _ reduces_S2000x6x256_S2000x256 _ _ (ix2 p q)).trans ?_
    rw [shapeCast_self]
    exact congrArg (Finset.univ.fold max _) (funext fun k => congrArg x0 (agg8_lift_blk p k q))

/-- The whole array's neighbour axis is axis 1 of [100000, 6, 256]. -/
theorem agg8_reduces : Cert.ReferenceIdeal.S100000x6x256.Reduces [1] Cert.ReferenceIdeal.S100000x256 := by decide

/-- Inserting coordinate k on axis 1 of the array index (p, q) gives (p, k, q). -/
theorem agg8_lift_arr (p : Fin 100000) (k : Fin 6) (q : Fin 256) :
    agg8_reduces.lift (ix2 p q) k = ix3 p k q := by
  funext a
  match a with
  | ⟨0, _⟩ => rfl
  | ⟨1, _⟩ => rfl
  | ⟨2, _⟩ => rfl

/-- The stage function at atom p, lane q: the same sum (from the initial value zero) times the same maximum. -/
theorem agg8_stage_apply (n : FVec Ideal Cert.ReferenceIdeal.S100000x6x256 .f32) (p : Fin 100000) (q : Fin 256) :
    Stage.sumTimesMax (F := Ideal) n (ix2 p q)
      = (∑ k : Fin 6, n (ix3 p k q))
        * (Finset.univ : Finset (Fin 6)).fold max (FloatOps.ofBits (F := Ideal) .f32 0xFF800000#32) (fun k => n (ix3 p k q)) := by
  unfold Stage.sumTimesMax
  rw [mulf_apply]
  refine congrArg₂ (· * ·) ?_ ?_
  · show Ideal.hostReduceAdd _ _ _ (ix2 p q) = _
    rw [Ideal.hostReduceAdd_single _ agg8_reduces]
    exact (congrArg₂ (· + ·) Ideal.ofBits_zero_f32 (Finset.sum_congr rfl fun k _ => congrArg n (agg8_lift_arr p k q))).trans (zero_add _)
  · refine (Host.reduce_eq_fold_single _ _ _ _ agg8_reduces _ (ix2 p q)).trans ?_
    exact congrArg (Finset.univ.fold max _) (funext fun k => congrArg n (agg8_lift_arr p k q))

/-- So wherever a block's six entries at (p, ·, q) are the array's at (P, ·, q), the body's value at (p, q) is the
    stage function's at (P, q). -/
theorem agg8_pay_eq_stage (x0 : Vec Ideal S2000x6x256 .f32) (n : FVec Ideal Cert.ReferenceIdeal.S100000x6x256 .f32)
    (p : Fin 2000) (P : Fin 100000) (q : Fin 256) (hx : ∀ k : Fin 6, x0 (ix3 p k q) = n (ix3 P k q)) :
    k8_pay1 (F := Ideal) x0 (ix2 p q) = Stage.sumTimesMax (F := Ideal) n (ix2 P q) := by
  rw [agg8_pay_apply, agg8_stage_apply]
  simp only [hx]

variable (V : (c : Dev nD) → (b : Ref sig .tc) → Buf (Elt Ideal) ((c : Thread nD τ).loc b))

/-! ## From the blocks to the array

Point t reads rows 2000 t … 2000 t + 1999 of the neighbour array and writes the same rows of the result; the fifty
points' row blocks tile the 100000 rows. -/

theorem agg8_hz2 : (![0, 0] : Fin 2 → Nat) = fun _ => 0 := funext fun a => by fin_cases a <;> rfl
theorem agg8_hz3 : (![0, 0, 0] : Fin 3 → Nat) = fun _ => 0 := funext fun a => by fin_cases a <;> rfl

/-- The index maps, decided over the grid: block t of either window is row block t, and the whole of every other axis. -/
theorem agg8_idx_facts : ∀ t : Fin cfg8.N, win8_0.index t (0 : Fin 3) = t.val ∧ win8_0.index t (1 : Fin 3) = 0
    ∧ win8_0.index t (2 : Fin 3) = 0 ∧ win8_1.index t (0 : Fin 2) = t.val ∧ win8_1.index t (1 : Fin 2) = 0 :=
  (by decide +kernel : ∀ t : Fin grid8.N, _)

/-- Point t's input block at (p, k, q) is the neighbour array at (2000 t + p, k, q). -/
theorem agg8_iblk_apply (c : Dev nD) (t : Fin cfg8.N) (p : Fin 2000) (k : Fin 6) (q : Fin 256) (hP : t.val * 2000 + p.val < 100000) :
    iblk8 V c 0 t (ix3 p k q) = V c main_v26 (ix3 (⟨t.val * 2000 + p.val, hP⟩ : Fin 100000) k q) := by
  obtain ⟨e0, e1, e2, e3, e4⟩ := agg8_idx_facts t
  show V c main_v26 (((cfg8.win 0).blk t).view.emb (ix3 p k q)) = V c main_v26 (ix3 (⟨t.val * 2000 + p.val, hP⟩ : Fin 100000) k q)
  refine congrArg (V c main_v26) ?_
  funext a; apply Fin.ext
  match a with
  | ⟨0, _⟩ => show win8_0.index t (0 : Fin 3) * 2000 + 1 * p.val = t.val * 2000 + p.val; omega
  | ⟨1, _⟩ => show win8_0.index t (1 : Fin 3) * 6 + 1 * k.val = k.val; omega
  | ⟨2, _⟩ => show win8_0.index t (2 : Fin 3) * 256 + 1 * q.val = q.val; omega

/-- Point t's output block, read off any array G, at (p, q) is G at (2000 t + p, q). -/
theorem agg8_oblk_apply (c : Dev nD) (t : Fin cfg8.N) (G : Buf (Elt Ideal) ((c : Thread nD τ).loc main_v27))
    (p : Fin 2000) (q : Fin 256) (hP : t.val * 2000 + p.val < 100000) :
    ((cfg8.win 1).blk t).view.read (Elt Ideal) G (ix2 p q) = G (ix2 (⟨t.val * 2000 + p.val, hP⟩ : Fin 100000) q) := by
  obtain ⟨e0, e1, e2, e3, e4⟩ := agg8_idx_facts t
  show G (((cfg8.win 1).blk t).view.emb (ix2 p q)) = G (ix2 (⟨t.val * 2000 + p.val, hP⟩ : Fin 100000) q)
  refine congrArg G ?_
  funext a; apply Fin.ext
  match a with
  | ⟨0, _⟩ => show win8_1.index t (0 : Fin 2) * 2000 + 1 * p.val = t.val * 2000 + p.val; omega
  | ⟨1, _⟩ => show win8_1.index t (1 : Fin 2) * 256 + 1 * q.val = q.val; omega

/-- What point t writes back is block t of any array G that, row by row, holds the body's value of the input block. -/
theorem agg8_flushed_eq_of (c : Dev nD) (t : Fin cfg8.N) (G : Buf (Elt Ideal) ((c : Thread nD τ).loc main_v27))
    (hG : ∀ (p : Fin 2000) (q : Fin 256) (hP : t.val * 2000 + p.val < 100000),
      k8_pay1 (F := Ideal) (iblk8 V c 0 t) (ix2 p q) = G (ix2 (⟨t.val * 2000 + p.val, hP⟩ : Fin 100000) q)) :
    (dat8 (F := Ideal) V c).flushed 1 t = ((cfg8.win 1).blk t).view.read (Elt Ideal) G := by
  show (cfg8.win 1).cut (grid8.coords t) ((dat8 V c).after 1 t) = _
  rw [after8_1]
  unfold out8_1
  rw [View.canon_unit_zero agg8_hz2]
  simp only [View.ld_unit_zero (S := S2000x6x256) agg8_hz3]
  funext j
  obtain ⟨p, q, rfl⟩ : ∃ (p : Fin 2000) (q : Fin 256), j = ix2 p q := ⟨j 0, j 1, eq_ix2 j⟩
  have hp : p.val < 2000 := p.isLt
  have ht : t.val < 50 := Nat.lt_of_lt_of_eq t.isLt N_8
  have hP : t.val * 2000 + p.val < 100000 := by omega
  exact (hG p q hP).trans (agg8_oblk_apply c t G p q hP).symm

/-- What point t writes back is block t of the stage function of the neighbour array. -/
theorem agg8_flushed_eq (c : Dev nD) (t : Fin cfg8.N) :
    (dat8 (F := Ideal) V c).flushed 1 t
      = ((cfg8.win 1).blk t).view.read (Elt Ideal) (Stage.sumTimesMax (F := Ideal) (V c main_v26)) :=
  agg8_flushed_eq_of V c t (Stage.sumTimesMax (F := Ideal) (V c main_v26)) fun p q hP =>
    agg8_pay_eq_stage (iblk8 V c 0 t) (V c main_v26) p ⟨_, hP⟩ q fun k => agg8_iblk_apply V c t p k q hP

/-- An index of the array is in point t's block iff each coordinate is in the block's range on its axis. -/
theorem agg8_mem_blk (t : Fin cfg8.N) (i : S100000x256.Idx) :
    i ∈ ((cfg8.win 1).blk t).view.set ↔ ∀ a : Fin 2, win8_1.index t a * S2000x256.size a ≤ (i a).val ∧ (i a).val < win8_1.index t a * S2000x256.size a + S2000x256.size a := by
  show i ∈ ((View.whole main_v27).slice (win8_1.rect t)).set ↔ _
  rw [View.set_slice_whole, Rect.mem_set_unit]
  exact Iff.rfl

/-- Every index of the array lies in some point's block: row r in block r / 2000. -/
theorem agg8_covered (i : S100000x256.Idx) :
    ∃ t : Fin cfg8.N, (cfg8.win 1).flush t = true ∧ i ∈ ((cfg8.win 1).blk t).view.set := by
  have hi0 : (i 0).val < 100000 := (i 0).isLt
  have hi1 : (i 1).val < 256 := (i 1).isLt
  have hlt : (i 0).val / 2000 < cfg8.N := Nat.lt_of_lt_of_eq (by omega : (i 0).val / 2000 < 50) N_8.symm
  obtain ⟨e0, e1, e2, e3, e4⟩ := agg8_idx_facts ⟨(i 0).val / 2000, hlt⟩
  have e3' : win8_1.index ⟨(i 0).val / 2000, hlt⟩ (0 : Fin 2) = (i 0).val / 2000 := e3
  refine ⟨⟨(i 0).val / 2000, hlt⟩, flush8_1 _, ?_⟩
  rw [agg8_mem_blk]
  intro a
  match a with
  | ⟨0, _⟩ =>
    show win8_1.index ⟨(i 0).val / 2000, hlt⟩ (0 : Fin 2) * 2000 ≤ (i 0).val ∧ (i 0).val < win8_1.index ⟨(i 0).val / 2000, hlt⟩ (0 : Fin 2) * 2000 + 2000
    omega
  | ⟨1, _⟩ =>
    show win8_1.index ⟨(i 0).val / 2000, hlt⟩ (1 : Fin 2) * 256 ≤ (i 1).val ∧ (i 1).val < win8_1.index ⟨(i 0).val / 2000, hlt⟩ (1 : Fin 2) * 256 + 256
    omega

theorem region8 (c : Dev nD) :
    (dat8 (F := Ideal) V c).arrAt 1 cfg8.N = Stage.sumTimesMax (F := Ideal) (V c main_v26) :=
  (dat8 (F := Ideal) V c).arrAt_eq_of_cover 1 (Stage.sumTimesMax (F := Ideal) (V c main_v26))
    (fun t _ => agg8_flushed_eq V c t) agg8_covered

end Cert.KernelIdeal.RegionValue

end
-- ==== Proof.RegionAgg.lean ====
import proofs.«413102_j68977174774322_1_alg».proof.Proof.Region2
import proofs.«413102_j68977174774322_1_alg».proof.Proof.Region4
import proofs.«413102_j68977174774322_1_alg».proof.Proof.Region6
import proofs.«413102_j68977174774322_1_alg».proof.Proof.Region8
-- ==== Proof.Region3.lean ====
import proofs.«413102_j68977174774322_1_alg».proof.Proof.Gen.KernelIdeal.Frame
import proofs.«413102_j68977174774322_1_alg».proof.Proof.Stages
import proofs.«413102_j68977174774322_1_alg».proof.Proof.KStages
import Idealize.ShloMosaic.Lib.ValueIdx
import Idealize.ShloMosaic.Lib.Pipeline.Value
import Idealize.ShloMosaic.Lib.IdealHost
import Idealize.ShloMosaic.PureOps.Ideal.Laws

/-!
  Region 3 (one round's new bond messages): the output array after the region is
  `relu (inp + (g − r) · w)` of the whole input arrays.

  Each grid point `t` holds rows `2000 t … 2000 t + 1999` of the three row-block inputs and all of the weight;
  the body's value at row `p`, column `q` of the block is
  `max (inp[p, q] + Σ_k (g[p, k] − r[p, k]) · w[k, q]) 0`, which is the stage function at row `2000 t + p`,
  column `q`; the hundred blocks tile the array.
-/

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open scoped BigOperators
open Cert.ReferenceIdeal (Stage.embedAtoms Stage.embedBonds Stage.sumTimesMax Stage.depthStep Stage.readout)

variable (V : (c : Dev nD) → (b : Ref sig .tc) → Buf (Elt Ideal) ((c : Thread nD τ).loc b))

namespace Depth3

/-! ### The block product's operand indices, axis by axis -/

theorem kdot_lhs_0 (j : S2000x256.Idx) (k : dot_S2000x256_S256x256_S2000x256_1_0_0_1_n_n.contr.Idx) :
    (dot_S2000x256_S256x256_S2000x256_1_0_0_1_n_n.lhsIdx j k 0 : ℕ) = j 0 := by
  simp [DotDims.lhsIdx, dot_S2000x256_S256x256_S2000x256_1_0_0_1_n_n]; rfl
theorem kdot_lhs_1 (j : S2000x256.Idx) (k : dot_S2000x256_S256x256_S2000x256_1_0_0_1_n_n.contr.Idx) :
    (dot_S2000x256_S256x256_S2000x256_1_0_0_1_n_n.lhsIdx j k 1 : ℕ) = k ⟨0, by decide⟩ := by
  simp [DotDims.lhsIdx, dot_S2000x256_S256x256_S2000x256_1_0_0_1_n_n]; rfl
theorem kdot_rhs_0 (j : S2000x256.Idx) (k : dot_S2000x256_S256x256_S2000x256_1_0_0_1_n_n.contr.Idx) :
    (dot_S2000x256_S256x256_S2000x256_1_0_0_1_n_n.rhsIdx j k 0 : ℕ) = k ⟨0, by decide⟩ := by
  simp [DotDims.rhsIdx, dot_S2000x256_S256x256_S2000x256_1_0_0_1_n_n]; rfl
theorem kdot_rhs_1 (j : S2000x256.Idx) (k : dot_S2000x256_S256x256_S2000x256_1_0_0_1_n_n.contr.Idx) :
    (dot_S2000x256_S256x256_S2000x256_1_0_0_1_n_n.rhsIdx j k 1 : ℕ) = j 1 := by
  simp [DotDims.rhsIdx, dot_S2000x256_S256x256_S2000x256_1_0_0_1_n_n]; rfl

/-- The block product at an index: the sum over the contracted coordinate. -/
theorem kdot_apply (A : FVec Ideal S2000x256 .f32) (B : FVec Ideal S256x256 .f32) (p : Fin 2000) (q : Fin 256) :
    matmul (F := Ideal) dot_S2000x256_S256x256_S2000x256_1_0_0_1_n_n none A B (constant (F := Ideal) S2000x256 .f32 0x00000000#32) (ix2 p q)
      = ∑ k : Fin 256, A (ix2 p k) * B (ix2 k q) := by
  refine (Ideal.matmul_constant_zero_apply _ none A B (ix2 p q)).trans ?_
  rw [← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have hl : dot_S2000x256_S256x256_S2000x256_1_0_0_1_n_n.lhsIdx (ix2 p q) ((contrEquiv1 _ 256 rfl rfl).symm k) = ix2 p k := by
    funext a; apply Fin.ext
    match a with
    | ⟨0, _⟩ => exact kdot_lhs_0 _ _
    | ⟨1, _⟩ => exact (kdot_lhs_1 _ _).trans hk
  have hr : dot_S2000x256_S256x256_S2000x256_1_0_0_1_n_n.rhsIdx (ix2 p q) ((contrEquiv1 _ 256 rfl rfl).symm k) = ix2 k q := by
    funext a; apply Fin.ext
    match a with
    | ⟨0, _⟩ => exact (kdot_rhs_0 _ _).trans hk
    | ⟨1, _⟩ => exact kdot_rhs_1 _ _
  rw [hl, hr]

/-- The body's arithmetic at an index of the block. -/
theorem depthPay_apply (x0 x1 x2 : Vec Ideal S2000x256 .f32) (x3 : Vec Ideal S256x256 .f32) (p : Fin 2000) (q : Fin 256) :
    k3_pay1 (F := Ideal) x0 x1 x3 x2 (ix2 p q)
      = max (x2 (ix2 p q) + ∑ k : Fin 256, (x0 (ix2 p k) - x1 (ix2 p k)) * x3 (ix2 k q)) (Ideal.ofBits .f32 0x00000000#32) := by
  unfold k3_pay1
  rw [shapeCast_self x0, shapeCast_self x1, shapeCast_self x3, shapeCast_self x2]
  rw [maximumf_apply, addf_apply, broadcast_apply]
  refine congrArg₂ max (congrArg (x2 (ix2 p q) + ·) ?_) rfl
  refine (kdot_apply (subf x0 x1) x3 p q).trans ?_
  rfl

/-! ### The whole-array product's operand indices, axis by axis -/

theorem rdot_lhs_0 (j : Cert.ReferenceIdeal.S200000x256.Idx) (k : Cert.ReferenceIdeal.dot_S200000x256_S256x256_S200000x256_1_0_0_1_n_n.contr.Idx) :
    (Cert.ReferenceIdeal.dot_S200000x256_S256x256_S200000x256_1_0_0_1_n_n.lhsIdx j k 0 : ℕ) = j 0 := by
  simp [DotDims.lhsIdx, Cert.ReferenceIdeal.dot_S200000x256_S256x256_S200000x256_1_0_0_1_n_n]; rfl
theorem rdot_lhs_1 (j : Cert.ReferenceIdeal.S200000x256.Idx) (k : Cert.ReferenceIdeal.dot_S200000x256_S256x256_S200000x256_1_0_0_1_n_n.contr.Idx) :
    (Cert.ReferenceIdeal.dot_S200000x256_S256x256_S200000x256_1_0_0_1_n_n.lhsIdx j k 1 : ℕ) = k ⟨0, by decide⟩ := by
  simp [DotDims.lhsIdx, Cert.ReferenceIdeal.dot_S200000x256_S256x256_S200000x256_1_0_0_1_n_n]; rfl
theorem rdot_rhs_0 (j : Cert.ReferenceIdeal.S200000x256.Idx) (k : Cert.ReferenceIdeal.dot_S200000x256_S256x256_S200000x256_1_0_0_1_n_n.contr.Idx) :
    (Cert.ReferenceIdeal.dot_S200000x256_S256x256_S200000x256_1_0_0_1_n_n.rhsIdx j k 0 : ℕ) = k ⟨0, by decide⟩ := by
  simp [DotDims.rhsIdx, Cert.ReferenceIdeal.dot_S200000x256_S256x256_S200000x256_1_0_0_1_n_n]; rfl
theorem rdot_rhs_1 (j : Cert.ReferenceIdeal.S200000x256.Idx) (k : Cert.ReferenceIdeal.dot_S200000x256_S256x256_S200000x256_1_0_0_1_n_n.contr.Idx) :
    (Cert.ReferenceIdeal.dot_S200000x256_S256x256_S200000x256_1_0_0_1_n_n.rhsIdx j k 1 : ℕ) = j 1 := by
  simp [DotDims.rhsIdx, Cert.ReferenceIdeal.dot_S200000x256_S256x256_S200000x256_1_0_0_1_n_n]; rfl

/-- The whole-array product at an index: the sum over the contracted coordinate. -/
theorem rdot_apply (A : FVec Ideal Cert.ReferenceIdeal.S200000x256 .f32) (B : FVec Ideal Cert.ReferenceIdeal.S256x256 .f32) (p : Fin 200000) (q : Fin 256) :
    Host.dotGeneral (F := Ideal) Cert.ReferenceIdeal.dot_S200000x256_S256x256_S200000x256_1_0_0_1_n_n none A B (ix2 p q)
      = ∑ k : Fin 256, A (ix2 p k) * B (ix2 k q) := by
  show FloatOps.dotGeneral _ none _ A B (ix2 p q) = _
  refine (Ideal.dotGeneral_apply _ none _ A B (ix2 p q)).trans ?_
  rw [← Equiv.sum_comp (contrEquiv1 Cert.ReferenceIdeal.dot_S200000x256_S256x256_S200000x256_1_0_0_1_n_n 256 rfl rfl).symm]
  refine Finset.sum_congr rfl fun k _ => ?_
  have hk := contrEquiv1_symm_val Cert.ReferenceIdeal.dot_S200000x256_S256x256_S200000x256_1_0_0_1_n_n 256 rfl rfl k
  have hl : Cert.ReferenceIdeal.dot_S200000x256_S256x256_S200000x256_1_0_0_1_n_n.lhsIdx (ix2 p q) ((contrEquiv1 _ 256 rfl rfl).symm k) = ix2 p k := by
    funext a; apply Fin.ext
    match a with
    | ⟨0, _⟩ => exact rdot_lhs_0 _ _
    | ⟨1, _⟩ => exact (rdot_lhs_1 _ _).trans hk
  have hr : Cert.ReferenceIdeal.dot_S200000x256_S256x256_S200000x256_1_0_0_1_n_n.rhsIdx (ix2 p q) ((contrEquiv1 _ 256 rfl rfl).symm k) = ix2 k q := by
    funext a; apply Fin.ext
    match a with
    | ⟨0, _⟩ => exact (rdot_rhs_0 _ _).trans hk
    | ⟨1, _⟩ => exact rdot_rhs_1 _ _
  rw [hl, hr]

/-- One round's new bond messages at an index of the array. -/
theorem depthStep_apply (g r b : FVec Ideal Cert.ReferenceIdeal.S200000x256 .f32) (w : FVec Ideal Cert.ReferenceIdeal.S256x256 .f32)
    (p : Fin 200000) (q : Fin 256) :
    Stage.depthStep (F := Ideal) g r b w (ix2 p q)
      = max (b (ix2 p q) + ∑ k : Fin 256, (g (ix2 p k) - r (ix2 p k)) * w (ix2 k q)) (Ideal.ofBits .f32 0x00000000#32) := by
  unfold Stage.depthStep
  rw [maximumf_apply, addf_apply]
  refine congrArg₂ max (congrArg (b (ix2 p q) + ·) ?_) ?_
  · refine (rdot_apply (subf g r) w p q).trans ?_
    rfl
  · unfold Cert.ReferenceIdeal.Stage.zerosB
    rw [broadcastInDim_scalar_apply]
    rfl

/-! ### From the blocks to the array -/

theorem zeroOff : (![0, 0] : Fin 2 → Nat) = fun _ => 0 := funext fun a => by fin_cases a <;> rfl

/-- The printed index maps over the grid: the three row-block inputs and the output sit at row block `t`, the weight at
    its only block. -/
theorem depth_idx : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Row `p` of row block `t` is row `2000 t + p` of the array. -/
abbrev rowAt (t : Fin cfg3.N) (p : Fin 2000) : Fin 200000 :=
  ⟨t.val * 2000 + p.val, by have ht : t.val < 100 := N_3 ▸ t.isLt; have hp := p.isLt; omega⟩

theorem gBlock (c : Dev nD) (t : Fin cfg3.N) (p : Fin 2000) (k : Fin 256) :
    iblk3 V c 0 t (ix2 p k) = V c main_v8 (ix2 (rowAt t p) k) := by
  obtain ⟨e0, e1, -⟩ := depth_idx t
  show V c main_v8 (((cfg3.win 0).blk t).view.emb (ix2 p k)) = V c main_v8 (ix2 (rowAt t p) k)
  refine congrArg (V c main_v8) (funext fun a => Fin.ext ?_)
  match a with
  | ⟨0, _⟩ => show win3_0.index t (0 : Fin 2) * 2000 + 1 * p.val = t.val * 2000 + p.val; omega
  | ⟨1, _⟩ => show win3_0.index t (1 : Fin 2) * 256 + 1 * k.val = k.val; omega

theorem rBlock (c : Dev nD) (t : Fin cfg3.N) (p : Fin 2000) (k : Fin 256) :
    iblk3 V c 1 t (ix2 p k) = V c main_v7 (ix2 (rowAt t p) k) := by
  obtain ⟨-, -, e0, e1, -⟩ := depth_idx t
  show V c main_v7 (((cfg3.win 1).blk t).view.emb (ix2 p k)) = V c main_v7 (ix2 (rowAt t p) k)
  refine congrArg (V c main_v7) (funext fun a => Fin.ext ?_)
  match a with
  | ⟨0, _⟩ => show win3_1.index t (0 : Fin 2) * 2000 + 1 * p.val = t.val * 2000 + p.val; omega
  | ⟨1, _⟩ => show win3_1.index t (1 : Fin 2) * 256 + 1 * k.val = k.val; omega

theorem bBlock (c : Dev nD) (t : Fin cfg3.N) (p : Fin 2000) (k : Fin 256) :
    iblk3 V c 2 t (ix2 p k) = V c main_v1 (ix2 (rowAt t p) k) := by
  obtain ⟨-, -, -, -, e0, e1, -⟩ := depth_idx t
  show V c main_v1 (((cfg3.win 2).blk t).view.emb (ix2 p k)) = V c main_v1 (ix2 (rowAt t p) k)
  refine congrArg (V c main_v1) (funext fun a => Fin.ext ?_)
  match a with
  | ⟨0, _⟩ => show win3_2.index t (0 : Fin 2) * 2000 + 1 * p.val = t.val * 2000 + p.val; omega
  | ⟨1, _⟩ => show win3_2.index t (1 : Fin 2) * 256 + 1 * k.val = k.val; omega

theorem wBlock (c : Dev nD) (t : Fin cfg3.N) (k q : Fin 256) :
    iblk3 V c 3 t (ix2 k q) = V c main_v10 (ix2 k q) := by
  obtain ⟨-, -, -, -, -, -, e0, e1, -⟩ := depth_idx t
  show V c main_v10 (((cfg3.win 3).blk t).view.emb (ix2 k q)) = V c main_v10 (ix2 k q)
  refine congrArg (V c main_v10) (funext fun a => Fin.ext ?_)
  match a with
  | ⟨0, _⟩ => show win3_3.index t (0 : Fin 2) * 256 + 1 * k.val = k.val; omega
  | ⟨1, _⟩ => show win3_3.index t (1 : Fin 2) * 256 + 1 * q.val = q.val; omega

/-- Where the output's block `t` sits in its array. -/
theorem outEmb (t : Fin cfg3.N) (p : Fin 2000) (q : Fin 256) :
    ((cfg3.win 4).blk t).view.emb (ix2 p q) = ix2 (rowAt t p) q := by
  obtain ⟨-, -, -, -, -, -, -, -, e0, e1⟩ := depth_idx t
  refine funext fun a => Fin.ext ?_
  match a with
  | ⟨0, _⟩ => show win3_4.index t (0 : Fin 2) * 2000 + 1 * p.val = t.val * 2000 + p.val; omega
  | ⟨1, _⟩ => show win3_4.index t (1 : Fin 2) * 256 + 1 * q.val = q.val; omega

/-- What point `t` writes back is block `t` of the round's new bond messages computed from the whole arrays. -/
theorem depth_flushed (c : Dev nD) (t : Fin cfg3.N) :
    (dat3 (F := Ideal) V c).flushed 4 t
      = ((cfg3.win 4).blk t).view.read (Elt Ideal)
          (Stage.depthStep (F := Ideal) (V c main_v8) (V c main_v7) (V c main_v1) (V c main_v10)) := by
  show (cfg3.win 4).cut (grid3.coords t) ((dat3 V c).after 4 t) = _
  rw [after3_4]
  unfold out3_4
  rw [View.canon_unit_zero zeroOff]
  simp only [View.ld_unit_zero (S := S2000x256) zeroOff, View.ld_unit_zero (S := S256x256) zeroOff]
  funext j
  obtain ⟨p, q, rfl⟩ : ∃ (p : Fin 2000) (q : Fin 256), j = ix2 p q := ⟨j 0, j 1, eq_ix2 j⟩
  show k3_pay1 (F := Ideal) (iblk3 V c 0 t) (iblk3 V c 1 t) (iblk3 V c 3 t) (iblk3 V c 2 t) (ix2 p q)
    = Stage.depthStep (F := Ideal) (V c main_v8) (V c main_v7) (V c main_v1) (V c main_v10) (((cfg3.win 4).blk t).view.emb (ix2 p q))
  rw [outEmb t p q]
  refine (depthPay_apply (iblk3 V c 0 t) (iblk3 V c 1 t) (iblk3 V c 2 t) (iblk3 V c 3 t) p q).trans ?_
  refine (Eq.trans ?_ (depthStep_apply (V c main_v8) (V c main_v7) (V c main_v1) (V c main_v10) (rowAt t p) q).symm)
  refine congrArg₂ max (congrArg₂ (· + ·) (bBlock V c t p q) (Finset.sum_congr rfl fun k _ => ?_)) rfl
  rw [gBlock V c t p k, rBlock V c t p k, wBlock V c t k q]

/-- An index of the output array is in point `t`'s block iff each coordinate is in the block's range on its axis. -/
theorem depth_mem_blk (t : Fin cfg3.N) (i : S200000x256.Idx) :
    i ∈ ((cfg3.win 4).blk t).view.set
      ↔ ∀ a : Fin 2, win3_4.index t a * S2000x256.size a ≤ (i a).val ∧ (i a).val < win3_4.index t a * S2000x256.size a + S2000x256.size a := by
  show i ∈ ((View.whole main_v11).slice (win3_4.rect t)).set ↔ _
  rw [View.set_slice_whole, Rect.mem_set_unit]
  exact Iff.rfl

/-- Every row of the output array is in the block of the point its row block names. -/
theorem depth_cover (i : S200000x256.Idx) :
    ∃ t : Fin cfg3.N, (cfg3.win 4).flush t = true ∧ i ∈ ((cfg3.win 4).blk t).view.set := by
  have hi0 : (i 0).val < 200000 := (i 0).isLt
  have hi1 : (i 1).val < 256 := (i 1).isLt
  let t : Fin cfg3.N := ⟨(i 0).val / 2000, by rw [show cfg3.N = 100 from N_3]; omega⟩
  obtain ⟨-, -, -, -, -, -, -, -, e0, e1⟩ := depth_idx t
  have ht : t.val = (i 0).val / 2000 := rfl
  refine ⟨t, flush3_4 t, ?_⟩
  rw [depth_mem_blk]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 256 ≤ (i 1).val ∧ (i 1).val < win3_4.index t (1 : Fin 2) * 256 + 256; omega

end Depth3

theorem region3 (c : Dev nD) :
    (dat3 (F := Ideal) V c).arrAt 4 cfg3.N
      = Stage.depthStep (F := Ideal) (V c main_v8) (V c main_v7) (V c main_v1) (V c main_v10) :=
  (dat3 (F := Ideal) V c).arrAt_eq_of_cover 4 _ (fun t _ => Depth3.depth_flushed V c t) Depth3.depth_cover

end Cert.KernelIdeal.RegionValue

end
-- ==== Proof.Region5.lean ====
import proofs.«413102_j68977174774322_1_alg».proof.Proof.Gen.KernelIdeal.Frame
import proofs.«413102_j68977174774322_1_alg».proof.Proof.Stages
import proofs.«413102_j68977174774322_1_alg».proof.Proof.KStages
import Idealize.ShloMosaic.Lib.ValueIdx
import Idealize.ShloMosaic.Lib.Pipeline.Value
import Idealize.ShloMosaic.Lib.IdealHost
import Idealize.ShloMosaic.PureOps.Ideal.Laws

/-!
  Region 5 (one round's new bond messages): the output array after the region is
  `relu (inp + (g − r) · w)` of the whole input arrays.

  Each grid point `t` holds rows `2000 t … 2000 t + 1999` of the three row-block inputs and all of the weight;
  the body's value at row `p`, column `q` of the block is
  `max (inp[p, q] + Σ_k (g[p, k] − r[p, k]) · w[k, q]) 0`, which is the stage function at row `2000 t + p`,
  column `q`; the hundred blocks tile the array.
-/

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open scoped BigOperators
open Cert.ReferenceIdeal (Stage.embedAtoms Stage.embedBonds Stage.sumTimesMax Stage.depthStep Stage.readout)

variable (V : (c : Dev nD) → (b : Ref sig .tc) → Buf (Elt Ideal) ((c : Thread nD τ).loc b))

namespace Depth5

/-! ### The block product's operand indices, axis by axis -/

theorem kdot_lhs_0 (j : S2000x256.Idx) (k : dot_S2000x256_S256x256_S2000x256_1_0_0_1_n_n.contr.Idx) :
    (dot_S2000x256_S256x256_S2000x256_1_0_0_1_n_n.lhsIdx j k 0 : ℕ) = j 0 := by
  simp [DotDims.lhsIdx, dot_S2000x256_S256x256_S2000x256_1_0_0_1_n_n]; rfl
theorem kdot_lhs_1 (j : S2000x256.Idx) (k : dot_S2000x256_S256x256_S2000x256_1_0_0_1_n_n.contr.Idx) :
    (dot_S2000x256_S256x256_S2000x256_1_0_0_1_n_n.lhsIdx j k 1 : ℕ) = k ⟨0, by decide⟩ := by
  simp [DotDims.lhsIdx, dot_S2000x256_S256x256_S2000x256_1_0_0_1_n_n]; rfl
theorem kdot_rhs_0 (j : S2000x256.Idx) (k : dot_S2000x256_S256x256_S2000x256_1_0_0_1_n_n.contr.Idx) :
    (dot_S2000x256_S256x256_S2000x256_1_0_0_1_n_n.rhsIdx j k 0 : ℕ) = k ⟨0, by decide⟩ := by
  simp [DotDims.rhsIdx, dot_S2000x256_S256x256_S2000x256_1_0_0_1_n_n]; rfl
theorem kdot_rhs_1 (j : S2000x256.Idx) (k : dot_S2000x256_S256x256_S2000x256_1_0_0_1_n_n.contr.Idx) :
    (dot_S2000x256_S256x256_S2000x256_1_0_0_1_n_n.rhsIdx j k 1 : ℕ) = j 1 := by
  simp [DotDims.rhsIdx, dot_S2000x256_S256x256_S2000x256_1_0_0_1_n_n]; rfl

/-- The block product at an index: the sum over the contracted coordinate. -/
theorem kdot_apply (A : FVec Ideal S2000x256 .f32) (B : FVec Ideal S256x256 .f32) (p : Fin 2000) (q : Fin 256) :
    matmul (F := Ideal) dot_S2000x256_S256x256_S2000x256_1_0_0_1_n_n none A B (constant (F := Ideal) S2000x256 .f32 0x00000000#32) (ix2 p q)
      = ∑ k : Fin 256, A (ix2 p k) * B (ix2 k q) := by
  refine (Ideal.matmul_constant_zero_apply _ none A B (ix2 p q)).trans ?_
  rw [← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have hl : dot_S2000x256_S256x256_S2000x256_1_0_0_1_n_n.lhsIdx (ix2 p q) ((contrEquiv1 _ 256 rfl rfl).symm k) = ix2 p k := by
    funext a; apply Fin.ext
    match a with
    | ⟨0, _⟩ => exact kdot_lhs_0 _ _
    | ⟨1, _⟩ => exact (kdot_lhs_1 _ _).trans hk
  have hr : dot_S2000x256_S256x256_S2000x256_1_0_0_1_n_n.rhsIdx (ix2 p q) ((contrEquiv1 _ 256 rfl rfl).symm k) = ix2 k q := by
    funext a; apply Fin.ext
    match a with
    | ⟨0, _⟩ => exact (kdot_rhs_0 _ _).trans hk
    | ⟨1, _⟩ => exact kdot_rhs_1 _ _
  rw [hl, hr]

/-- The body's arithmetic at an index of the block. -/
theorem depthPay_apply (x0 x1 x2 : Vec Ideal S2000x256 .f32) (x3 : Vec Ideal S256x256 .f32) (p : Fin 2000) (q : Fin 256) :
    k5_pay1 (F := Ideal) x0 x1 x3 x2 (ix2 p q)
      = max (x2 (ix2 p q) + ∑ k : Fin 256, (x0 (ix2 p k) - x1 (ix2 p k)) * x3 (ix2 k q)) (Ideal.ofBits .f32 0x00000000#32) := by
  unfold k5_pay1
  rw [shapeCast_self x0, shapeCast_self x1, shapeCast_self x3, shapeCast_self x2]
  rw [maximumf_apply, addf_apply, broadcast_apply]
  refine congrArg₂ max (congrArg (x2 (ix2 p q) + ·) ?_) rfl
  refine (kdot_apply (subf x0 x1) x3 p q).trans ?_
  rfl

/-! ### The whole-array product's operand indices, axis by axis -/

theorem rdot_lhs_0 (j : Cert.ReferenceIdeal.S200000x256.Idx) (k : Cert.ReferenceIdeal.dot_S200000x256_S256x256_S200000x256_1_0_0_1_n_n.contr.Idx) :
    (Cert.ReferenceIdeal.dot_S200000x256_S256x256_S200000x256_1_0_0_1_n_n.lhsIdx j k 0 : ℕ) = j 0 := by
  simp [DotDims.lhsIdx, Cert.ReferenceIdeal.dot_S200000x256_S256x256_S200000x256_1_0_0_1_n_n]; rfl
theorem rdot_lhs_1 (j : Cert.ReferenceIdeal.S200000x256.Idx) (k : Cert.ReferenceIdeal.dot_S200000x256_S256x256_S200000x256_1_0_0_1_n_n.contr.Idx) :
    (Cert.ReferenceIdeal.dot_S200000x256_S256x256_S200000x256_1_0_0_1_n_n.lhsIdx j k 1 : ℕ) = k ⟨0, by decide⟩ := by
  simp [DotDims.lhsIdx, Cert.ReferenceIdeal.dot_S200000x256_S256x256_S200000x256_1_0_0_1_n_n]; rfl
theorem rdot_rhs_0 (j : Cert.ReferenceIdeal.S200000x256.Idx) (k : Cert.ReferenceIdeal.dot_S200000x256_S256x256_S200000x256_1_0_0_1_n_n.contr.Idx) :
    (Cert.ReferenceIdeal.dot_S200000x256_S256x256_S200000x256_1_0_0_1_n_n.rhsIdx j k 0 : ℕ) = k ⟨0, by decide⟩ := by
  simp [DotDims.rhsIdx, Cert.ReferenceIdeal.dot_S200000x256_S256x256_S200000x256_1_0_0_1_n_n]; rfl
theorem rdot_rhs_1 (j : Cert.ReferenceIdeal.S200000x256.Idx) (k : Cert.ReferenceIdeal.dot_S200000x256_S256x256_S200000x256_1_0_0_1_n_n.contr.Idx) :
    (Cert.ReferenceIdeal.dot_S200000x256_S256x256_S200000x256_1_0_0_1_n_n.rhsIdx j k 1 : ℕ) = j 1 := by
  simp [DotDims.rhsIdx, Cert.ReferenceIdeal.dot_S200000x256_S256x256_S200000x256_1_0_0_1_n_n]; rfl

/-- The whole-array product at an index: the sum over the contracted coordinate. -/
theorem rdot_apply (A : FVec Ideal Cert.ReferenceIdeal.S200000x256 .f32) (B : FVec Ideal Cert.ReferenceIdeal.S256x256 .f32) (p : Fin 200000) (q : Fin 256) :
    Host.dotGeneral (F := Ideal) Cert.ReferenceIdeal.dot_S200000x256_S256x256_S200000x256_1_0_0_1_n_n none A B (ix2 p q)
      = ∑ k : Fin 256, A (ix2 p k) * B (ix2 k q) := by
  show FloatOps.dotGeneral _ none _ A B (ix2 p q) = _
  refine (Ideal.dotGeneral_apply _ none _ A B (ix2 p q)).trans ?_
  rw [← Equiv.sum_comp (contrEquiv1 Cert.ReferenceIdeal.dot_S200000x256_S256x256_S200000x256_1_0_0_1_n_n 256 rfl rfl).symm]
  refine Finset.sum_congr rfl fun k _ => ?_
  have hk := contrEquiv1_symm_val Cert.ReferenceIdeal.dot_S200000x256_S256x256_S200000x256_1_0_0_1_n_n 256 rfl rfl k
  have hl : Cert.ReferenceIdeal.dot_S200000x256_S256x256_S200000x256_1_0_0_1_n_n.lhsIdx (ix2 p q) ((contrEquiv1 _ 256 rfl rfl).symm k) = ix2 p k := by
    funext a; apply Fin.ext
    match a with
    | ⟨0, _⟩ => exact rdot_lhs_0 _ _
    | ⟨1, _⟩ => exact (rdot_lhs_1 _ _).trans hk
  have hr : Cert.ReferenceIdeal.dot_S200000x256_S256x256_S200000x256_1_0_0_1_n_n.rhsIdx (ix2 p q) ((contrEquiv1 _ 256 rfl rfl).symm k) = ix2 k q := by
    funext a; apply Fin.ext
    match a with
    | ⟨0, _⟩ => exact (rdot_rhs_0 _ _).trans hk
    | ⟨1, _⟩ => exact rdot_rhs_1 _ _
  rw [hl, hr]

/-- One round's new bond messages at an index of the array. -/
theorem depthStep_apply (g r b : FVec Ideal Cert.ReferenceIdeal.S200000x256 .f32) (w : FVec Ideal Cert.ReferenceIdeal.S256x256 .f32)
    (p : Fin 200000) (q : Fin 256) :
    Stage.depthStep (F := Ideal) g r b w (ix2 p q)
      = max (b (ix2 p q) + ∑ k : Fin 256, (g (ix2 p k) - r (ix2 p k)) * w (ix2 k q)) (Ideal.ofBits .f32 0x00000000#32) := by
  unfold Stage.depthStep
  rw [maximumf_apply, addf_apply]
  refine congrArg₂ max (congrArg (b (ix2 p q) + ·) ?_) ?_
  · refine (rdot_apply (subf g r) w p q).trans ?_
    rfl
  · unfold Cert.ReferenceIdeal.Stage.zerosB
    rw [broadcastInDim_scalar_apply]
    rfl

/-! ### From the blocks to the array -/

theorem zeroOff : (![0, 0] : Fin 2 → Nat) = fun _ => 0 := funext fun a => by fin_cases a <;> rfl

/-- The printed index maps over the grid: the three row-block inputs and the output sit at row block `t`, the weight at
    its only block. -/
theorem depth_idx : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Row `p` of row block `t` is row `2000 t + p` of the array. -/
abbrev rowAt (t : Fin cfg5.N) (p : Fin 2000) : Fin 200000 :=
  ⟨t.val * 2000 + p.val, by have ht : t.val < 100 := N_5 ▸ t.isLt; have hp := p.isLt; omega⟩

theorem gBlock (c : Dev nD) (t : Fin cfg5.N) (p : Fin 2000) (k : Fin 256) :
    iblk5 V c 0 t (ix2 p k) = V c main_v15 (ix2 (rowAt t p) k) := by
  obtain ⟨e0, e1, -⟩ := depth_idx t
  show V c main_v15 (((cfg5.win 0).blk t).view.emb (ix2 p k)) = V c main_v15 (ix2 (rowAt t p) k)
  refine congrArg (V c main_v15) (funext fun a => Fin.ext ?_)
  match a with
  | ⟨0, _⟩ => show win5_0.index t (0 : Fin 2) * 2000 + 1 * p.val = t.val * 2000 + p.val; omega
  | ⟨1, _⟩ => show win5_0.index t (1 : Fin 2) * 256 + 1 * k.val = k.val; omega

theorem rBlock (c : Dev nD) (t : Fin cfg5.N) (p : Fin 2000) (k : Fin 256) :
    iblk5 V c 1 t (ix2 p k) = V c main_v14 (ix2 (rowAt t p) k) := by
  obtain ⟨-, -, e0, e1, -⟩ := depth_idx t
  show V c main_v14 (((cfg5.win 1).blk t).view.emb (ix2 p k)) = V c main_v14 (ix2 (rowAt t p) k)
  refine congrArg (V c main_v14) (funext fun a => Fin.ext ?_)
  match a with
  | ⟨0, _⟩ => show win5_1.index t (0 : Fin 2) * 2000 + 1 * p.val = t.val * 2000 + p.val; omega
  | ⟨1, _⟩ => show win5_1.index t (1 : Fin 2) * 256 + 1 * k.val = k.val; omega

theorem bBlock (c : Dev nD) (t : Fin cfg5.N) (p : Fin 2000) (k : Fin 256) :
    iblk5 V c 2 t (ix2 p k) = V c main_v1 (ix2 (rowAt t p) k) := by
  obtain ⟨-, -, -, -, e0, e1, -⟩ := depth_idx t
  show V c main_v1 (((cfg5.win 2).blk t).view.emb (ix2 p k)) = V c main_v1 (ix2 (rowAt t p) k)
  refine congrArg (V c main_v1) (funext fun a => Fin.ext ?_)
  match a with
  | ⟨0, _⟩ => show win5_2.index t (0 : Fin 2) * 2000 + 1 * p.val = t.val * 2000 + p.val; omega
  | ⟨1, _⟩ => show win5_2.index t (1 : Fin 2) * 256 + 1 * k.val = k.val; omega

theorem wBlock (c : Dev nD) (t : Fin cfg5.N) (k q : Fin 256) :
    iblk5 V c 3 t (ix2 k q) = V c main_v17 (ix2 k q) := by
  obtain ⟨-, -, -, -, -, -, e0, e1, -⟩ := depth_idx t
  show V c main_v17 (((cfg5.win 3).blk t).view.emb (ix2 k q)) = V c main_v17 (ix2 k q)
  refine congrArg (V c main_v17) (funext fun a => Fin.ext ?_)
  match a with
  | ⟨0, _⟩ => show win5_3.index t (0 : Fin 2) * 256 + 1 * k.val = k.val; omega
  | ⟨1, _⟩ => show win5_3.index t (1 : Fin 2) * 256 + 1 * q.val = q.val; omega

/-- Where the output's block `t` sits in its array. -/
theorem outEmb (t : Fin cfg5.N) (p : Fin 2000) (q : Fin 256) :
    ((cfg5.win 4).blk t).view.emb (ix2 p q) = ix2 (rowAt t p) q := by
  obtain ⟨-, -, -, -, -, -, -, -, e0, e1⟩ := depth_idx t
  refine funext fun a => Fin.ext ?_
  match a with
  | ⟨0, _⟩ => show win5_4.index t (0 : Fin 2) * 2000 + 1 * p.val = t.val * 2000 + p.val; omega
  | ⟨1, _⟩ => show win5_4.index t (1 : Fin 2) * 256 + 1 * q.val = q.val; omega

/-- What point `t` writes back is block `t` of the round's new bond messages computed from the whole arrays. -/
theorem depth_flushed (c : Dev nD) (t : Fin cfg5.N) :
    (dat5 (F := Ideal) V c).flushed 4 t
      = ((cfg5.win 4).blk t).view.read (Elt Ideal)
          (Stage.depthStep (F := Ideal) (V c main_v15) (V c main_v14) (V c main_v1) (V c main_v17)) := by
  show (cfg5.win 4).cut (grid5.coords t) ((dat5 V c).after 4 t) = _
  rw [after5_4]
  unfold out5_4
  rw [View.canon_unit_zero zeroOff]
  simp only [View.ld_unit_zero (S := S2000x256) zeroOff, View.ld_unit_zero (S := S256x256) zeroOff]
  funext j
  obtain ⟨p, q, rfl⟩ : ∃ (p : Fin 2000) (q : Fin 256), j = ix2 p q := ⟨j 0, j 1, eq_ix2 j⟩
  show k5_pay1 (F := Ideal) (iblk5 V c 0 t) (iblk5 V c 1 t) (iblk5 V c 3 t) (iblk5 V c 2 t) (ix2 p q)
    = Stage.depthStep (F := Ideal) (V c main_v15) (V c main_v14) (V c main_v1) (V c main_v17) (((cfg5.win 4).blk t).view.emb (ix2 p q))
  rw [outEmb t p q]
  refine (depthPay_apply (iblk5 V c 0 t) (iblk5 V c 1 t) (iblk5 V c 2 t) (iblk5 V c 3 t) p q).trans ?_
  refine (Eq.trans ?_ (depthStep_apply (V c main_v15) (V c main_v14) (V c main_v1) (V c main_v17) (rowAt t p) q).symm)
  refine congrArg₂ max (congrArg₂ (· + ·) (bBlock V c t p q) (Finset.sum_congr rfl fun k _ => ?_)) rfl
  rw [gBlock V c t p k, rBlock V c t p k, wBlock V c t k q]

/-- An index of the output array is in point `t`'s block iff each coordinate is in the block's range on its axis. -/
theorem depth_mem_blk (t : Fin cfg5.N) (i : S200000x256.Idx) :
    i ∈ ((cfg5.win 4).blk t).view.set
      ↔ ∀ a : Fin 2, win5_4.index t a * S2000x256.size a ≤ (i a).val ∧ (i a).val < win5_4.index t a * S2000x256.size a + S2000x256.size a := by
  show i ∈ ((View.whole main_v18).slice (win5_4.rect t)).set ↔ _
  rw [View.set_slice_whole, Rect.mem_set_unit]
  exact Iff.rfl

/-- Every row of the output array is in the block of the point its row block names. -/
theorem depth_cover (i : S200000x256.Idx) :
    ∃ t : Fin cfg5.N, (cfg5.win 4).flush t = true ∧ i ∈ ((cfg5.win 4).blk t).view.set := by
  have hi0 : (i 0).val < 200000 := (i 0).isLt
  have hi1 : (i 1).val < 256 := (i 1).isLt
  let t : Fin cfg5.N := ⟨(i 0).val / 2000, by rw [show cfg5.N = 100 from N_5]; omega⟩
  obtain ⟨-, -, -, -, -, -, -, -, e0, e1⟩ := depth_idx t
  have ht : t.val = (i 0).val / 2000 := rfl
  refine ⟨t, flush5_4 t, ?_⟩
  rw [depth_mem_blk]
  intro a
  match a with
  | ⟨0, _⟩ => show win5_4.index t (0 : Fin 2) * 2000 ≤ (i 0).val ∧ (i 0).val < win5_4.index t (0 : Fin 2) * 2000 + 2000; omega
  | ⟨1, _⟩ => show win5_4.index t (1 : Fin 2) * 256 ≤ (i 1).val ∧ (i 1).val < win5_4.index t (1 : Fin 2) * 256 + 256; omega

end Depth5

theorem region5 (c : Dev nD) :
    (dat5 (F := Ideal) V c).arrAt 4 cfg5.N
      = Stage.depthStep (F := Ideal) (V c main_v15) (V c main_v14) (V c main_v1) (V c main_v17) :=
  (dat5 (F := Ideal) V c).arrAt_eq_of_cover 4 _ (fun t _ => Depth5.depth_flushed V c t) Depth5.depth_cover

end Cert.KernelIdeal.RegionValue

end
-- ==== Proof.Region7.lean ====
import proofs.«413102_j68977174774322_1_alg».proof.Proof.Gen.KernelIdeal.Frame
import proofs.«413102_j68977174774322_1_alg».proof.Proof.Stages
import proofs.«413102_j68977174774322_1_alg».proof.Proof.KStages
import Idealize.ShloMosaic.Lib.ValueIdx
import Idealize.ShloMosaic.Lib.Pipeline.Value
import Idealize.ShloMosaic.Lib.IdealHost
import Idealize.ShloMosaic.PureOps.Ideal.Laws

/-!
  Region 7 (one round's new bond messages): the output array after the region is
  `relu (inp + (g − r) · w)` of the whole input arrays.

  Each grid point `t` holds rows `2000 t … 2000 t + 1999` of the three row-block inputs and all of the weight;
  the body's value at row `p`, column `q` of the block is
  `max (inp[p, q] + Σ_k (g[p, k] − r[p, k]) · w[k, q]) 0`, which is the stage function at row `2000 t + p`,
  column `q`; the hundred blocks tile the array.
-/

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open scoped BigOperators
open Cert.ReferenceIdeal (Stage.embedAtoms Stage.embedBonds Stage.sumTimesMax Stage.depthStep Stage.readout)

variable (V : (c : Dev nD) → (b : Ref sig .tc) → Buf (Elt Ideal) ((c : Thread nD τ).loc b))

namespace Depth7

/-! ### The block product's operand indices, axis by axis -/

theorem kdot_lhs_0 (j : S2000x256.Idx) (k : dot_S2000x256_S256x256_S2000x256_1_0_0_1_n_n.contr.Idx) :
    (dot_S2000x256_S256x256_S2000x256_1_0_0_1_n_n.lhsIdx j k 0 : ℕ) = j 0 := by
  simp [DotDims.lhsIdx, dot_S2000x256_S256x256_S2000x256_1_0_0_1_n_n]; rfl
theorem kdot_lhs_1 (j : S2000x256.Idx) (k : dot_S2000x256_S256x256_S2000x256_1_0_0_1_n_n.contr.Idx) :
    (dot_S2000x256_S256x256_S2000x256_1_0_0_1_n_n.lhsIdx j k 1 : ℕ) = k ⟨0, by decide⟩ := by
  simp [DotDims.lhsIdx, dot_S2000x256_S256x256_S2000x256_1_0_0_1_n_n]; rfl
theorem kdot_rhs_0 (j : S2000x256.Idx) (k : dot_S2000x256_S256x256_S2000x256_1_0_0_1_n_n.contr.Idx) :
    (dot_S2000x256_S256x256_S2000x256_1_0_0_1_n_n.rhsIdx j k 0 : ℕ) = k ⟨0, by decide⟩ := by
  simp [DotDims.rhsIdx, dot_S2000x256_S256x256_S2000x256_1_0_0_1_n_n]; rfl
theorem kdot_rhs_1 (j : S2000x256.Idx) (k : dot_S2000x256_S256x256_S2000x256_1_0_0_1_n_n.contr.Idx) :
    (dot_S2000x256_S256x256_S2000x256_1_0_0_1_n_n.rhsIdx j k 1 : ℕ) = j 1 := by
  simp [DotDims.rhsIdx, dot_S2000x256_S256x256_S2000x256_1_0_0_1_n_n]; rfl

/-- The block product at an index: the sum over the contracted coordinate. -/
theorem kdot_apply (A : FVec Ideal S2000x256 .f32) (B : FVec Ideal S256x256 .f32) (p : Fin 2000) (q : Fin 256) :
    matmul (F := Ideal) dot_S2000x256_S256x256_S2000x256_1_0_0_1_n_n none A B (constant (F := Ideal) S2000x256 .f32 0x00000000#32) (ix2 p q)
      = ∑ k : Fin 256, A (ix2 p k) * B (ix2 k q) := by
  refine (Ideal.matmul_constant_zero_apply _ none A B (ix2 p q)).trans ?_
  rw [← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have hl : dot_S2000x256_S256x256_S2000x256_1_0_0_1_n_n.lhsIdx (ix2 p q) ((contrEquiv1 _ 256 rfl rfl).symm k) = ix2 p k := by
    funext a; apply Fin.ext
    match a with
    | ⟨0, _⟩ => exact kdot_lhs_0 _ _
    | ⟨1, _⟩ => exact (kdot_lhs_1 _ _).trans hk
  have hr : dot_S2000x256_S256x256_S2000x256_1_0_0_1_n_n.rhsIdx (ix2 p q) ((contrEquiv1 _ 256 rfl rfl).symm k) = ix2 k q := by
    funext a; apply Fin.ext
    match a with
    | ⟨0, _⟩ => exact (kdot_rhs_0 _ _).trans hk
    | ⟨1, _⟩ => exact kdot_rhs_1 _ _
  rw [hl, hr]

/-- The body's arithmetic at an index of the block. -/
theorem depthPay_apply (x0 x1 x2 : Vec Ideal S2000x256 .f32) (x3 : Vec Ideal S256x256 .f32) (p : Fin 2000) (q : Fin 256) :
    k7_pay1 (F := Ideal) x0 x1 x3 x2 (ix2 p q)
      = max (x2 (ix2 p q) + ∑ k : Fin 256, (x0 (ix2 p k) - x1 (ix2 p k)) * x3 (ix2 k q)) (Ideal.ofBits .f32 0x00000000#32) := by
  unfold k7_pay1
  rw [shapeCast_self x0, shapeCast_self x1, shapeCast_self x3, shapeCast_self x2]
  rw [maximumf_apply, addf_apply, broadcast_apply]
  refine congrArg₂ max (congrArg (x2 (ix2 p q) + ·) ?_) rfl
  refine (kdot_apply (subf x0 x1) x3 p q).trans ?_
  rfl

/-! ### The whole-array product's operand indices, axis by axis -/

theorem rdot_lhs_0 (j : Cert.ReferenceIdeal.S200000x256.Idx) (k : Cert.ReferenceIdeal.dot_S200000x256_S256x256_S200000x256_1_0_0_1_n_n.contr.Idx) :
    (Cert.ReferenceIdeal.dot_S200000x256_S256x256_S200000x256_1_0_0_1_n_n.lhsIdx j k 0 : ℕ) = j 0 := by
  simp [DotDims.lhsIdx, Cert.ReferenceIdeal.dot_S200000x256_S256x256_S200000x256_1_0_0_1_n_n]; rfl
theorem rdot_lhs_1 (j : Cert.ReferenceIdeal.S200000x256.Idx) (k : Cert.ReferenceIdeal.dot_S200000x256_S256x256_S200000x256_1_0_0_1_n_n.contr.Idx) :
    (Cert.ReferenceIdeal.dot_S200000x256_S256x256_S200000x256_1_0_0_1_n_n.lhsIdx j k 1 : ℕ) = k ⟨0, by decide⟩ := by
  simp [DotDims.lhsIdx, Cert.ReferenceIdeal.dot_S200000x256_S256x256_S200000x256_1_0_0_1_n_n]; rfl
theorem rdot_rhs_0 (j : Cert.ReferenceIdeal.S200000x256.Idx) (k : Cert.ReferenceIdeal.dot_S200000x256_S256x256_S200000x256_1_0_0_1_n_n.contr.Idx) :
    (Cert.ReferenceIdeal.dot_S200000x256_S256x256_S200000x256_1_0_0_1_n_n.rhsIdx j k 0 : ℕ) = k ⟨0, by decide⟩ := by
  simp [DotDims.rhsIdx, Cert.ReferenceIdeal.dot_S200000x256_S256x256_S200000x256_1_0_0_1_n_n]; rfl
theorem rdot_rhs_1 (j : Cert.ReferenceIdeal.S200000x256.Idx) (k : Cert.ReferenceIdeal.dot_S200000x256_S256x256_S200000x256_1_0_0_1_n_n.contr.Idx) :
    (Cert.ReferenceIdeal.dot_S200000x256_S256x256_S200000x256_1_0_0_1_n_n.rhsIdx j k 1 : ℕ) = j 1 := by
  simp [DotDims.rhsIdx, Cert.ReferenceIdeal.dot_S200000x256_S256x256_S200000x256_1_0_0_1_n_n]; rfl

/-- The whole-array product at an index: the sum over the contracted coordinate. -/
theorem rdot_apply (A : FVec Ideal Cert.ReferenceIdeal.S200000x256 .f32) (B : FVec Ideal Cert.ReferenceIdeal.S256x256 .f32) (p : Fin 200000) (q : Fin 256) :
    Host.dotGeneral (F := Ideal) Cert.ReferenceIdeal.dot_S200000x256_S256x256_S200000x256_1_0_0_1_n_n none A B (ix2 p q)
      = ∑ k : Fin 256, A (ix2 p k) * B (ix2 k q) := by
  show FloatOps.dotGeneral _ none _ A B (ix2 p q) = _
  refine (Ideal.dotGeneral_apply _ none _ A B (ix2 p q)).trans ?_
  rw [← Equiv.sum_comp (contrEquiv1 Cert.ReferenceIdeal.dot_S200000x256_S256x256_S200000x256_1_0_0_1_n_n 256 rfl rfl).symm]
  refine Finset.sum_congr rfl fun k _ => ?_
  have hk := contrEquiv1_symm_val Cert.ReferenceIdeal.dot_S200000x256_S256x256_S200000x256_1_0_0_1_n_n 256 rfl rfl k
  have hl : Cert.ReferenceIdeal.dot_S200000x256_S256x256_S200000x256_1_0_0_1_n_n.lhsIdx (ix2 p q) ((contrEquiv1 _ 256 rfl rfl).symm k) = ix2 p k := by
    funext a; apply Fin.ext
    match a with
    | ⟨0, _⟩ => exact rdot_lhs_0 _ _
    | ⟨1, _⟩ => exact (rdot_lhs_1 _ _).trans hk
  have hr : Cert.ReferenceIdeal.dot_S200000x256_S256x256_S200000x256_1_0_0_1_n_n.rhsIdx (ix2 p q) ((contrEquiv1 _ 256 rfl rfl).symm k) = ix2 k q := by
    funext a; apply Fin.ext
    match a with
    | ⟨0, _⟩ => exact (rdot_rhs_0 _ _).trans hk
    | ⟨1, _⟩ => exact rdot_rhs_1 _ _
  rw [hl, hr]

/-- One round's new bond messages at an index of the array. -/
theorem depthStep_apply (g r b : FVec Ideal Cert.ReferenceIdeal.S200000x256 .f32) (w : FVec Ideal Cert.ReferenceIdeal.S256x256 .f32)
    (p : Fin 200000) (q : Fin 256) :
    Stage.depthStep (F := Ideal) g r b w (ix2 p q)
      = max (b (ix2 p q) + ∑ k : Fin 256, (g (ix2 p k) - r (ix2 p k)) * w (ix2 k q)) (Ideal.ofBits .f32 0x00000000#32) := by
  unfold Stage.depthStep
  rw [maximumf_apply, addf_apply]
  refine congrArg₂ max (congrArg (b (ix2 p q) + ·) ?_) ?_
  · refine (rdot_apply (subf g r) w p q).trans ?_
    rfl
  · unfold Cert.ReferenceIdeal.Stage.zerosB
    rw [broadcastInDim_scalar_apply]
    rfl

/-! ### From the blocks to the array -/

theorem zeroOff : (![0, 0] : Fin 2 → Nat) = fun _ => 0 := funext fun a => by fin_cases a <;> rfl

/-- The printed index maps over the grid: the three row-block inputs and the output sit at row block `t`, the weight at
    its only block. -/
theorem depth_idx : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

/-- Row `p` of row block `t` is row `2000 t + p` of the array. -/
abbrev rowAt (t : Fin cfg7.N) (p : Fin 2000) : Fin 200000 :=
  ⟨t.val * 2000 + p.val, by have ht : t.val < 100 := N_7 ▸ t.isLt; have hp := p.isLt; omega⟩

theorem gBlock (c : Dev nD) (t : Fin cfg7.N) (p : Fin 2000) (k : Fin 256) :
    iblk7 V c 0 t (ix2 p k) = V c main_v22 (ix2 (rowAt t p) k) := by
  obtain ⟨e0, e1, -⟩ := depth_idx t
  show V c main_v22 (((cfg7.win 0).blk t).view.emb (ix2 p k)) = V c main_v22 (ix2 (rowAt t p) k)
  refine congrArg (V c main_v22) (funext fun a => Fin.ext ?_)
  match a with
  | ⟨0, _⟩ => show win7_0.index t (0 : Fin 2) * 2000 + 1 * p.val = t.val * 2000 + p.val; omega
  | ⟨1, _⟩ => show win7_0.index t (1 : Fin 2) * 256 + 1 * k.val = k.val; omega

theorem rBlock (c : Dev nD) (t : Fin cfg7.N) (p : Fin 2000) (k : Fin 256) :
    iblk7 V c 1 t (ix2 p k) = V c main_v21 (ix2 (rowAt t p) k) := by
  obtain ⟨-, -, e0, e1, -⟩ := depth_idx t
  show V c main_v21 (((cfg7.win 1).blk t).view.emb (ix2 p k)) = V c main_v21 (ix2 (rowAt t p) k)
  refine congrArg (V c main_v21) (funext fun a => Fin.ext ?_)
  match a with
  | ⟨0, _⟩ => show win7_1.index t (0 : Fin 2) * 2000 + 1 * p.val = t.val * 2000 + p.val; omega
  | ⟨1, _⟩ => show win7_1.index t (1 : Fin 2) * 256 + 1 * k.val = k.val; omega

theorem bBlock (c : Dev nD) (t : Fin cfg7.N) (p : Fin 2000) (k : Fin 256) :
    iblk7 V c 2 t (ix2 p k) = V c main_v1 (ix2 (rowAt t p) k) := by
  obtain ⟨-, -, -, -, e0, e1, -⟩ := depth_idx t
  show V c main_v1 (((cfg7.win 2).blk t).view.emb (ix2 p k)) = V c main_v1 (ix2 (rowAt t p) k)
  refine congrArg (V c main_v1) (funext fun a => Fin.ext ?_)
  match a with
  | ⟨0, _⟩ => show win7_2.index t (0 : Fin 2) * 2000 + 1 * p.val = t.val * 2000 + p.val; omega
  | ⟨1, _⟩ => show win7_2.index t (1 : Fin 2) * 256 + 1 * k.val = k.val; omega

theorem wBlock (c : Dev nD) (t : Fin cfg7.N) (k q : Fin 256) :
    iblk7 V c 3 t (ix2 k q) = V c main_v24 (ix2 k q) := by
  obtain ⟨-, -, -, -, -, -, e0, e1, -⟩ := depth_idx t
  show V c main_v24 (((cfg7.win 3).blk t).view.emb (ix2 k q)) = V c main_v24 (ix2 k q)
  refine congrArg (V c main_v24) (funext fun a => Fin.ext ?_)
  match a with
  | ⟨0, _⟩ => show win7_3.index t (0 : Fin 2) * 256 + 1 * k.val = k.val; omega
  | ⟨1, _⟩ => show win7_3.index t (1 : Fin 2) * 256 + 1 * q.val = q.val; omega

/-- Where the output's block `t` sits in its array. -/
theorem outEmb (t : Fin cfg7.N) (p : Fin 2000) (q : Fin 256) :
    ((cfg7.win 4).blk t).view.emb (ix2 p q) = ix2 (rowAt t p) q := by
  obtain ⟨-, -, -, -, -, -, -, -, e0, e1⟩ := depth_idx t
  refine funext fun a => Fin.ext ?_
  match a with
  | ⟨0, _⟩ => show win7_4.index t (0 : Fin 2) * 2000 + 1 * p.val = t.val * 2000 + p.val; omega
  | ⟨1, _⟩ => show win7_4.index t (1 : Fin 2) * 256 + 1 * q.val = q.val; omega

/-- What point `t` writes back is block `t` of the round's new bond messages computed from the whole arrays. -/
theorem depth_flushed (c : Dev nD) (t : Fin cfg7.N) :
    (dat7 (F := Ideal) V c).flushed 4 t
      = ((cfg7.win 4).blk t).view.read (Elt Ideal)
          (Stage.depthStep (F := Ideal) (V c main_v22) (V c main_v21) (V c main_v1) (V c main_v24)) := by
  show (cfg7.win 4).cut (grid7.coords t) ((dat7 V c).after 4 t) = _
  rw [after7_4]
  unfold out7_4
  rw [View.canon_unit_zero zeroOff]
  simp only [View.ld_unit_zero (S := S2000x256) zeroOff, View.ld_unit_zero (S := S256x256) zeroOff]
  funext j
  obtain ⟨p, q, rfl⟩ : ∃ (p : Fin 2000) (q : Fin 256), j = ix2 p q := ⟨j 0, j 1, eq_ix2 j⟩
  show k7_pay1 (F := Ideal) (iblk7 V c 0 t) (iblk7 V c 1 t) (iblk7 V c 3 t) (iblk7 V c 2 t) (ix2 p q)
    = Stage.depthStep (F := Ideal) (V c main_v22) (V c main_v21) (V c main_v1) (V c main_v24) (((cfg7.win 4).blk t).view.emb (ix2 p q))
  rw [outEmb t p q]
  refine (depthPay_apply (iblk7 V c 0 t) (iblk7 V c 1 t) (iblk7 V c 2 t) (iblk7 V c 3 t) p q).trans ?_
  refine (Eq.trans ?_ (depthStep_apply (V c main_v22) (V c main_v21) (V c main_v1) (V c main_v24) (rowAt t p) q).symm)
  refine congrArg₂ max (congrArg₂ (· + ·) (bBlock V c t p q) (Finset.sum_congr rfl fun k _ => ?_)) rfl
  rw [gBlock V c t p k, rBlock V c t p k, wBlock V c t k q]

/-- An index of the output array is in point `t`'s block iff each coordinate is in the block's range on its axis. -/
theorem depth_mem_blk (t : Fin cfg7.N) (i : S200000x256.Idx) :
    i ∈ ((cfg7.win 4).blk t).view.set
      ↔ ∀ a : Fin 2, win7_4.index t a * S2000x256.size a ≤ (i a).val ∧ (i a).val < win7_4.index t a * S2000x256.size a + S2000x256.size a := by
  show i ∈ ((View.whole main_v25).slice (win7_4.rect t)).set ↔ _
  rw [View.set_slice_whole, Rect.mem_set_unit]
  exact Iff.rfl

/-- Every row of the output array is in the block of the point its row block names. -/
theorem depth_cover (i : S200000x256.Idx) :
    ∃ t : Fin cfg7.N, (cfg7.win 4).flush t = true ∧ i ∈ ((cfg7.win 4).blk t).view.set := by
  have hi0 : (i 0).val < 200000 := (i 0).isLt
  have hi1 : (i 1).val < 256 := (i 1).isLt
  let t : Fin cfg7.N := ⟨(i 0).val / 2000, by rw [show cfg7.N = 100 from N_7]; omega⟩
  obtain ⟨-, -, -, -, -, -, -, -, e0, e1⟩ := depth_idx t
  have ht : t.val = (i 0).val / 2000 := rfl
  refine ⟨t, flush7_4 t, ?_⟩
  rw [depth_mem_blk]
  intro a
  match a with
  | ⟨0, _⟩ => show win7_4.index t (0 : Fin 2) * 2000 ≤ (i 0).val ∧ (i 0).val < win7_4.index t (0 : Fin 2) * 2000 + 2000; omega
  | ⟨1, _⟩ => show win7_4.index t (1 : Fin 2) * 256 ≤ (i 1).val ∧ (i 1).val < win7_4.index t (1 : Fin 2) * 256 + 256; omega

end Depth7

theorem region7 (c : Dev nD) :
    (dat7 (F := Ideal) V c).arrAt 4 cfg7.N
      = Stage.depthStep (F := Ideal) (V c main_v22) (V c main_v21) (V c main_v1) (V c main_v24) :=
  (dat7 (F := Ideal) V c).arrAt_eq_of_cover 4 _ (fun t _ => Depth7.depth_flushed V c t) Depth7.depth_cover

end Cert.KernelIdeal.RegionValue

end
-- ==== Proof.RegionDepth.lean ====
import proofs.«413102_j68977174774322_1_alg».proof.Proof.Region3
import proofs.«413102_j68977174774322_1_alg».proof.Proof.Region5
import proofs.«413102_j68977174774322_1_alg».proof.Proof.Region7
-- ==== Proof.Region9.lean ====
/-
  Region 9, the readout: after the last pallas_call the output array holds, row by row,
  relu (([a | m | i] · W) · Wo + bo).  The body works on a block of 2000 rows: it multiplies the block's rows of a, m and i
  by the three 256-row blocks of W, adds the three products, multiplies by Wo, adds the bias row and rectifies.  The
  reference lays a, m and i side by side and multiplies by W once.  The two agree entry by entry because a sum over the
  768 columns of [a | m | i] is the sum of three sums over 256 columns (associativity and commutativity of + on the
  extended reals; no finiteness is used).  Point t's block of the output is rows 2000 t … 2000 t + 1999, and the 50
  blocks cover the 100000 rows.
-/
import proofs.«413102_j68977174774322_1_alg».proof.Proof.Gen.KernelIdeal.Frame
import proofs.«413102_j68977174774322_1_alg».proof.Proof.Stages
import proofs.«413102_j68977174774322_1_alg».proof.Proof.KStages
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Cert.ReferenceIdeal (Stage.embedAtoms Stage.embedBonds Stage.sumTimesMax Stage.depthStep Stage.readout)
open Idealize.ShloMosaic.ValueIdx

variable (V : (c : Dev nD) → (b : Ref sig .tc) → Buf (Elt Ideal) ((c : Thread nD τ).loc b))

/-! The auxiliary lemmas of this region live in a namespace of their own. -/
namespace Readout9

/-! ## A sum over 768 positions is three sums over 256 -/

section SplitSum
variable {M : Type*} [AddCommMonoid M]

theorem sum_three_blocks (f : Fin 768 → M) :
    ∑ k : Fin 768, f k
      = (∑ k : Fin 256, f ⟨k.val, by omega⟩ + ∑ k : Fin 256, f ⟨256 + k.val, by omega⟩)
          + ∑ k : Fin 256, f ⟨512 + k.val, by omega⟩ := by
  show ∑ k : Fin ((256 + 256) + 256), f k = _
  rw [Fin.sum_univ_add, Fin.sum_univ_add]
  rfl

end SplitSum

/-! ## A plain matrix product at an index -/

section Dot
variable {m k n : Nat}

theorem plain_sum (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (a : Fin m) (b : Fin n) :
    ∑ c : (⟨[1], [0], [0], [1], [], [], w⟩ : DotDims _ _ _).contr.Idx,
        A ((⟨[1], [0], [0], [1], [], [], w⟩ : DotDims _ _ _).lhsIdx (ix2 a b) c)
          * B ((⟨[1], [0], [0], [1], [], [], w⟩ : DotDims _ _ _).rhsIdx (ix2 a b) c)
      = ∑ c : Fin k, A (ix2 a c) * B (ix2 c b) := by
  rw [← Equiv.sum_comp (contrEquiv1 (⟨[1], [0], [0], [1], [], [], w⟩ : DotDims _ _ _) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Dot

/-! ## The products at an index -/

theorem blockProduct_apply (x : FVec Ideal S2000x256 .f32) (w : FVec Ideal S256x256 .f32) (p : Fin 2000) (q : Fin 256) :
    matmul dot_S2000x256_S256x256_S2000x256_1_0_0_1_n_n none x w (constant (F := Ideal) S2000x256 .f32 0x00000000#32) (ix2 p q)
      = ∑ l : Fin 256, x (ix2 p l) * w (ix2 l q) := by
  show FloatOps.matmul _ none x w _ (ix2 p q) = _
  rw [Ideal.matmul_constant_zero_apply]
  exact plain_sum dot_S2000x256_S256x256_S2000x256_1_0_0_1_n_n_wf x w p q

/-- The three products of a block of rows with the three row blocks of the mixing weight, added. -/
def mixed (x0 x1 x2 : FVec Ideal S2000x256 .f32) (w0 w1 w2 : FVec Ideal S256x256 .f32) : FVec Ideal S2000x256 .f32 :=
  addf (addf (matmul dot_S2000x256_S256x256_S2000x256_1_0_0_1_n_n none x0 w0 (constant (F := Ideal) S2000x256 .f32 0x00000000#32))
      (matmul dot_S2000x256_S256x256_S2000x256_1_0_0_1_n_n none x1 w1 (constant (F := Ideal) S2000x256 .f32 0x00000000#32)))
    (matmul dot_S2000x256_S256x256_S2000x256_1_0_0_1_n_n none x2 w2 (constant (F := Ideal) S2000x256 .f32 0x00000000#32))

theorem mixed_apply (x0 x1 x2 : FVec Ideal S2000x256 .f32) (w0 w1 w2 : FVec Ideal S256x256 .f32) (p : Fin 2000) (k : Fin 256) :
    mixed x0 x1 x2 w0 w1 w2 (ix2 p k)
      = (∑ l : Fin 256, x0 (ix2 p l) * w0 (ix2 l k) + ∑ l : Fin 256, x1 (ix2 p l) * w1 (ix2 l k))
          + ∑ l : Fin 256, x2 (ix2 p l) * w2 (ix2 l k) := by
  unfold mixed
  rw [addf_apply, addf_apply, blockProduct_apply, blockProduct_apply, blockProduct_apply]

theorem pay_apply (x0 x1 x2 : FVec Ideal S2000x256 .f32) (w0 w1 w2 wo : FVec Ideal S256x256 .f32) (b : FVec Ideal S1x256 .f32)
    (p : Fin 2000) (q : Fin 256) :
    k9_pay1 (F := Ideal) x0 w0 x1 w1 x2 w2 wo b (ix2 p q)
      = max ((∑ k : Fin 256,
              ((∑ l : Fin 256, x0 (ix2 p l) * w0 (ix2 l k) + ∑ l : Fin 256, x1 (ix2 p l) * w1 (ix2 l k))
                + ∑ l : Fin 256, x2 (ix2 p l) * w2 (ix2 l k)) * wo (ix2 k q))
            + b (ix2 (0 : Fin 1) q)) (Ideal.ofBits .f32 0x00000000#32) := by
  unfold k9_pay1
  simp only [shapeCast_self]
  show max (matmul dot_S2000x256_S256x256_S2000x256_1_0_0_1_n_n none (mixed x0 x1 x2 w0 w1 w2) wo
        (constant (F := Ideal) S2000x256 .f32 0x00000000#32) (ix2 p q)
      + broadcastTo S2000x256 b broadcasts_S1x256_S2000x256 (ix2 p q)) (Ideal.ofBits .f32 0x00000000#32) = _
  rw [blockProduct_apply, broadcastTo_1b_ab_apply]
  simp only [mixed_apply]

/-! ## The reference's stage at an index -/

section Reference
open Cert.ReferenceIdeal (dot_S100000x768_S768x256_S100000x256_1_0_0_1_n_n dot_S100000x256_S256x256_S100000x256_1_0_0_1_n_n S100000x768)

theorem hostProduct768_apply (x : FVec Ideal S100000x768 .f32) (w : FVec Ideal S768x256 .f32) (r : Fin 100000) (q : Fin 256) :
    Host.dotGeneral dot_S100000x768_S768x256_S100000x256_1_0_0_1_n_n none x w (ix2 r q)
      = ∑ l : Fin 768, x (ix2 r l) * w (ix2 l q) := by
  show FloatOps.dotGeneral _ none _ x w (ix2 r q) = _
  rw [Ideal.dotGeneral_apply]
  exact plain_sum dot_S100000x768_S768x256_S100000x256_1_0_0_1_n_n.wf x w r q

theorem hostProduct256_apply (x : FVec Ideal S100000x256 .f32) (w : FVec Ideal S256x256 .f32) (r : Fin 100000) (q : Fin 256) :
    Host.dotGeneral dot_S100000x256_S256x256_S100000x256_1_0_0_1_n_n none x w (ix2 r q)
      = ∑ l : Fin 256, x (ix2 r l) * w (ix2 l q) := by
  show FloatOps.dotGeneral _ none _ x w (ix2 r q) = _
  rw [Ideal.dotGeneral_apply]
  exact plain_sum dot_S100000x256_S256x256_S100000x256_1_0_0_1_n_n.wf x w r q

variable {α : Type}

/-- Three arrays of 256 columns laid side by side: columns 0–255 are the first's. -/
theorem sideBySide_first (a m i : S100000x256.Idx → α)
    (h : Shape.Concatenates [S100000x256, S100000x256, S100000x256] S100000x768 1) (r : Fin 100000) (l : Fin 256) :
    concatenate S100000x768 1 [⟨S100000x256, a⟩, ⟨S100000x256, m⟩, ⟨S100000x256, i⟩] h (ix2 r (⟨l.val, by omega⟩ : Fin 768))
      = a (ix2 r l) := by
  refine concatenate_apply_piece (t := S100000x768) 1 [⟨S100000x256, a⟩, ⟨S100000x256, m⟩, ⟨S100000x256, i⟩] h _ 0 (by show (0 : Nat) < 3; omega) S100000x256 a rfl rfl 0 rfl (ix2 r l) (fun b hb => ?_) ?_
  · match b with
    | ⟨0, _⟩ => rfl
    | ⟨1, _⟩ => exact absurd rfl hb
  · exact Nat.zero_add _

/-- Columns 256–511 are the second's. -/
theorem sideBySide_second (a m i : S100000x256.Idx → α)
    (h : Shape.Concatenates [S100000x256, S100000x256, S100000x256] S100000x768 1) (r : Fin 100000) (l : Fin 256) :
    concatenate S100000x768 1 [⟨S100000x256, a⟩, ⟨S100000x256, m⟩, ⟨S100000x256, i⟩] h (ix2 r (⟨256 + l.val, by omega⟩ : Fin 768))
      = m (ix2 r l) := by
  refine concatenate_apply_piece (t := S100000x768) 1 [⟨S100000x256, a⟩, ⟨S100000x256, m⟩, ⟨S100000x256, i⟩] h _ 1 (by show (1 : Nat) < 3; omega) S100000x256 m rfl rfl 256 rfl (ix2 r l) (fun b hb => ?_) ?_
  · match b with
    | ⟨0, _⟩ => rfl
    | ⟨1, _⟩ => exact absurd rfl hb
  · rfl

/-- Columns 512–767 are the third's. -/
theorem sideBySide_third (a m i : S100000x256.Idx → α)
    (h : Shape.Concatenates [S100000x256, S100000x256, S100000x256] S100000x768 1) (r : Fin 100000) (l : Fin 256) :
    concatenate S100000x768 1 [⟨S100000x256, a⟩, ⟨S100000x256, m⟩, ⟨S100000x256, i⟩] h (ix2 r (⟨512 + l.val, by omega⟩ : Fin 768))
      = i (ix2 r l) := by
  refine concatenate_apply_piece (t := S100000x768) 1 [⟨S100000x256, a⟩, ⟨S100000x256, m⟩, ⟨S100000x256, i⟩] h _ 2 (by show (2 : Nat) < 3; omega) S100000x256 i rfl rfl 512 rfl (ix2 r l) (fun b hb => ?_) ?_
  · match b with
    | ⟨0, _⟩ => rfl
    | ⟨1, _⟩ => exact absurd rfl hb
  · rfl

/-- The bias broadcast to a row and then down the rows reads the bias at the column. -/
theorem biasBroadcast_apply (bo : S256.Idx → α) (h1 : S256.BroadcastsInDim S1x256 (![1] : Fin 1 → Fin S1x256.rank))
    (h2 : S1x256.BroadcastsInDim S100000x256 (![0, 1] : Fin 2 → Fin S100000x256.rank)) (r : Fin 100000) (q : Fin 256) :
    broadcastInDim S100000x256 ![0, 1] h2 (broadcastInDim S1x256 ![1] h1 bo) (ix2 r q) = bo (ix1 q) := by
  rw [broadcastInDim_apply _ h2 _ (ix2 r q) (ix2 (0 : Fin 1) q) (fun ax => by
    match ax with
    | ⟨0, _⟩ => rfl
    | ⟨1, _⟩ => rfl)]
  exact broadcastInDim_apply _ h1 _ (ix2 (0 : Fin 1) q) (ix1 q) (fun ax => by
    match ax with
    | ⟨0, _⟩ => rfl)

theorem zerosA_apply (r : Fin 100000) (q : Fin 256) :
    Cert.ReferenceIdeal.Stage.zerosA (F := Ideal) (ix2 r q) = Ideal.ofBits .f32 0x00000000#32 := by
  unfold Cert.ReferenceIdeal.Stage.zerosA
  rw [broadcastInDim_scalar_apply]
  rfl

theorem readout_apply (a m i : FVec Ideal S100000x256 .f32) (W : FVec Ideal S768x256 .f32) (Wo : FVec Ideal S256x256 .f32)
    (bo : FVec Ideal S256 .f32) (r : Fin 100000) (q : Fin 256) :
    Stage.readout (F := Ideal) a m i W Wo bo (ix2 r q)
      = max ((∑ k : Fin 256,
              ((∑ l : Fin 256, a (ix2 r l) * W (ix2 (⟨l.val, by omega⟩ : Fin 768) k)
                  + ∑ l : Fin 256, m (ix2 r l) * W (ix2 (⟨256 + l.val, by omega⟩ : Fin 768) k))
                + ∑ l : Fin 256, i (ix2 r l) * W (ix2 (⟨512 + l.val, by omega⟩ : Fin 768) k)) * Wo (ix2 k q))
            + bo (ix1 q)) (Ideal.ofBits .f32 0x00000000#32) := by
  unfold Stage.readout
  rw [maximumf_apply, addf_apply, hostProduct256_apply]
  rw [biasBroadcast_apply, zerosA_apply]
  simp only [hostProduct768_apply, sum_three_blocks, sideBySide_first, sideBySide_second, sideBySide_third]

end Reference

/-! ## The payload against the stage, entry by entry -/

/-- Where a block of rows reads the atoms' arrays at the rows the output's block holds, the three weight blocks read
    the mixing weight's three row blocks, and the output weight and the bias row read theirs, the body's value at
    (p, q) is the stage's at (r, q). -/
theorem point_eq (x0 x1 x2 : FVec Ideal S2000x256 .f32) (w0 w1 w2 wo : FVec Ideal S256x256 .f32) (b : FVec Ideal S1x256 .f32)
    (a m i : FVec Ideal S100000x256 .f32) (W : FVec Ideal S768x256 .f32) (Wo : FVec Ideal S256x256 .f32) (bo : FVec Ideal S256 .f32)
    (p : Fin 2000) (q : Fin 256) (r : Fin 100000)
    (hx0 : ∀ l : Fin 256, x0 (ix2 p l) = a (ix2 r l)) (hx1 : ∀ l : Fin 256, x1 (ix2 p l) = m (ix2 r l))
    (hx2 : ∀ l : Fin 256, x2 (ix2 p l) = i (ix2 r l))
    (hw0 : ∀ l k : Fin 256, w0 (ix2 l k) = W (ix2 (⟨l.val, by omega⟩ : Fin 768) k))
    (hw1 : ∀ l k : Fin 256, w1 (ix2 l k) = W (ix2 (⟨256 + l.val, by omega⟩ : Fin 768) k))
    (hw2 : ∀ l k : Fin 256, w2 (ix2 l k) = W (ix2 (⟨512 + l.val, by omega⟩ : Fin 768) k))
    (hwo : ∀ k : Fin 256, wo (ix2 k q) = Wo (ix2 k q)) (hb : b (ix2 (0 : Fin 1) q) = bo (ix1 q)) :
    k9_pay1 (F := Ideal) x0 w0 x1 w1 x2 w2 wo b (ix2 p q) = Stage.readout (F := Ideal) a m i W Wo bo (ix2 r q) := by
  rw [pay_apply, readout_apply]
  simp only [hx0, hx1, hx2, hw0, hw1, hw2, hwo, hb]

/-! ## From blocks to the array -/

section Blocks

theorem zeroOffsets : (![0, 0] : Fin 2 → Nat) = fun _ => 0 := funext fun a => by fin_cases a <;> rfl

/-- The printed index maps over the grid: the three row windows and the output's are at block row `t`, column block 0. -/
theorem rowIndex : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_8.index t (0 : Fin 2) = t.val ∧ win9_8.index t (1 : Fin 2) = 0 :=
  (by decide +kernel : ∀ t : Fin grid9.N, _)

/-- The weights' and the bias row's windows are their whole arrays at every point. -/
theorem wholeIndex : ∀ t : Fin cfg9.N,
    win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 2) = 0 ∧ win9_6.index t (1 : Fin 2) = 0
    ∧ win9_7.index t (0 : Fin 2) = 0 ∧ win9_7.index t (1 : Fin 2) = 0 :=
  (by decide +kernel : ∀ t : Fin grid9.N, _)

/-- Window 0's block at point `t` is rows `2000 t … 2000 t + 1999` of its array. -/
theorem rows0_apply (c : Dev nD) (t : Fin cfg9.N) (x : S2000x256.Idx) (k : S100000x256.Idx)
    (hk0 : (k 0).val = t.val * 2000 + (x 0).val) (hk1 : (k 1).val = (x 1).val) :
    (iblk9 (F := Ideal) V c 0 t : Vec Ideal S2000x256 .f32) x = (V c main_v27 : S100000x256.Idx → EReal) k := by
  obtain ⟨e0, e1, -⟩ := rowIndex t
  unfold iblk9
  rw [View.read_apply]
  show V c main_v27 _ = V c main_v27 _
  congr 1
  funext ax
  apply Fin.ext
  match ax with
  | ⟨0, _⟩ => show win9_0.index t (0 : Fin 2) * 2000 + 1 * (x 0).val = (k 0).val; rw [e0, hk0]; omega
  | ⟨1, _⟩ => show win9_0.index t (1 : Fin 2) * 256 + 1 * (x 1).val = (k 1).val; rw [e1, hk1]; omega

/-- Window 1's likewise. -/
theorem rows1_apply (c : Dev nD) (t : Fin cfg9.N) (x : S2000x256.Idx) (k : S100000x256.Idx)
    (hk0 : (k 0).val = t.val * 2000 + (x 0).val) (hk1 : (k 1).val = (x 1).val) :
    (iblk9 (F := Ideal) V c 1 t : Vec Ideal S2000x256 .f32) x = (V c main_v20 : S100000x256.Idx → EReal) k := by
  obtain ⟨-, -, e0, e1, -⟩ := rowIndex t
  unfold iblk9
  rw [View.read_apply]
  show V c main_v20 _ = V c main_v20 _
  congr 1
  funext ax
  apply Fin.ext
  match ax with
  | ⟨0, _⟩ => show win9_1.index t (0 : Fin 2) * 2000 + 1 * (x 0).val = (k 0).val; rw [e0, hk0]; omega
  | ⟨1, _⟩ => show win9_1.index t (1 : Fin 2) * 256 + 1 * (x 1).val = (k 1).val; rw [e1, hk1]; omega

/-- Window 2's likewise. -/
theorem rows2_apply (c : Dev nD) (t : Fin cfg9.N) (x : S2000x256.Idx) (k : S100000x256.Idx)
    (hk0 : (k 0).val = t.val * 2000 + (x 0).val) (hk1 : (k 1).val = (x 1).val) :
    (iblk9 (F := Ideal) V c 2 t : Vec Ideal S2000x256 .f32) x = (V c main_v0 : S100000x256.Idx → EReal) k := by
  obtain ⟨-, -, -, -, e0, e1, -⟩ := rowIndex t
  unfold iblk9
  rw [View.read_apply]
  show V c main_v0 _ = V c main_v0 _
  congr 1
  funext ax
  apply Fin.ext
  match ax with
  | ⟨0, _⟩ => show win9_2.index t (0 : Fin 2) * 2000 + 1 * (x 0).val = (k 0).val; rw [e0, hk0]; omega
  | ⟨1, _⟩ => show win9_2.index t (1 : Fin 2) * 256 + 1 * (x 1).val = (k 1).val; rw [e1, hk1]; omega

/-- Windows 3 to 6 hold their whole 256×256 arrays. -/
theorem whole3_apply (c : Dev nD) (t : Fin cfg9.N) (x : S256x256.Idx) :
    (iblk9 (F := Ideal) V c 3 t : Vec Ideal S256x256 .f32) x = (V c main_v2 : S256x256.Idx → EReal) x := by
  obtain ⟨e0, e1, -⟩ := wholeIndex t
  unfold iblk9
  rw [View.read_apply]
  show V c main_v2 _ = V c main_v2 _
  congr 1
  funext ax
  apply Fin.ext
  match ax with
  | ⟨0, _⟩ => show win9_3.index t (0 : Fin 2) * 256 + 1 * (x 0).val = (x 0).val; rw [e0]; omega
  | ⟨1, _⟩ => show win9_3.index t (1 : Fin 2) * 256 + 1 * (x 1).val = (x 1).val; rw [e1]; omega

theorem whole4_apply (c : Dev nD) (t : Fin cfg9.N) (x : S256x256.Idx) :
    (iblk9 (F := Ideal) V c 4 t : Vec Ideal S256x256 .f32) x = (V c main_v3 : S256x256.Idx → EReal) x := by
  obtain ⟨-, -, e0, e1, -⟩ := wholeIndex t
  unfold iblk9
  rw [View.read_apply]
  show V c main_v3 _ = V c main_v3 _
  congr 1
  funext ax
  apply Fin.ext
  match ax with
  | ⟨0, _⟩ => show win9_4.index t (0 : Fin 2) * 256 + 1 * (x 0).val = (x 0).val; rw [e0]; omega
  | ⟨1, _⟩ => show win9_4.index t (1 : Fin 2) * 256 + 1 * (x 1).val = (x 1).val; rw [e1]; omega

theorem whole5_apply (c : Dev nD) (t : Fin cfg9.N) (x : S256x256.Idx) :
    (iblk9 (F := Ideal) V c 5 t : Vec Ideal S256x256 .f32) x = (V c main_v4 : S256x256.Idx → EReal) x := by
  obtain ⟨-, -, -, -, e0, e1, -⟩ := wholeIndex t
  unfold iblk9
  rw [View.read_apply]
  show V c main_v4 _ = V c main_v4 _
  congr 1
  funext ax
  apply Fin.ext
  match ax with
  | ⟨0, _⟩ => show win9_5.index t (0 : Fin 2) * 256 + 1 * (x 0).val = (x 0).val; rw [e0]; omega
  | ⟨1, _⟩ => show win9_5.index t (1 : Fin 2) * 256 + 1 * (x 1).val = (x 1).val; rw [e1]; omega

theorem whole6_apply (c : Dev nD) (t : Fin cfg9.N) (x : S256x256.Idx) :
    (iblk9 (F := Ideal) V c 6 t : Vec Ideal S256x256 .f32) x = (V c main_arg5 : S256x256.Idx → EReal) x := by
  obtain ⟨-, -, -, -, -, -, e0, e1, -⟩ := wholeIndex t
  unfold iblk9
  rw [View.read_apply]
  show V c main_arg5 _ = V c main_arg5 _
  congr 1
  funext ax
  apply Fin.ext
  match ax with
  | ⟨0, _⟩ => show win9_6.index t (0 : Fin 2) * 256 + 1 * (x 0).val = (x 0).val; rw [e0]; omega
  | ⟨1, _⟩ => show win9_6.index t (1 : Fin 2) * 256 + 1 * (x 1).val = (x 1).val; rw [e1]; omega

/-- Window 7 holds the whole bias row. -/
theorem whole7_apply (c : Dev nD) (t : Fin cfg9.N) (x : S1x256.Idx) :
    (iblk9 (F := Ideal) V c 7 t : Vec Ideal S1x256 .f32) x = (V c main_v28 : S1x256.Idx → EReal) x := by
  obtain ⟨-, -, -, -, -, -, -, -, e0, e1⟩ := wholeIndex t
  unfold iblk9
  rw [View.read_apply]
  show V c main_v28 _ = V c main_v28 _
  congr 1
  funext ax
  apply Fin.ext
  match ax with
  | ⟨0, _⟩ => show win9_7.index t (0 : Fin 2) * 1 + 1 * (x 0).val = (x 0).val; rw [e0]; omega
  | ⟨1, _⟩ => show win9_7.index t (1 : Fin 2) * 256 + 1 * (x 1).val = (x 1).val; rw [e1]; omega

/-- The body's value at entry `j` of point `t`'s block is the stage's at the entry `k` of the array that the output's
    block puts there. -/
theorem block_point (c : Dev nD) (wlr : FVec Ideal S768x256 .f32) (bo : FVec Ideal S256 .f32)
    (h2 : V c main_v2 = HostFn.mixWeight0 wlr) (h3 : V c main_v3 = HostFn.mixWeight1 wlr) (h4 : V c main_v4 = HostFn.mixWeight2 wlr)
    (h28 : V c main_v28 = HostFn.biasRow bo) (t : Fin cfg9.N) (j : S2000x256.Idx) (k : S100000x256.Idx)
    (hk0 : (k 0).val = t.val * 2000 + (j 0).val) (hk1 : (k 1).val = (j 1).val) :
    k9_pay1 (F := Ideal) (iblk9 V c 0 t) (iblk9 V c 3 t) (iblk9 V c 1 t) (iblk9 V c 4 t) (iblk9 V c 2 t) (iblk9 V c 5 t)
        (iblk9 V c 6 t) (iblk9 V c 7 t) j
      = Stage.readout (F := Ideal) (V c main_v27) (V c main_v20) (V c main_v0) wlr (V c main_arg5) bo k := by
  obtain ⟨p, q, rfl⟩ : ∃ (p : Fin 2000) (q : Fin 256), j = ix2 p q := ⟨j 0, j 1, eq_ix2 j⟩
  obtain ⟨r, q', rfl⟩ : ∃ (r : Fin 100000) (q' : Fin 256), k = ix2 r q' := ⟨k 0, k 1, eq_ix2 k⟩
  obtain rfl : q' = q := Fin.ext hk1
  refine point_eq (iblk9 V c 0 t) (iblk9 V c 1 t) (iblk9 V c 2 t) (iblk9 V c 3 t) (iblk9 V c 4 t) (iblk9 V c 5 t)
    (iblk9 V c 6 t) (iblk9 V c 7 t) (V c main_v27) (V c main_v20) (V c main_v0) wlr (V c main_arg5) bo p q' r
    (fun l => rows0_apply V c t (ix2 p l) (ix2 r l) hk0 rfl) (fun l => rows1_apply V c t (ix2 p l) (ix2 r l) hk0 rfl)
    (fun l => rows2_apply V c t (ix2 p l) (ix2 r l) hk0 rfl) (fun l k => ?_) (fun l k => ?_) (fun l k => ?_)
    (fun k => whole6_apply V c t (ix2 k q')) ?_
  · refine (whole3_apply V c t (ix2 l k)).trans ?_
    rw [h2]
    exact slice2_axis0_apply 0 wlr _ l k _ (Nat.zero_add _).symm
  · refine (whole4_apply V c t (ix2 l k)).trans ?_
    rw [h3]
    exact slice2_axis0_apply 256 wlr _ l k _ rfl
  · refine (whole5_apply V c t (ix2 l k)).trans ?_
    rw [h4]
    exact slice2_axis0_apply 512 wlr _ l k _ rfl
  · refine (whole7_apply V c t (ix2 (0 : Fin 1) q')).trans ?_
    rw [h28]
    exact shapeCast_a_1a_apply bo _ 0 q'

/-- What point `t` writes back is block `t` of the stage's array. -/
theorem flushed_eq (c : Dev nD) (wlr : FVec Ideal S768x256 .f32) (bo : FVec Ideal S256 .f32)
    (h2 : V c main_v2 = HostFn.mixWeight0 wlr) (h3 : V c main_v3 = HostFn.mixWeight1 wlr) (h4 : V c main_v4 = HostFn.mixWeight2 wlr)
    (h28 : V c main_v28 = HostFn.biasRow bo) (t : Fin cfg9.N) :
    (dat9 (F := Ideal) V c).flushed 8 t = ((cfg9.win 8).blk t).view.read (Elt Ideal)
      (Stage.readout (F := Ideal) (V c main_v27) (V c main_v20) (V c main_v0) wlr (V c main_arg5) bo) := by
  show (cfg9.win 8).cut (grid9.coords t) ((dat9 V c).after 8 t) = _
  rw [after9_8]
  unfold out9_8
  rw [View.canon_unit_zero zeroOffsets]
  simp only [View.ld_unit_zero (S := S2000x256) zeroOffsets, View.ld_unit_zero (S := S256x256) zeroOffsets,
    View.ld_unit_zero (S := S1x256) zeroOffsets]
  obtain ⟨-, -, -, -, -, -, e0, e1⟩ := rowIndex t
  funext j
  refine block_point V c wlr bo h2 h3 h4 h28 t j (((cfg9.win 8).blk t).view.emb j) ?_ ?_
  · show win9_8.index t (0 : Fin 2) * 2000 + 1 * (j 0).val = t.val * 2000 + (j 0).val
    rw [e0]; omega
  · show win9_8.index t (1 : Fin 2) * 256 + 1 * (j 1).val = (j 1).val
    rw [e1]; omega

/-- An index of the array is in point `t`'s block iff each coordinate is in the block's range on its axis. -/
theorem mem_block (t : Fin cfg9.N) (i : S100000x256.Idx) :
    i ∈ ((cfg9.win 8).blk t).view.set ↔ ∀ a : Fin 2, win9_8.index t a * S2000x256.size a ≤ (i a).val
      ∧ (i a).val < win9_8.index t a * S2000x256.size a + S2000x256.size a := by
  show i ∈ ((View.whole main_v29).slice (win9_8.rect t)).set ↔ _
  rw [View.set_slice_whole, Rect.mem_set_unit]
  exact Iff.rfl

/-- Row `r` is in the block of point `r / 2000`. -/
theorem covered (i : S100000x256.Idx) :
    ∃ t : Fin cfg9.N, (cfg9.win 8).flush t = true ∧ i ∈ ((cfg9.win 8).blk t).view.set := by
  have hi0 : (i 0).val < 100000 := (i 0).isLt
  have hi1 : (i 1).val < 256 := (i 1).isLt
  have hN : cfg9.N = 50 := N_9
  have ht : (i 0).val / 2000 < cfg9.N := by rw [hN]; omega
  obtain ⟨-, -, -, -, -, -, e0, e1⟩ := rowIndex ⟨(i 0).val / 2000, ht⟩
  refine ⟨⟨(i 0).val / 2000, ht⟩, flush9_8 _, ?_⟩
  rw [mem_block]
  intro a
  match a with
  | ⟨0, _⟩ =>
    show win9_8.index ⟨(i 0).val / 2000, ht⟩ (0 : Fin 2) * 2000 ≤ (i 0).val
      ∧ (i 0).val < win9_8.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win9_8.index ⟨(i 0).val / 2000, ht⟩ (1 : Fin 2) * 256 ≤ (i 1).val
      ∧ (i 1).val < win9_8.index ⟨(i 0).val / 2000, ht⟩ (1 : Fin 2) * 256 + 256
    rw [e1]; omega

end Blocks

end Readout9

theorem region9 (c : Dev nD) (wlr : FVec Ideal S768x256 .f32) (bo : FVec Ideal S256 .f32)
    (h2 : V c main_v2 = HostFn.mixWeight0 wlr) (h3 : V c main_v3 = HostFn.mixWeight1 wlr) (h4 : V c main_v4 = HostFn.mixWeight2 wlr)
    (h28 : V c main_v28 = HostFn.biasRow bo) :
    (dat9 (F := Ideal) V c).arrAt 8 cfg9.N
      = Stage.readout (F := Ideal) (V c main_v27) (V c main_v20) (V c main_v0) wlr (V c main_arg5) bo :=
  (dat9 (F := Ideal) V c).arrAt_eq_of_cover 8 _ (fun t _ => Readout9.flushed_eq V c wlr bo h2 h3 h4 h28 t) Readout9.covered

end Cert.KernelIdeal.RegionValue

end
-- ==== Proof.RegionReadout.lean ====
import proofs.«413102_j68977174774322_1_alg».proof.Proof.Region9
-- ==== Proof.ThreadA.lean ====
import proofs.«413102_j68977174774322_1_alg».proof.Proof.ThreadFacts
import proofs.«413102_j68977174774322_1_alg».proof.Proof.Ranges
import proofs.«413102_j68977174774322_1_alg».proof.Proof.KBridge
import proofs.«413102_j68977174774322_1_alg».proof.Proof.RegionLin
import proofs.«413102_j68977174774322_1_alg».proof.Proof.RegionAgg
import proofs.«413102_j68977174774322_1_alg».proof.Proof.RegionDepth
import proofs.«413102_j68977174774322_1_alg».proof.Proof.RegionReadout

set_option maxRecDepth 16384

noncomputable section

namespace Cert.KernelIdeal.Thread

open Cert.KernelIdeal Cert.KernelIdeal.Gen Idealize.ShloMosaic Idealize.ShloMosaic.TcCoe Idealize.SL.Sem
open Cert.ReferenceIdeal (Stage.atoms0 Stage.bonds0 Stage.atomsNext Stage.bondsNext Stage.layerWeight0 Stage.layerWeight1 Stage.layerWeight2 Stage.sumTimesMax Stage.nbrRows Stage.bondRows Stage.atomRows Stage.depthStep Stage.readout Stage.pool Stage.encode Stage.embedAtoms Stage.embedBonds)

variable (m : (ℓ : Loc nD τ sig) → Buf (Elt Ideal) ℓ) (ρ : Dev nD → PrngReg) (c : Dev nD)

namespace Round1

/-! ### The host stretches, over arbitrary contents at their head

Each stretch is a literal list of operations. At a buffer none of them writes the contents stay; at the buffer the
stretch is there to produce, the fold of the operations' results is the host function of the buffers it reads. -/

/-- The three slices of the readout's weight write only their own results. -/
theorem keep2 (U : Valuation τ sig (Elt Ideal)) (b : Ref sig .tc)
    (hb : b ∉ [main_v2, main_v3, main_v4]) :
    StableHlo.after hostOps2 U (Proc.devRef .tc b) = U (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by rintro rfl; exact hb (by decide))))

/-- The neighbour lookup writes only its own temporaries and its result. -/
theorem keep2_1 (U : Valuation τ sig (Elt Ideal)) (b : Ref sig .tc)
    (hb : b ∉ [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v5]) :
    StableHlo.after hostOps2_1 U (Proc.devRef .tc b) = U (Proc.devRef .tc b) :=
  StableHlo.after_of_forall_not_mem (b := Proc.devRef .tc b) _ _ (List.forall_iff_forall_mem.mp (by
    simp only [hostOps2_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by rintro rfl; exact hb (by decide))))

/-- The reverse-bond lookup writes only its own temporaries and its result. -/
theorem keep3 (U : Valuation τ sig (Elt Ideal)) (b : Ref sig .tc)
    (hb : b ∉ [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v7]) :
    StableHlo.after hostOps3 U (Proc.devRef .tc b) = U (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by rintro rfl; exact hb (by decide))))

/-- The source-atom lookup writes only its own temporaries and its result. -/
theorem keep3_1 (U : Valuation τ sig (Elt Ideal)) (b : Ref sig .tc)
    (hb : b ∉ [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v8]) :
    StableHlo.after hostOps3_1 U (Proc.devRef .tc b) = U (Proc.devRef .tc b) :=
  StableHlo.after_of_forall_not_mem (b := Proc.devRef .tc b) _ _ (List.forall_iff_forall_mem.mp (by
    simp only [hostOps3_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by rintro rfl; exact hb (by decide))))

/-- The first layer's weight block: the slice and its reshape. -/
theorem keep3_2 (U : Valuation τ sig (Elt Ideal)) (b : Ref sig .tc)
    (hb : b ∉ [main_v9, main_v10]) :
    StableHlo.after hostOps3_2 U (Proc.devRef .tc b) = U (Proc.devRef .tc b) :=
  StableHlo.after_of_forall_not_mem (b := Proc.devRef .tc b) _ _ (List.forall_iff_forall_mem.mp (by
    simp only [hostOps3_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by rintro rfl; exact hb (by decide))))

theorem s2_v2 (U : Valuation τ sig (Elt Ideal)) :
    StableHlo.after hostOps2 U (Proc.devRef .tc main_v2) = HostFn.mixWeight0 (F := Ideal) (U (Proc.devRef .tc main_arg7)) := by
  simp only [StableHlo.after_cons, StableHlo.after_nil]; rfl
theorem s2_v3 (U : Valuation τ sig (Elt Ideal)) :
    StableHlo.after hostOps2 U (Proc.devRef .tc main_v3) = HostFn.mixWeight1 (F := Ideal) (U (Proc.devRef .tc main_arg7)) := by
  simp only [StableHlo.after_cons, StableHlo.after_nil]; rfl
theorem s2_v4 (U : Valuation τ sig (Elt Ideal)) :
    StableHlo.after hostOps2 U (Proc.devRef .tc main_v4) = HostFn.mixWeight2 (F := Ideal) (U (Proc.devRef .tc main_arg7)) := by
  simp only [StableHlo.after_cons, StableHlo.after_nil]; rfl
theorem s3_2_v10 (U : Valuation τ sig (Elt Ideal)) :
    StableHlo.after hostOps3_2 U (Proc.devRef .tc main_v10) = HostFn.layerWeight0 (F := Ideal) (U (Proc.devRef .tc main_arg4)) := by
  simp only [StableHlo.after_cons, StableHlo.after_nil]; rfl

attribute [local irreducible] Host.gather Host.reduce in
set_option maxHeartbeats 2000000 in
theorem s2_1_v5 (U : Valuation τ sig (Elt Ideal)) :
    StableHlo.after hostOps2_1 U (Proc.devRef .tc main_v5)
      = HostFn.takeNbr (F := Ideal) (U (Proc.devRef .tc main_v1)) (U (Proc.devRef .tc main_arg8)) := by
  simp only [StableHlo.after_cons, StableHlo.after_nil]; rfl

attribute [local irreducible] Host.gather Host.reduce in
set_option maxHeartbeats 2000000 in
theorem s3_v7 (U : Valuation τ sig (Elt Ideal)) :
    StableHlo.after hostOps3 U (Proc.devRef .tc main_v7)
      = HostFn.takeBond (F := Ideal) (U (Proc.devRef .tc main_v1)) (U (Proc.devRef .tc main_arg10)) := by
  simp only [StableHlo.after_cons, StableHlo.after_nil]; rfl

attribute [local irreducible] Host.gather Host.reduce in
set_option maxHeartbeats 2000000 in
theorem s3_1_v8 (U : Valuation τ sig (Elt Ideal)) :
    StableHlo.after hostOps3_1 U (Proc.devRef .tc main_v8)
      = HostFn.takeAtom (F := Ideal) (U (Proc.devRef .tc main_v6)) (U (Proc.devRef .tc main_arg9)) := by
  simp only [StableHlo.after_cons, StableHlo.after_nil]; rfl

/-! ### Buffers nothing touches before the fourth region's exit

A buffer that is no array of the first four regions and no result of the five host stretches holds at every boundary
what it held at the launch. -/

/-- No region up to the fourth has `b` among its arrays and no host stretch up to there writes it. -/
structure Untouched (b : Ref sig .tc) : Prop where
  r0 : ∀ w, Pipeline.arrRef spec0 w ≠ b
  r1 : ∀ w, Pipeline.arrRef spec1 w ≠ b
  h2 : b ∉ [main_v2, main_v3, main_v4]
  h2_1 : b ∉ [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v5]
  r2 : ∀ w, Pipeline.arrRef spec2 w ≠ b
  h3 : b ∉ [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v7]
  h3_1 : b ∉ [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v8]
  h3_2 : b ∉ [main_v9, main_v10]
  r3 : ∀ w, Pipeline.arrRef spec3 w ≠ b

section
variable {b : Ref sig .tc} (u : Untouched b)
include u
theorem Untouched.w1 : W1 m ρ c (Proc.devRef .tc b) = W0 m ρ c (Proc.devRef .tc b) := W1_of_ne m ρ c b u.r0
theorem Untouched.w2 : W2 m ρ c (Proc.devRef .tc b) = W0 m ρ c (Proc.devRef .tc b) := (W2_of_ne m ρ c b u.r1).trans (u.w1 m ρ c)
theorem Untouched.w3 : W3 m ρ c (Proc.devRef .tc b) = W0 m ρ c (Proc.devRef .tc b) := (keep2 (W2 m ρ c) b u.h2).trans (u.w2 m ρ c)
theorem Untouched.w4 : W4 m ρ c (Proc.devRef .tc b) = W0 m ρ c (Proc.devRef .tc b) := (keep2_1 (W3 m ρ c) b u.h2_1).trans (u.w3 m ρ c)
theorem Untouched.w5 : W5 m ρ c (Proc.devRef .tc b) = W0 m ρ c (Proc.devRef .tc b) := (W5_of_ne m ρ c b u.r2).trans (u.w4 m ρ c)
theorem Untouched.w6 : W6 m ρ c (Proc.devRef .tc b) = W0 m ρ c (Proc.devRef .tc b) := (keep3 (W5 m ρ c) b u.h3).trans (u.w5 m ρ c)
theorem Untouched.w7 : W7 m ρ c (Proc.devRef .tc b) = W0 m ρ c (Proc.devRef .tc b) := (keep3_1 (W6 m ρ c) b u.h3_1).trans (u.w6 m ρ c)
theorem Untouched.w8 : W8 m ρ c (Proc.devRef .tc b) = W0 m ρ c (Proc.devRef .tc b) := (keep3_2 (W7 m ρ c) b u.h3_2).trans (u.w7 m ρ c)
theorem Untouched.w9 : W9 m ρ c (Proc.devRef .tc b) = W0 m ρ c (Proc.devRef .tc b) := (W9_of_ne m ρ c b u.r3).trans (u.w8 m ρ c)
end

theorem u4 : Untouched main_arg4 := ⟨by decide, by decide, by decide, by decide, by decide, by decide, by decide, by decide, by decide⟩
theorem u5 : Untouched main_arg5 := ⟨by decide, by decide, by decide, by decide, by decide, by decide, by decide, by decide, by decide⟩
theorem u6 : Untouched main_arg6 := ⟨by decide, by decide, by decide, by decide, by decide, by decide, by decide, by decide, by decide⟩
theorem u7 : Untouched main_arg7 := ⟨by decide, by decide, by decide, by decide, by decide, by decide, by decide, by decide, by decide⟩
theorem u8 : Untouched main_arg8 := ⟨by decide, by decide, by decide, by decide, by decide, by decide, by decide, by decide, by decide⟩
theorem u9 : Untouched main_arg9 := ⟨by decide, by decide, by decide, by decide, by decide, by decide, by decide, by decide, by decide⟩
theorem u10 : Untouched main_arg10 := ⟨by decide, by decide, by decide, by decide, by decide, by decide, by decide, by decide, by decide⟩
theorem u11 : Untouched main_arg11 := ⟨by decide, by decide, by decide, by decide, by decide, by decide, by decide, by decide, by decide⟩

/-! ### The chain: one fact per boundary and live buffer -/

/-- The atoms' embedded features leave the first region. -/
theorem w1_v0 : W1 m ρ c (Proc.devRef .tc main_v0) = ia m c := (W1_arr m ρ c 2).trans (RegionValue.region0 (V0 m ρ) c)
theorem w2_v0 : W2 m ρ c (Proc.devRef .tc main_v0) = ia m c := (W2_of_ne m ρ c main_v0 (by decide)).trans (w1_v0 m ρ c)
/-- The bonds' embedded features leave the second region (its inputs are arguments the first region does not write). -/
theorem w2_v1 : W2 m ρ c (Proc.devRef .tc main_v1) = ib m c :=
  (W2_arr m ρ c 2).trans ((RegionValue.region1 (V1 m ρ) c).trans (by
    show Stage.embedBonds (F := Ideal) (W1 m ρ c (Proc.devRef .tc main_arg1)) (W1 m ρ c (Proc.devRef .tc main_arg3)) = _
    rw [W1_of_ne m ρ c main_arg1 (by decide), W1_of_ne m ρ c main_arg3 (by decide)]; rfl))

theorem w3_v0 : W3 m ρ c (Proc.devRef .tc main_v0) = ia m c := (keep2 (W2 m ρ c) main_v0 (by decide)).trans (w2_v0 m ρ c)
theorem w3_v1 : W3 m ρ c (Proc.devRef .tc main_v1) = ib m c := (keep2 (W2 m ρ c) main_v1 (by decide)).trans (w2_v1 m ρ c)
theorem w3_v2 : W3 m ρ c (Proc.devRef .tc main_v2) = HostFn.mixWeight0 (F := Ideal) (A7 m c) :=
  (s2_v2 (W2 m ρ c)).trans (congrArg (HostFn.mixWeight0 (F := Ideal)) ((u7).w2 m ρ c))
theorem w3_v3 : W3 m ρ c (Proc.devRef .tc main_v3) = HostFn.mixWeight1 (F := Ideal) (A7 m c) :=
  (s2_v3 (W2 m ρ c)).trans (congrArg (HostFn.mixWeight1 (F := Ideal)) ((u7).w2 m ρ c))
theorem w3_v4 : W3 m ρ c (Proc.devRef .tc main_v4) = HostFn.mixWeight2 (F := Ideal) (A7 m c) :=
  (s2_v4 (W2 m ρ c)).trans (congrArg (HostFn.mixWeight2 (F := Ideal)) ((u7).w2 m ρ c))

theorem w4_v0 : W4 m ρ c (Proc.devRef .tc main_v0) = ia m c := (keep2_1 (W3 m ρ c) main_v0 (by decide)).trans (w3_v0 m ρ c)
theorem w4_v1 : W4 m ρ c (Proc.devRef .tc main_v1) = ib m c := (keep2_1 (W3 m ρ c) main_v1 (by decide)).trans (w3_v1 m ρ c)
theorem w4_v2 : W4 m ρ c (Proc.devRef .tc main_v2) = HostFn.mixWeight0 (F := Ideal) (A7 m c) := (keep2_1 (W3 m ρ c) main_v2 (by decide)).trans (w3_v2 m ρ c)
theorem w4_v3 : W4 m ρ c (Proc.devRef .tc main_v3) = HostFn.mixWeight1 (F := Ideal) (A7 m c) := (keep2_1 (W3 m ρ c) main_v3 (by decide)).trans (w3_v3 m ρ c)
theorem w4_v4 : W4 m ρ c (Proc.devRef .tc main_v4) = HostFn.mixWeight2 (F := Ideal) (A7 m c) := (keep2_1 (W3 m ρ c) main_v4 (by decide)).trans (w3_v4 m ρ c)
/-- The six incoming bonds' rows per atom: the lookup of the bonds' features at the neighbour table, whose entries are
    row numbers. -/
theorem w4_v5 (h8 : Cert.InRows 200000 (A8 m c)) :
    W4 m ρ c (Proc.devRef .tc main_v5) = Stage.nbrRows (F := Ideal) (ib m c) (A8 m c) := by
  refine (s2_1_v5 (W3 m ρ c)).trans ?_
  rw [w3_v1 m ρ c, (u8).w3 m ρ c]
  exact HostFn.takeNbr_eq (ib m c) (A8 m c) h8

/-- The atoms' first messages leave the third region. -/
theorem w5_v6 (h8 : Cert.InRows 200000 (A8 m c)) : W5 m ρ c (Proc.devRef .tc main_v6) = ma1 m c :=
  (W5_arr m ρ c 2).trans ((RegionValue.region2 (V4 m ρ) c).trans (by
    rw [show V4 m ρ c main_v0 = ia m c from w4_v0 m ρ c,
      show V4 m ρ c main_v5 = Stage.nbrRows (F := Ideal) (ib m c) (A8 m c) from w4_v5 m ρ c h8]
    rfl))
/-- The third region reads the atoms' embedded features and leaves them as they were. -/
theorem w5_v0 : W5 m ρ c (Proc.devRef .tc main_v0) = ia m c :=
  (W5_arr m ρ c 1).trans ((((dat2 (V4 m ρ) c).arrAt_in 1 rfl _).trans (A_eq2 (V4 m ρ) c 1)).trans (w4_v0 m ρ c))
theorem w5_v1 : W5 m ρ c (Proc.devRef .tc main_v1) = ib m c := (W5_of_ne m ρ c main_v1 (by decide)).trans (w4_v1 m ρ c)
theorem w5_v2 : W5 m ρ c (Proc.devRef .tc main_v2) = HostFn.mixWeight0 (F := Ideal) (A7 m c) := (W5_of_ne m ρ c main_v2 (by decide)).trans (w4_v2 m ρ c)
theorem w5_v3 : W5 m ρ c (Proc.devRef .tc main_v3) = HostFn.mixWeight1 (F := Ideal) (A7 m c) := (W5_of_ne m ρ c main_v3 (by decide)).trans (w4_v3 m ρ c)
theorem w5_v4 : W5 m ρ c (Proc.devRef .tc main_v4) = HostFn.mixWeight2 (F := Ideal) (A7 m c) := (W5_of_ne m ρ c main_v4 (by decide)).trans (w4_v4 m ρ c)

/-- A buffer the three stretches before the fourth region do not write is there what it was at the third region's exit. -/
theorem w8_keep (b : Ref sig .tc) (h3 : b ∉ [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v7])
    (h3_1 : b ∉ [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v8]) (h3_2 : b ∉ [main_v9, main_v10]) :
    W8 m ρ c (Proc.devRef .tc b) = W5 m ρ c (Proc.devRef .tc b) :=
  (keep3_2 (W7 m ρ c) b h3_2).trans ((keep3_1 (W6 m ρ c) b h3_1).trans (keep3 (W5 m ρ c) b h3))

theorem w8_v0 : W8 m ρ c (Proc.devRef .tc main_v0) = ia m c := (w8_keep m ρ c main_v0 (by decide) (by decide) (by decide)).trans (w5_v0 m ρ c)
theorem w8_v1 : W8 m ρ c (Proc.devRef .tc main_v1) = ib m c := (w8_keep m ρ c main_v1 (by decide) (by decide) (by decide)).trans (w5_v1 m ρ c)
theorem w8_v2 : W8 m ρ c (Proc.devRef .tc main_v2) = HostFn.mixWeight0 (F := Ideal) (A7 m c) := (w8_keep m ρ c main_v2 (by decide) (by decide) (by decide)).trans (w5_v2 m ρ c)
theorem w8_v3 : W8 m ρ c (Proc.devRef .tc main_v3) = HostFn.mixWeight1 (F := Ideal) (A7 m c) := (w8_keep m ρ c main_v3 (by decide) (by decide) (by decide)).trans (w5_v3 m ρ c)
theorem w8_v4 : W8 m ρ c (Proc.devRef .tc main_v4) = HostFn.mixWeight2 (F := Ideal) (A7 m c) := (w8_keep m ρ c main_v4 (by decide) (by decide) (by decide)).trans (w5_v4 m ρ c)
theorem w8_v6 (h8 : Cert.InRows 200000 (A8 m c)) : W8 m ρ c (Proc.devRef .tc main_v6) = ma1 m c :=
  (w8_keep m ρ c main_v6 (by decide) (by decide) (by decide)).trans (w5_v6 m ρ c h8)

/-- Each bond's reverse bond's row of the bonds' features. -/
theorem w6_v7 (h10 : Cert.InRows 200000 (A10 m c)) :
    W6 m ρ c (Proc.devRef .tc main_v7) = Stage.bondRows (F := Ideal) (ib m c) (A10 m c) := by
  refine (s3_v7 (W5 m ρ c)).trans ?_
  rw [w5_v1 m ρ c, (u10).w5 m ρ c]
  exact HostFn.takeBond_eq (ib m c) (A10 m c) h10
theorem w8_v7 (h10 : Cert.InRows 200000 (A10 m c)) :
    W8 m ρ c (Proc.devRef .tc main_v7) = Stage.bondRows (F := Ideal) (ib m c) (A10 m c) :=
  (keep3_2 (W7 m ρ c) main_v7 (by decide)).trans ((keep3_1 (W6 m ρ c) main_v7 (by decide)).trans (w6_v7 m ρ c h10))

theorem w6_v6 (h8 : Cert.InRows 200000 (A8 m c)) : W6 m ρ c (Proc.devRef .tc main_v6) = ma1 m c :=
  (keep3 (W5 m ρ c) main_v6 (by decide)).trans (w5_v6 m ρ c h8)
/-- Each bond's source atom's row of the atoms' first messages. -/
theorem w7_v8 (h8 : Cert.InRows 200000 (A8 m c)) (h9 : Cert.InRows 100000 (A9 m c)) :
    W7 m ρ c (Proc.devRef .tc main_v8) = Stage.atomRows (F := Ideal) (ma1 m c) (A9 m c) := by
  refine (s3_1_v8 (W6 m ρ c)).trans ?_
  rw [w6_v6 m ρ c h8, (u9).w6 m ρ c]
  exact HostFn.takeAtom_eq (ma1 m c) (A9 m c) h9
theorem w8_v8 (h8 : Cert.InRows 200000 (A8 m c)) (h9 : Cert.InRows 100000 (A9 m c)) :
    W8 m ρ c (Proc.devRef .tc main_v8) = Stage.atomRows (F := Ideal) (ma1 m c) (A9 m c) :=
  (keep3_2 (W7 m ρ c) main_v8 (by decide)).trans (w7_v8 m ρ c h8 h9)

/-- The first layer's weight block. -/
theorem w8_v10 : W8 m ρ c (Proc.devRef .tc main_v10) = Stage.layerWeight0 (F := Ideal) (A4 m c) := by
  refine (s3_2_v10 (W7 m ρ c)).trans ?_
  rw [(u4).w7 m ρ c]
  exact HostFn.layerWeight0_eq (A4 m c)

/-- The bonds' first messages leave the fourth region. -/
theorem w9_v11 (h8 : Cert.InRows 200000 (A8 m c)) (h9 : Cert.InRows 100000 (A9 m c)) (h10 : Cert.InRows 200000 (A10 m c)) :
    W9 m ρ c (Proc.devRef .tc main_v11) = mb1 m c :=
  (W9_arr m ρ c 4).trans ((RegionValue.region3 (V8 m ρ) c).trans (by
    rw [show V8 m ρ c main_v8 = Stage.atomRows (F := Ideal) (ma1 m c) (A9 m c) from w8_v8 m ρ c h8 h9,
      show V8 m ρ c main_v7 = Stage.bondRows (F := Ideal) (ib m c) (A10 m c) from w8_v7 m ρ c h10,
      show V8 m ρ c main_v1 = ib m c from w8_v1 m ρ c,
      show V8 m ρ c main_v10 = Stage.layerWeight0 (F := Ideal) (A4 m c) from w8_v10 m ρ c]
    rfl))
/-- The fourth region reads the bonds' embedded features and leaves them as they were. -/
theorem w9_v1 : W9 m ρ c (Proc.devRef .tc main_v1) = ib m c :=
  (W9_arr m ρ c 2).trans ((((dat3 (V8 m ρ) c).arrAt_in 2 rfl _).trans (A_eq3 (V8 m ρ) c 2)).trans (w8_v1 m ρ c))

end Round1

open Round1 in
/-- From the launch to the fourth region's exit. -/
theorem afterRound1 (h8 : Cert.InRows 200000 (A8 m c)) (h9 : Cert.InRows 100000 (A9 m c)) (h10 : Cert.InRows 200000 (A10 m c)) :
    AfterRound1 m ρ c where
  v0 := (W9_of_ne m ρ c main_v0 (by decide)).trans (w8_v0 m ρ c)
  v1 := w9_v1 m ρ c
  v6 := (W9_of_ne m ρ c main_v6 (by decide)).trans (w8_v6 m ρ c h8)
  v11 := w9_v11 m ρ c h8 h9 h10
  v2 := (W9_of_ne m ρ c main_v2 (by decide)).trans (w8_v2 m ρ c)
  v3 := (W9_of_ne m ρ c main_v3 (by decide)).trans (w8_v3 m ρ c)
  v4 := (W9_of_ne m ρ c main_v4 (by decide)).trans (w8_v4 m ρ c)
  a4 := (u4).w9 m ρ c
  a5 := (u5).w9 m ρ c
  a6 := (u6).w9 m ρ c
  a8 := (u8).w9 m ρ c
  a9 := (u9).w9 m ρ c
  a10 := (u10).w9 m ρ c
  a11 := (u11).w9 m ρ c

end Cert.KernelIdeal.Thread

end
-- ==== Proof.ThreadB.lean ====
import proofs.«413102_j68977174774322_1_alg».proof.Proof.ThreadFacts
import proofs.«413102_j68977174774322_1_alg».proof.Proof.Ranges
import proofs.«413102_j68977174774322_1_alg».proof.Proof.KBridge
import proofs.«413102_j68977174774322_1_alg».proof.Proof.RegionLin
import proofs.«413102_j68977174774322_1_alg».proof.Proof.RegionAgg
import proofs.«413102_j68977174774322_1_alg».proof.Proof.RegionDepth
import proofs.«413102_j68977174774322_1_alg».proof.Proof.RegionReadout

set_option maxRecDepth 16384

noncomputable section

namespace Cert.KernelIdeal.Thread

open Cert.KernelIdeal Cert.KernelIdeal.Gen Idealize.ShloMosaic Idealize.ShloMosaic.TcCoe Idealize.SL.Sem
open Cert.ReferenceIdeal (Stage.atoms0 Stage.bonds0 Stage.atomsNext Stage.bondsNext Stage.layerWeight0 Stage.layerWeight1 Stage.layerWeight2 Stage.sumTimesMax Stage.nbrRows Stage.bondRows Stage.atomRows Stage.depthStep Stage.readout Stage.pool Stage.encode Stage.embedAtoms Stage.embedBonds)

variable (m : (ℓ : Loc nD τ sig) → Buf (Elt Ideal) ℓ) (ρ : Dev nD → PrngReg) (c : Dev nD)

/-!
  From the fourth region's exit to the eighth's: rounds two and three of the encoder.

  Each host stretch between two regions is a row lookup (`jnp.take`) or a weight block's slice. For a stretch we state,
  over an arbitrary valuation at its head, the one buffer it hands to the next region as the lookup (or slice) of the
  buffers it reads, and that every buffer outside the list of those it writes keeps its contents. A region's exit changes
  only the region's output array. The buffers' contents are then followed boundary by boundary: a lookup under the
  range hypotheses is the encoder's row selection, a region's output is the encoder's stage function of its inputs, and
  the values met are, in order, the atoms' and bonds' messages of rounds two and three.
-/

namespace RoundsTwoThree

/-! ### What each host stretch writes -/

/-- The buffers the atoms' neighbour lookup of round two writes. -/
def wr4 : List (Ref sig .tc) :=
  [main_call3_c, main_call3_v0, main_call3_v1, main_call3_c_0, main_call3_v2, main_call3_v3, main_call3_v4, main_call3_v5,
   main_call3_c_1, main_call3_c_2, main_call3_v6, main_call3_v7, main_call3_v8, main_call3_v9, main_call3_v10, main_call3_v11,
   main_call3_c_3, main_call3_v12, main_call3_v13, main_call3_v14, main_call3_cst, main_call3_v15, main_v12]

/-- The buffers the reverse bonds' lookup of round two writes. -/
def wr5 : List (Ref sig .tc) :=
  [main_call4_c, main_call4_v0, main_call4_v1, main_call4_c_0, main_call4_v2, main_call4_v3, main_call4_v4, main_call4_v5,
   main_call4_c_1, main_call4_c_2, main_call4_v6, main_call4_v7, main_call4_v8, main_call4_v9, main_call4_v10, main_call4_v11,
   main_call4_c_3, main_call4_v12, main_call4_v13, main_call4_v14, main_call4_cst, main_call4_v15, main_v14]

/-- The buffers the source atoms' lookup of round two writes. -/
def wr5_1 : List (Ref sig .tc) :=
  [main_call5_c, main_call5_v0, main_call5_v1, main_call5_c_0, main_call5_v2, main_call5_v3, main_call5_v4, main_call5_v5,
   main_call5_c_1, main_call5_c_2, main_call5_v6, main_call5_v7, main_call5_v8, main_call5_v9, main_call5_v10, main_call5_v11,
   main_call5_c_3, main_call5_v12, main_call5_v13, main_call5_v14, main_call5_cst, main_call5_v15, main_v15]

/-- The buffers the slice of round two's weight block writes. -/
def wr5_2 : List (Ref sig .tc) := [main_v16, main_v17]

/-- The buffers the atoms' neighbour lookup of round three writes. -/
def wr6 : List (Ref sig .tc) :=
  [main_call6_c, main_call6_v0, main_call6_v1, main_call6_c_0, main_call6_v2, main_call6_v3, main_call6_v4, main_call6_v5,
   main_call6_c_1, main_call6_c_2, main_call6_v6, main_call6_v7, main_call6_v8, main_call6_v9, main_call6_v10, main_call6_v11,
   main_call6_c_3, main_call6_v12, main_call6_v13, main_call6_v14, main_call6_cst, main_call6_v15, main_v19]

/-- The buffers the reverse bonds' lookup of round three writes. -/
def wr7 : List (Ref sig .tc) :=
  [main_call7_c, main_call7_v0, main_call7_v1, main_call7_c_0, main_call7_v2, main_call7_v3, main_call7_v4, main_call7_v5,
   main_call7_c_1, main_call7_c_2, main_call7_v6, main_call7_v7, main_call7_v8, main_call7_v9, main_call7_v10, main_call7_v11,
   main_call7_c_3, main_call7_v12, main_call7_v13, main_call7_v14, main_call7_cst, main_call7_v15, main_v21]

/-- The buffers the source atoms' lookup of round three writes. -/
def wr7_1 : List (Ref sig .tc) :=
  [main_call8_c, main_call8_v0, main_call8_v1, main_call8_c_0, main_call8_v2, main_call8_v3, main_call8_v4, main_call8_v5,
   main_call8_c_1, main_call8_c_2, main_call8_v6, main_call8_v7, main_call8_v8, main_call8_v9, main_call8_v10, main_call8_v11,
   main_call8_c_3, main_call8_v12, main_call8_v13, main_call8_v14, main_call8_cst, main_call8_v15, main_v22]

/-- The buffers the slice of round three's weight block writes. -/
def wr7_2 : List (Ref sig .tc) := [main_v23, main_v24]

/-! ### A buffer a stretch does not write keeps its contents

Every operation of a stretch writes one buffer, a member of the stretch's list; a reference outside the list differs
from each of them. -/

theorem keep4 (U : Valuation τ sig (Elt Ideal)) (b : Ref sig .tc) (hb : b ∉ wr4) :
    StableHlo.after hostOps4 U (Proc.devRef .tc b) = U (Proc.devRef .tc b) :=
  StableHlo.after_of_forall_not_mem (b := Proc.devRef .tc b) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (e ▸ by decide))))

theorem keep5 (U : Valuation τ sig (Elt Ideal)) (b : Ref sig .tc) (hb : b ∉ wr5) :
    StableHlo.after hostOps5 U (Proc.devRef .tc b) = U (Proc.devRef .tc b) :=
  StableHlo.after_of_forall_not_mem (b := Proc.devRef .tc b) _ _ (List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (e ▸ by decide))))

theorem keep5_1 (U : Valuation τ sig (Elt Ideal)) (b : Ref sig .tc) (hb : b ∉ wr5_1) :
    StableHlo.after hostOps5_1 U (Proc.devRef .tc b) = U (Proc.devRef .tc b) :=
  StableHlo.after_of_forall_not_mem (b := Proc.devRef .tc b) _ _ (List.forall_iff_forall_mem.mp (by
    simp only [hostOps5_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (e ▸ by decide))))

theorem keep5_2 (U : Valuation τ sig (Elt Ideal)) (b : Ref sig .tc) (hb : b ∉ wr5_2) :
    StableHlo.after hostOps5_2 U (Proc.devRef .tc b) = U (Proc.devRef .tc b) :=
  StableHlo.after_of_forall_not_mem (b := Proc.devRef .tc b) _ _ (List.forall_iff_forall_mem.mp (by
    simp only [hostOps5_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (e ▸ by decide))))

theorem keep6 (U : Valuation τ sig (Elt Ideal)) (b : Ref sig .tc) (hb : b ∉ wr6) :
    StableHlo.after hostOps6 U (Proc.devRef .tc b) = U (Proc.devRef .tc b) :=
  StableHlo.after_of_forall_not_mem (b := Proc.devRef .tc b) _ _ (List.forall_iff_forall_mem.mp (by
    simp only [hostOps6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (e ▸ by decide))))

theorem keep7 (U : Valuation τ sig (Elt Ideal)) (b : Ref sig .tc) (hb : b ∉ wr7) :
    StableHlo.after hostOps7 U (Proc.devRef .tc b) = U (Proc.devRef .tc b) :=
  StableHlo.after_of_forall_not_mem (b := Proc.devRef .tc b) _ _ (List.forall_iff_forall_mem.mp (by
    simp only [hostOps7, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (e ▸ by decide))))

theorem keep7_1 (U : Valuation τ sig (Elt Ideal)) (b : Ref sig .tc) (hb : b ∉ wr7_1) :
    StableHlo.after hostOps7_1 U (Proc.devRef .tc b) = U (Proc.devRef .tc b) :=
  StableHlo.after_of_forall_not_mem (b := Proc.devRef .tc b) _ _ (List.forall_iff_forall_mem.mp (by
    simp only [hostOps7_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (e ▸ by decide))))

theorem keep7_2 (U : Valuation τ sig (Elt Ideal)) (b : Ref sig .tc) (hb : b ∉ wr7_2) :
    StableHlo.after hostOps7_2 U (Proc.devRef .tc b) = U (Proc.devRef .tc b) :=
  StableHlo.after_of_forall_not_mem (b := Proc.devRef .tc b) _ _ (List.forall_iff_forall_mem.mp (by
    simp only [hostOps7_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (e ▸ by decide))))

/-! ### The buffer a stretch hands on

The composed operations of a lookup stretch are, term for term, the lookup function of the table and the index array it
reads; those of a slice stretch the weight block's function. Each intermediate value is carried to its buffer's type and
back, which is the identity; the gathers and reductions stay closed, so only their arguments are compared. -/

/-- Contents carried to a buffer's own type and back are the contents. -/
theorem ofBuf_toBuf {T : BufTy} (x : StableHlo.TRef sig T) (v : T.Contents (Elt Ideal)) : x.ofBuf (x.toBuf v) = v := by
  obtain ⟨r, h, _, _⟩ := x
  subst h
  rfl

attribute [local irreducible] Host.gather Host.reduce in
set_option maxHeartbeats 2000000 in
theorem write4 (U : Valuation τ sig (Elt Ideal)) :
    StableHlo.after hostOps4 U (Proc.devRef .tc main_v12)
      = HostFn.takeNbr (F := Ideal) (U (Proc.devRef .tc main_v11)) (U (Proc.devRef .tc main_arg8)) := by
  open StableHlo in after_results_simp
  simp only [ofBuf_toBuf]
  rfl

attribute [local irreducible] Host.gather Host.reduce in
set_option maxHeartbeats 2000000 in
theorem write5 (U : Valuation τ sig (Elt Ideal)) :
    StableHlo.after hostOps5 U (Proc.devRef .tc main_v14)
      = HostFn.takeBond (F := Ideal) (U (Proc.devRef .tc main_v11)) (U (Proc.devRef .tc main_arg10)) := by
  open StableHlo in after_results_simp
  simp only [ofBuf_toBuf]
  rfl

attribute [local irreducible] Host.gather Host.reduce in
set_option maxHeartbeats 2000000 in
theorem write5_1 (U : Valuation τ sig (Elt Ideal)) :
    StableHlo.after hostOps5_1 U (Proc.devRef .tc main_v15)
      = HostFn.takeAtom (F := Ideal) (U (Proc.devRef .tc main_v13)) (U (Proc.devRef .tc main_arg9)) := by
  open StableHlo in after_results_simp
  simp only [ofBuf_toBuf]
  rfl

set_option maxHeartbeats 2000000 in
theorem write5_2 (U : Valuation τ sig (Elt Ideal)) :
    StableHlo.after hostOps5_2 U (Proc.devRef .tc main_v17)
      = HostFn.layerWeight1 (F := Ideal) (U (Proc.devRef .tc main_arg4)) := by
  simp only [StableHlo.after_cons, StableHlo.after_nil]
  rfl

attribute [local irreducible] Host.gather Host.reduce in
set_option maxHeartbeats 2000000 in
theorem write6 (U : Valuation τ sig (Elt Ideal)) :
    StableHlo.after hostOps6 U (Proc.devRef .tc main_v19)
      = HostFn.takeNbr (F := Ideal) (U (Proc.devRef .tc main_v18)) (U (Proc.devRef .tc main_arg8)) := by
  open StableHlo in after_results_simp
  simp only [ofBuf_toBuf]
  rfl

attribute [local irreducible] Host.gather Host.reduce in
set_option maxHeartbeats 2000000 in
theorem write7 (U : Valuation τ sig (Elt Ideal)) :
    StableHlo.after hostOps7 U (Proc.devRef .tc main_v21)
      = HostFn.takeBond (F := Ideal) (U (Proc.devRef .tc main_v18)) (U (Proc.devRef .tc main_arg10)) := by
  open StableHlo in after_results_simp
  simp only [ofBuf_toBuf]
  rfl

attribute [local irreducible] Host.gather Host.reduce in
set_option maxHeartbeats 2000000 in
theorem write7_1 (U : Valuation τ sig (Elt Ideal)) :
    StableHlo.after hostOps7_1 U (Proc.devRef .tc main_v22)
      = HostFn.takeAtom (F := Ideal) (U (Proc.devRef .tc main_v20)) (U (Proc.devRef .tc main_arg9)) := by
  open StableHlo in after_results_simp
  simp only [ofBuf_toBuf]
  rfl

set_option maxHeartbeats 2000000 in
theorem write7_2 (U : Valuation τ sig (Elt Ideal)) :
    StableHlo.after hostOps7_2 U (Proc.devRef .tc main_v24)
      = HostFn.layerWeight2 (F := Ideal) (U (Proc.devRef .tc main_arg4)) := by
  simp only [StableHlo.after_cons, StableHlo.after_nil]
  rfl

/-! ### One boundary to the next, for a buffer the segment does not write -/

theorem p10 (b : Ref sig .tc) (hb : b ∉ wr4) : W10 m ρ c (Proc.devRef .tc b) = W9 m ρ c (Proc.devRef .tc b) :=
  keep4 (W9 m ρ c) b hb
theorem p12 (b : Ref sig .tc) (hb : b ∉ wr5) : W12 m ρ c (Proc.devRef .tc b) = W11 m ρ c (Proc.devRef .tc b) :=
  keep5 (W11 m ρ c) b hb
theorem p13 (b : Ref sig .tc) (hb : b ∉ wr5_1) : W13 m ρ c (Proc.devRef .tc b) = W12 m ρ c (Proc.devRef .tc b) :=
  keep5_1 (W12 m ρ c) b hb
theorem p14 (b : Ref sig .tc) (hb : b ∉ wr5_2) : W14 m ρ c (Proc.devRef .tc b) = W13 m ρ c (Proc.devRef .tc b) :=
  keep5_2 (W13 m ρ c) b hb
theorem p16 (b : Ref sig .tc) (hb : b ∉ wr6) : W16 m ρ c (Proc.devRef .tc b) = W15 m ρ c (Proc.devRef .tc b) :=
  keep6 (W15 m ρ c) b hb
theorem p18 (b : Ref sig .tc) (hb : b ∉ wr7) : W18 m ρ c (Proc.devRef .tc b) = W17 m ρ c (Proc.devRef .tc b) :=
  keep7 (W17 m ρ c) b hb
theorem p19 (b : Ref sig .tc) (hb : b ∉ wr7_1) : W19 m ρ c (Proc.devRef .tc b) = W18 m ρ c (Proc.devRef .tc b) :=
  keep7_1 (W18 m ρ c) b hb
theorem p20 (b : Ref sig .tc) (hb : b ∉ wr7_2) : W20 m ρ c (Proc.devRef .tc b) = W19 m ρ c (Proc.devRef .tc b) :=
  keep7_2 (W19 m ρ c) b hb

/-! ### From the fourth region's exit up to a later boundary, for a buffer nothing on the way writes

(At a region's exit the hypothesis is that the buffer is none of the region's arrays.) -/

theorem q11 (b : Ref sig .tc) (h10 : b ∉ wr4) (h11 : ∀ w, Pipeline.arrRef spec4 w ≠ b) :
    W11 m ρ c (Proc.devRef .tc b) = W9 m ρ c (Proc.devRef .tc b) :=
  (W11_of_ne m ρ c b h11).trans (p10 m ρ c b h10)
theorem q12 (b : Ref sig .tc) (h10 : b ∉ wr4) (h11 : ∀ w, Pipeline.arrRef spec4 w ≠ b) (h12 : b ∉ wr5) :
    W12 m ρ c (Proc.devRef .tc b) = W9 m ρ c (Proc.devRef .tc b) :=
  (p12 m ρ c b h12).trans (q11 m ρ c b h10 h11)
theorem q13 (b : Ref sig .tc) (h10 : b ∉ wr4) (h11 : ∀ w, Pipeline.arrRef spec4 w ≠ b) (h12 : b ∉ wr5) (h13 : b ∉ wr5_1) :
    W13 m ρ c (Proc.devRef .tc b) = W9 m ρ c (Proc.devRef .tc b) :=
  (p13 m ρ c b h13).trans (q12 m ρ c b h10 h11 h12)
theorem q14 (b : Ref sig .tc) (h10 : b ∉ wr4) (h11 : ∀ w, Pipeline.arrRef spec4 w ≠ b) (h12 : b ∉ wr5) (h13 : b ∉ wr5_1)
    (h14 : b ∉ wr5_2) : W14 m ρ c (Proc.devRef .tc b) = W9 m ρ c (Proc.devRef .tc b) :=
  (p14 m ρ c b h14).trans (q13 m ρ c b h10 h11 h12 h13)
theorem q15 (b : Ref sig .tc) (h10 : b ∉ wr4) (h11 : ∀ w, Pipeline.arrRef spec4 w ≠ b) (h12 : b ∉ wr5) (h13 : b ∉ wr5_1)
    (h14 : b ∉ wr5_2) (h15 : ∀ w, Pipeline.arrRef spec5 w ≠ b) : W15 m ρ c (Proc.devRef .tc b) = W9 m ρ c (Proc.devRef .tc b) :=
  (W15_of_ne m ρ c b h15).trans (q14 m ρ c b h10 h11 h12 h13 h14)
theorem q16 (b : Ref sig .tc) (h10 : b ∉ wr4) (h11 : ∀ w, Pipeline.arrRef spec4 w ≠ b) (h12 : b ∉ wr5) (h13 : b ∉ wr5_1)
    (h14 : b ∉ wr5_2) (h15 : ∀ w, Pipeline.arrRef spec5 w ≠ b) (h16 : b ∉ wr6) :
    W16 m ρ c (Proc.devRef .tc b) = W9 m ρ c (Proc.devRef .tc b) :=
  (p16 m ρ c b h16).trans (q15 m ρ c b h10 h11 h12 h13 h14 h15)
theorem q17 (b : Ref sig .tc) (h10 : b ∉ wr4) (h11 : ∀ w, Pipeline.arrRef spec4 w ≠ b) (h12 : b ∉ wr5) (h13 : b ∉ wr5_1)
    (h14 : b ∉ wr5_2) (h15 : ∀ w, Pipeline.arrRef spec5 w ≠ b) (h16 : b ∉ wr6) (h17 : ∀ w, Pipeline.arrRef spec6 w ≠ b) :
    W17 m ρ c (Proc.devRef .tc b) = W9 m ρ c (Proc.devRef .tc b) :=
  (W17_of_ne m ρ c b h17).trans (q16 m ρ c b h10 h11 h12 h13 h14 h15 h16)
theorem q18 (b : Ref sig .tc) (h10 : b ∉ wr4) (h11 : ∀ w, Pipeline.arrRef spec4 w ≠ b) (h12 : b ∉ wr5) (h13 : b ∉ wr5_1)
    (h14 : b ∉ wr5_2) (h15 : ∀ w, Pipeline.arrRef spec5 w ≠ b) (h16 : b ∉ wr6) (h17 : ∀ w, Pipeline.arrRef spec6 w ≠ b)
    (h18 : b ∉ wr7) : W18 m ρ c (Proc.devRef .tc b) = W9 m ρ c (Proc.devRef .tc b) :=
  (p18 m ρ c b h18).trans (q17 m ρ c b h10 h11 h12 h13 h14 h15 h16 h17)
theorem q19 (b : Ref sig .tc) (h10 : b ∉ wr4) (h11 : ∀ w, Pipeline.arrRef spec4 w ≠ b) (h12 : b ∉ wr5) (h13 : b ∉ wr5_1)
    (h14 : b ∉ wr5_2) (h15 : ∀ w, Pipeline.arrRef spec5 w ≠ b) (h16 : b ∉ wr6) (h17 : ∀ w, Pipeline.arrRef spec6 w ≠ b)
    (h18 : b ∉ wr7) (h19 : b ∉ wr7_1) : W19 m ρ c (Proc.devRef .tc b) = W9 m ρ c (Proc.devRef .tc b) :=
  (p19 m ρ c b h19).trans (q18 m ρ c b h10 h11 h12 h13 h14 h15 h16 h17 h18)
theorem q20 (b : Ref sig .tc) (h10 : b ∉ wr4) (h11 : ∀ w, Pipeline.arrRef spec4 w ≠ b) (h12 : b ∉ wr5) (h13 : b ∉ wr5_1)
    (h14 : b ∉ wr5_2) (h15 : ∀ w, Pipeline.arrRef spec5 w ≠ b) (h16 : b ∉ wr6) (h17 : ∀ w, Pipeline.arrRef spec6 w ≠ b)
    (h18 : b ∉ wr7) (h19 : b ∉ wr7_1) (h20 : b ∉ wr7_2) : W20 m ρ c (Proc.devRef .tc b) = W9 m ρ c (Proc.devRef .tc b) :=
  (p20 m ρ c b h20).trans (q19 m ρ c b h10 h11 h12 h13 h14 h15 h16 h17 h18 h19)
theorem q21 (b : Ref sig .tc) (h10 : b ∉ wr4) (h11 : ∀ w, Pipeline.arrRef spec4 w ≠ b) (h12 : b ∉ wr5) (h13 : b ∉ wr5_1)
    (h14 : b ∉ wr5_2) (h15 : ∀ w, Pipeline.arrRef spec5 w ≠ b) (h16 : b ∉ wr6) (h17 : ∀ w, Pipeline.arrRef spec6 w ≠ b)
    (h18 : b ∉ wr7) (h19 : b ∉ wr7_1) (h20 : b ∉ wr7_2) (h21 : ∀ w, Pipeline.arrRef spec7 w ≠ b) :
    W21 m ρ c (Proc.devRef .tc b) = W9 m ρ c (Proc.devRef .tc b) :=
  (W21_of_ne m ρ c b h21).trans (q20 m ρ c b h10 h11 h12 h13 h14 h15 h16 h17 h18 h19 h20)

/-! ### Round two -/

/-- The six incoming bonds' first messages per atom. -/
theorem w10_v12 (h8 : Cert.InRows 200000 (A8 m c)) (h : AfterRound1 m ρ c) :
    W10 m ρ c (Proc.devRef .tc main_v12) = Stage.nbrRows (F := Ideal) (mb1 m c) (A8 m c) := by
  refine (write4 (W9 m ρ c)).trans ?_
  rw [h.v11, h.a8]
  exact HostFn.takeNbr_eq _ _ h8

theorem w10_v6 (h : AfterRound1 m ρ c) : W10 m ρ c (Proc.devRef .tc main_v6) = ma1 m c :=
  (p10 m ρ c main_v6 (by decide)).trans h.v6

/-- The atoms' messages after round two. -/
theorem w11_v13 (h8 : Cert.InRows 200000 (A8 m c)) (h : AfterRound1 m ρ c) :
    W11 m ρ c (Proc.devRef .tc main_v13) = ma2 m c := by
  refine (W11_arr m ρ c 2).trans ((RegionValue.region4 (V10 m ρ) c).trans ?_)
  show addf (W10 m ρ c (Proc.devRef .tc main_v6)) (Stage.sumTimesMax (F := Ideal) (W10 m ρ c (Proc.devRef .tc main_v12))) = _
  rw [w10_v6 m ρ c h, w10_v12 m ρ c h8 h]
  rfl

/-- Each bond's reverse bond's first message. -/
theorem w12_v14 (h10 : Cert.InRows 200000 (A10 m c)) (h : AfterRound1 m ρ c) :
    W12 m ρ c (Proc.devRef .tc main_v14) = Stage.bondRows (F := Ideal) (mb1 m c) (A10 m c) := by
  refine (write5 (W11 m ρ c)).trans ?_
  rw [q11 m ρ c main_v11 (by decide) (by decide), h.v11, q11 m ρ c main_arg10 (by decide) (by decide), h.a10]
  exact HostFn.takeBond_eq _ _ h10

/-- Each bond's source atom's message of round two. -/
theorem w13_v15 (h8 : Cert.InRows 200000 (A8 m c)) (h9 : Cert.InRows 100000 (A9 m c)) (h : AfterRound1 m ρ c) :
    W13 m ρ c (Proc.devRef .tc main_v15) = Stage.atomRows (F := Ideal) (ma2 m c) (A9 m c) := by
  refine (write5_1 (W12 m ρ c)).trans ?_
  rw [p12 m ρ c main_v13 (by decide), w11_v13 m ρ c h8 h,
    q12 m ρ c main_arg9 (by decide) (by decide) (by decide), h.a9]
  exact HostFn.takeAtom_eq _ _ h9

/-- Round two's weight block. -/
theorem w14_v17 (h : AfterRound1 m ρ c) :
    W14 m ρ c (Proc.devRef .tc main_v17) = Stage.layerWeight1 (F := Ideal) (A4 m c) := by
  refine (write5_2 (W13 m ρ c)).trans ?_
  rw [q13 m ρ c main_arg4 (by decide) (by decide) (by decide) (by decide), h.a4]
  exact HostFn.layerWeight1_eq _

theorem w14_v15 (h8 : Cert.InRows 200000 (A8 m c)) (h9 : Cert.InRows 100000 (A9 m c)) (h : AfterRound1 m ρ c) :
    W14 m ρ c (Proc.devRef .tc main_v15) = Stage.atomRows (F := Ideal) (ma2 m c) (A9 m c) :=
  (p14 m ρ c main_v15 (by decide)).trans (w13_v15 m ρ c h8 h9 h)

theorem w14_v14 (h10 : Cert.InRows 200000 (A10 m c)) (h : AfterRound1 m ρ c) :
    W14 m ρ c (Proc.devRef .tc main_v14) = Stage.bondRows (F := Ideal) (mb1 m c) (A10 m c) :=
  (p14 m ρ c main_v14 (by decide)).trans ((p13 m ρ c main_v14 (by decide)).trans (w12_v14 m ρ c h10 h))

theorem w14_v1 (h : AfterRound1 m ρ c) : W14 m ρ c (Proc.devRef .tc main_v1) = ib m c :=
  (q14 m ρ c main_v1 (by decide) (by decide) (by decide) (by decide) (by decide)).trans h.v1

/-- The bonds' messages after round two. -/
theorem w15_v18 (h8 : Cert.InRows 200000 (A8 m c)) (h9 : Cert.InRows 100000 (A9 m c)) (h10 : Cert.InRows 200000 (A10 m c))
    (h : AfterRound1 m ρ c) : W15 m ρ c (Proc.devRef .tc main_v18) = mb2 m c := by
  refine (W15_arr m ρ c 4).trans ((RegionValue.region5 (V14 m ρ) c).trans ?_)
  show Stage.depthStep (F := Ideal) (W14 m ρ c (Proc.devRef .tc main_v15)) (W14 m ρ c (Proc.devRef .tc main_v14))
    (W14 m ρ c (Proc.devRef .tc main_v1)) (W14 m ρ c (Proc.devRef .tc main_v17)) = _
  rw [w14_v15 m ρ c h8 h9 h, w14_v14 m ρ c h10 h, w14_v1 m ρ c h, w14_v17 m ρ c h]
  rfl

/-- The embedded bond features are an input array of the region that updates the bonds: it leaves them as entered. -/
theorem w15_v1 (h : AfterRound1 m ρ c) : W15 m ρ c (Proc.devRef .tc main_v1) = ib m c :=
  (W15_arr m ρ c 2).trans
    ((((dat5 (V14 m ρ) c).arrAt_in 2 rfl _).trans (A_eq5 (V14 m ρ) c 2)).trans (w14_v1 m ρ c h))

/-! ### Round three -/

/-- The six incoming bonds' second messages per atom. -/
theorem w16_v19 (h8 : Cert.InRows 200000 (A8 m c)) (h9 : Cert.InRows 100000 (A9 m c)) (h10 : Cert.InRows 200000 (A10 m c))
    (h : AfterRound1 m ρ c) :
    W16 m ρ c (Proc.devRef .tc main_v19) = Stage.nbrRows (F := Ideal) (mb2 m c) (A8 m c) := by
  refine (write6 (W15 m ρ c)).trans ?_
  rw [w15_v18 m ρ c h8 h9 h10 h,
    q15 m ρ c main_arg8 (by decide) (by decide) (by decide) (by decide) (by decide) (by decide), h.a8]
  exact HostFn.takeNbr_eq _ _ h8

theorem w16_v13 (h8 : Cert.InRows 200000 (A8 m c)) (h : AfterRound1 m ρ c) :
    W16 m ρ c (Proc.devRef .tc main_v13) = ma2 m c :=
  (p16 m ρ c main_v13 (by decide)).trans ((W15_of_ne m ρ c main_v13 (by decide)).trans
    ((p14 m ρ c main_v13 (by decide)).trans ((p13 m ρ c main_v13 (by decide)).trans
      ((p12 m ρ c main_v13 (by decide)).trans (w11_v13 m ρ c h8 h)))))

/-- The atoms' messages after round three. -/
theorem w17_v20 (h8 : Cert.InRows 200000 (A8 m c)) (h9 : Cert.InRows 100000 (A9 m c)) (h10 : Cert.InRows 200000 (A10 m c))
    (h : AfterRound1 m ρ c) : W17 m ρ c (Proc.devRef .tc main_v20) = ma3 m c := by
  refine (W17_arr m ρ c 2).trans ((RegionValue.region6 (V16 m ρ) c).trans ?_)
  show addf (W16 m ρ c (Proc.devRef .tc main_v13)) (Stage.sumTimesMax (F := Ideal) (W16 m ρ c (Proc.devRef .tc main_v19))) = _
  rw [w16_v13 m ρ c h8 h, w16_v19 m ρ c h8 h9 h10 h]
  rfl

/-- Each bond's reverse bond's second message. -/
theorem w18_v21 (h8 : Cert.InRows 200000 (A8 m c)) (h9 : Cert.InRows 100000 (A9 m c)) (h10 : Cert.InRows 200000 (A10 m c))
    (h : AfterRound1 m ρ c) :
    W18 m ρ c (Proc.devRef .tc main_v21) = Stage.bondRows (F := Ideal) (mb2 m c) (A10 m c) := by
  refine (write7 (W17 m ρ c)).trans ?_
  rw [W17_of_ne m ρ c main_v18 (by decide), p16 m ρ c main_v18 (by decide), w15_v18 m ρ c h8 h9 h10 h,
    q17 m ρ c main_arg10 (by decide) (by decide) (by decide) (by decide) (by decide) (by decide) (by decide) (by decide), h.a10]
  exact HostFn.takeBond_eq _ _ h10

/-- Each bond's source atom's message of round three. -/
theorem w19_v22 (h8 : Cert.InRows 200000 (A8 m c)) (h9 : Cert.InRows 100000 (A9 m c)) (h10 : Cert.InRows 200000 (A10 m c))
    (h : AfterRound1 m ρ c) :
    W19 m ρ c (Proc.devRef .tc main_v22) = Stage.atomRows (F := Ideal) (ma3 m c) (A9 m c) := by
  refine (write7_1 (W18 m ρ c)).trans ?_
  rw [p18 m ρ c main_v20 (by decide), w17_v20 m ρ c h8 h9 h10 h,
    q18 m ρ c main_arg9 (by decide) (by decide) (by decide) (by decide) (by decide) (by decide) (by decide) (by decide) (by decide), h.a9]
  exact HostFn.takeAtom_eq _ _ h9

/-- Round three's weight block. -/
theorem w20_v24 (h : AfterRound1 m ρ c) :
    W20 m ρ c (Proc.devRef .tc main_v24) = Stage.layerWeight2 (F := Ideal) (A4 m c) := by
  refine (write7_2 (W19 m ρ c)).trans ?_
  rw [q19 m ρ c main_arg4 (by decide) (by decide) (by decide) (by decide) (by decide) (by decide) (by decide) (by decide) (by decide) (by decide), h.a4]
  exact HostFn.layerWeight2_eq _

theorem w20_v22 (h8 : Cert.InRows 200000 (A8 m c)) (h9 : Cert.InRows 100000 (A9 m c)) (h10 : Cert.InRows 200000 (A10 m c))
    (h : AfterRound1 m ρ c) :
    W20 m ρ c (Proc.devRef .tc main_v22) = Stage.atomRows (F := Ideal) (ma3 m c) (A9 m c) :=
  (p20 m ρ c main_v22 (by decide)).trans (w19_v22 m ρ c h8 h9 h10 h)

theorem w20_v21 (h8 : Cert.InRows 200000 (A8 m c)) (h9 : Cert.InRows 100000 (A9 m c)) (h10 : Cert.InRows 200000 (A10 m c))
    (h : AfterRound1 m ρ c) :
    W20 m ρ c (Proc.devRef .tc main_v21) = Stage.bondRows (F := Ideal) (mb2 m c) (A10 m c) :=
  (p20 m ρ c main_v21 (by decide)).trans ((p19 m ρ c main_v21 (by decide)).trans (w18_v21 m ρ c h8 h9 h10 h))

theorem w20_v1 (h : AfterRound1 m ρ c) : W20 m ρ c (Proc.devRef .tc main_v1) = ib m c :=
  (p20 m ρ c main_v1 (by decide)).trans ((p19 m ρ c main_v1 (by decide)).trans ((p18 m ρ c main_v1 (by decide)).trans
    ((W17_of_ne m ρ c main_v1 (by decide)).trans ((p16 m ρ c main_v1 (by decide)).trans (w15_v1 m ρ c h)))))

/-- The bonds' messages after round three. -/
theorem w21_v25 (h8 : Cert.InRows 200000 (A8 m c)) (h9 : Cert.InRows 100000 (A9 m c)) (h10 : Cert.InRows 200000 (A10 m c))
    (h : AfterRound1 m ρ c) : W21 m ρ c (Proc.devRef .tc main_v25) = mb3 m c := by
  refine (W21_arr m ρ c 4).trans ((RegionValue.region7 (V20 m ρ) c).trans ?_)
  show Stage.depthStep (F := Ideal) (W20 m ρ c (Proc.devRef .tc main_v22)) (W20 m ρ c (Proc.devRef .tc main_v21))
    (W20 m ρ c (Proc.devRef .tc main_v1)) (W20 m ρ c (Proc.devRef .tc main_v24)) = _
  rw [w20_v22 m ρ c h8 h9 h10 h, w20_v21 m ρ c h8 h9 h10 h, w20_v1 m ρ c h, w20_v24 m ρ c h]
  rfl

theorem w21_v20 (h8 : Cert.InRows 200000 (A8 m c)) (h9 : Cert.InRows 100000 (A9 m c)) (h10 : Cert.InRows 200000 (A10 m c))
    (h : AfterRound1 m ρ c) : W21 m ρ c (Proc.devRef .tc main_v20) = ma3 m c :=
  (W21_of_ne m ρ c main_v20 (by decide)).trans ((p20 m ρ c main_v20 (by decide)).trans ((p19 m ρ c main_v20 (by decide)).trans
    ((p18 m ρ c main_v20 (by decide)).trans (w17_v20 m ρ c h8 h9 h10 h))))

end RoundsTwoThree

/-! ### The record -/

open RoundsTwoThree in
/-- From the fourth region's exit to the eighth's. -/
theorem afterRound3 (h8 : Cert.InRows 200000 (A8 m c)) (h9 : Cert.InRows 100000 (A9 m c)) (h10 : Cert.InRows 200000 (A10 m c))
    (h : AfterRound1 m ρ c) : AfterRound3 m ρ c where
  v0 := (q21 m ρ c main_v0 (by decide) (by decide) (by decide) (by decide) (by decide) (by decide) (by decide) (by decide) (by decide) (by decide) (by decide) (by decide)).trans h.v0
  v20 := w21_v20 m ρ c h8 h9 h10 h
  v25 := w21_v25 m ρ c h8 h9 h10 h
  v2 := (q21 m ρ c main_v2 (by decide) (by decide) (by decide) (by decide) (by decide) (by decide) (by decide) (by decide) (by decide) (by decide) (by decide) (by decide)).trans h.v2
  v3 := (q21 m ρ c main_v3 (by decide) (by decide) (by decide) (by decide) (by decide) (by decide) (by decide) (by decide) (by decide) (by decide) (by decide) (by decide)).trans h.v3
  v4 := (q21 m ρ c main_v4 (by decide) (by decide) (by decide) (by decide) (by decide) (by decide) (by decide) (by decide) (by decide) (by decide) (by decide) (by decide)).trans h.v4
  a5 := (q21 m ρ c main_arg5 (by decide) (by decide) (by decide) (by decide) (by decide) (by decide) (by decide) (by decide) (by decide) (by decide) (by decide) (by decide)).trans h.a5
  a6 := (q21 m ρ c main_arg6 (by decide) (by decide) (by decide) (by decide) (by decide) (by decide) (by decide) (by decide) (by decide) (by decide) (by decide) (by decide)).trans h.a6
  a8 := (q21 m ρ c main_arg8 (by decide) (by decide) (by decide) (by decide) (by decide) (by decide) (by decide) (by decide) (by decide) (by decide) (by decide) (by decide)).trans h.a8
  a11 := (q21 m ρ c main_arg11 (by decide) (by decide) (by decide) (by decide) (by decide) (by decide) (by decide) (by decide) (by decide) (by decide) (by decide) (by decide)).trans h.a11

end Cert.KernelIdeal.Thread

end
-- ==== Proof.ThreadC.lean ====
import proofs.«413102_j68977174774322_1_alg».proof.Proof.ThreadFacts
import proofs.«413102_j68977174774322_1_alg».proof.Proof.Ranges
import proofs.«413102_j68977174774322_1_alg».proof.Proof.KBridge
import proofs.«413102_j68977174774322_1_alg».proof.Proof.RegionLin
import proofs.«413102_j68977174774322_1_alg».proof.Proof.RegionAgg
import proofs.«413102_j68977174774322_1_alg».proof.Proof.RegionDepth
import proofs.«413102_j68977174774322_1_alg».proof.Proof.RegionReadout

set_option maxRecDepth 16384

noncomputable section

namespace Cert.KernelIdeal.Thread

open Cert.KernelIdeal Cert.KernelIdeal.Gen Idealize.ShloMosaic Idealize.ShloMosaic.TcCoe Idealize.SL.Sem
open Cert.ReferenceIdeal (Stage.atoms0 Stage.bonds0 Stage.atomsNext Stage.bondsNext Stage.layerWeight0 Stage.layerWeight1 Stage.layerWeight2 Stage.sumTimesMax Stage.nbrRows Stage.bondRows Stage.atomRows Stage.depthStep Stage.readout Stage.pool Stage.encode Stage.embedAtoms Stage.embedBonds)

variable (m : (ℓ : Loc nD τ sig) → Buf (Elt Ideal) ℓ) (ρ : Dev nD → PrngReg) (c : Dev nD)

/-! ### What a host stretch leaves alone

A stretch of host operations rewrites only the buffers its operations name as results; every other buffer of the
TensorCore holds afterwards what it held before. One lemma per stretch, for any buffer outside the stretch's results. -/

/-- A single written reference lies in the image of any list of references that holds it. -/
theorem singleton_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- Every operation of the named stretch writes a reference of the list in the goal. -/
local macro "writes_listed " ops:ident : tactic =>
  `(tactic| (simp only [$ops:ident, List.Forall, StableHlo.nullary_writes, StableHlo.unary_writes, StableHlo.binary_writes,
      StableHlo.ternary_writes, StableHlo.quaternary_writes, StableHlo.reshape_writes, StableHlo.binaryIndexed_writes]
             repeat' apply And.intro
             all_goals exact singleton_sub_of_mem (by decide)))

theorem keep8 (U : Valuation τ sig (Elt Ideal)) (b : Ref sig .tc)
    (hb : b ∉ [main_call9_c, main_call9_v0, main_call9_v1, main_call9_c_0, main_call9_v2, main_call9_v3, main_call9_v4,
      main_call9_v5, main_call9_c_1, main_call9_c_2, main_call9_v6, main_call9_v7, main_call9_v8, main_call9_v9,
      main_call9_v10, main_call9_v11, main_call9_c_3, main_call9_v12, main_call9_v13, main_call9_v14, main_call9_cst,
      main_call9_v15, main_v26]) :
    StableHlo.after hostOps8 U (Proc.devRef .tc b) = U (Proc.devRef .tc b) :=
  StableHlo.after_of_writes_sub _ _ (by writes_listed hostOps8) hb

theorem keep9 (U : Valuation τ sig (Elt Ideal)) (b : Ref sig .tc) (hb : b ∉ [main_v28]) :
    StableHlo.after hostOps9 U (Proc.devRef .tc b) = U (Proc.devRef .tc b) :=
  StableHlo.after_of_writes_sub _ _ (by writes_listed hostOps9) hb

theorem keep10 (U : Valuation τ sig (Elt Ideal)) (b : Ref sig .tc) (hb : b ∉ [main_v30]) :
    StableHlo.after hostOps10 U (Proc.devRef .tc b) = U (Proc.devRef .tc b) :=
  StableHlo.after_of_writes_sub _ _ (by writes_listed hostOps10) hb

theorem keep10_1 (U : Valuation τ sig (Elt Ideal)) (b : Ref sig .tc)
    (hb : b ∉ [main_call10_v0, main_call10_v1, main_v31]) :
    StableHlo.after hostOps10_1 U (Proc.devRef .tc b) = U (Proc.devRef .tc b) :=
  StableHlo.after_of_writes_sub _ _ (by writes_listed hostOps10_1) hb

theorem keep10_2 (U : Valuation τ sig (Elt Ideal)) (b : Ref sig .tc)
    (hb : b ∉ [main_c, main_v32, main_c_0, main_v33]) :
    StableHlo.after hostOps10_2 U (Proc.devRef .tc b) = U (Proc.devRef .tc b) :=
  StableHlo.after_of_writes_sub _ _ (by writes_listed hostOps10_2) hb

theorem keep10_3 (U : Valuation τ sig (Elt Ideal)) (b : Ref sig .tc)
    (hb : b ∉ [main_call11_call0_c, main_call11_call0_v0, main_v34]) :
    StableHlo.after hostOps10_3 U (Proc.devRef .tc b) = U (Proc.devRef .tc b) :=
  StableHlo.after_of_writes_sub _ _ (by writes_listed hostOps10_3) hb

theorem keep10_4 (U : Valuation τ sig (Elt Ideal)) (b : Ref sig .tc)
    (hb : b ∉ [main_c_1, main_v35, main_c_2, main_v36, main_v37, main_c_3, main_v38, main_v39, main_v40, main_v41,
      main_c_4, main_v42, main_v43]) :
    StableHlo.after hostOps10_4 U (Proc.devRef .tc b) = U (Proc.devRef .tc b) :=
  StableHlo.after_of_writes_sub _ _ (by writes_listed hostOps10_4) hb

theorem keep10_5 (U : Valuation τ sig (Elt Ideal)) (b : Ref sig .tc)
    (hb : b ∉ [main_call12_call0_c, main_call12_call0_v0, main_v44]) :
    StableHlo.after hostOps10_5 U (Proc.devRef .tc b) = U (Proc.devRef .tc b) :=
  StableHlo.after_of_writes_sub _ _ (by writes_listed hostOps10_5) hb

theorem keep10_6 (U : Valuation τ sig (Elt Ideal)) (b : Ref sig .tc)
    (hb : b ∉ [main_c_5, main_v45, main_v46]) :
    StableHlo.after hostOps10_6 U (Proc.devRef .tc b) = U (Proc.devRef .tc b) :=
  StableHlo.after_of_writes_sub _ _ (by writes_listed hostOps10_6) hb

theorem keep10_7 (U : Valuation τ sig (Elt Ideal)) (b : Ref sig .tc)
    (hb : b ∉ [main_call13_c, main_call13_v0, main_call13_v1, main_call13_c_0, main_call13_v2, main_call13_v3,
      main_call13_v4, main_call13_v5, main_call13_c_1, main_call13_c_2, main_call13_v6, main_call13_v7, main_call13_v8,
      main_call13_v9, main_call13_v10, main_call13_v11, main_call13_c_3, main_call13_v12, main_call13_v13,
      main_call13_c_4, main_call13_v14, main_v47]) :
    StableHlo.after hostOps10_7 U (Proc.devRef .tc b) = U (Proc.devRef .tc b) :=
  StableHlo.after_of_writes_sub _ _ (by writes_listed hostOps10_7) hb

/-! ### The per-molecule mean, step by step

The pooling after the last region is a chain of nine host stretches. Each piece below is what one stretch computes from
the buffers it reads; composed, they are the kernel program's pooling function. -/

namespace Mol

/-- The sizes rolled by one place: the last first. -/
def rolled (sizes : IVec S5000 32) : IVec S5000 32 :=
  concatenate S5000 0 [⟨S1, extractStridedSlice S1 ![4999] sizes slices_S5000_S1_4999⟩,
    ⟨S4999, extractStridedSlice S4999 ![0] sizes slices_S5000_S4999_0⟩] concatenates_S1_S4999_S5000_d0

/-- The first entry set to zero. -/
def firstZero (r : IVec S5000 32) : IVec S5000 32 :=
  Host.scatter scatter_S5000_S1_S__n_0_0_0 (fun _ b => b) r (broadcastInDim S1 ![] bcast_S_S1 (constantI S_ 32 0#32)) (constantI S_ 32 0#32)

/-- Running sums: each molecule's first atom. -/
def starts (z : IVec S5000 32) : IVec S5000 32 :=
  Host.reduceWindow IntOp.addi ![5000] ![1] ![4999] ![0] z (broadcastInDim S_ ![] bcast_S_S_ (constantI S_ 32 0#32))
    reduceWindows_S5000_S5000_w5000s1p4999_0 h_S_

/-- A one added at each molecule's first atom (a negative start counted from the end). -/
def marks (st : IVec S5000 32) : IVec S100000 32 :=
  Host.scatter scatter_S100000_S5000x1_S5000_n_0_0_1 IntOp.addi (broadcastInDim S100000 ![] bcast_S_S100000 (constantI S_ 32 0#32))
    (broadcastInDim S5000x1 ![0] bcast_S5000_S5000x1_0
      (select (cmpi .slt st (broadcastInDim S5000 ![] bcast_S_S5000 (constantI S_ 32 0#32)))
        (addi st (broadcastInDim S5000 ![] bcast_S_S5000 (constantI S_ 32 100000#32))) st))
    (broadcastInDim S5000 ![] bcast_S_S5000 (constantI S_ 32 1#32))

/-- Running sums of the marks: how many molecules start at or before each atom. -/
def counted (mk : IVec S100000 32) : IVec S100000 32 :=
  Host.reduceWindow IntOp.addi ![100000] ![1] ![99999] ![0] mk (broadcastInDim S_ ![] bcast_S_S_ (constantI S_ 32 0#32))
    reduceWindows_S100000_S100000_w100000s1p99999_0 h_S_

/-- Less one: the position of each atom's molecule. -/
def pos (cn : IVec S100000 32) : IVec S100000 32 :=
  subi cn (broadcastInDim S100000 ![] bcast_S_S100000 (constantI S_ 32 1#32))

/-- The table `t` taken at the positions (a negative one counted from the end, one outside the table answered by the
    fill value). -/
def lookup (t : IVec S5000 32) (p : IVec S100000 32) : IVec S100000 32 :=
  select
    (Host.reduce IntOp.andi
      (andi
        (cmpi .sge
          (broadcastInDim S100000x1 ![0] bcast_S100000_S100000x1_0
            (select (cmpi .slt p (broadcastInDim S100000 ![] bcast_S_S100000 (constantI S_ 32 0#32)))
              (addi p (broadcastInDim S100000 ![] bcast_S_S100000 (constantI S_ 32 5000#32))) p))
          (broadcastInDim S100000x1 ![] bcast_S_S100000x1 (constantI S_ 32 0#32)))
        (cmpi .sle
          (broadcastInDim S100000x1 ![0] bcast_S100000_S100000x1_0
            (select (cmpi .slt p (broadcastInDim S100000 ![] bcast_S_S100000 (constantI S_ 32 0#32)))
              (addi p (broadcastInDim S100000 ![] bcast_S_S100000 (constantI S_ 32 5000#32))) p))
          (broadcastInDim S100000x1 ![0, 1] bcast_S1x1_S100000x1_0_1 (broadcastInDim S1x1 ![1] bcast_S1_S1x1_1 (constantI S1 32 4999#32)))))
      (constantI S_ 1 1#1) reducesTo_S100000x1_S100000_d1 h_S_)
    (Host.gather gather_S5000_S100000x1_S100000_n_0_n_n_0_1_1 t
      (broadcastInDim S100000x1 ![0] bcast_S100000_S100000x1_0
        (select (cmpi .slt p (broadcastInDim S100000 ![] bcast_S_S100000 (constantI S_ 32 0#32)))
          (addi p (broadcastInDim S100000 ![] bcast_S_S100000 (constantI S_ 32 5000#32))) p)))
    (broadcastInDim S100000 ![] bcast_S_S100000 (constantI S_ 32 2147483648#32))

/-- The rows of `h` summed per molecule and divided by the molecule's size. -/
def mean (h : FVec Ideal S100000x256 .f32) (ids : IVec S100000 32) (sizes : IVec S5000 32) : FVec Ideal S5000x256 .f32 :=
  Host.divf
    (Host.scatterAdd scatter_S5000x256_S100000x1_S100000x256_1_0_0_1
      (broadcastInDim S5000x256 ![] bcast_S_S5000x256 (constant (F := Ideal) S_ .f32 0x00000000#32))
      (broadcastInDim S100000x1 ![0] bcast_S100000_S100000x1_0 ids) h)
    (broadcastInDim S5000x256 ![0, 1] bcast_S5000x1_S5000x256_0_1 (sitofp .f32 (broadcastInDim S5000x1 ![0] bcast_S5000_S5000x1_0 sizes)))

/-- The molecule of each atom, from the sizes. -/
def ids (sizes : IVec S5000 32) : IVec S100000 32 :=
  lookup (iotaInDim S5000 32 0) (pos (counted (marks (starts (firstZero (rolled sizes))))))

end Mol

attribute [local irreducible] Host.gather Host.reduce Host.scatter Host.scatterAdd Host.reduceWindow

/-- The pieces composed are the kernel program's pooling function. -/
theorem pool_split (h : FVec Ideal S100000x256 .f32) (sizes : IVec S5000 32) :
    Mol.mean h (Mol.ids sizes) sizes = HostFn.pool (F := Ideal) h sizes := rfl

/-! ### What each host stretch writes

For arbitrary contents `U` at the stretch's head, the buffer a later segment reads, as the stretch's operations of the
buffers of `U` it reads. -/

set_option maxHeartbeats 2000000 in
theorem stretch8_v26 (U : Valuation τ sig (Elt Ideal)) :
    StableHlo.after hostOps8 U (Proc.devRef .tc main_v26)
      = HostFn.takeNbr (F := Ideal) (U (Proc.devRef .tc main_v25)) (U (Proc.devRef .tc main_arg8)) := by
  simp only [StableHlo.after_cons, StableHlo.after_nil]; rfl

theorem stretch9_v28 (U : Valuation τ sig (Elt Ideal)) :
    StableHlo.after hostOps9 U (Proc.devRef .tc main_v28) = HostFn.biasRow (F := Ideal) (U (Proc.devRef .tc main_arg6)) := by
  simp only [StableHlo.after_cons, StableHlo.after_nil]; rfl

theorem stretch10_v30 (U : Valuation τ sig (Elt Ideal)) :
    StableHlo.after hostOps10 U (Proc.devRef .tc main_v30) = (iotaInDim S5000 32 0 : IVec S5000 32) := by
  simp only [StableHlo.after_cons, StableHlo.after_nil]; rfl

theorem stretch10_1_v31 (U : Valuation τ sig (Elt Ideal)) :
    StableHlo.after hostOps10_1 U (Proc.devRef .tc main_v31) = Mol.rolled (U (Proc.devRef .tc main_arg11)) := by
  simp only [StableHlo.after_cons, StableHlo.after_nil]; rfl

theorem stretch10_2_v33 (U : Valuation τ sig (Elt Ideal)) :
    StableHlo.after hostOps10_2 U (Proc.devRef .tc main_v33) = Mol.firstZero (U (Proc.devRef .tc main_v31)) := by
  simp only [StableHlo.after_cons, StableHlo.after_nil]; rfl

theorem stretch10_3_v34 (U : Valuation τ sig (Elt Ideal)) :
    StableHlo.after hostOps10_3 U (Proc.devRef .tc main_v34) = Mol.starts (U (Proc.devRef .tc main_v33)) := by
  simp only [StableHlo.after_cons, StableHlo.after_nil]; rfl

set_option maxHeartbeats 2000000 in
theorem stretch10_4_v43 (U : Valuation τ sig (Elt Ideal)) :
    StableHlo.after hostOps10_4 U (Proc.devRef .tc main_v43) = Mol.marks (U (Proc.devRef .tc main_v34)) := by
  simp only [StableHlo.after_cons, StableHlo.after_nil]; rfl

theorem stretch10_5_v44 (U : Valuation τ sig (Elt Ideal)) :
    StableHlo.after hostOps10_5 U (Proc.devRef .tc main_v44) = Mol.counted (U (Proc.devRef .tc main_v43)) := by
  simp only [StableHlo.after_cons, StableHlo.after_nil]; rfl

theorem stretch10_6_v46 (U : Valuation τ sig (Elt Ideal)) :
    StableHlo.after hostOps10_6 U (Proc.devRef .tc main_v46) = Mol.pos (U (Proc.devRef .tc main_v44)) := by
  simp only [StableHlo.after_cons, StableHlo.after_nil]; rfl

set_option maxHeartbeats 2000000 in
theorem stretch10_7_v47 (U : Valuation τ sig (Elt Ideal)) :
    StableHlo.after hostOps10_7 U (Proc.devRef .tc main_v47)
      = Mol.lookup (U (Proc.devRef .tc main_v30)) (U (Proc.devRef .tc main_v46)) := by
  simp only [StableHlo.after_cons, StableHlo.after_nil]; rfl

set_option maxHeartbeats 2000000 in
theorem stretch10_8_v54 (U : Valuation τ sig (Elt Ideal)) :
    StableHlo.after hostOps10_8 U (Proc.devRef .tc main_v54)
      = Mol.mean (U (Proc.devRef .tc main_v29)) (U (Proc.devRef .tc main_v47)) (U (Proc.devRef .tc main_arg11)) := by
  simp only [StableHlo.after_cons, StableHlo.after_nil]; rfl

/-! ### The boundaries, one buffer at a time

From the eighth region's exit on: at each boundary of the program, what each buffer still to be read holds, as a value of
the launch arguments. A buffer a segment writes is that segment's function of the previous boundary's buffers; any other
buffer is carried over. -/

section Chain

variable (h8 : Cert.InRows 200000 (A8 m c)) (h : AfterRound3 m ρ c)
include h

/-! After the lookup of the last bond messages at the neighbour table. -/

include h8 in
theorem w22_v26 : W22 m ρ c (Proc.devRef .tc main_v26) = Stage.nbrRows (F := Ideal) (mb3 m c) (A8 m c) :=
  (stretch8_v26 (W21 m ρ c)).trans (by rw [h.v25, h.a8]; exact HostFn.takeNbr_eq _ _ h8)
theorem w22_v0 : W22 m ρ c (Proc.devRef .tc main_v0) = ia m c := (keep8 (W21 m ρ c) main_v0 (by decide)).trans h.v0
theorem w22_v20 : W22 m ρ c (Proc.devRef .tc main_v20) = ma3 m c := (keep8 (W21 m ρ c) main_v20 (by decide)).trans h.v20
theorem w22_v2 : W22 m ρ c (Proc.devRef .tc main_v2) = HostFn.mixWeight0 (A7 m c) := (keep8 (W21 m ρ c) main_v2 (by decide)).trans h.v2
theorem w22_v3 : W22 m ρ c (Proc.devRef .tc main_v3) = HostFn.mixWeight1 (A7 m c) := (keep8 (W21 m ρ c) main_v3 (by decide)).trans h.v3
theorem w22_v4 : W22 m ρ c (Proc.devRef .tc main_v4) = HostFn.mixWeight2 (A7 m c) := (keep8 (W21 m ρ c) main_v4 (by decide)).trans h.v4
theorem w22_a5 : W22 m ρ c (Proc.devRef .tc main_arg5) = A5 m c := (keep8 (W21 m ρ c) main_arg5 (by decide)).trans h.a5
theorem w22_a6 : W22 m ρ c (Proc.devRef .tc main_arg6) = A6 m c := (keep8 (W21 m ρ c) main_arg6 (by decide)).trans h.a6
theorem w22_a11 : W22 m ρ c (Proc.devRef .tc main_arg11) = A11 m c := (keep8 (W21 m ρ c) main_arg11 (by decide)).trans h.a11

/-! After the ninth region: the neighbours' sum times their maximum. -/

include h8 in
theorem w23_v27 : W23 m ρ c (Proc.devRef .tc main_v27)
    = Stage.sumTimesMax (F := Ideal) (Stage.nbrRows (F := Ideal) (mb3 m c) (A8 m c)) :=
  (W23_arr m ρ c 1).trans ((RegionValue.region8 (V22 m ρ) c).trans (by
    show Stage.sumTimesMax (F := Ideal) (W22 m ρ c (Proc.devRef .tc main_v26)) = _
    rw [w22_v26 m ρ c h8 h]))
theorem w23_v0 : W23 m ρ c (Proc.devRef .tc main_v0) = ia m c := (W23_of_ne m ρ c main_v0 (by decide)).trans (w22_v0 m ρ c h)
theorem w23_v20 : W23 m ρ c (Proc.devRef .tc main_v20) = ma3 m c := (W23_of_ne m ρ c main_v20 (by decide)).trans (w22_v20 m ρ c h)
theorem w23_v2 : W23 m ρ c (Proc.devRef .tc main_v2) = HostFn.mixWeight0 (A7 m c) := (W23_of_ne m ρ c main_v2 (by decide)).trans (w22_v2 m ρ c h)
theorem w23_v3 : W23 m ρ c (Proc.devRef .tc main_v3) = HostFn.mixWeight1 (A7 m c) := (W23_of_ne m ρ c main_v3 (by decide)).trans (w22_v3 m ρ c h)
theorem w23_v4 : W23 m ρ c (Proc.devRef .tc main_v4) = HostFn.mixWeight2 (A7 m c) := (W23_of_ne m ρ c main_v4 (by decide)).trans (w22_v4 m ρ c h)
theorem w23_a5 : W23 m ρ c (Proc.devRef .tc main_arg5) = A5 m c := (W23_of_ne m ρ c main_arg5 (by decide)).trans (w22_a5 m ρ c h)
theorem w23_a6 : W23 m ρ c (Proc.devRef .tc main_arg6) = A6 m c := (W23_of_ne m ρ c main_arg6 (by decide)).trans (w22_a6 m ρ c h)
theorem w23_a11 : W23 m ρ c (Proc.devRef .tc main_arg11) = A11 m c := (W23_of_ne m ρ c main_arg11 (by decide)).trans (w22_a11 m ρ c h)

/-! After the bias is laid out as a row. -/

theorem w24_v28 : W24 m ρ c (Proc.devRef .tc main_v28) = HostFn.biasRow (F := Ideal) (A6 m c) :=
  (stretch9_v28 (W23 m ρ c)).trans (by rw [w23_a6 m ρ c h])
include h8 in
theorem w24_v27 : W24 m ρ c (Proc.devRef .tc main_v27)
    = Stage.sumTimesMax (F := Ideal) (Stage.nbrRows (F := Ideal) (mb3 m c) (A8 m c)) :=
  (keep9 (W23 m ρ c) main_v27 (by decide)).trans (w23_v27 m ρ c h8 h)
theorem w24_v0 : W24 m ρ c (Proc.devRef .tc main_v0) = ia m c := (keep9 (W23 m ρ c) main_v0 (by decide)).trans (w23_v0 m ρ c h)
theorem w24_v20 : W24 m ρ c (Proc.devRef .tc main_v20) = ma3 m c := (keep9 (W23 m ρ c) main_v20 (by decide)).trans (w23_v20 m ρ c h)
theorem w24_v2 : W24 m ρ c (Proc.devRef .tc main_v2) = HostFn.mixWeight0 (A7 m c) := (keep9 (W23 m ρ c) main_v2 (by decide)).trans (w23_v2 m ρ c h)
theorem w24_v3 : W24 m ρ c (Proc.devRef .tc main_v3) = HostFn.mixWeight1 (A7 m c) := (keep9 (W23 m ρ c) main_v3 (by decide)).trans (w23_v3 m ρ c h)
theorem w24_v4 : W24 m ρ c (Proc.devRef .tc main_v4) = HostFn.mixWeight2 (A7 m c) := (keep9 (W23 m ρ c) main_v4 (by decide)).trans (w23_v4 m ρ c h)
theorem w24_a5 : W24 m ρ c (Proc.devRef .tc main_arg5) = A5 m c := (keep9 (W23 m ρ c) main_arg5 (by decide)).trans (w23_a5 m ρ c h)
theorem w24_a11 : W24 m ρ c (Proc.devRef .tc main_arg11) = A11 m c := (keep9 (W23 m ρ c) main_arg11 (by decide)).trans (w23_a11 m ρ c h)

/-- The readout of the last round's values, before pooling. -/
def lastReadout : FVec Ideal S100000x256 .f32 :=
  Stage.readout (F := Ideal) (Stage.sumTimesMax (F := Ideal) (Stage.nbrRows (F := Ideal) (mb3 m c) (A8 m c))) (ma3 m c) (ia m c)
    (A7 m c) (A5 m c) (A6 m c)

/-! After the tenth region: the readout. -/

include h8 in
theorem w25_v29 : W25 m ρ c (Proc.devRef .tc main_v29) = lastReadout m c :=
  (W25_arr m ρ c 8).trans ((RegionValue.region9 (V24 m ρ) c (A7 m c) (A6 m c) (w24_v2 m ρ c h) (w24_v3 m ρ c h) (w24_v4 m ρ c h)
    (w24_v28 m ρ c h)).trans (by
      show Stage.readout (F := Ideal) (W24 m ρ c (Proc.devRef .tc main_v27)) (W24 m ρ c (Proc.devRef .tc main_v20))
        (W24 m ρ c (Proc.devRef .tc main_v0)) (A7 m c) (W24 m ρ c (Proc.devRef .tc main_arg5)) (A6 m c) = _
      rw [w24_v27 m ρ c h8 h, w24_v20 m ρ c h, w24_v0 m ρ c h, w24_a5 m ρ c h]
      rfl))
theorem w25_a11 : W25 m ρ c (Proc.devRef .tc main_arg11) = A11 m c := (W25_of_ne m ρ c main_arg11 (by decide)).trans (w24_a11 m ρ c h)

/-! The pooling's nine stretches. -/

theorem w26_v30 : W26 m ρ c (Proc.devRef .tc main_v30) = (iotaInDim S5000 32 0 : IVec S5000 32) := stretch10_v30 (W25 m ρ c)
include h8 in
theorem w26_v29 : W26 m ρ c (Proc.devRef .tc main_v29) = lastReadout m c := (keep10 (W25 m ρ c) main_v29 (by decide)).trans (w25_v29 m ρ c h8 h)
theorem w26_a11 : W26 m ρ c (Proc.devRef .tc main_arg11) = A11 m c := (keep10 (W25 m ρ c) main_arg11 (by decide)).trans (w25_a11 m ρ c h)

theorem w27_v31 : W27 m ρ c (Proc.devRef .tc main_v31) = Mol.rolled (A11 m c) :=
  (stretch10_1_v31 (W26 m ρ c)).trans (by rw [w26_a11 m ρ c h])
theorem w27_v30 : W27 m ρ c (Proc.devRef .tc main_v30) = (iotaInDim S5000 32 0 : IVec S5000 32) := (keep10_1 (W26 m ρ c) main_v30 (by decide)).trans (w26_v30 m ρ c h)
include h8 in
theorem w27_v29 : W27 m ρ c (Proc.devRef .tc main_v29) = lastReadout m c := (keep10_1 (W26 m ρ c) main_v29 (by decide)).trans (w26_v29 m ρ c h8 h)
theorem w27_a11 : W27 m ρ c (Proc.devRef .tc main_arg11) = A11 m c := (keep10_1 (W26 m ρ c) main_arg11 (by decide)).trans (w26_a11 m ρ c h)

theorem w28_v33 : W28 m ρ c (Proc.devRef .tc main_v33) = Mol.firstZero (Mol.rolled (A11 m c)) :=
  (stretch10_2_v33 (W27 m ρ c)).trans (by rw [w27_v31 m ρ c h])
theorem w28_v30 : W28 m ρ c (Proc.devRef .tc main_v30) = (iotaInDim S5000 32 0 : IVec S5000 32) := (keep10_2 (W27 m ρ c) main_v30 (by decide)).trans (w27_v30 m ρ c h)
include h8 in
theorem w28_v29 : W28 m ρ c (Proc.devRef .tc main_v29) = lastReadout m c := (keep10_2 (W27 m ρ c) main_v29 (by decide)).trans (w27_v29 m ρ c h8 h)
theorem w28_a11 : W28 m ρ c (Proc.devRef .tc main_arg11) = A11 m c := (keep10_2 (W27 m ρ c) main_arg11 (by decide)).trans (w27_a11 m ρ c h)

theorem w29_v34 : W29 m ρ c (Proc.devRef .tc main_v34) = Mol.starts (Mol.firstZero (Mol.rolled (A11 m c))) :=
  (stretch10_3_v34 (W28 m ρ c)).trans (by rw [w28_v33 m ρ c h])
theorem w29_v30 : W29 m ρ c (Proc.devRef .tc main_v30) = (iotaInDim S5000 32 0 : IVec S5000 32) := (keep10_3 (W28 m ρ c) main_v30 (by decide)).trans (w28_v30 m ρ c h)
include h8 in
theorem w29_v29 : W29 m ρ c (Proc.devRef .tc main_v29) = lastReadout m c := (keep10_3 (W28 m ρ c) main_v29 (by decide)).trans (w28_v29 m ρ c h8 h)
theorem w29_a11 : W29 m ρ c (Proc.devRef .tc main_arg11) = A11 m c := (keep10_3 (W28 m ρ c) main_arg11 (by decide)).trans (w28_a11 m ρ c h)

theorem w30_v43 : W30 m ρ c (Proc.devRef .tc main_v43) = Mol.marks (Mol.starts (Mol.firstZero (Mol.rolled (A11 m c)))) :=
  (stretch10_4_v43 (W29 m ρ c)).trans (by rw [w29_v34 m ρ c h])
theorem w30_v30 : W30 m ρ c (Proc.devRef .tc main_v30) = (iotaInDim S5000 32 0 : IVec S5000 32) := (keep10_4 (W29 m ρ c) main_v30 (by decide)).trans (w29_v30 m ρ c h)
include h8 in
theorem w30_v29 : W30 m ρ c (Proc.devRef .tc main_v29) = lastReadout m c := (keep10_4 (W29 m ρ c) main_v29 (by decide)).trans (w29_v29 m ρ c h8 h)
theorem w30_a11 : W30 m ρ c (Proc.devRef .tc main_arg11) = A11 m c := (keep10_4 (W29 m ρ c) main_arg11 (by decide)).trans (w29_a11 m ρ c h)

theorem w31_v44 : W31 m ρ c (Proc.devRef .tc main_v44)
    = Mol.counted (Mol.marks (Mol.starts (Mol.firstZero (Mol.rolled (A11 m c))))) :=
  (stretch10_5_v44 (W30 m ρ c)).trans (by rw [w30_v43 m ρ c h])
theorem w31_v30 : W31 m ρ c (Proc.devRef .tc main_v30) = (iotaInDim S5000 32 0 : IVec S5000 32) := (keep10_5 (W30 m ρ c) main_v30 (by decide)).trans (w30_v30 m ρ c h)
include h8 in
theorem w31_v29 : W31 m ρ c (Proc.devRef .tc main_v29) = lastReadout m c := (keep10_5 (W30 m ρ c) main_v29 (by decide)).trans (w30_v29 m ρ c h8 h)
theorem w31_a11 : W31 m ρ c (Proc.devRef .tc main_arg11) = A11 m c := (keep10_5 (W30 m ρ c) main_arg11 (by decide)).trans (w30_a11 m ρ c h)

theorem w32_v46 : W32 m ρ c (Proc.devRef .tc main_v46)
    = Mol.pos (Mol.counted (Mol.marks (Mol.starts (Mol.firstZero (Mol.rolled (A11 m c)))))) :=
  (stretch10_6_v46 (W31 m ρ c)).trans (by rw [w31_v44 m ρ c h])
theorem w32_v30 : W32 m ρ c (Proc.devRef .tc main_v30) = (iotaInDim S5000 32 0 : IVec S5000 32) := (keep10_6 (W31 m ρ c) main_v30 (by decide)).trans (w31_v30 m ρ c h)
include h8 in
theorem w32_v29 : W32 m ρ c (Proc.devRef .tc main_v29) = lastReadout m c := (keep10_6 (W31 m ρ c) main_v29 (by decide)).trans (w31_v29 m ρ c h8 h)
theorem w32_a11 : W32 m ρ c (Proc.devRef .tc main_arg11) = A11 m c := (keep10_6 (W31 m ρ c) main_arg11 (by decide)).trans (w31_a11 m ρ c h)

theorem w33_v47 : W33 m ρ c (Proc.devRef .tc main_v47) = Mol.ids (A11 m c) :=
  (stretch10_7_v47 (W32 m ρ c)).trans (by rw [w32_v30 m ρ c h, w32_v46 m ρ c h]; rfl)
include h8 in
theorem w33_v29 : W33 m ρ c (Proc.devRef .tc main_v29) = lastReadout m c := (keep10_7 (W32 m ρ c) main_v29 (by decide)).trans (w32_v29 m ρ c h8 h)
theorem w33_a11 : W33 m ρ c (Proc.devRef .tc main_arg11) = A11 m c := (keep10_7 (W32 m ρ c) main_arg11 (by decide)).trans (w32_a11 m ρ c h)

include h8 in
theorem w34_v54 : W34 m ρ c (Proc.devRef .tc main_v54) = HostFn.pool (F := Ideal) (lastReadout m c) (A11 m c) :=
  (stretch10_8_v54 (W33 m ρ c)).trans (by
    rw [w33_v29 m ρ c h8 h, w33_v47 m ρ c h, w33_a11 m ρ c h]
    exact pool_split _ _)

end Chain

/-- From the eighth region's exit to the return: the result buffer holds the encoder of the launch arguments. -/
theorem result_eq (h8 : Cert.InRows 200000 (A8 m c)) (h : AfterRound3 m ρ c) :
    W34 m ρ c (Proc.devRef .tc main_v54)
      = Stage.encode (F := Ideal) (A0 m c) (A1 m c) (A2 m c) (A3 m c) (A4 m c) (A5 m c) (A6 m c) (A7 m c) (A8 m c) (A9 m c) (A10 m c) (A11 m c) :=
  (w34_v54 m ρ c h8 h).trans ((HostFn.pool_eq _ _).trans (encode_eq m c).symm)

end Cert.KernelIdeal.Thread

end
-- ==== Proof.lean ====
/-
  The certificate of the message-passing encoder: the kernel program (ten regions among host operations) against its
  jnp reference, over the extended reals, under the precondition that the float inputs are finite and the three index
  arrays are row numbers of the tables they index.

  The three frames: the two kernel programs' are the generated frame certificates; the reference's is its run as a
  straight line of host operations, the arguments read back unchanged.
  The value claim: both programs end with the result buffer at `Stage.encode` of the arguments — three rounds of
  "atoms' messages += (Σ · max) over the six incoming bonds' messages; bonds' messages = relu (embedded bond +
  (source atom's message − reverse bond's message) · W)", the last aggregate, the readout
  relu (([aggregate | atoms' messages | embedded atoms] · W_lr) · W_o + b_o) and the per-molecule mean.
  For the reference that is its run read back stage by stage. For the kernel program each region's output array is the
  same stage function of the region's input arrays (the blocks a grid point writes are the blocks of one whole-array
  function, and they cover the array), the host operations between regions are the reference's own once every index is
  a row number (`jnp.take`'s fill for an outside index is then never selected), and the readout's three products with
  the row blocks of W_lr sum to the one product of the concatenation with W_lr (a sum over 768 terms split in three,
  which needs only that + is commutative and associative).
-/
import proofs.«413102_j68977174774322_1_alg».proof.Defs
import proofs.«413102_j68977174774322_1_alg».proof.Proof.Gen.Kernel
import proofs.«413102_j68977174774322_1_alg».proof.Proof.Gen.Kernel.Skeleton
import proofs.«413102_j68977174774322_1_alg».proof.Proof.Gen.Kernel.Launch
import proofs.«413102_j68977174774322_1_alg».proof.Proof.Gen.Kernel.Points
import proofs.«413102_j68977174774322_1_alg».proof.Proof.Gen.Kernel.Frame
import proofs.«413102_j68977174774322_1_alg».proof.Proof.Gen.KernelIdeal
import proofs.«413102_j68977174774322_1_alg».proof.Proof.Gen.KernelIdeal.Skeleton
import proofs.«413102_j68977174774322_1_alg».proof.Proof.Gen.KernelIdeal.Launch
import proofs.«413102_j68977174774322_1_alg».proof.Proof.Gen.KernelIdeal.Points
import proofs.«413102_j68977174774322_1_alg».proof.Proof.Gen.KernelIdeal.Frame
import proofs.«413102_j68977174774322_1_alg».proof.Proof.Gen.ReferenceIdeal
import proofs.«413102_j68977174774322_1_alg».proof.Proof.Gen.Pre_finite_inputs
import proofs.«413102_j68977174774322_1_alg».proof.Proof.KRun
import proofs.«413102_j68977174774322_1_alg».proof.Proof.RefRun
import proofs.«413102_j68977174774322_1_alg».proof.Proof.PreDecode
import proofs.«413102_j68977174774322_1_alg».proof.Proof.ThreadA
import proofs.«413102_j68977174774322_1_alg».proof.Proof.ThreadB
import proofs.«413102_j68977174774322_1_alg».proof.Proof.ThreadC
import Idealize.ShloMosaic.Adequacy
import Idealize.ShloMosaic.Init

set_option maxRecDepth 16384

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run as a straight line, each argument read back through the operations (none writes one). -/
theorem frame_ri : Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono
      (fun r h c =>
        have ha := Cert.ReferenceIdeal.HostLine.arg_eq (F := Ideal) (StableHlo.launchContents m c)
        ⟨(h c Cert.ReferenceIdeal.main_arg0).trans ha.1,
         (h c Cert.ReferenceIdeal.main_arg1).trans ha.2.1,
         (h c Cert.ReferenceIdeal.main_arg2).trans ha.2.2.1,
         (h c Cert.ReferenceIdeal.main_arg3).trans ha.2.2.2.1,
         (h c Cert.ReferenceIdeal.main_arg4).trans ha.2.2.2.2.1,
         (h c Cert.ReferenceIdeal.main_arg5).trans ha.2.2.2.2.2.1,
         (h c Cert.ReferenceIdeal.main_arg6).trans ha.2.2.2.2.2.2.1,
         (h c Cert.ReferenceIdeal.main_arg7).trans ha.2.2.2.2.2.2.2.1,
         (h c Cert.ReferenceIdeal.main_arg8).trans ha.2.2.2.2.2.2.2.2.1,
         (h c Cert.ReferenceIdeal.main_arg9).trans ha.2.2.2.2.2.2.2.2.2.1,
         (h c Cert.ReferenceIdeal.main_arg10).trans ha.2.2.2.2.2.2.2.2.2.2.1,
         (h c Cert.ReferenceIdeal.main_arg11).trans ha.2.2.2.2.2.2.2.2.2.2.2⟩)
      (Cert.ReferenceIdeal.HostLine.run_main (F := Ideal) m ρ)

/-- Both programs end with the result buffer at the encoder of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.ReferenceIdeal.Stage.encode (F := Ideal)
    (Cert.KernelIdeal.Thread.A0 m c) (Cert.KernelIdeal.Thread.A1 m c) (Cert.KernelIdeal.Thread.A2 m c) (Cert.KernelIdeal.Thread.A3 m c) (Cert.KernelIdeal.Thread.A4 m c) (Cert.KernelIdeal.Thread.A5 m c) (Cert.KernelIdeal.Thread.A6 m c) (Cert.KernelIdeal.Thread.A7 m c) (Cert.KernelIdeal.Thread.A8 m c) (Cert.KernelIdeal.Thread.A9 m c) (Cert.KernelIdeal.Thread.A10 m c) (Cert.KernelIdeal.Thread.A11 m c), ?_, ?_⟩
  · refine (θ_run Cert.KernelIdeal.defs _ _).mono (fun r h c => ?_) (Cert.KernelIdeal.GenRun.run_main (F := Ideal) m ρ)
    obtain ⟨h8, h9, h10⟩ := Cert.PreRead.ranges_of_pre m hpre c
    have hA := Cert.KernelIdeal.Thread.afterRound1 m ρ c h8 h9 h10
    have hB := Cert.KernelIdeal.Thread.afterRound3 m ρ c h8 h9 h10 hA
    exact ⟨(h c).1.trans (Cert.KernelIdeal.Thread.result_eq m ρ c h8 hB), (h c).2⟩
  · refine (θ_run Cert.ReferenceIdeal.defs _ _).mono (fun r h c => ?_) (Cert.ReferenceIdeal.HostLine.run_main (F := Ideal) m' ρ')
    have ha := Cert.ReferenceIdeal.HostLine.arg_eq (F := Ideal) (StableHlo.launchContents m' c)
    obtain ⟨e0, e1, e2, e3, e4, e5, e6, e7, e8, e9, e10, e11⟩ := hagree c
    refine ⟨?_, (h c Cert.ReferenceIdeal.main_arg0).trans ha.1,
      (h c Cert.ReferenceIdeal.main_arg1).trans ha.2.1,
      (h c Cert.ReferenceIdeal.main_arg2).trans ha.2.2.1,
      (h c Cert.ReferenceIdeal.main_arg3).trans ha.2.2.2.1,
      (h c Cert.ReferenceIdeal.main_arg4).trans ha.2.2.2.2.1,
      (h c Cert.ReferenceIdeal.main_arg5).trans ha.2.2.2.2.2.1,
      (h c Cert.ReferenceIdeal.main_arg6).trans ha.2.2.2.2.2.2.1,
      (h c Cert.ReferenceIdeal.main_arg7).trans ha.2.2.2.2.2.2.2.1,
      (h c Cert.ReferenceIdeal.main_arg8).trans ha.2.2.2.2.2.2.2.2.1,
      (h c Cert.ReferenceIdeal.main_arg9).trans ha.2.2.2.2.2.2.2.2.2.1,
      (h c Cert.ReferenceIdeal.main_arg10).trans ha.2.2.2.2.2.2.2.2.2.2.1,
      (h c Cert.ReferenceIdeal.main_arg11).trans ha.2.2.2.2.2.2.2.2.2.2.2⟩
    refine (h c Cert.ReferenceIdeal.main_v138).trans ((Cert.ReferenceIdeal.HostLine.out_eq (F := Ideal) (StableHlo.launchContents m' c)).trans ?_)
    show Cert.ReferenceIdeal.Stage.encode (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11)) = _
    rw [e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
